-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32 : Shape := ⟨2, ![8192, 32]⟩
abbrev S32x1000x64 : Shape := ⟨3, ![32, 1000, 64]⟩
abbrev S2544x1024 : Shape := ⟨2, ![2544, 1024]⟩
abbrev S1024 : Shape := ⟨1, ![1024]⟩
abbrev S1024x512 : Shape := ⟨2, ![1024, 512]⟩
abbrev S512 : Shape := ⟨1, ![512]⟩
abbrev S512x1000 : Shape := ⟨2, ![512, 1000]⟩
abbrev S1000 : Shape := ⟨1, ![1000]⟩
abbrev S_ : Shape := ⟨0, ![]⟩

class Facts : Prop where
  bcast_S_S32x1000x64 : S_.BroadcastsInDim S32x1000x64 (![] : Fin 0 → Fin S32x1000x64.rank)
  reducesTo_S32x1000x64_S_d0_1_2 : S32x1000x64.ReducesTo [0, 1, 2] S_
  h_S_ : 0 < S_.numel
  bcast_S_S2544x1024 : S_.BroadcastsInDim S2544x1024 (![] : Fin 0 → Fin S2544x1024.rank)
  reducesTo_S2544x1024_S_d0_1 : S2544x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1000 : S_.BroadcastsInDim S512x1000 (![] : Fin 0 → Fin S512x1000.rank)
  reducesTo_S512x1000_S_d0_1 : S512x1000.ReducesTo [0, 1] S_
  bcast_S_S1000 : S_.BroadcastsInDim S1000 (![] : Fin 0 → Fin S1000.rank)
  reducesTo_S1000_S_d0 : S1000.ReducesTo [0] S_
  bcast_S_S8192x32 : S_.BroadcastsInDim S8192x32 (![] : Fin 0 → Fin S8192x32.rank)
  reducesTo_S8192x32_S_d0_1 : S8192x32.ReducesTo [0, 1] S_

variable [Facts]

def fn_part2 {F : FTy → Type} [FloatOps F] (main_arg0 : IVec S8192x32 32) (main_v33 : IVec S_ 1) : IVec S_ 1 :=
  let main_c_12 : IVec S_ 32 := constantI S_ 32 0#32
  let main_v34 : IVec S8192x32 32 := broadcastInDim S8192x32 ![] bcast_S_S8192x32 main_c_12
  let main_v35 : IVec S8192x32 1 := cmpi .sge main_arg0 main_v34
  let main_c_13 : IVec S_ 32 := constantI S_ 32 1000#32
  let main_v36 : IVec S8192x32 32 := broadcastInDim S8192x32 ![] bcast_S_S8192x32 main_c_13
  let main_v37 : IVec S8192x32 1 := cmpi .slt main_arg0 main_v36
  let main_v38 : IVec S8192x32 1 := andi main_v35 main_v37
  let main_c_14 : IVec S_ 1 := constantI S_ 1 1#1
  let main_v39 : IVec S_ 1 := (fun x v => Host.reduce IntOp.andi x v reducesTo_S8192x32_S_d0_1 h_S_) main_v38 main_c_14
  let main_v40 : IVec S_ 1 := andi main_v33 main_v39
  main_v40

def fn_part1 {F : FTy → Type} [FloatOps F] (main_arg0 : IVec S8192x32 32) (main_arg5 : FVec F S512 .f32) (main_arg6 : FVec F S512x1000 .f32) (main_arg7 : FVec F S1000 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1000 .f32 := Host.absf main_arg6
  let main_cst_8 : FVec F S_ .f32 := constant S_ .f32 0x7F800000#32
  let main_v25 : FVec F S512x1000 .f32 := broadcastInDim S512x1000 ![] bcast_S_S512x1000 main_cst_8
  let main_v26 : IVec S512x1000 1 := cmpf .olt main_v24 main_v25
  let main_c_9 : IVec S_ 1 := constantI S_ 1 1#1
  let main_v27 : IVec S_ 1 := (fun x v => Host.reduce IntOp.andi x v reducesTo_S512x1000_S_d0_1 h_S_) main_v26 main_c_9
  let main_v28 : IVec S_ 1 := andi main_v23 main_v27
  let main_v29 : FVec F S1000 .f32 := Host.absf main_arg7
  let main_cst_10 : FVec F S_ .f32 := constant S_ .f32 0x7F800000#32
  let main_v30 : FVec F S1000 .f32 := broadcastInDim S1000 ![] bcast_S_S1000 main_cst_10
  let main_v31 : IVec S1000 1 := cmpf .olt main_v29 main_v30
  let main_c_11 : IVec S_ 1 := constantI S_ 1 1#1
  let main_v32 : IVec S_ 1 := (fun x v => Host.reduce IntOp.andi x v reducesTo_S1000_S_d0 h_S_) main_v31 main_c_11
  let main_v33 : IVec S_ 1 := andi main_v28 main_v32
  fn_part2 (F := F) main_arg0 main_v33

def fn {F : FTy → Type} [FloatOps F] (main_arg0 : IVec S8192x32 32) (main_arg1 : FVec F S32x1000x64 .f32) (main_arg2 : FVec F S2544x1024 .f32) (main_arg3 : FVec F S1024 .f32) (main_arg4 : FVec F S1024x512 .f32) (main_arg5 : FVec F S512 .f32) (main_arg6 : FVec F S512x1000 .f32) (main_arg7 : FVec F S1000 .f32) : IVec S_ 1 :=
  let main_v0 : FVec F S32x1000x64 .f32 := Host.absf main_arg1
  let main_cst : FVec F S_ .f32 := constant S_ .f32 0x7F800000#32
  let main_v1 : FVec F S32x1000x64 .f32 := broadcastInDim S32x1000x64 ![] bcast_S_S32x1000x64 main_cst
  let main_v2 : IVec S32x1000x64 1 := cmpf .olt main_v0 main_v1
  let main_c : IVec S_ 1 := constantI S_ 1 1#1
  let main_v3 : IVec S_ 1 := (fun x v => Host.reduce IntOp.andi x v reducesTo_S32x1000x64_S_d0_1_2 h_S_) main_v2 main_c
  let main_v4 : FVec F S2544x1024 .f32 := Host.absf main_arg2
  let main_cst_0 : FVec F S_ .f32 := constant S_ .f32 0x7F800000#32
  let main_v5 : FVec F S2544x1024 .f32 := broadcastInDim S2544x1024 ![] bcast_S_S2544x1024 main_cst_0
  let main_v6 : IVec S2544x1024 1 := cmpf .olt main_v4 main_v5
  let main_c_1 : IVec S_ 1 := constantI S_ 1 1#1
  let main_v7 : IVec S_ 1 := (fun x v => Host.reduce IntOp.andi x v reducesTo_S2544x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x512 .f32 := Host.absf main_arg4
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg0 main_arg5 main_arg6 main_arg7 main_v13 main_v16
-- ==== Kernel.lean ====
abbrev S8192x32 : Shape := ⟨2, ![8192, 32]⟩
abbrev S32x1000x64 : Shape := ⟨3, ![32, 1000, 64]⟩
abbrev S2544x1024 : Shape := ⟨2, ![2544, 1024]⟩
abbrev S1024 : Shape := ⟨1, ![1024]⟩
abbrev S1024x512 : Shape := ⟨2, ![1024, 512]⟩
abbrev S512 : Shape := ⟨1, ![512]⟩
abbrev S512x1000 : Shape := ⟨2, ![512, 1000]⟩
abbrev S1000 : Shape := ⟨1, ![1000]⟩
abbrev S1x1024 : Shape := ⟨2, ![1, 1024]⟩
abbrev S1x512 : Shape := ⟨2, ![1, 512]⟩
abbrev S1x1000 : Shape := ⟨2, ![1, 1000]⟩
abbrev S8192x1000 : Shape := ⟨2, ![8192, 1000]⟩
abbrev S256x32 : Shape := ⟨2, ![256, 32]⟩
abbrev S256x1000 : Shape := ⟨2, ![256, 1000]⟩
abbrev S256x1 : Shape := ⟨2, ![256, 1]⟩
abbrev S1x1000x64 : Shape := ⟨3, ![1, 1000, 64]⟩
abbrev S1000x64 : Shape := ⟨2, ![1000, 64]⟩
abbrev S256x64 : Shape := ⟨2, ![256, 64]⟩
abbrev S256x2048 : Shape := ⟨2, ![256, 2048]⟩
abbrev S256x1x64 : Shape := ⟨3, ![256, 1, 64]⟩
abbrev S256x32x64 : Shape := ⟨3, ![256, 32, 64]⟩
abbrev S256x31x64 : Shape := ⟨3, ![256, 31, 64]⟩
abbrev S256x31 : Shape := ⟨2, ![256, 31]⟩
abbrev S256x30x64 : Shape := ⟨3, ![256, 30, 64]⟩
abbrev S256x30 : Shape := ⟨2, ![256, 30]⟩
abbrev S256x29x64 : Shape := ⟨3, ![256, 29, 64]⟩
abbrev S256x29 : Shape := ⟨2, ![256, 29]⟩
abbrev S256x28x64 : Shape := ⟨3, ![256, 28, 64]⟩
abbrev S256x28 : Shape := ⟨2, ![256, 28]⟩
abbrev S256x27x64 : Shape := ⟨3, ![256, 27, 64]⟩
abbrev S256x27 : Shape := ⟨2, ![256, 27]⟩
abbrev S256x26x64 : Shape := ⟨3, ![256, 26, 64]⟩
abbrev S256x26 : Shape := ⟨2, ![256, 26]⟩
abbrev S256x25x64 : Shape := ⟨3, ![256, 25, 64]⟩
abbrev S256x25 : Shape := ⟨2, ![256, 25]⟩
abbrev S256x24x64 : Shape := ⟨3, ![256, 24, 64]⟩
abbrev S256x24 : Shape := ⟨2, ![256, 24]⟩
abbrev S256x23x64 : Shape := ⟨3, ![256, 23, 64]⟩
abbrev S256x23 : Shape := ⟨2, ![256, 23]⟩
abbrev S256x22x64 : Shape := ⟨3, ![256, 22, 64]⟩
abbrev S256x22 : Shape := ⟨2, ![256, 22]⟩
abbrev S256x21x64 : Shape := ⟨3, ![256, 21, 64]⟩
abbrev S256x21 : Shape := ⟨2, ![256, 21]⟩
abbrev S256x20x64 : Shape := ⟨3, ![256, 20, 64]⟩
abbrev S256x20 : Shape := ⟨2, ![256, 20]⟩
abbrev S256x19x64 : Shape := ⟨3, ![256, 19, 64]⟩
abbrev S256x19 : Shape := ⟨2, ![256, 19]⟩
abbrev S256x18x64 : Shape := ⟨3, ![256, 18, 64]⟩
abbrev S256x18 : Shape := ⟨2, ![256, 18]⟩
abbrev S256x17x64 : Shape := ⟨3, ![256, 17, 64]⟩
abbrev S256x17 : Shape := ⟨2, ![256, 17]⟩
abbrev S256x16x64 : Shape := ⟨3, ![256, 16, 64]⟩
abbrev S256x16 : Shape := ⟨2, ![256, 16]⟩
abbrev S256x15x64 : Shape := ⟨3, ![256, 15, 64]⟩
abbrev S256x15 : Shape := ⟨2, ![256, 15]⟩
abbrev S256x14x64 : Shape := ⟨3, ![256, 14, 64]⟩
abbrev S256x14 : Shape := ⟨2, ![256, 14]⟩
abbrev S256x13x64 : Shape := ⟨3, ![256, 13, 64]⟩
abbrev S256x13 : Shape := ⟨2, ![256, 13]⟩
abbrev S256x12x64 : Shape := ⟨3, ![256, 12, 64]⟩
abbrev S256x12 : Shape := ⟨2, ![256, 12]⟩
abbrev S256x11x64 : Shape := ⟨3, ![256, 11, 64]⟩
abbrev S256x11 : Shape := ⟨2, ![256, 11]⟩
abbrev S256x10x64 : Shape := ⟨3, ![256, 10, 64]⟩
abbrev S256x10 : Shape := ⟨2, ![256, 10]⟩
abbrev S256x9x64 : Shape := ⟨3, ![256, 9, 64]⟩
abbrev S256x9 : Shape := ⟨2, ![256, 9]⟩
abbrev S256x8x64 : Shape := ⟨3, ![256, 8, 64]⟩
abbrev S256x8 : Shape := ⟨2, ![256, 8]⟩
abbrev S256x7x64 : Shape := ⟨3, ![256, 7, 64]⟩
abbrev S256x7 : Shape := ⟨2, ![256, 7]⟩
abbrev S256x6x64 : Shape := ⟨3, ![256, 6, 64]⟩
abbrev S256x6 : Shape := ⟨2, ![256, 6]⟩
abbrev S256x5x64 : Shape := ⟨3, ![256, 5, 64]⟩
abbrev S256x5 : Shape := ⟨2, ![256, 5]⟩
abbrev S256x4x64 : Shape := ⟨3, ![256, 4, 64]⟩
abbrev S256x4 : Shape := ⟨2, ![256, 4]⟩
abbrev S256x3x64 : Shape := ⟨3, ![256, 3, 64]⟩
abbrev S256x3 : Shape := ⟨2, ![256, 3]⟩
abbrev S256x2x64 : Shape := ⟨3, ![256, 2, 64]⟩
abbrev S256x2 : Shape := ⟨2, ![256, 2]⟩
abbrev S256x496 : Shape := ⟨2, ![256, 496]⟩
abbrev S256x2544 : Shape := ⟨2, ![256, 2544]⟩
abbrev S256x1024 : Shape := ⟨2, ![256, 1024]⟩
abbrev S256x512 : Shape := ⟨2, ![256, 512]⟩

abbrev nBuf : Space → Nat
  | .hbm => 16
  | .vmem => 11
  | .smem => 0
  | _ => 0

abbrev bufTy : (tb : Table) → Fin (tcTables nBuf tb) → BufTy
  | .hbm, ⟨0, _⟩ => ⟨S8192x32, .i32⟩
  | .hbm, ⟨1, _⟩ => ⟨S32x1000x64, .f32⟩
  | .hbm, ⟨2, _⟩ => ⟨S2544x1024, .f32⟩
  | .hbm, ⟨3, _⟩ => ⟨S1024, .f32⟩
  | .hbm, ⟨4, _⟩ => ⟨S1024x512, .f32⟩
  | .hbm, ⟨5, _⟩ => ⟨S512, .f32⟩
  | .hbm, ⟨6, _⟩ => ⟨S512x1000, .f32⟩
  | .hbm, ⟨7, _⟩ => ⟨S1000, .f32⟩
  | .hbm, ⟨8, _⟩ => ⟨S32x1000x64, .bf16⟩
  | .hbm, ⟨9, _⟩ => ⟨S2544x1024, .bf16⟩
  | .hbm, ⟨10, _⟩ => ⟨S1024x512, .bf16⟩
  | .hbm, ⟨11, _⟩ => ⟨S512x1000, .bf16⟩
  | .hbm, ⟨12, _⟩ => ⟨S1x1024, .f32⟩
  | .hbm, ⟨13, _⟩ => ⟨S1x512, .f32⟩
  | .hbm, ⟨14, _⟩ => ⟨S1x1000, .f32⟩
  | .hbm, ⟨15, _⟩ => ⟨S8192x1000, .f32⟩
  | .local _ .vmem, ⟨0, _⟩ => ⟨S256x32, .i32⟩
  | .local _ .vmem, ⟨1, _⟩ => ⟨S256x32, .i32⟩
  | .local _ .vmem, ⟨2, _⟩ => ⟨S32x1000x64, .bf16⟩
  | .local _ .vmem, ⟨3, _⟩ => ⟨S2544x1024, .bf16⟩
  | .local _ .vmem, ⟨4, _⟩ => ⟨S1x1024, .f32⟩
  | .local _ .vmem, ⟨5, _⟩ => ⟨S1024x512, .bf16⟩
  | .local _ .vmem, ⟨6, _⟩ => ⟨S1x512, .f32⟩
  | .local _ .vmem, ⟨7, _⟩ => ⟨S512x1000, .bf16⟩
  | .local _ .vmem, ⟨8, _⟩ => ⟨S1x1000, .f32⟩
  | .local _ .vmem, ⟨9, _⟩ => ⟨S256x1000, .f32⟩
  | .local _ .vmem, ⟨10, _⟩ => ⟨S256x1000, .f32⟩
  | _, _ => ⟨S8192x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1000x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2544x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1000 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1000 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  shapeCasts_S1024_S1x1024 : S1024.ShapeCasts S1x1024
  shapeCasts_S512_S1x512 : S512.ShapeCasts S1x512
  shapeCasts_S1000_S1x1000 : S1000.ShapeCasts S1x1000
  iota_S1x1000_d1_w32 : S1x1000.Iotas .tc 32 [1]
  inb_S256x32_S256x1_0_0 : ∀ a, (![0, 0] : Fin 2 → Nat) a + S256x1.size a ≤ S256x32.size a
  h_S256x1 : 0 < S256x1.numel
  broadcasts_S256x1_S256x1000 : S256x1.Broadcasts S256x1000
  broadcasts_S1x1000_S256x1000 : S1x1000.Broadcasts S256x1000
  natLt_1_32 : 1 < 32
  inb_S32x1000x64_S1x1000x64_0_0_0 : ∀ a, (![0, 0, 0] : Fin 3 → Nat) a + S1x1000x64.size a ≤ S32x1000x64.size a
  h_S1x1000x64 : 0 < S1x1000x64.numel
  shapeCasts_S1x1000x64_S1000x64 : S1x1000x64.ShapeCasts S1000x64
  inb_S256x32_S256x1_0_1 : ∀ a, (![0, 1] : Fin 2 → Nat) a + S256x1.size a ≤ S256x32.size a
  inb_S32x1000x64_S1x1000x64_1_0_0 : ∀ a, (![1, 0, 0] : Fin 3 → Nat) a + S1x1000x64.size a ≤ S32x1000x64.size a
  inb_S256x32_S256x1_0_2 : ∀ a, (![0, 2] : Fin 2 → Nat) a + S256x1.size a ≤ S256x32.size a
  inb_S32x1000x64_S1x1000x64_2_0_0 : ∀ a, (![2, 0, 0] : Fin 3 → Nat) a + S1x1000x64.size a ≤ S32x1000x64.size a
  inb_S256x32_S256x1_0_3 : ∀ a, (![0, 3] : Fin 2 → Nat) a + S256x1.size a ≤ S256x32.size a
  inb_S32x1000x64_S1x1000x64_3_0_0 : ∀ a, (![3, 0, 0] : Fin 3 → Nat) a + S1x1000x64.size a ≤ S32x1000x64.size a
  inb_S256x32_S256x1_0_4 : ∀ a, (![0, 4] : Fin 2 → Nat) a + S256x1.size a ≤ S256x32.size a
  inb_S32x1000x64_S1x1000x64_4_0_0 : ∀ a, (![4, 0, 0] : Fin 3 → Nat) a + S1x1000x64.size a ≤ S32x1000x64.size a
  inb_S256x32_S256x1_0_5 : ∀ a, (![0, 5] : Fin 2 → Nat) a + S256x1.size a ≤ S256x32.size a
  inb_S32x1000x64_S1x1000x64_5_0_0 : ∀ a, (![5, 0, 0] : Fin 3 → Nat) a + S1x1000x64.size a ≤ S32x1000x64.size a
  inb_S256x32_S256x1_0_6 : ∀ a, (![0, 6] : Fin 2 → Nat) a + S256x1.size a ≤ S256x32.size a
  inb_S32x1000x64_S1x1000x64_6_0_0 : ∀ a, (![6, 0, 0] : Fin 3 → Nat) a + S1x1000x64.size a ≤ S32x1000x64.size a
  inb_S256x32_S256x1_0_7 : ∀ a, (![0, 7] : Fin 2 → Nat) a + S256x1.size a ≤ S256x32.size a
  inb_S32x1000x64_S1x1000x64_7_0_0 : ∀ a, (![7, 0, 0] : Fin 3 → Nat) a + S1x1000x64.size a ≤ S32x1000x64.size a
  inb_S256x32_S256x1_0_8 : ∀ a, (![0, 8] : Fin 2 → Nat) a + S256x1.size a ≤ S256x32.size a
  inb_S32x1000x64_S1x1000x64_8_0_0 : ∀ a, (![8, 0, 0] : Fin 3 → Nat) a + S1x1000x64.size a ≤ S32x1000x64.size a
  inb_S256x32_S256x1_0_9 : ∀ a, (![0, 9] : Fin 2 → Nat) a + S256x1.size a ≤ S256x32.size a
  inb_S32x1000x64_S1x1000x64_9_0_0 : ∀ a, (![9, 0, 0] : Fin 3 → Nat) a + S1x1000x64.size a ≤ S32x1000x64.size a
  inb_S256x32_S256x1_0_10 : ∀ a, (![0, 10] : Fin 2 → Nat) a + S256x1.size a ≤ S256x32.size a
  inb_S32x1000x64_S1x1000x64_10_0_0 : ∀ a, (![10, 0, 0] : Fin 3 → Nat) a + S1x1000x64.size a ≤ S32x1000x64.size a
  inb_S256x32_S256x1_0_11 : ∀ a, (![0, 11] : Fin 2 → Nat) a + S256x1.size a ≤ S256x32.size a
  inb_S32x1000x64_S1x1000x64_11_0_0 : ∀ a, (![11, 0, 0] : Fin 3 → Nat) a + S1x1000x64.size a ≤ S32x1000x64.size a
  inb_S256x32_S256x1_0_12 : ∀ a, (![0, 12] : Fin 2 → Nat) a + S256x1.size a ≤ S256x32.size a
  inb_S32x1000x64_S1x1000x64_12_0_0 : ∀ a, (![12, 0, 0] : Fin 3 → Nat) a + S1x1000x64.size a ≤ S32x1000x64.size a
  inb_S256x32_S256x1_0_13 : ∀ a, (![0, 13] : Fin 2 → Nat) a + S256x1.size a ≤ S256x32.size a
  inb_S32x1000x64_S1x1000x64_13_0_0 : ∀ a, (![13, 0, 0] : Fin 3 → Nat) a + S1x1000x64.size a ≤ S32x1000x64.size a
  inb_S256x32_S256x1_0_14 : ∀ a, (![0, 14] : Fin 2 → Nat) a + S256x1.size a ≤ S256x32.size a
  inb_S32x1000x64_S1x1000x64_14_0_0 : ∀ a, (![14, 0, 0] : Fin 3 → Nat) a + S1x1000x64.size a ≤ S32x1000x64.size a
  inb_S256x32_S256x1_0_15 : ∀ a, (![0, 15] : Fin 2 → Nat) a + S256x1.size a ≤ S256x32.size a
  inb_S32x1000x64_S1x1000x64_15_0_0 : ∀ a, (![15, 0, 0] : Fin 3 → Nat) a + S1x1000x64.size a ≤ S32x1000x64.size a
  inb_S256x32_S256x1_0_16 : ∀ a, (![0, 16] : Fin 2 → Nat) a + S256x1.size a ≤ S256x32.size a
  inb_S32x1000x64_S1x1000x64_16_0_0 : ∀ a, (![16, 0, 0] : Fin 3 → Nat) a + S1x1000x64.size a ≤ S32x1000x64.size a
  inb_S256x32_S256x1_0_17 : ∀ a, (![0, 17] : Fin 2 → Nat) a + S256x1.size a ≤ S256x32.size a
  inb_S32x1000x64_S1x1000x64_17_0_0 : ∀ a, (![17, 0, 0] : Fin 3 → Nat) a + S1x1000x64.size a ≤ S32x1000x64.size a
  inb_S256x32_S256x1_0_18 : ∀ a, (![0, 18] : Fin 2 → Nat) a + S256x1.size a ≤ S256x32.size a
  inb_S32x1000x64_S1x1000x64_18_0_0 : ∀ a, (![18, 0, 0] : Fin 3 → Nat) a + S1x1000x64.size a ≤ S32x1000x64.size a
  inb_S256x32_S256x1_0_19 : ∀ a, (![0, 19] : Fin 2 → Nat) a + S256x1.size a ≤ S256x32.size a
  inb_S32x1000x64_S1x1000x64_19_0_0 : ∀ a, (![19, 0, 0] : Fin 3 → Nat) a + S1x1000x64.size a ≤ S32x1000x64.size a
  inb_S256x32_S256x1_0_20 : ∀ a, (![0, 20] : Fin 2 → Nat) a + S256x1.size a ≤ S256x32.size a
  inb_S32x1000x64_S1x1000x64_20_0_0 : ∀ a, (![20, 0, 0] : Fin 3 → Nat) a + S1x1000x64.size a ≤ S32x1000x64.size a
  inb_S256x32_S256x1_0_21 : ∀ a, (![0, 21] : Fin 2 → Nat) a + S256x1.size a ≤ S256x32.size a
  inb_S32x1000x64_S1x1000x64_21_0_0 : ∀ a, (![21, 0, 0] : Fin 3 → Nat) a + S1x1000x64.size a ≤ S32x1000x64.size a
  inb_S256x32_S256x1_0_22 : ∀ a, (![0, 22] : Fin 2 → Nat) a + S256x1.size a ≤ S256x32.size a
  inb_S32x1000x64_S1x1000x64_22_0_0 : ∀ a, (![22, 0, 0] : Fin 3 → Nat) a + S1x1000x64.size a ≤ S32x1000x64.size a
  inb_S256x32_S256x1_0_23 : ∀ a, (![0, 23] : Fin 2 → Nat) a + S256x1.size a ≤ S256x32.size a
  inb_S32x1000x64_S1x1000x64_23_0_0 : ∀ a, (![23, 0, 0] : Fin 3 → Nat) a + S1x1000x64.size a ≤ S32x1000x64.size a
  inb_S256x32_S256x1_0_24 : ∀ a, (![0, 24] : Fin 2 → Nat) a + S256x1.size a ≤ S256x32.size a
  inb_S32x1000x64_S1x1000x64_24_0_0 : ∀ a, (![24, 0, 0] : Fin 3 → Nat) a + S1x1000x64.size a ≤ S32x1000x64.size a
  inb_S256x32_S256x1_0_25 : ∀ a, (![0, 25] : Fin 2 → Nat) a + S256x1.size a ≤ S256x32.size a
  inb_S32x1000x64_S1x1000x64_25_0_0 : ∀ a, (![25, 0, 0] : Fin 3 → Nat) a + S1x1000x64.size a ≤ S32x1000x64.size a
  inb_S256x32_S256x1_0_26 : ∀ a, (![0, 26] : Fin 2 → Nat) a + S256x1.size a ≤ S256x32.size a
  inb_S32x1000x64_S1x1000x64_26_0_0 : ∀ a, (![26, 0, 0] : Fin 3 → Nat) a + S1x1000x64.size a ≤ S32x1000x64.size a
  inb_S256x32_S256x1_0_27 : ∀ a, (![0, 27] : Fin 2 → Nat) a + S256x1.size a ≤ S256x32.size a
  inb_S32x1000x64_S1x1000x64_27_0_0 : ∀ a, (![27, 0, 0] : Fin 3 → Nat) a + S1x1000x64.size a ≤ S32x1000x64.size a
  inb_S256x32_S256x1_0_28 : ∀ a, (![0, 28] : Fin 2 → Nat) a + S256x1.size a ≤ S256x32.size a
  inb_S32x1000x64_S1x1000x64_28_0_0 : ∀ a, (![28, 0, 0] : Fin 3 → Nat) a + S1x1000x64.size a ≤ S32x1000x64.size a
  inb_S256x32_S256x1_0_29 : ∀ a, (![0, 29] : Fin 2 → Nat) a + S256x1.size a ≤ S256x32.size a
  inb_S32x1000x64_S1x1000x64_29_0_0 : ∀ a, (![29, 0, 0] : Fin 3 → Nat) a + S1x1000x64.size a ≤ S32x1000x64.size a
  inb_S256x32_S256x1_0_30 : ∀ a, (![0, 30] : Fin 2 → Nat) a + S256x1.size a ≤ S256x32.size a
  inb_S32x1000x64_S1x1000x64_30_0_0 : ∀ a, (![30, 0, 0] : Fin 3 → Nat) a + S1x1000x64.size a ≤ S32x1000x64.size a
  inb_S256x32_S256x1_0_31 : ∀ a, (![0, 31] : Fin 2 → Nat) a + S256x1.size a ≤ S256x32.size a
  inb_S32x1000x64_S1x1000x64_31_0_0 : ∀ a, (![31, 0, 0] : Fin 3 → Nat) a + S1x1000x64.size a ≤ S32x1000x64.size a
  concatenates_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x2048_d1 : Shape.Concatenates [S256x64, S256x64, S256x64, S256x64, S256x64, S256x64, S256x64, S256x64, S256x64, S256x64, S256x64, S256x64, S256x64, S256x64, S256x64, S256x64, S256x64, S256x64, S256x64, S256x64, S256x64, S256x64, S256x64, S256x64, S256x64, S256x64, S256x64, S256x64, S256x64, S256x64, S256x64, S256x64] S256x2048 1
  shapeCasts_S256x64_S256x1x64 : S256x64.ShapeCasts S256x1x64
  concatenates_S256x1x64_S256x1x64_S256x1x64_S256x1x64_S256x1x64_S256x1x64_S256x1x64_S256x1x64_S256x1x64_S256x1x64_S256x1x64_S256x1x64_S256x1x64_S256x1x64_S256x1x64_S256x1x64_S256x1x64_S256x1x64_S256x1x64_S256x1x64_S256x1x64_S256x1x64_S256x1x64_S256x1x64_S256x1x64_S256x1x64_S256x1x64_S256x1x64_S256x1x64_S256x1x64_S256x1x64_S256x1x64_S256x32x64_d1 : Shape.Concatenates [S256x1x64, S256x1x64, S256x1x64, S256x1x64, S256x1x64, S256x1x64, S256x1x64, S256x1x64, S256x1x64, S256x1x64, S256x1x64, S256x1x64, S256x1x64, S256x1x64, S256x1x64, S256x1x64, S256x1x64, S256x1x64, S256x1x64, S256x1x64, S256x1x64, S256x1x64, S256x1x64, S256x1x64, S256x1x64, S256x1x64, S256x1x64, S256x1x64, S256x1x64, S256x1x64, S256x1x64, S256x1x64] S256x32x64 1
  slices_S256x32x64_o0_0_0_S256x1x64 : S256x32x64.Slices ![0, 0, 0] S256x1x64
  slices_S256x32x64_o0_1_0_S256x31x64 : S256x32x64.Slices ![0, 1, 0] S256x31x64
  broadcasts_S256x1x64_S256x31x64 : S256x1x64.Broadcasts S256x31x64
  reduces_S256x31x64_S256x31 : S256x31x64.Reduces [2] S256x31
  slices_S256x32x64_o0_1_0_S256x1x64 : S256x32x64.Slices ![0, 1, 0] S256x1x64
  slices_S256x32x64_o0_2_0_S256x30x64 : S256x32x64.Slices ![0, 2, 0] S256x30x64
  broadcasts_S256x1x64_S256x30x64 : S256x1x64.Broadcasts S256x30x64
  reduces_S256x30x64_S256x30 : S256x30x64.Reduces [2] S256x30
  slices_S256x32x64_o0_2_0_S256x1x64 : S256x32x64.Slices ![0, 2, 0] S256x1x64
  slices_S256x32x64_o0_3_0_S256x29x64 : S256x32x64.Slices ![0, 3, 0] S256x29x64
  broadcasts_S256x1x64_S256x29x64 : S256x1x64.Broadcasts S256x29x64
  reduces_S256x29x64_S256x29 : S256x29x64.Reduces [2] S256x29
  slices_S256x32x64_o0_3_0_S256x1x64 : S256x32x64.Slices ![0, 3, 0] S256x1x64
  slices_S256x32x64_o0_4_0_S256x28x64 : S256x32x64.Slices ![0, 4, 0] S256x28x64
  broadcasts_S256x1x64_S256x28x64 : S256x1x64.Broadcasts S256x28x64
  reduces_S256x28x64_S256x28 : S256x28x64.Reduces [2] S256x28
  slices_S256x32x64_o0_4_0_S256x1x64 : S256x32x64.Slices ![0, 4, 0] S256x1x64
  slices_S256x32x64_o0_5_0_S256x27x64 : S256x32x64.Slices ![0, 5, 0] S256x27x64
  broadcasts_S256x1x64_S256x27x64 : S256x1x64.Broadcasts S256x27x64
  reduces_S256x27x64_S256x27 : S256x27x64.Reduces [2] S256x27
  slices_S256x32x64_o0_5_0_S256x1x64 : S256x32x64.Slices ![0, 5, 0] S256x1x64
  slices_S256x32x64_o0_6_0_S256x26x64 : S256x32x64.Slices ![0, 6, 0] S256x26x64
  broadcasts_S256x1x64_S256x26x64 : S256x1x64.Broadcasts S256x26x64
  reduces_S256x26x64_S256x26 : S256x26x64.Reduces [2] S256x26
  slices_S256x32x64_o0_6_0_S256x1x64 : S256x32x64.Slices ![0, 6, 0] S256x1x64
  slices_S256x32x64_o0_7_0_S256x25x64 : S256x32x64.Slices ![0, 7, 0] S256x25x64
  broadcasts_S256x1x64_S256x25x64 : S256x1x64.Broadcasts S256x25x64
  reduces_S256x25x64_S256x25 : S256x25x64.Reduces [2] S256x25
  slices_S256x32x64_o0_7_0_S256x1x64 : S256x32x64.Slices ![0, 7, 0] S256x1x64
  slices_S256x32x64_o0_8_0_S256x24x64 : S256x32x64.Slices ![0, 8, 0] S256x24x64
  broadcasts_S256x1x64_S256x24x64 : S256x1x64.Broadcasts S256x24x64
  reduces_S256x24x64_S256x24 : S256x24x64.Reduces [2] S256x24
  slices_S256x32x64_o0_8_0_S256x1x64 : S256x32x64.Slices ![0, 8, 0] S256x1x64
  slices_S256x32x64_o0_9_0_S256x23x64 : S256x32x64.Slices ![0, 9, 0] S256x23x64
  broadcasts_S256x1x64_S256x23x64 : S256x1x64.Broadcasts S256x23x64
  reduces_S256x23x64_S256x23 : S256x23x64.Reduces [2] S256x23
  slices_S256x32x64_o0_9_0_S256x1x64 : S256x32x64.Slices ![0, 9, 0] S256x1x64
  slices_S256x32x64_o0_10_0_S256x22x64 : S256x32x64.Slices ![0, 10, 0] S256x22x64
  broadcasts_S256x1x64_S256x22x64 : S256x1x64.Broadcasts S256x22x64
  reduces_S256x22x64_S256x22 : S256x22x64.Reduces [2] S256x22
  slices_S256x32x64_o0_10_0_S256x1x64 : S256x32x64.Slices ![0, 10, 0] S256x1x64
  slices_S256x32x64_o0_11_0_S256x21x64 : S256x32x64.Slices ![0, 11, 0] S256x21x64
  broadcasts_S256x1x64_S256x21x64 : S256x1x64.Broadcasts S256x21x64
  reduces_S256x21x64_S256x21 : S256x21x64.Reduces [2] S256x21
  slices_S256x32x64_o0_11_0_S256x1x64 : S256x32x64.Slices ![0, 11, 0] S256x1x64
  slices_S256x32x64_o0_12_0_S256x20x64 : S256x32x64.Slices ![0, 12, 0] S256x20x64
  broadcasts_S256x1x64_S256x20x64 : S256x1x64.Broadcasts S256x20x64
  reduces_S256x20x64_S256x20 : S256x20x64.Reduces [2] S256x20
  slices_S256x32x64_o0_12_0_S256x1x64 : S256x32x64.Slices ![0, 12, 0] S256x1x64
  slices_S256x32x64_o0_13_0_S256x19x64 : S256x32x64.Slices ![0, 13, 0] S256x19x64
  broadcasts_S256x1x64_S256x19x64 : S256x1x64.Broadcasts S256x19x64
  reduces_S256x19x64_S256x19 : S256x19x64.Reduces [2] S256x19
  slices_S256x32x64_o0_13_0_S256x1x64 : S256x32x64.Slices ![0, 13, 0] S256x1x64
  slices_S256x32x64_o0_14_0_S256x18x64 : S256x32x64.Slices ![0, 14, 0] S256x18x64
  broadcasts_S256x1x64_S256x18x64 : S256x1x64.Broadcasts S256x18x64
  reduces_S256x18x64_S256x18 : S256x18x64.Reduces [2] S256x18
  slices_S256x32x64_o0_14_0_S256x1x64 : S256x32x64.Slices ![0, 14, 0] S256x1x64
  slices_S256x32x64_o0_15_0_S256x17x64 : S256x32x64.Slices ![0, 15, 0] S256x17x64
  broadcasts_S256x1x64_S256x17x64 : S256x1x64.Broadcasts S256x17x64
  reduces_S256x17x64_S256x17 : S256x17x64.Reduces [2] S256x17
  slices_S256x32x64_o0_15_0_S256x1x64 : S256x32x64.Slices ![0, 15, 0] S256x1x64
  slices_S256x32x64_o0_16_0_S256x16x64 : S256x32x64.Slices ![0, 16, 0] S256x16x64
  broadcasts_S256x1x64_S256x16x64 : S256x1x64.Broadcasts S256x16x64
  reduces_S256x16x64_S256x16 : S256x16x64.Reduces [2] S256x16
  slices_S256x32x64_o0_16_0_S256x1x64 : S256x32x64.Slices ![0, 16, 0] S256x1x64
  slices_S256x32x64_o0_17_0_S256x15x64 : S256x32x64.Slices ![0, 17, 0] S256x15x64
  broadcasts_S256x1x64_S256x15x64 : S256x1x64.Broadcasts S256x15x64
  reduces_S256x15x64_S256x15 : S256x15x64.Reduces [2] S256x15
  slices_S256x32x64_o0_17_0_S256x1x64 : S256x32x64.Slices ![0, 17, 0] S256x1x64
  slices_S256x32x64_o0_18_0_S256x14x64 : S256x32x64.Slices ![0, 18, 0] S256x14x64
  broadcasts_S256x1x64_S256x14x64 : S256x1x64.Broadcasts S256x14x64
  reduces_S256x14x64_S256x14 : S256x14x64.Reduces [2] S256x14
  slices_S256x32x64_o0_18_0_S256x1x64 : S256x32x64.Slices ![0, 18, 0] S256x1x64
  slices_S256x32x64_o0_19_0_S256x13x64 : S256x32x64.Slices ![0, 19, 0] S256x13x64
  broadcasts_S256x1x64_S256x13x64 : S256x1x64.Broadcasts S256x13x64
  reduces_S256x13x64_S256x13 : S256x13x64.Reduces [2] S256x13
  slices_S256x32x64_o0_19_0_S256x1x64 : S256x32x64.Slices ![0, 19, 0] S256x1x64
  slices_S256x32x64_o0_20_0_S256x12x64 : S256x32x64.Slices ![0, 20, 0] S256x12x64
  broadcasts_S256x1x64_S256x12x64 : S256x1x64.Broadcasts S256x12x64
  reduces_S256x12x64_S256x12 : S256x12x64.Reduces [2] S256x12
  slices_S256x32x64_o0_20_0_S256x1x64 : S256x32x64.Slices ![0, 20, 0] S256x1x64
  slices_S256x32x64_o0_21_0_S256x11x64 : S256x32x64.Slices ![0, 21, 0] S256x11x64
  broadcasts_S256x1x64_S256x11x64 : S256x1x64.Broadcasts S256x11x64
  reduces_S256x11x64_S256x11 : S256x11x64.Reduces [2] S256x11
  slices_S256x32x64_o0_21_0_S256x1x64 : S256x32x64.Slices ![0, 21, 0] S256x1x64
  slices_S256x32x64_o0_22_0_S256x10x64 : S256x32x64.Slices ![0, 22, 0] S256x10x64
  broadcasts_S256x1x64_S256x10x64 : S256x1x64.Broadcasts S256x10x64
  reduces_S256x10x64_S256x10 : S256x10x64.Reduces [2] S256x10
  slices_S256x32x64_o0_22_0_S256x1x64 : S256x32x64.Slices ![0, 22, 0] S256x1x64
  slices_S256x32x64_o0_23_0_S256x9x64 : S256x32x64.Slices ![0, 23, 0] S256x9x64
  broadcasts_S256x1x64_S256x9x64 : S256x1x64.Broadcasts S256x9x64
  reduces_S256x9x64_S256x9 : S256x9x64.Reduces [2] S256x9
  slices_S256x32x64_o0_23_0_S256x1x64 : S256x32x64.Slices ![0, 23, 0] S256x1x64
  slices_S256x32x64_o0_24_0_S256x8x64 : S256x32x64.Slices ![0, 24, 0] S256x8x64
  broadcasts_S256x1x64_S256x8x64 : S256x1x64.Broadcasts S256x8x64
  reduces_S256x8x64_S256x8 : S256x8x64.Reduces [2] S256x8
  slices_S256x32x64_o0_24_0_S256x1x64 : S256x32x64.Slices ![0, 24, 0] S256x1x64
  slices_S256x32x64_o0_25_0_S256x7x64 : S256x32x64.Slices ![0, 25, 0] S256x7x64
  broadcasts_S256x1x64_S256x7x64 : S256x1x64.Broadcasts S256x7x64
  reduces_S256x7x64_S256x7 : S256x7x64.Reduces [2] S256x7
  slices_S256x32x64_o0_25_0_S256x1x64 : S256x32x64.Slices ![0, 25, 0] S256x1x64
  slices_S256x32x64_o0_26_0_S256x6x64 : S256x32x64.Slices ![0, 26, 0] S256x6x64
  broadcasts_S256x1x64_S256x6x64 : S256x1x64.Broadcasts S256x6x64
  reduces_S256x6x64_S256x6 : S256x6x64.Reduces [2] S256x6
  slices_S256x32x64_o0_26_0_S256x1x64 : S256x32x64.Slices ![0, 26, 0] S256x1x64
  slices_S256x32x64_o0_27_0_S256x5x64 : S256x32x64.Slices ![0, 27, 0] S256x5x64
  broadcasts_S256x1x64_S256x5x64 : S256x1x64.Broadcasts S256x5x64
  reduces_S256x5x64_S256x5 : S256x5x64.Reduces [2] S256x5
  slices_S256x32x64_o0_27_0_S256x1x64 : S256x32x64.Slices ![0, 27, 0] S256x1x64
  slices_S256x32x64_o0_28_0_S256x4x64 : S256x32x64.Slices ![0, 28, 0] S256x4x64
  broadcasts_S256x1x64_S256x4x64 : S256x1x64.Broadcasts S256x4x64
  reduces_S256x4x64_S256x4 : S256x4x64.Reduces [2] S256x4
  slices_S256x32x64_o0_28_0_S256x1x64 : S256x32x64.Slices ![0, 28, 0] S256x1x64
  slices_S256x32x64_o0_29_0_S256x3x64 : S256x32x64.Slices ![0, 29, 0] S256x3x64
  broadcasts_S256x1x64_S256x3x64 : S256x1x64.Broadcasts S256x3x64
  reduces_S256x3x64_S256x3 : S256x3x64.Reduces [2] S256x3
  slices_S256x32x64_o0_29_0_S256x1x64 : S256x32x64.Slices ![0, 29, 0] S256x1x64
  slices_S256x32x64_o0_30_0_S256x2x64 : S256x32x64.Slices ![0, 30, 0] S256x2x64
  broadcasts_S256x1x64_S256x2x64 : S256x1x64.Broadcasts S256x2x64
  reduces_S256x2x64_S256x2 : S256x2x64.Reduces [2] S256x2
  slices_S256x32x64_o0_30_0_S256x1x64 : S256x32x64.Slices ![0, 30, 0] S256x1x64
  slices_S256x32x64_o0_31_0_S256x1x64 : S256x32x64.Slices ![0, 31, 0] S256x1x64
  reduces_S256x1x64_S256x1 : S256x1x64.Reduces [2] S256x1
  concatenates_S256x31_S256x30_S256x29_S256x28_S256x27_S256x26_S256x25_S256x24_S256x23_S256x22_S256x21_S256x20_S256x19_S256x18_S256x17_S256x16_S256x15_S256x14_S256x13_S256x12_S256x11_S256x10_S256x9_S256x8_S256x7_S256x6_S256x5_S256x4_S256x3_S256x2_S256x1_S256x496_d1 : Shape.Concatenates [S256x31, S256x30, S256x29, S256x28, S256x27, S256x26, S256x25, S256x24, S256x23, S256x22, S256x21, S256x20, S256x19, S256x18, S256x17, S256x16, S256x15, S256x14, S256x13, S256x12, S256x11, S256x10, S256x9, S256x8, S256x7, S256x6, S256x5, S256x4, S256x3, S256x2, S256x1] S256x496 1
  concatenates_S256x2048_S256x496_S256x2544_d1 : Shape.Concatenates [S256x2048, S256x496] S256x2544 1
  inb_S2544x1024_S2544x1024_0_0 : ∀ a, (![0, 0] : Fin 2 → Nat) a + S2544x1024.size a ≤ S2544x1024.size a
  h_S2544x1024 : 0 < S2544x1024.numel
  shapeCasts_S2544x1024_S2544x1024 : S2544x1024.ShapeCasts S2544x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S512x1000_S512x1000_0_0 : ∀ a, (![0, 0] : Fin 2 → Nat) a + S512x1000.size a ≤ S512x1000.size a
  h_S512x1000 : 0 < S512x1000.numel
  shapeCasts_S512x1000_S512x1000 : S512x1000.ShapeCasts S512x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  inb_S256x1000_S256x1000_0_0 : ∀ a, (![0, 0] : Fin 2 → Nat) a + S256x1000.size a ≤ S256x1000.size a
  h_S256x1000 : 0 < S256x1000.numel
  dot_S256x1000_S1000x64_S256x64_1_0_0_1_n_n_wf : DotDims.WF S256x1000 S1000x64 S256x64 [1] [0] [0] [1] [] []
  dot_S256x2544_S2544x1024_S256x1024_1_0_0_1_n_n_wf : DotDims.WF S256x2544 S2544x1024 S256x1024 [1] [0] [0] [1] [] []
  dot_S256x1024_S1024x512_S256x512_1_0_0_1_n_n_wf : DotDims.WF S256x1024 S1024x512 S256x512 [1] [0] [0] [1] [] []
  dot_S256x512_S512x1000_S256x1000_1_0_0_1_n_n_wf : DotDims.WF S256x512 S512x1000 S256x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32.size a ≤ S8192x32.size a
  hwx0_0 : ∀ i : grid0.Coords, EltTy.bits .i32 = 32 ∨ (Rect.block (s := S8192x32) S256x32.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x1000x64.size a ≤ S32x1000x64.size a
  hwx0_1 : ∀ i : grid0.Coords, EltTy.bits .bf16 = 32 ∨ (Rect.block (s := S32x1000x64) S32x1000x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2544x1024.size a ≤ S2544x1024.size a
  hwx0_2 : ∀ i : grid0.Coords, EltTy.bits .bf16 = 32 ∨ (Rect.block (s := S2544x1024) S2544x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .bf16 = 32 ∨ (Rect.block (s := S1024x512) S1024x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1000.size a ≤ S512x1000.size a
  hwx0_6 : ∀ i : grid0.Coords, EltTy.bits .bf16 = 32 ∨ (Rect.block (s := S512x1000) S512x1000.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1000.size a ≤ S1x1000.size a
  hwx0_7 : ∀ i : grid0.Coords, EltTy.bits .f32 = 32 ∨ (Rect.block (s := S1x1000) S1x1000.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1000.size a ≤ S8192x1000.size a
  hwx0_8 : ∀ i : grid0.Coords, EltTy.bits .f32 = 32 ∨ (Rect.block (s := S8192x1000) S256x1000.size (cc0_transform_8 i) (hinb0_8 i)).WholeWords (EltTy.packing .f32)

variable [Facts₀]

def dot_S256x1000_S1000x64_S256x64_1_0_0_1_n_n : DotDims S256x1000 S1000x64 S256x64 where
  lhsContracting := [1]
  rhsContracting := [0]
  lhsNonContracting := [0]
  rhsNonContracting := [1]
  lhsBatch := []
  rhsBatch := []
  wf := dot_S256x1000_S1000x64_S256x64_1_0_0_1_n_n_wf
def dot_S256x2544_S2544x1024_S256x1024_1_0_0_1_n_n : DotDims S256x2544 S2544x1024 S256x1024 where
  lhsContracting := [1]
  rhsContracting := [0]
  lhsNonContracting := [0]
  rhsNonContracting := [1]
  lhsBatch := []
  rhsBatch := []
  wf := dot_S256x2544_S2544x1024_S256x1024_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x512_S512x1000_S256x1000_1_0_0_1_n_n : DotDims S256x512 S512x1000 S256x1000 where
  lhsContracting := [1]
  rhsContracting := [0]
  lhsNonContracting := [0]
  rhsNonContracting := [1]
  lhsBatch := []
  rhsBatch := []
  wf := dot_S256x512_S512x1000_S256x1000_1_0_0_1_n_n_wf

abbrev win0_0 : Pipeline.Window sig grid0 :=
  Pipeline.Window.ofSpec (Memref.whole main_arg0) S256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x1000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2544x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S512x1000.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x1000.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S256x1000.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x32 : Shape := ⟨2, ![8192, 32]⟩
abbrev S32x1000x64 : Shape := ⟨3, ![32, 1000, 64]⟩
abbrev S2544x1024 : Shape := ⟨2, ![2544, 1024]⟩
abbrev S1024 : Shape := ⟨1, ![1024]⟩
abbrev S1024x512 : Shape := ⟨2, ![1024, 512]⟩
abbrev S512 : Shape := ⟨1, ![512]⟩
abbrev S512x1000 : Shape := ⟨2, ![512, 1000]⟩
abbrev S1000 : Shape := ⟨1, ![1000]⟩
abbrev S32 : Shape := ⟨1, ![32]⟩
abbrev S1x32 : Shape := ⟨2, ![1, 32]⟩
abbrev S_ : Shape := ⟨0, ![]⟩
abbrev S8192x32x1 : Shape := ⟨3, ![8192, 32, 1]⟩
abbrev S8192x32x2 : Shape := ⟨3, ![8192, 32, 2]⟩
abbrev S8192x32x64 : Shape := ⟨3, ![8192, 32, 64]⟩
abbrev S8192x32x32 : Shape := ⟨3, ![8192, 32, 32]⟩
abbrev S32x32 : Shape := ⟨2, ![32, 32]⟩
abbrev S496 : Shape := ⟨1, ![496]⟩
abbrev S1024x1 : Shape := ⟨2, ![1024, 1]⟩
abbrev S496x1 : Shape := ⟨2, ![496, 1]⟩
abbrev S496x2 : Shape := ⟨2, ![496, 2]⟩
abbrev S8192x496 : Shape := ⟨2, ![8192, 496]⟩
abbrev S8192x2048 : Shape := ⟨2, ![8192, 2048]⟩
abbrev S8192x2544 : Shape := ⟨2, ![8192, 2544]⟩
abbrev S8192x1024 : Shape := ⟨2, ![8192, 1024]⟩
abbrev S1x1024 : Shape := ⟨2, ![1, 1024]⟩
abbrev S8192x512 : Shape := ⟨2, ![8192, 512]⟩
abbrev S1x512 : Shape := ⟨2, ![1, 512]⟩
abbrev S8192x1000 : Shape := ⟨2, ![8192, 1000]⟩
abbrev S1x1000 : Shape := ⟨2, ![1, 1000]⟩

abbrev nBuf : Space → Nat
  | .hbm => 193
  | .vmem => 0
  | .smem => 0
  | _ => 0

abbrev hbmTy0_0 (i : Nat) : BufTy := match i % 128 with
  | 0 => ⟨S8192x32, .i32⟩
  | 1 => ⟨S32x1000x64, .f32⟩
  | 2 => ⟨S2544x1024, .f32⟩
  | 3 => ⟨S1024, .f32⟩
  | 4 => ⟨S1024x512, .f32⟩
  | 5 => ⟨S512, .f32⟩
  | 6 => ⟨S512x1000, .f32⟩
  | 7 => ⟨S1000, .f32⟩
  | 8 => ⟨S32, .i32⟩
  | 9 => ⟨S1x32, .i32⟩
  | 10 => ⟨S_, .i32⟩
  | 11 => ⟨S1x32, .i32⟩
  | 12 => ⟨S1x32, .i1⟩
  | 13 => ⟨S_, .i32⟩
  | 14 => ⟨S1x32, .i32⟩
  | 15 => ⟨S1x32, .i32⟩
  | 16 => ⟨S1x32, .i32⟩
  | 17 => ⟨S_, .i32⟩
  | 18 => ⟨S8192x32, .i32⟩
  | 19 => ⟨S8192x32, .i1⟩
  | 20 => ⟨S_, .i32⟩
  | 21 => ⟨S8192x32, .i32⟩
  | 22 => ⟨S8192x32, .i32⟩
  | 23 => ⟨S8192x32, .i32⟩
  | 24 => ⟨S8192x32, .i32⟩
  | 25 => ⟨S8192x32x1, .i32⟩
  | 26 => ⟨S8192x32x1, .i32⟩
  | 27 => ⟨S8192x32x2, .i32⟩
  | 28 => ⟨S8192x32x64, .f32⟩
  | 29 => ⟨S8192x32x32, .f32⟩
  | 30 => ⟨S_, .f32⟩
  | 31 => ⟨S32x32, .f32⟩
  | 32 => ⟨S32x32, .i32⟩
  | 33 => ⟨S_, .i32⟩
  | 34 => ⟨S32x32, .i32⟩
  | 35 => ⟨S32x32, .i32⟩
  | 36 => ⟨S32x32, .i32⟩
  | 37 => ⟨S32x32, .i1⟩
  | 38 => ⟨S_, .f32⟩
  | 39 => ⟨S32x32, .f32⟩
  | 40 => ⟨S32x32, .f32⟩
  | 41 => ⟨S_, .f32⟩
  | 42 => ⟨S32x32, .f32⟩
  | 43 => ⟨S32x32, .i1⟩
  | 44 => ⟨S1024, .i1⟩
  | 45 => ⟨S1024, .i32⟩
  | 46 => ⟨S_, .i32⟩
  | 47 => ⟨S_, .i32⟩
  | 48 => ⟨S1024, .i32⟩
  | 49 => ⟨S_, .i32⟩
  | 50 => ⟨S496, .i32⟩
  | 51 => ⟨S_, .i32⟩
  | 52 => ⟨S_, .i32⟩
  | 53 => ⟨S1024, .i32⟩
  | 54 => ⟨S1024, .i32⟩
  | 55 => ⟨S_, .i32⟩
  | 56 => ⟨S1024, .i32⟩
  | 57 => ⟨S1024, .i1⟩
  | 58 => ⟨S_, .i32⟩
  | 59 => ⟨S1024, .i32⟩
  | 60 => ⟨S1024, .i32⟩
  | 61 => ⟨S1024, .i32⟩
  | 62 => ⟨S1024x1, .i32⟩
  | 63 => ⟨S_, .i32⟩
  | 64 => ⟨S1024, .i32⟩
  | 65 => ⟨S496, .i32⟩
  | 66 => ⟨S_, .i32⟩
  | 67 => ⟨S_, .i32⟩
  | 68 => ⟨S496, .i32⟩
  | 69 => ⟨S_, .i32⟩
  | 70 => ⟨S496, .i32⟩
  | 71 => ⟨S496, .i32⟩
  | 72 => ⟨S496, .i32⟩
  | 73 => ⟨S_, .i32⟩
  | 74 => ⟨S496, .i32⟩
  | 75 => ⟨S496, .i1⟩
  | 76 => ⟨S496, .i32⟩
  | 77 => ⟨S496, .i32⟩
  | 78 => ⟨S_, .i32⟩
  | 79 => ⟨S496, .i32⟩
  | 80 => ⟨S496, .i1⟩
  | 81 => ⟨S496, .i1⟩
  | 82 => ⟨S_, .i32⟩
  | 83 => ⟨S496, .i32⟩
  | 84 => ⟨S496, .i32⟩
  | 85 => ⟨S496, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S496, .i32⟩
  | 93 => ⟨S496, .i32⟩
  | 94 => ⟨S_, .i32⟩
  | 95 => ⟨S496, .i32⟩
  | 96 => ⟨S496, .i1⟩
  | 97 => ⟨S_, .i32⟩
  | 98 => ⟨S496, .i32⟩
  | 99 => ⟨S496, .i1⟩
  | 100 => ⟨S_, .i32⟩
  | 101 => ⟨S_, .i1⟩
  | 102 => ⟨S496, .i1⟩
  | 103 => ⟨S496, .i1⟩
  | 104 => ⟨S496, .i1⟩
  | 105 => ⟨S496, .i32⟩
  | 106 => ⟨S496, .i32⟩
  | 107 => ⟨S496, .i32⟩
  | 108 => ⟨S_, .i32⟩
  | 109 => ⟨S496, .i32⟩
  | 110 => ⟨S496, .i32⟩
  | 111 => ⟨S496, .i32⟩
  | 112 => ⟨S_, .i32⟩
  | 113 => ⟨S496, .i32⟩
  | 114 => ⟨S496, .i1⟩
  | 115 => ⟨S496, .i32⟩
  | 116 => ⟨S496, .i32⟩
  | 117 => ⟨S_, .i32⟩
  | 118 => ⟨S496, .i32⟩
  | 119 => ⟨S496, .i1⟩
  | 120 => ⟨S496, .i1⟩
  | 121 => ⟨S_, .i32⟩
  | 122 => ⟨S496, .i32⟩
  | 123 => ⟨S496, .i32⟩
  | 124 => ⟨S496, .i32⟩
  | 125 => ⟨S_, .i32⟩
  | 126 => ⟨S_, .i32⟩
  | 127 => ⟨S_, .i32⟩
  | _ => ⟨S8192x32, .i32⟩

abbrev hbmTy0_1 (i : Nat) : BufTy := match i % 128 with
  | 0 => ⟨S_, .i1⟩
  | 1 => ⟨S_, .i32⟩
  | 2 => ⟨S_, .i32⟩
  | 3 => ⟨S496, .i32⟩
  | 4 => ⟨S496, .i32⟩
  | 5 => ⟨S_, .i32⟩
  | 6 => ⟨S496, .i32⟩
  | 7 => ⟨S496, .i1⟩
  | 8 => ⟨S_, .i32⟩
  | 9 => ⟨S496, .i32⟩
  | 10 => ⟨S496, .i1⟩
  | 11 => ⟨S_, .i32⟩
  | 12 => ⟨S_, .i1⟩
  | 13 => ⟨S496, .i1⟩
  | 14 => ⟨S496, .i1⟩
  | 15 => ⟨S496, .i1⟩
  | 16 => ⟨S496, .i32⟩
  | 17 => ⟨S496, .i32⟩
  | 18 => ⟨S496, .i32⟩
  | 19 => ⟨S_, .i32⟩
  | 20 => ⟨S496, .i32⟩
  | 21 => ⟨S496, .i1⟩
  | 22 => ⟨S_, .i32⟩
  | 23 => ⟨S496, .i32⟩
  | 24 => ⟨S496, .i32⟩
  | 25 => ⟨S496, .i32⟩
  | 26 => ⟨S_, .i32⟩
  | 27 => ⟨S496, .i32⟩
  | 28 => ⟨S496, .i1⟩
  | 29 => ⟨S_, .i32⟩
  | 30 => ⟨S496, .i32⟩
  | 31 => ⟨S496, .i32⟩
  | 32 => ⟨S496, .i32⟩
  | 33 => ⟨S496x1, .i32⟩
  | 34 => ⟨S496x1, .i32⟩
  | 35 => ⟨S496x2, .i32⟩
  | 36 => ⟨S8192x496, .f32⟩
  | 37 => ⟨S8192x2048, .f32⟩
  | 38 => ⟨S8192x2544, .f32⟩
  | 39 => ⟨S8192x1024, .f32⟩
  | 40 => ⟨S1x1024, .f32⟩
  | 41 => ⟨S8192x1024, .f32⟩
  | 42 => ⟨S8192x1024, .f32⟩
  | 43 => ⟨S_, .f32⟩
  | 44 => ⟨S8192x1024, .f32⟩
  | 45 => ⟨S8192x1024, .f32⟩
  | 46 => ⟨S8192x512, .f32⟩
  | 47 => ⟨S1x512, .f32⟩
  | 48 => ⟨S8192x512, .f32⟩
  | 49 => ⟨S8192x512, .f32⟩
  | 50 => ⟨S_, .f32⟩
  | 51 => ⟨S8192x512, .f32⟩
  | 52 => ⟨S8192x512, .f32⟩
  | 53 => ⟨S8192x1000, .f32⟩
  | 54 => ⟨S1x1000, .f32⟩
  | 55 => ⟨S8192x1000, .f32⟩
  | 56 => ⟨S8192x1000, .f32⟩
  | 57 => ⟨S8192x1000, .f32⟩
  | 58 => ⟨S8192x1000, .f32⟩
  | 59 => ⟨S_, .f32⟩
  | 60 => ⟨S8192x1000, .f32⟩
  | 61 => ⟨S8192x1000, .f32⟩
  | 62 => ⟨S_, .f32⟩
  | 63 => ⟨S8192x1000, .f32⟩
  | 64 => ⟨S8192x1000, .f32⟩
  | _ => ⟨S8192x32, .i32⟩

abbrev hbmTy (i : Nat) : BufTy := match i / 128 with
  | 0 => hbmTy0_0 i
  | 1 => hbmTy0_1 i
  | _ => ⟨S8192x32, .i32⟩

abbrev bufTy : (tb : Table) → Fin (tcTables nBuf tb) → BufTy
  | .hbm, ⟨i, _⟩ => hbmTy i
  | _, _ => ⟨S8192x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_call0_v0 : Ref sig .tc := ⟨.hbm, 32, rfl⟩
abbrev main_call0_c : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_cst : Ref sig .tc := ⟨.hbm, 38, rfl⟩
abbrev main_call0_v5 : Ref sig .tc := ⟨.hbm, 39, rfl⟩
abbrev main_v19 : Ref sig .tc := ⟨.hbm, 40, rfl⟩
abbrev main_cst_3 : Ref sig .tc := ⟨.hbm, 41, rfl⟩
abbrev main_v20 : Ref sig .tc := ⟨.hbm, 42, rfl⟩
abbrev main_v21 : Ref sig .tc := ⟨.hbm, 43, rfl⟩
abbrev main_call1_v0 : Ref sig .tc := ⟨.hbm, 44, rfl⟩
abbrev main_call1_v1 : Ref sig .tc := ⟨.hbm, 45, rfl⟩
abbrev main_call1_call0_c : Ref sig .tc := ⟨.hbm, 46, rfl⟩
abbrev main_call1_call0_v0 : Ref sig .tc := ⟨.hbm, 47, rfl⟩
abbrev main_v22 : Ref sig .tc := ⟨.hbm, 48, rfl⟩
abbrev main_c_4 : Ref sig .tc := ⟨.hbm, 49, rfl⟩
abbrev main_v23 : Ref sig .tc := ⟨.hbm, 50, rfl⟩
abbrev main_c_5 : Ref sig .tc := ⟨.hbm, 51, rfl⟩
abbrev main_call2_v0 : Ref sig .tc := ⟨.hbm, 52, rfl⟩
abbrev main_call2_v1 : Ref sig .tc := ⟨.hbm, 53, rfl⟩
abbrev main_v24 : Ref sig .tc := ⟨.hbm, 54, rfl⟩
abbrev main_c_6 : Ref sig .tc := ⟨.hbm, 55, rfl⟩
abbrev main_v25 : Ref sig .tc := ⟨.hbm, 56, rfl⟩
abbrev main_v26 : Ref sig .tc := ⟨.hbm, 57, rfl⟩
abbrev main_c_7 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_c_8 : Ref sig .tc := ⟨.hbm, 63, rfl⟩
abbrev main_v31 : Ref sig .tc := ⟨.hbm, 64, rfl⟩
abbrev main_v32 : Ref sig .tc := ⟨.hbm, 65, rfl⟩
abbrev main_call3_call0_c : Ref sig .tc := ⟨.hbm, 66, rfl⟩
abbrev main_call3_call0_v0 : Ref sig .tc := ⟨.hbm, 67, rfl⟩
abbrev main_v33 : Ref sig .tc := ⟨.hbm, 68, rfl⟩
abbrev main_c_9 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_call4_v3 : Ref sig .tc := ⟨.hbm, 73, rfl⟩
abbrev main_call4_v4 : Ref sig .tc := ⟨.hbm, 74, rfl⟩
abbrev main_call4_v5 : Ref sig .tc := ⟨.hbm, 75, rfl⟩
abbrev main_call4_v6 : Ref sig .tc := ⟨.hbm, 76, rfl⟩
abbrev main_call4_v7 : Ref sig .tc := ⟨.hbm, 77, rfl⟩
abbrev main_call4_c : Ref sig .tc := ⟨.hbm, 78, rfl⟩
abbrev main_call4_v8 : Ref sig .tc := ⟨.hbm, 79, rfl⟩
abbrev main_call4_v9 : Ref sig .tc := ⟨.hbm, 80, rfl⟩
abbrev main_call4_v10 : Ref sig .tc := ⟨.hbm, 81, rfl⟩
abbrev main_call4_c_0 : Ref sig .tc := ⟨.hbm, 82, rfl⟩
abbrev main_call4_v11 : Ref sig .tc := ⟨.hbm, 83, rfl⟩
abbrev main_call4_v12 : Ref sig .tc := ⟨.hbm, 84, rfl⟩
abbrev main_v34 : Ref sig .tc := ⟨.hbm, 85, rfl⟩
abbrev main_c_10 : Ref sig .tc := ⟨.hbm, 86, rfl⟩
abbrev main_call5_v0 : Ref sig .tc := ⟨.hbm, 87, rfl⟩
abbrev main_call5_c : Ref sig .tc := ⟨.hbm, 88, rfl⟩
abbrev main_call5_v1 : Ref sig .tc := ⟨.hbm, 89, rfl⟩
abbrev main_call5_c_0 : Ref sig .tc := ⟨.hbm, 90, rfl⟩
abbrev main_call5_v2 : Ref sig .tc := ⟨.hbm, 91, rfl⟩
abbrev main_call5_v3 : Ref sig .tc := ⟨.hbm, 92, rfl⟩
abbrev main_call5_v4 : Ref sig .tc := ⟨.hbm, 93, rfl⟩
abbrev main_call5_c_1 : Ref sig .tc := ⟨.hbm, 94, rfl⟩
abbrev main_call5_v5 : Ref sig .tc := ⟨.hbm, 95, rfl⟩
abbrev main_call5_v6 : Ref sig .tc := ⟨.hbm, 96, rfl⟩
abbrev main_call5_c_2 : Ref sig .tc := ⟨.hbm, 97, rfl⟩
abbrev main_call5_v7 : Ref sig .tc := ⟨.hbm, 98, rfl⟩
abbrev main_call5_v8 : Ref sig .tc := ⟨.hbm, 99, rfl⟩
abbrev main_call5_c_3 : Ref sig .tc := ⟨.hbm, 100, rfl⟩
abbrev main_call5_v9 : Ref sig .tc := ⟨.hbm, 101, rfl⟩
abbrev main_call5_v10 : Ref sig .tc := ⟨.hbm, 102, rfl⟩
abbrev main_call5_v11 : Ref sig .tc := ⟨.hbm, 103, rfl⟩
abbrev main_call5_v12 : Ref sig .tc := ⟨.hbm, 104, rfl⟩
abbrev main_call5_v13 : Ref sig .tc := ⟨.hbm, 105, rfl⟩
abbrev main_call5_v14 : Ref sig .tc := ⟨.hbm, 106, rfl⟩
abbrev main_v35 : Ref sig .tc := ⟨.hbm, 107, rfl⟩
abbrev main_c_11 : Ref sig .tc := ⟨.hbm, 108, rfl⟩
abbrev main_call6_v0 : Ref sig .tc := ⟨.hbm, 109, rfl⟩
abbrev main_call6_v1 : Ref sig .tc := ⟨.hbm, 110, rfl⟩
abbrev main_call6_v2 : Ref sig .tc := ⟨.hbm, 111, rfl⟩
abbrev main_call6_v3 : Ref sig .tc := ⟨.hbm, 112, rfl⟩
abbrev main_call6_v4 : Ref sig .tc := ⟨.hbm, 113, rfl⟩
abbrev main_call6_v5 : Ref sig .tc := ⟨.hbm, 114, rfl⟩
abbrev main_call6_v6 : Ref sig .tc := ⟨.hbm, 115, rfl⟩
abbrev main_call6_v7 : Ref sig .tc := ⟨.hbm, 116, rfl⟩
abbrev main_call6_c : Ref sig .tc := ⟨.hbm, 117, rfl⟩
abbrev main_call6_v8 : Ref sig .tc := ⟨.hbm, 118, rfl⟩
abbrev main_call6_v9 : Ref sig .tc := ⟨.hbm, 119, rfl⟩
abbrev main_call6_v10 : Ref sig .tc := ⟨.hbm, 120, rfl⟩
abbrev main_call6_c_0 : Ref sig .tc := ⟨.hbm, 121, rfl⟩
abbrev main_call6_v11 : Ref sig .tc := ⟨.hbm, 122, rfl⟩
abbrev main_call6_v12 : Ref sig .tc := ⟨.hbm, 123, rfl⟩
abbrev main_v36 : Ref sig .tc := ⟨.hbm, 124, rfl⟩
abbrev main_c_12 : Ref sig .tc := ⟨.hbm, 125, rfl⟩
abbrev main_call7_v0 : Ref sig .tc := ⟨.hbm, 126, rfl⟩
abbrev main_call7_c : Ref sig .tc := ⟨.hbm, 127, rfl⟩
abbrev main_call7_v1 : Ref sig .tc := ⟨.hbm, 128, rfl⟩
abbrev main_call7_c_0 : Ref sig .tc := ⟨.hbm, 129, rfl⟩
abbrev main_call7_v2 : Ref sig .tc := ⟨.hbm, 130, rfl⟩
abbrev main_call7_v3 : Ref sig .tc := ⟨.hbm, 131, rfl⟩
abbrev main_call7_v4 : Ref sig .tc := ⟨.hbm, 132, rfl⟩
abbrev main_call7_c_1 : Ref sig .tc := ⟨.hbm, 133, rfl⟩
abbrev main_call7_v5 : Ref sig .tc := ⟨.hbm, 134, rfl⟩
abbrev main_call7_v6 : Ref sig .tc := ⟨.hbm, 135, rfl⟩
abbrev main_call7_c_2 : Ref sig .tc := ⟨.hbm, 136, rfl⟩
abbrev main_call7_v7 : Ref sig .tc := ⟨.hbm, 137, rfl⟩
abbrev main_call7_v8 : Ref sig .tc := ⟨.hbm, 138, rfl⟩
abbrev main_call7_c_3 : Ref sig .tc := ⟨.hbm, 139, rfl⟩
abbrev main_call7_v9 : Ref sig .tc := ⟨.hbm, 140, rfl⟩
abbrev main_call7_v10 : Ref sig .tc := ⟨.hbm, 141, rfl⟩
abbrev main_call7_v11 : Ref sig .tc := ⟨.hbm, 142, rfl⟩
abbrev main_call7_v12 : Ref sig .tc := ⟨.hbm, 143, rfl⟩
abbrev main_call7_v13 : Ref sig .tc := ⟨.hbm, 144, rfl⟩
abbrev main_call7_v14 : Ref sig .tc := ⟨.hbm, 145, rfl⟩
abbrev main_v37 : Ref sig .tc := ⟨.hbm, 146, rfl⟩
abbrev main_c_13 : Ref sig .tc := ⟨.hbm, 147, rfl⟩
abbrev main_v38 : Ref sig .tc := ⟨.hbm, 148, rfl⟩
abbrev main_v39 : Ref sig .tc := ⟨.hbm, 149, rfl⟩
abbrev main_c_14 : Ref sig .tc := ⟨.hbm, 150, rfl⟩
abbrev main_v40 : Ref sig .tc := ⟨.hbm, 151, rfl⟩
abbrev main_v41 : Ref sig .tc := ⟨.hbm, 152, rfl⟩
abbrev main_v42 : Ref sig .tc := ⟨.hbm, 153, rfl⟩
abbrev main_c_15 : Ref sig .tc := ⟨.hbm, 154, rfl⟩
abbrev main_v43 : Ref sig .tc := ⟨.hbm, 155, rfl⟩
abbrev main_v44 : Ref sig .tc := ⟨.hbm, 156, rfl⟩
abbrev main_c_16 : Ref sig .tc := ⟨.hbm, 157, rfl⟩
abbrev main_v45 : Ref sig .tc := ⟨.hbm, 158, rfl⟩
abbrev main_v46 : Ref sig .tc := ⟨.hbm, 159, rfl⟩
abbrev main_v47 : Ref sig .tc := ⟨.hbm, 160, rfl⟩
abbrev main_v48 : Ref sig .tc := ⟨.hbm, 161, rfl⟩
abbrev main_v49 : Ref sig .tc := ⟨.hbm, 162, rfl⟩
abbrev main_v50 : Ref sig .tc := ⟨.hbm, 163, rfl⟩
abbrev main_v51 : Ref sig .tc := ⟨.hbm, 164, rfl⟩
abbrev main_v52 : Ref sig .tc := ⟨.hbm, 165, rfl⟩
abbrev main_v53 : Ref sig .tc := ⟨.hbm, 166, rfl⟩
abbrev main_v54 : Ref sig .tc := ⟨.hbm, 167, rfl⟩
abbrev main_v55 : Ref sig .tc := ⟨.hbm, 168, rfl⟩
abbrev main_v56 : Ref sig .tc := ⟨.hbm, 169, rfl⟩
abbrev main_v57 : Ref sig .tc := ⟨.hbm, 170, rfl⟩
abbrev main_call8_cst : Ref sig .tc := ⟨.hbm, 171, rfl⟩
abbrev main_call8_v0 : Ref sig .tc := ⟨.hbm, 172, rfl⟩
abbrev main_v58 : Ref sig .tc := ⟨.hbm, 173, rfl⟩
abbrev main_v59 : Ref sig .tc := ⟨.hbm, 174, rfl⟩
abbrev main_v60 : Ref sig .tc := ⟨.hbm, 175, rfl⟩
abbrev main_v61 : Ref sig .tc := ⟨.hbm, 176, rfl⟩
abbrev main_v62 : Ref sig .tc := ⟨.hbm, 177, rfl⟩
abbrev main_call9_cst : Ref sig .tc := ⟨.hbm, 178, rfl⟩
abbrev main_call9_v0 : Ref sig .tc := ⟨.hbm, 179, rfl⟩
abbrev main_v63 : Ref sig .tc := ⟨.hbm, 180, rfl⟩
abbrev main_v64 : Ref sig .tc := ⟨.hbm, 181, rfl⟩
abbrev main_v65 : Ref sig .tc := ⟨.hbm, 182, rfl⟩
abbrev main_v66 : Ref sig .tc := ⟨.hbm, 183, rfl⟩
abbrev main_v67 : Ref sig .tc := ⟨.hbm, 184, rfl⟩
abbrev main_v68 : Ref sig .tc := ⟨.hbm, 185, rfl⟩
abbrev main_v69 : Ref sig .tc := ⟨.hbm, 186, rfl⟩
abbrev main_cst_17 : Ref sig .tc := ⟨.hbm, 187, rfl⟩
abbrev main_v70 : Ref sig .tc := ⟨.hbm, 188, rfl⟩
abbrev main_v71 : Ref sig .tc := ⟨.hbm, 189, rfl⟩
abbrev main_cst_18 : Ref sig .tc := ⟨.hbm, 190, rfl⟩
abbrev main_v72 : Ref sig .tc := ⟨.hbm, 191, rfl⟩
abbrev main_v73 : Ref sig .tc := ⟨.hbm, 192, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S_S1x32 : S_.BroadcastsInDim S1x32 (![] : Fin 0 → Fin S1x32.rank)
  bcast_S_S8192x32 : S_.BroadcastsInDim S8192x32 (![] : Fin 0 → Fin S8192x32.rank)
  bcast_S1x32_S8192x32_0_1 : S1x32.BroadcastsInDim S8192x32 (![0, 1] : Fin 2 → Fin S8192x32.rank)
  bcast_S8192x32_S8192x32x1_0_1 : S8192x32.BroadcastsInDim S8192x32x1 (![0, 1] : Fin 2 → Fin S8192x32x1.rank)
  concatenates_S8192x32x1_S8192x32x1_S8192x32x2_d2 : Shape.Concatenates [S8192x32x1, S8192x32x1] S8192x32x2 2
  bcast_S_S32x32 : S_.BroadcastsInDim S32x32 (![] : Fin 0 → Fin S32x32.rank)
  shapeCasts_S32x32_S1024 : S32x32.ShapeCasts S1024
  natLt_1_32 : 1 < 32
  bcast_S_S_ : S_.BroadcastsInDim S_ (![] : Fin 0 → Fin S_.rank)
  reduceWindows_S1024_S1024_w1024s1p1023_0 : S1024.ReduceWindows (![1024] : Fin 1 → Nat) ![1] ![1023] ![0] S1024
  h_S_ : 0 < S_.numel
  bcast_S_S496 : S_.BroadcastsInDim S496 (![] : Fin 0 → Fin S496.rank)
  bcast_S_S1024 : S_.BroadcastsInDim S1024 (![] : Fin 0 → Fin S1024.rank)
  bcast_S1024_S1024x1_0 : S1024.BroadcastsInDim S1024x1 (![0] : Fin 1 → Fin S1024x1.rank)
  reduceWindows_S496_S496_w496s1p495_0 : S496.ReduceWindows (![496] : Fin 1 → Nat) ![1] ![495] ![0] S496
  bcast_S496_S496x1_0 : S496.BroadcastsInDim S496x1 (![0] : Fin 1 → Fin S496x1.rank)
  concatenates_S496x1_S496x1_S496x2_d1 : Shape.Concatenates [S496x1, S496x1] S496x2 1
  shapeCasts_S8192x32x64_S8192x2048 : S8192x32x64.ShapeCasts S8192x2048
  concatenates_S8192x2048_S8192x496_S8192x2544_d1 : Shape.Concatenates [S8192x2048, S8192x496] S8192x2544 1
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  bcast_S1000_S1x1000_1 : S1000.BroadcastsInDim S1x1000 (![1] : Fin 1 → Fin S1x1000.rank)
  bcast_S1x1000_S8192x1000_0_1 : S1x1000.BroadcastsInDim S8192x1000 (![0, 1] : Fin 2 → Fin S8192x1000.rank)
  bcast_S_S8192x1000 : S_.BroadcastsInDim S8192x1000 (![] : Fin 0 → Fin S8192x1000.rank)
  gather_S32x1000x64_S8192x32x2_S8192x32x64_2_01_n_n_01_2_1164_wf : GatherDims.WF S32x1000x64 S8192x32x2 S8192x32x64 [2] [0, 1] [] [0, 1] [] 2 ![1, 1, 64]
  dot_S8192x32x64_S8192x32x64_S8192x32x32_2_2_1_1_0_0_wf : DotDims.WF S8192x32x64 S8192x32x64 S8192x32x32 [2] [2] [1] [1] [0] [0]
  scatter_S496_S1024x1_S1024_n_0_0_1_wf : ScatterDims.WF S496 S1024x1 S1024 [] [0] [0] 1
  gather_S8192x32x32_S496x2_S8192x496_0_12_n_n_12_1_819211_wf : GatherDims.WF S8192x32x32 S496x2 S8192x496 [0] [1, 2] [] [1, 2] [] 1 ![8192, 1, 1]
  dot_S8192x2544_S2544x1024_S8192x1024_1_0_0_1_n_n_wf : DotDims.WF S8192x2544 S2544x1024 S8192x1024 [1] [0] [0] [1] [] []
  dot_S8192x1024_S1024x512_S8192x512_1_0_0_1_n_n_wf : DotDims.WF S8192x1024 S1024x512 S8192x512 [1] [0] [0] [1] [] []
  dot_S8192x512_S512x1000_S8192x1000_1_0_0_1_n_n_wf : DotDims.WF S8192x512 S512x1000 S8192x1000 [1] [0] [0] [1] [] []

variable [Facts₀]

def gather_S32x1000x64_S8192x32x2_S8192x32x64_2_01_n_n_01_2_1164 : GatherDims S32x1000x64 S8192x32x2 S8192x32x64 where
  offsetDims := [2]
  collapsedSliceDims := [0, 1]
  operandBatchingDims := []
  startIndicesBatchingDims := []
  startIndexMap := [0, 1]
  indexVectorDim := 2
  sliceSizes := ![1, 1, 64]
  wf := gather_S32x1000x64_S8192x32x2_S8192x32x64_2_01_n_n_01_2_1164_wf
def dot_S8192x32x64_S8192x32x64_S8192x32x32_2_2_1_1_0_0 : DotDims S8192x32x64 S8192x32x64 S8192x32x32 where
  lhsContracting := [2]
  rhsContracting := [2]
  lhsNonContracting := [1]
  rhsNonContracting := [1]
  lhsBatch := [0]
  rhsBatch := [0]
  wf := dot_S8192x32x64_S8192x32x64_S8192x32x32_2_2_1_1_0_0_wf
def scatter_S496_S1024x1_S1024_n_0_0_1 : ScatterDims S496 S1024x1 S1024 where
  updateWindowDims := []
  insertedWindowDims := [0]
  scatterDimsToOperandDims := [0]
  indexVectorDim := 1
  wf := scatter_S496_S1024x1_S1024_n_0_0_1_wf
def gather_S8192x32x32_S496x2_S8192x496_0_12_n_n_12_1_819211 : GatherDims S8192x32x32 S496x2 S8192x496 where
  offsetDims := [0]
  collapsedSliceDims := [1, 2]
  operandBatchingDims := []
  startIndicesBatchingDims := []
  startIndexMap := [1, 2]
  indexVectorDim := 1
  sliceSizes := ![8192, 1, 1]
  wf := gather_S8192x32x32_S496x2_S8192x496_0_12_n_n_12_1_819211_wf
def dot_S8192x2544_S2544x1024_S8192x1024_1_0_0_1_n_n : DotDims S8192x2544 S2544x1024 S8192x1024 where
  lhsContracting := [1]
  rhsContracting := [0]
  lhsNonContracting := [0]
  rhsNonContracting := [1]
  lhsBatch := []
  rhsBatch := []
  wf := dot_S8192x2544_S2544x1024_S8192x1024_1_0_0_1_n_n_wf
def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S8192x512_S512x1000_S8192x1000_1_0_0_1_n_n : DotDims S8192x512 S512x1000 S8192x1000 where
  lhsContracting := [1]
  rhsContracting := [0]
  lhsNonContracting := [0]
  rhsNonContracting := [1]
  lhsBatch := []
  rhsBatch := []
  wf := dot_S8192x512_S512x1000_S8192x1000_1_0_0_1_n_n_wf

class Facts : Prop extends Facts₀ where

variable [Facts]
-- ==== Proof.Spec.lean ====
/-
  The function both programs compute, index by index, on the extended reals.

  Inputs: an index array x : int32[8192, 32], a stack of 32 embedding tables T : [32, 1000, 64], and the weights and
  biases of a three-layer perceptron. For batch row b, field f selects row x[b, f] of table f: a vector of 64 numbers.
  The perceptron's input for row b is those 32 vectors laid side by side (2048 numbers) followed by the 496 inner
  products of distinct fields' vectors, pair (i, j), i < j, in row-major order of (i, j). Then
  out[b, o] = logistic (relu (relu (h W1 + b1) W2 + b2) W3 + b3).
-/
import Idealize.ShloMosaic.PureOps.Ideal
import Idealize.ShloMosaic.Lib.ValueIdx

noncomputable section

namespace Cert.Spec

open Idealize.ShloMosaic Idealize.ShloMosaic.ValueIdx
open scoped BigOperators

abbrev SX : Shape := ⟨2, ![8192, 32]⟩
abbrev ST : Shape := ⟨3, ![32, 1000, 64]⟩
abbrev SW1 : Shape := ⟨2, ![2544, 1024]⟩
abbrev SB1 : Shape := ⟨1, ![1024]⟩
abbrev SW2 : Shape := ⟨2, ![1024, 512]⟩
abbrev SB2 : Shape := ⟨1, ![512]⟩
abbrev SW3 : Shape := ⟨2, ![512, 1000]⟩
abbrev SB3 : Shape := ⟨1, ![1000]⟩
abbrev SO : Shape := ⟨2, ![8192, 1000]⟩

/-- The table row that batch row `b`'s field `f` selects: the index word read as a natural number (kept below 1000,
    which it is on every admitted input). -/
def sel (x : IVec SX 32) (b : Fin 8192) (f : Fin 32) : Fin 1000 := ⟨min (x (ix2 b f)).toNat 999, by omega⟩

/-- Entry `d` of the embedding vector of field `f` in batch row `b`. -/
def emb (x : IVec SX 32) (T : FVec Ideal ST .f32) (b : Fin 8192) (f : Fin 32) (d : Fin 64) : EReal :=
  T (ix3 f (sel x b f) d)

/-- The pairs (i, j), i < j < 32, in row-major order: positions k = 32 i + j of the strict upper triangle. -/
def pairList : List (Nat × Nat) :=
  ((List.range 1024).filter fun k => k / 32 < k % 32).map fun k => (k / 32, k % 32)

theorem pairList_length : pairList.length = 496 := by decide

theorem pairList_lt : ∀ p : Fin 496, (pairList[p.val]'(by rw [pairList_length]; exact p.isLt)).1 < 32
    ∧ (pairList[p.val]'(by rw [pairList_length]; exact p.isLt)).2 < 32 := by decide

/-- The smaller field of pair number `p`. -/
def pairI (p : Fin 496) : Fin 32 := ⟨(pairList[p.val]'(by rw [pairList_length]; exact p.isLt)).1, (pairList_lt p).1⟩
/-- The larger field of pair number `p`. -/
def pairJ (p : Fin 496) : Fin 32 := ⟨(pairList[p.val]'(by rw [pairList_length]; exact p.isLt)).2, (pairList_lt p).2⟩

/-- Entry `i` of the perceptron's input for batch row `b`. -/
def hvec (x : IVec SX 32) (T : FVec Ideal ST .f32) (b : Fin 8192) (i : Fin 2544) : EReal :=
  if h : i.val < 2048 then emb x T b ⟨i.val / 64, by omega⟩ ⟨i.val % 64, Nat.mod_lt _ (by decide)⟩
  else ∑ d : Fin 64, emb x T b (pairI ⟨i.val - 2048, by omega⟩) d * emb x T b (pairJ ⟨i.val - 2048, by omega⟩) d

/-- First hidden layer. -/
def l1 (x : IVec SX 32) (T : FVec Ideal ST .f32) (W1 : FVec Ideal SW1 .f32) (b1 : FVec Ideal SB1 .f32)
    (b : Fin 8192) (j : Fin 1024) : EReal :=
  max ((∑ i : Fin 2544, hvec x T b i * W1 (ix2 i j)) + b1 (ix1 j)) 0

/-- Second hidden layer. -/
def l2 (x : IVec SX 32) (T : FVec Ideal ST .f32) (W1 : FVec Ideal SW1 .f32) (b1 : FVec Ideal SB1 .f32)
    (W2 : FVec Ideal SW2 .f32) (b2 : FVec Ideal SB2 .f32) (b : Fin 8192) (k : Fin 512) : EReal :=
  max ((∑ j : Fin 1024, l1 x T W1 b1 b j * W2 (ix2 j k)) + b2 (ix1 k)) 0

/-- The result, entry (b, o). -/
def out (x : IVec SX 32) (T : FVec Ideal ST .f32) (W1 : FVec Ideal SW1 .f32) (b1 : FVec Ideal SB1 .f32)
    (W2 : FVec Ideal SW2 .f32) (b2 : FVec Ideal SB2 .f32) (W3 : FVec Ideal SW3 .f32) (b3 : FVec Ideal SB3 .f32)
    (b : Fin 8192) (o : Fin 1000) : EReal :=
  Ideal.logistic ((∑ k : Fin 512, l2 x T W1 b1 W2 b2 b k * W3 (ix2 k o)) + b3 (ix1 o))

/-- The result array as one function of the argument arrays. -/
def G (x : IVec SX 32) (T : FVec Ideal ST .f32) (W1 : FVec Ideal SW1 .f32) (b1 : FVec Ideal SB1 .f32)
    (W2 : FVec Ideal SW2 .f32) (b2 : FVec Ideal SB2 .f32) (W3 : FVec Ideal SW3 .f32) (b3 : FVec Ideal SB3 .f32) :
    FVec Ideal SO .f32 :=
  fun i => out x T W1 b1 W2 b2 W3 b3 (i 0) (i 1)

/-- The admitted index arrays: every index word, read unsigned, is below 1000 (so it is also non-negative read signed). -/
def InRange (x : IVec SX 32) : Prop := ∀ i : SX.Idx, (x i).toNat < 1000

end Cert.Spec

end
-- ==== Proof.KerSpec.lean ====
/-
  The value one grid point's body computes, in terms of the 32 field vectors of each of the block's 256 rows.
-/
import proofs.«401391_j12421045420606_1_alg».proof.Proof.Spec
import proofs.«401391_j12421045420606_1_alg».proof.Proof.Gen.KernelIdeal.Skeleton

noncomputable section

namespace Cert.KernelIdeal.Body

open Cert.KernelIdeal Idealize.ShloMosaic Idealize.ShloMosaic.ValueIdx Cert.Spec
open scoped BigOperators

/-- Entry `d` of field `f`'s vector in row `r` of the block: the table row the block's index word selects. -/
def Eblk (x0 : Vec Ideal S256x32 .i32) (x1 : Vec Ideal S32x1000x64 .bf16) (f : Fin 32) (r : Fin 256) (d : Fin 64) : EReal :=
  x1 (ix3 f ⟨min (x0 (ix2 r f)).toNat 999, by omega⟩ d)

/-- Entry `i` of the perceptron's input for row `r`, from the field vectors `E`: the 32 vectors side by side, then the
    496 inner products of distinct fields in row-major order of the pair. -/
def hK (E : Fin 32 → Fin 256 → Fin 64 → EReal) (r : Fin 256) (i : Fin 2544) : EReal :=
  if h : i.val < 2048 then E ⟨i.val / 64, by omega⟩ r ⟨i.val % 64, Nat.mod_lt _ (by decide)⟩
  else ∑ d : Fin 64, E (pairI ⟨i.val - 2048, by omega⟩) r d * E (pairJ ⟨i.val - 2048, by omega⟩) r d

/-- The perceptron and the logistic on one row's input `h`, with the weights as the body loads them (biases as [1, n]). -/
def mlpK (h : Fin 2544 → EReal) (w1 : Vec Ideal S2544x1024 .bf16) (c1 : Vec Ideal S1x1024 .f32)
    (w2 : Vec Ideal S1024x512 .bf16) (c2 : Vec Ideal S1x512 .f32) (w3 : Vec Ideal S512x1000 .bf16) (c3 : Vec Ideal S1x1000 .f32)
    (o : Fin 1000) : EReal :=
  Ideal.logistic ((∑ k : Fin 512, max ((∑ j : Fin 1024, max ((∑ i : Fin 2544, h i * w1 (ix2 i j)) + c1 (ix2 0 j)) 0
    * w2 (ix2 j k)) + c2 (ix2 0 k)) 0 * w3 (ix2 k o)) + c3 (ix2 0 o))

end Cert.KernelIdeal.Body

end
-- ==== Proof.KerEmb.lean ====
/-
  The 32 field terms of one grid point's body, read at an index: each is the table row that the block's index word
  selects. A field term is the product of a one-hot [256, 1000] matrix (index column == position) with the field's
  [1000, 64] table, so entry (r, d) is the table's entry (x[r], d).
-/
import proofs.«401391_j12421045420606_1_alg».proof.Proof.KerSpec
import proofs.«401391_j12421045420606_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.Spec
open scoped BigOperators

/-- The one function all 32 field terms are: the one-hot matrix of an index column against the positions 0 … 999, times
    the table. -/
def lookup (xcol : Vec Ideal S256x1 .i32) (tab : Vec Ideal S1x1000x64 .bf16) : FVec Ideal S256x64 .f32 :=
  matmul (F := Ideal) dot_S256x1000_S1000x64_S256x64_1_0_0_1_n_n none
    (truncf (F := Ideal) .bf16 (sitofp (F := Ideal) .f32 (extui 32 (cmpi .eq
      (broadcastTo S256x1000 xcol broadcasts_S256x1_S256x1000)
      (broadcastTo S256x1000 (iota .tc S1x1000 32 [1] iota_S1x1000_d1_w32) broadcasts_S1x1000_S256x1000)) natLt_1_32)) bitsLt_bf16_f32)
    (shapeCast S1000x64 tab shapeCasts_S1x1000x64_S1000x64 : FVec Ideal S1000x64 .bf16) (constant (F := Ideal) S256x64 .f32 0x00000000#32)

/-! ## The operand indices of the one-hot product -/

/-- Row coordinate of the left operand's index: the output's row. -/
theorem lhs_lookup_0 (j : S256x64.Idx) (k : dot_S256x1000_S1000x64_S256x64_1_0_0_1_n_n.contr.Idx) :
    (dot_S256x1000_S1000x64_S256x64_1_0_0_1_n_n.lhsIdx j k 0 : ℕ) = j 0 := by
  simp [DotDims.lhsIdx, dot_S256x1000_S1000x64_S256x64_1_0_0_1_n_n]; rfl
/-- Column coordinate of the left operand's index: the contraction position. -/
theorem lhs_lookup_1 (j : S256x64.Idx) (k : dot_S256x1000_S1000x64_S256x64_1_0_0_1_n_n.contr.Idx) :
    (dot_S256x1000_S1000x64_S256x64_1_0_0_1_n_n.lhsIdx j k 1 : ℕ) = k ⟨0, by decide⟩ := by
  simp [DotDims.lhsIdx, dot_S256x1000_S1000x64_S256x64_1_0_0_1_n_n]; rfl
/-- Row coordinate of the right operand's index: the contraction position. -/
theorem rhs_lookup_0 (j : S256x64.Idx) (k : dot_S256x1000_S1000x64_S256x64_1_0_0_1_n_n.contr.Idx) :
    (dot_S256x1000_S1000x64_S256x64_1_0_0_1_n_n.rhsIdx j k 0 : ℕ) = k ⟨0, by decide⟩ := by
  simp [DotDims.rhsIdx, dot_S256x1000_S1000x64_S256x64_1_0_0_1_n_n]; rfl
/-- Column coordinate of the right operand's index: the output's column. -/
theorem rhs_lookup_1 (j : S256x64.Idx) (k : dot_S256x1000_S1000x64_S256x64_1_0_0_1_n_n.contr.Idx) :
    (dot_S256x1000_S1000x64_S256x64_1_0_0_1_n_n.rhsIdx j k 1 : ℕ) = j 1 := by
  simp [DotDims.rhsIdx, dot_S256x1000_S1000x64_S256x64_1_0_0_1_n_n]; rfl

/-- The contraction positions are 0 … 999. -/
def posEquiv : dot_S256x1000_S1000x64_S256x64_1_0_0_1_n_n.contr.Idx ≃ Fin 1000 :=
  contrEquiv1 dot_S256x1000_S1000x64_S256x64_1_0_0_1_n_n 1000 rfl rfl

theorem lhs_lookup_pos (r : Fin 256) (d : Fin 64) (i : Fin 1000) :
    dot_S256x1000_S1000x64_S256x64_1_0_0_1_n_n.lhsIdx (ix2 r d) (posEquiv.symm i) = ix2 r i :=
  Shape.idx_ext₂ (lhs_lookup_0 _ _) ((lhs_lookup_1 _ _).trans (contrEquiv1_symm_val _ _ _ _ i))

theorem rhs_lookup_pos (r : Fin 256) (d : Fin 64) (i : Fin 1000) :
    dot_S256x1000_S1000x64_S256x64_1_0_0_1_n_n.rhsIdx (ix2 r d) (posEquiv.symm i) = ix2 i d :=
  Shape.idx_ext₂ ((rhs_lookup_0 _ _).trans (contrEquiv1_symm_val _ _ _ _ i)) (rhs_lookup_1 _ _)

/-! ## The one-hot matrix and the table at an index -/

/-- A one-bit equality test, widened and read as a signed integer, is 1 when the words agree and 0 when not. -/
theorem onehot_word (a b : BitVec 32) :
    ((((IntOp.cmpi .eq a b).setWidth 32).toInt : ℝ) : EReal) = if a = b then 1 else 0 := by
  have e : IntOp.cmpi .eq a b = BitVec.ofBool (a == b) := rfl
  rw [e]
  by_cases h : a = b
  · rw [if_pos h, beq_iff_eq.mpr h]; simp
  · rw [if_neg h, beq_eq_false_iff_ne.mpr h]; simp

/-- The one-hot matrix at (r, i): 1 when row r's index word is position i's word, else 0. -/
theorem onehot_apply (xcol : Vec Ideal S256x1 .i32) (r : Fin 256) (i : Fin 1000) :
    truncf (F := Ideal) .bf16 (sitofp (F := Ideal) .f32 (extui 32 (cmpi .eq
      (broadcastTo S256x1000 xcol broadcasts_S256x1_S256x1000)
      (broadcastTo S256x1000 (iota .tc S1x1000 32 [1] iota_S1x1000_d1_w32) broadcasts_S1x1000_S256x1000)) natLt_1_32)) bitsLt_bf16_f32 (ix2 r i)
      = if xcol (ix2 r 0) = BitVec.ofNat 32 i.val then 1 else 0 := by
  have e1 : broadcastTo S256x1000 xcol broadcasts_S256x1_S256x1000 (ix2 r i) = xcol (ix2 r 0) :=
    broadcastTo_apply xcol _ (ix2 r i) (ix2 r 0) (fun a => by match a with | ⟨0, _⟩ => rfl | ⟨1, _⟩ => rfl)
  have e2 : broadcastTo S256x1000 (iota .tc S1x1000 32 [1] iota_S1x1000_d1_w32) broadcasts_S1x1000_S256x1000 (ix2 r i)
      = BitVec.ofNat 32 i.val := by
    refine (broadcastTo_apply _ _ (ix2 r i) (ix2 0 i) (fun a => by match a with | ⟨0, _⟩ => rfl | ⟨1, _⟩ => rfl)).trans ?_
    exact iota_single_apply .tc S1x1000 32 1 iota_S1x1000_d1_w32 (ix2 0 i)
  show ((((IntOp.cmpi .eq (broadcastTo S256x1000 xcol broadcasts_S256x1_S256x1000 (ix2 r i))
    (broadcastTo S256x1000 (iota .tc S1x1000 32 [1] iota_S1x1000_d1_w32) broadcasts_S1x1000_S256x1000 (ix2 r i))).setWidth 32).toInt : ℝ) : EReal) = _
  rw [e1, e2]
  exact onehot_word _ _

/-- The table viewed [1000, 64] at (i, d) is the loaded block at (0, i, d). -/
theorem table_apply (tab : Vec Ideal S1x1000x64 .bf16) (i : Fin 1000) (d : Fin 64) :
    (shapeCast S1000x64 tab shapeCasts_S1x1000x64_S1000x64 : FVec Ideal S1000x64 .bf16) (ix2 i d) = tab (ix3 0 i d) :=
  shapeCast_apply tab _ (ix2 i d) (ix3 0 i d) (by
    rw [Shape.rowMajor_val_three, Shape.rowMajor_val_two]
    show ((0 * 1000 + i.val) * 64 + d.val) = i.val * 64 + d.val
    omega)

/-! ## The product selects the table's row -/

/-- A 32-bit word below 1000 is the word of its own value … -/
theorem word_eq_ofNat_toNat (a : BitVec 32) : a = BitVec.ofNat 32 a.toNat :=
  BitVec.eq_of_toNat_eq (by rw [BitVec.toNat_ofNat]; exact (Nat.mod_eq_of_lt a.isLt).symm)

/-- … and of no other position's. -/
theorem toNat_eq_of_word_eq (a : BitVec 32) (i : Fin 1000) (e : a = BitVec.ofNat 32 i.val) : a.toNat = i.val := by
  rw [e, BitVec.toNat_ofNat]
  exact Nat.mod_eq_of_lt (by have := i.isLt; omega)

theorem lookup_apply (xcol : Vec Ideal S256x1 .i32) (tab : Vec Ideal S1x1000x64 .bf16) (r : Fin 256) (d : Fin 64)
    (h : (xcol (ix2 r 0)).toNat < 1000) :
    lookup xcol tab (ix2 r d) = tab (ix3 0 ⟨(xcol (ix2 r 0)).toNat, h⟩ d) := by
  unfold lookup
  refine (Ideal.matmul_constant_zero_apply dot_S256x1000_S1000x64_S256x64_1_0_0_1_n_n none _ _ (ix2 r d)).trans ?_
  rw [← Equiv.sum_comp posEquiv.symm]
  refine (Finset.sum_congr rfl (g := fun i : Fin 1000 =>
    (if xcol (ix2 r 0) = BitVec.ofNat 32 i.val then (1 : EReal) else 0) * tab (ix3 0 i d)) fun i _ => ?_).trans ?_
  · rw [lhs_lookup_pos, rhs_lookup_pos]
    exact congrArg₂ (· * ·) (onehot_apply xcol r i) (table_apply tab i d)
  · rw [Finset.sum_eq_single (⟨(xcol (ix2 r 0)).toNat, h⟩ : Fin 1000)]
    · show (if xcol (ix2 r 0) = BitVec.ofNat 32 (xcol (ix2 r 0)).toNat then (1 : EReal) else 0) * _ = _
      rw [if_pos (word_eq_ofNat_toNat _), one_mul]
    · intro i _ hi
      show (if xcol (ix2 r 0) = BitVec.ofNat 32 i.val then (1 : EReal) else 0) * _ = _
      rw [if_neg (fun e => hi (Fin.ext (toNat_eq_of_word_eq _ i e).symm)), zero_mul]
    · intro hn; exact absurd (Finset.mem_univ _) hn

/-! ## The loads: column f of the index block, table f of the stack -/

/-- The [256, 1] block loaded at column c of the index block, at (r, 0), is the block's entry (r, c). -/
theorem ld_col (x0 : Vec Ideal S256x32 .i32) (c : Nat) (hc : c < 32)
    (inb : ∀ a, (![0, c] : Fin 2 → Nat) a + S256x1.size a ≤ S256x32.size a) (r : Fin 256) :
    View.ld x0 (Rect.unit (s := S256x32) ![0, c] S256x1.size inb) (ix2 r 0) = x0 (ix2 r ⟨c, hc⟩) := by
  show x0 _ = x0 _
  refine congrArg x0 (Shape.idx_ext₂ ?_ ?_)
  · show 0 + 1 * r.val = r.val
    omega
  · show c + 1 * 0 = c
    omega

/-- The [1, 1000, 64] block loaded at table c of the stack, at (0, v, d), is the stack's entry (c, v, d). -/
theorem ld_tab (x1 : Vec Ideal S32x1000x64 .bf16) (c : Nat) (hc : c < 32)
    (inb : ∀ a, (![c, 0, 0] : Fin 3 → Nat) a + S1x1000x64.size a ≤ S32x1000x64.size a) (v : Fin 1000) (d : Fin 64) :
    View.ld x1 (Rect.unit (s := S32x1000x64) ![c, 0, 0] S1x1000x64.size inb) (ix3 0 v d) = x1 (ix3 ⟨c, hc⟩ v d) := by
  show x1 _ = x1 _
  refine congrArg x1 (funext fun a => Fin.ext ?_)
  match a with
  | ⟨0, _⟩ => show c + 1 * 0 = c; omega
  | ⟨1, _⟩ => show 0 + 1 * v.val = v.val; omega
  | ⟨2, _⟩ => show 0 + 1 * d.val = d.val; omega

/-- A field term, once it is the lookup of the loaded column and table, is the field's selected table entry. -/
theorem lookup_ld (x0 : Vec Ideal S256x32 .i32) (x1 : Vec Ideal S32x1000x64 .bf16)
    (hx : ∀ (r : Fin 256) (f : Fin 32), (x0 (ix2 r f)).toNat < 1000) (c : Nat) (hc : c < 32)
    (inb0 : ∀ a, (![0, c] : Fin 2 → Nat) a + S256x1.size a ≤ S256x32.size a)
    (inb1 : ∀ a, (![c, 0, 0] : Fin 3 → Nat) a + S1x1000x64.size a ≤ S32x1000x64.size a) (r : Fin 256) (d : Fin 64) :
    lookup (View.ld x0 (Rect.unit (s := S256x32) ![0, c] S256x1.size inb0))
      (View.ld x1 (Rect.unit (s := S32x1000x64) ![c, 0, 0] S1x1000x64.size inb1)) (ix2 r d)
      = Eblk x0 x1 ⟨c, hc⟩ r d := by
  have hcol := ld_col x0 c hc inb0 r
  have hlt : (View.ld x0 (Rect.unit (s := S256x32) ![0, c] S256x1.size inb0) (ix2 r 0)).toNat < 1000 := by
    rw [hcol]; exact hx r ⟨c, hc⟩
  refine (lookup_apply _ _ r d hlt).trans ?_
  refine (ld_tab x1 c hc inb1 _ d).trans ?_
  unfold Eblk
  refine congrArg x1 (congrArg (fun v => ix3 (⟨c, hc⟩ : Fin 32) v d) (Fin.ext ?_))
  show (View.ld x0 (Rect.unit (s := S256x32) ![0, c] S256x1.size inb0) (ix2 r 0)).toNat
    = min (x0 (ix2 r ⟨c, hc⟩)).toNat 999
  rw [hcol]
  have := hx r ⟨c, hc⟩
  omega

/-! ## The 32 field terms -/

/-- Field 0's term at (r, d). -/
theorem fld0 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay2 (F := Ideal) (View.ld x0 r0_0) (View.ld x1 r0_1) (ix2 r d) = Eblk x0 x1 0 r d := by
  intro r d
  have e : k0_pay2 (F := Ideal) (View.ld x0 r0_0) (View.ld x1 r0_1)
      = lookup (View.ld x0 r0_0) (View.ld x1 r0_1) := rfl
  rw [e]
  exact lookup_ld x0 x1 hx 0 (by decide) _ _ r d

/-- Field 1's term at (r, d). -/
theorem fld1 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay3 (F := Ideal) (View.ld x0 r0_2) (View.ld x1 r0_3) (ix2 r d) = Eblk x0 x1 1 r d := by
  intro r d
  have e : k0_pay3 (F := Ideal) (View.ld x0 r0_2) (View.ld x1 r0_3)
      = lookup (View.ld x0 r0_2) (View.ld x1 r0_3) := rfl
  rw [e]
  exact lookup_ld x0 x1 hx 1 (by decide) _ _ r d

/-- Field 2's term at (r, d). -/
theorem fld2 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay4 (F := Ideal) (View.ld x0 r0_4) (View.ld x1 r0_5) (ix2 r d) = Eblk x0 x1 2 r d := by
  intro r d
  have e : k0_pay4 (F := Ideal) (View.ld x0 r0_4) (View.ld x1 r0_5)
      = lookup (View.ld x0 r0_4) (View.ld x1 r0_5) := rfl
  rw [e]
  exact lookup_ld x0 x1 hx 2 (by decide) _ _ r d

/-- Field 3's term at (r, d). -/
theorem fld3 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay6 (F := Ideal) (k0_pay5 (F := Ideal) (View.ld x0 r0_6)) (View.ld x1 r0_7) (ix2 r d) = Eblk x0 x1 3 r d := by
  intro r d
  have e : k0_pay6 (F := Ideal) (k0_pay5 (F := Ideal) (View.ld x0 r0_6)) (View.ld x1 r0_7)
      = lookup (View.ld x0 r0_6) (View.ld x1 r0_7) := rfl
  rw [e]
  exact lookup_ld x0 x1 hx 3 (by decide) _ _ r d

/-- Field 4's term at (r, d). -/
theorem fld4 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay7 (F := Ideal) (iota .tc S1x1000 32 [1] iota_S1x1000_d1_w32) (View.ld x0 r0_8) (View.ld x1 r0_9) (ix2 r d) = Eblk x0 x1 4 r d := by
  intro r d
  have e : k0_pay7 (F := Ideal) (iota .tc S1x1000 32 [1] iota_S1x1000_d1_w32) (View.ld x0 r0_8) (View.ld x1 r0_9)
      = lookup (View.ld x0 r0_8) (View.ld x1 r0_9) := rfl
  rw [e]
  exact lookup_ld x0 x1 hx 4 (by decide) _ _ r d

/-- Field 5's term at (r, d). -/
theorem fld5 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay8 (F := Ideal) (iota .tc S1x1000 32 [1] iota_S1x1000_d1_w32) (View.ld x0 r0_10) (View.ld x1 r0_11) (ix2 r d) = Eblk x0 x1 5 r d := by
  intro r d
  have e : k0_pay8 (F := Ideal) (iota .tc S1x1000 32 [1] iota_S1x1000_d1_w32) (View.ld x0 r0_10) (View.ld x1 r0_11)
      = lookup (View.ld x0 r0_10) (View.ld x1 r0_11) := rfl
  rw [e]
  exact lookup_ld x0 x1 hx 5 (by decide) _ _ r d

/-- Field 6's term at (r, d). -/
theorem fld6 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay9 (F := Ideal) (iota .tc S1x1000 32 [1] iota_S1x1000_d1_w32) (View.ld x0 r0_12) (View.ld x1 r0_13) (ix2 r d) = Eblk x0 x1 6 r d := by
  intro r d
  have e : k0_pay9 (F := Ideal) (iota .tc S1x1000 32 [1] iota_S1x1000_d1_w32) (View.ld x0 r0_12) (View.ld x1 r0_13)
      = lookup (View.ld x0 r0_12) (View.ld x1 r0_13) := rfl
  rw [e]
  exact lookup_ld x0 x1 hx 6 (by decide) _ _ r d

/-- Field 7's term at (r, d). -/
theorem fld7 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay11 (F := Ideal) (k0_pay10 (F := Ideal) (iota .tc S1x1000 32 [1] iota_S1x1000_d1_w32) (View.ld x0 r0_14)) (View.ld x1 r0_15) (ix2 r d) = Eblk x0 x1 7 r d := by
  intro r d
  have e : k0_pay11 (F := Ideal) (k0_pay10 (F := Ideal) (iota .tc S1x1000 32 [1] iota_S1x1000_d1_w32) (View.ld x0 r0_14)) (View.ld x1 r0_15)
      = lookup (View.ld x0 r0_14) (View.ld x1 r0_15) := rfl
  rw [e]
  exact lookup_ld x0 x1 hx 7 (by decide) _ _ r d

/-- Field 8's term at (r, d). -/
theorem fld8 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay12 (F := Ideal) (iota .tc S1x1000 32 [1] iota_S1x1000_d1_w32) (View.ld x0 r0_16) (View.ld x1 r0_17) (ix2 r d) = Eblk x0 x1 8 r d := by
  intro r d
  have e : k0_pay12 (F := Ideal) (iota .tc S1x1000 32 [1] iota_S1x1000_d1_w32) (View.ld x0 r0_16) (View.ld x1 r0_17)
      = lookup (View.ld x0 r0_16) (View.ld x1 r0_17) := rfl
  rw [e]
  exact lookup_ld x0 x1 hx 8 (by decide) _ _ r d

/-- Field 9's term at (r, d). -/
theorem fld9 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay13 (F := Ideal) (iota .tc S1x1000 32 [1] iota_S1x1000_d1_w32) (View.ld x0 r0_18) (View.ld x1 r0_19) (ix2 r d) = Eblk x0 x1 9 r d := by
  intro r d
  have e : k0_pay13 (F := Ideal) (iota .tc S1x1000 32 [1] iota_S1x1000_d1_w32) (View.ld x0 r0_18) (View.ld x1 r0_19)
      = lookup (View.ld x0 r0_18) (View.ld x1 r0_19) := rfl
  rw [e]
  exact lookup_ld x0 x1 hx 9 (by decide) _ _ r d

/-- Field 10's term at (r, d). -/
theorem fld10 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay14 (F := Ideal) (iota .tc S1x1000 32 [1] iota_S1x1000_d1_w32) (View.ld x0 r0_20) (View.ld x1 r0_21) (ix2 r d) = Eblk x0 x1 10 r d := by
  intro r d
  have e : k0_pay14 (F := Ideal) (iota .tc S1x1000 32 [1] iota_S1x1000_d1_w32) (View.ld x0 r0_20) (View.ld x1 r0_21)
      = lookup (View.ld x0 r0_20) (View.ld x1 r0_21) := rfl
  rw [e]
  exact lookup_ld x0 x1 hx 10 (by decide) _ _ r d

/-- Field 11's term at (r, d). -/
theorem fld11 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay15 (F := Ideal) (iota .tc S1x1000 32 [1] iota_S1x1000_d1_w32) (View.ld x0 r0_22) (View.ld x1 r0_23) (ix2 r d) = Eblk x0 x1 11 r d := by
  intro r d
  have e : k0_pay15 (F := Ideal) (iota .tc S1x1000 32 [1] iota_S1x1000_d1_w32) (View.ld x0 r0_22) (View.ld x1 r0_23)
      = lookup (View.ld x0 r0_22) (View.ld x1 r0_23) := rfl
  rw [e]
  exact lookup_ld x0 x1 hx 11 (by decide) _ _ r d

/-- Field 12's term at (r, d). -/
theorem fld12 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay16 (F := Ideal) (iota .tc S1x1000 32 [1] iota_S1x1000_d1_w32) (View.ld x0 r0_24) (View.ld x1 r0_25) (ix2 r d) = Eblk x0 x1 12 r d := by
  intro r d
  have e : k0_pay16 (F := Ideal) (iota .tc S1x1000 32 [1] iota_S1x1000_d1_w32) (View.ld x0 r0_24) (View.ld x1 r0_25)
      = lookup (View.ld x0 r0_24) (View.ld x1 r0_25) := rfl
  rw [e]
  exact lookup_ld x0 x1 hx 12 (by decide) _ _ r d

/-- Field 13's term at (r, d). -/
theorem fld13 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay17 (F := Ideal) (iota .tc S1x1000 32 [1] iota_S1x1000_d1_w32) (View.ld x0 r0_26) (View.ld x1 r0_27) (ix2 r d) = Eblk x0 x1 13 r d := by
  intro r d
  have e : k0_pay17 (F := Ideal) (iota .tc S1x1000 32 [1] iota_S1x1000_d1_w32) (View.ld x0 r0_26) (View.ld x1 r0_27)
      = lookup (View.ld x0 r0_26) (View.ld x1 r0_27) := rfl
  rw [e]
  exact lookup_ld x0 x1 hx 13 (by decide) _ _ r d

/-- Field 14's term at (r, d). -/
theorem fld14 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay20 (F := Ideal) (k0_pay18 (F := Ideal) (iota .tc S1x1000 32 [1] iota_S1x1000_d1_w32) (View.ld x0 r0_28)) (k0_pay19 (F := Ideal) (View.ld x1 r0_29)) (ix2 r d) = Eblk x0 x1 14 r d := by
  intro r d
  have e : k0_pay20 (F := Ideal) (k0_pay18 (F := Ideal) (iota .tc S1x1000 32 [1] iota_S1x1000_d1_w32) (View.ld x0 r0_28)) (k0_pay19 (F := Ideal) (View.ld x1 r0_29))
      = lookup (View.ld x0 r0_28) (View.ld x1 r0_29) := rfl
  rw [e]
  exact lookup_ld x0 x1 hx 14 (by decide) _ _ r d

/-- Field 15's term at (r, d). -/
theorem fld15 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay21 (F := Ideal) (iota .tc S1x1000 32 [1] iota_S1x1000_d1_w32) (View.ld x0 r0_30) (View.ld x1 r0_31) (ix2 r d) = Eblk x0 x1 15 r d := by
  intro r d
  have e : k0_pay21 (F := Ideal) (iota .tc S1x1000 32 [1] iota_S1x1000_d1_w32) (View.ld x0 r0_30) (View.ld x1 r0_31)
      = lookup (View.ld x0 r0_30) (View.ld x1 r0_31) := rfl
  rw [e]
  exact lookup_ld x0 x1 hx 15 (by decide) _ _ r d

/-- Field 16's term at (r, d). -/
theorem fld16 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay22 (F := Ideal) (iota .tc S1x1000 32 [1] iota_S1x1000_d1_w32) (View.ld x0 r0_32) (View.ld x1 r0_33) (ix2 r d) = Eblk x0 x1 16 r d := by
  intro r d
  have e : k0_pay22 (F := Ideal) (iota .tc S1x1000 32 [1] iota_S1x1000_d1_w32) (View.ld x0 r0_32) (View.ld x1 r0_33)
      = lookup (View.ld x0 r0_32) (View.ld x1 r0_33) := rfl
  rw [e]
  exact lookup_ld x0 x1 hx 16 (by decide) _ _ r d

/-- Field 17's term at (r, d). -/
theorem fld17 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay23 (F := Ideal) (iota .tc S1x1000 32 [1] iota_S1x1000_d1_w32) (View.ld x0 r0_34) (View.ld x1 r0_35) (ix2 r d) = Eblk x0 x1 17 r d := by
  intro r d
  have e : k0_pay23 (F := Ideal) (iota .tc S1x1000 32 [1] iota_S1x1000_d1_w32) (View.ld x0 r0_34) (View.ld x1 r0_35)
      = lookup (View.ld x0 r0_34) (View.ld x1 r0_35) := rfl
  rw [e]
  exact lookup_ld x0 x1 hx 17 (by decide) _ _ r d

/-- Field 18's term at (r, d). -/
theorem fld18 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay25 (F := Ideal) (k0_pay24 (F := Ideal) (iota .tc S1x1000 32 [1] iota_S1x1000_d1_w32) (View.ld x0 r0_36)) (View.ld x1 r0_37) (ix2 r d) = Eblk x0 x1 18 r d := by
  intro r d
  have e : k0_pay25 (F := Ideal) (k0_pay24 (F := Ideal) (iota .tc S1x1000 32 [1] iota_S1x1000_d1_w32) (View.ld x0 r0_36)) (View.ld x1 r0_37)
      = lookup (View.ld x0 r0_36) (View.ld x1 r0_37) := rfl
  rw [e]
  exact lookup_ld x0 x1 hx 18 (by decide) _ _ r d

/-- Field 19's term at (r, d). -/
theorem fld19 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay26 (F := Ideal) (iota .tc S1x1000 32 [1] iota_S1x1000_d1_w32) (View.ld x0 r0_38) (View.ld x1 r0_39) (ix2 r d) = Eblk x0 x1 19 r d := by
  intro r d
  have e : k0_pay26 (F := Ideal) (iota .tc S1x1000 32 [1] iota_S1x1000_d1_w32) (View.ld x0 r0_38) (View.ld x1 r0_39)
      = lookup (View.ld x0 r0_38) (View.ld x1 r0_39) := rfl
  rw [e]
  exact lookup_ld x0 x1 hx 19 (by decide) _ _ r d

/-- Field 20's term at (r, d). -/
theorem fld20 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay27 (F := Ideal) (iota .tc S1x1000 32 [1] iota_S1x1000_d1_w32) (View.ld x0 r0_40) (View.ld x1 r0_41) (ix2 r d) = Eblk x0 x1 20 r d := by
  intro r d
  have e : k0_pay27 (F := Ideal) (iota .tc S1x1000 32 [1] iota_S1x1000_d1_w32) (View.ld x0 r0_40) (View.ld x1 r0_41)
      = lookup (View.ld x0 r0_40) (View.ld x1 r0_41) := rfl
  rw [e]
  exact lookup_ld x0 x1 hx 20 (by decide) _ _ r d

/-- Field 21's term at (r, d). -/
theorem fld21 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay28 (F := Ideal) (iota .tc S1x1000 32 [1] iota_S1x1000_d1_w32) (View.ld x0 r0_42) (View.ld x1 r0_43) (ix2 r d) = Eblk x0 x1 21 r d := by
  intro r d
  have e : k0_pay28 (F := Ideal) (iota .tc S1x1000 32 [1] iota_S1x1000_d1_w32) (View.ld x0 r0_42) (View.ld x1 r0_43)
      = lookup (View.ld x0 r0_42) (View.ld x1 r0_43) := rfl
  rw [e]
  exact lookup_ld x0 x1 hx 21 (by decide) _ _ r d

/-- Field 22's term at (r, d). -/
theorem fld22 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay30 (F := Ideal) (k0_pay29 (F := Ideal) (iota .tc S1x1000 32 [1] iota_S1x1000_d1_w32) (View.ld x0 r0_44)) (View.ld x1 r0_45) (ix2 r d) = Eblk x0 x1 22 r d := by
  intro r d
  have e : k0_pay30 (F := Ideal) (k0_pay29 (F := Ideal) (iota .tc S1x1000 32 [1] iota_S1x1000_d1_w32) (View.ld x0 r0_44)) (View.ld x1 r0_45)
      = lookup (View.ld x0 r0_44) (View.ld x1 r0_45) := rfl
  rw [e]
  exact lookup_ld x0 x1 hx 22 (by decide) _ _ r d

/-- Field 23's term at (r, d). -/
theorem fld23 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay31 (F := Ideal) (iota .tc S1x1000 32 [1] iota_S1x1000_d1_w32) (View.ld x0 r0_46) (View.ld x1 r0_47) (ix2 r d) = Eblk x0 x1 23 r d := by
  intro r d
  have e : k0_pay31 (F := Ideal) (iota .tc S1x1000 32 [1] iota_S1x1000_d1_w32) (View.ld x0 r0_46) (View.ld x1 r0_47)
      = lookup (View.ld x0 r0_46) (View.ld x1 r0_47) := rfl
  rw [e]
  exact lookup_ld x0 x1 hx 23 (by decide) _ _ r d

/-- Field 24's term at (r, d). -/
theorem fld24 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay32 (F := Ideal) (iota .tc S1x1000 32 [1] iota_S1x1000_d1_w32) (View.ld x0 r0_48) (View.ld x1 r0_49) (ix2 r d) = Eblk x0 x1 24 r d := by
  intro r d
  have e : k0_pay32 (F := Ideal) (iota .tc S1x1000 32 [1] iota_S1x1000_d1_w32) (View.ld x0 r0_48) (View.ld x1 r0_49)
      = lookup (View.ld x0 r0_48) (View.ld x1 r0_49) := rfl
  rw [e]
  exact lookup_ld x0 x1 hx 24 (by decide) _ _ r d

/-- Field 25's term at (r, d). -/
theorem fld25 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay33 (F := Ideal) (iota .tc S1x1000 32 [1] iota_S1x1000_d1_w32) (View.ld x0 r0_50) (View.ld x1 r0_51) (ix2 r d) = Eblk x0 x1 25 r d := by
  intro r d
  have e : k0_pay33 (F := Ideal) (iota .tc S1x1000 32 [1] iota_S1x1000_d1_w32) (View.ld x0 r0_50) (View.ld x1 r0_51)
      = lookup (View.ld x0 r0_50) (View.ld x1 r0_51) := rfl
  rw [e]
  exact lookup_ld x0 x1 hx 25 (by decide) _ _ r d

/-- Field 26's term at (r, d). -/
theorem fld26 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay34 (F := Ideal) (iota .tc S1x1000 32 [1] iota_S1x1000_d1_w32) (View.ld x0 r0_52) (View.ld x1 r0_53) (ix2 r d) = Eblk x0 x1 26 r d := by
  intro r d
  have e : k0_pay34 (F := Ideal) (iota .tc S1x1000 32 [1] iota_S1x1000_d1_w32) (View.ld x0 r0_52) (View.ld x1 r0_53)
      = lookup (View.ld x0 r0_52) (View.ld x1 r0_53) := rfl
  rw [e]
  exact lookup_ld x0 x1 hx 26 (by decide) _ _ r d

/-- Field 27's term at (r, d). -/
theorem fld27 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay35 (F := Ideal) (iota .tc S1x1000 32 [1] iota_S1x1000_d1_w32) (View.ld x0 r0_54) (View.ld x1 r0_55) (ix2 r d) = Eblk x0 x1 27 r d := by
  intro r d
  have e : k0_pay35 (F := Ideal) (iota .tc S1x1000 32 [1] iota_S1x1000_d1_w32) (View.ld x0 r0_54) (View.ld x1 r0_55)
      = lookup (View.ld x0 r0_54) (View.ld x1 r0_55) := rfl
  rw [e]
  exact lookup_ld x0 x1 hx 27 (by decide) _ _ r d

/-- Field 28's term at (r, d). -/
theorem fld28 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay36 (F := Ideal) (iota .tc S1x1000 32 [1] iota_S1x1000_d1_w32) (View.ld x0 r0_56) (View.ld x1 r0_57) (ix2 r d) = Eblk x0 x1 28 r d := by
  intro r d
  have e : k0_pay36 (F := Ideal) (iota .tc S1x1000 32 [1] iota_S1x1000_d1_w32) (View.ld x0 r0_56) (View.ld x1 r0_57)
      = lookup (View.ld x0 r0_56) (View.ld x1 r0_57) := rfl
  rw [e]
  exact lookup_ld x0 x1 hx 28 (by decide) _ _ r d

/-- Field 29's term at (r, d). -/
theorem fld29 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay39 (F := Ideal) (k0_pay37 (F := Ideal) (iota .tc S1x1000 32 [1] iota_S1x1000_d1_w32) (View.ld x0 r0_58)) (k0_pay38 (F := Ideal) (View.ld x1 r0_59)) (ix2 r d) = Eblk x0 x1 29 r d := by
  intro r d
  have e : k0_pay39 (F := Ideal) (k0_pay37 (F := Ideal) (iota .tc S1x1000 32 [1] iota_S1x1000_d1_w32) (View.ld x0 r0_58)) (k0_pay38 (F := Ideal) (View.ld x1 r0_59))
      = lookup (View.ld x0 r0_58) (View.ld x1 r0_59) := rfl
  rw [e]
  exact lookup_ld x0 x1 hx 29 (by decide) _ _ r d

/-- Field 30's term at (r, d). -/
theorem fld30 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay40 (F := Ideal) (iota .tc S1x1000 32 [1] iota_S1x1000_d1_w32) (View.ld x0 r0_60) (View.ld x1 r0_61) (ix2 r d) = Eblk x0 x1 30 r d := by
  intro r d
  have e : k0_pay40 (F := Ideal) (iota .tc S1x1000 32 [1] iota_S1x1000_d1_w32) (View.ld x0 r0_60) (View.ld x1 r0_61)
      = lookup (View.ld x0 r0_60) (View.ld x1 r0_61) := rfl
  rw [e]
  exact lookup_ld x0 x1 hx 30 (by decide) _ _ r d

/-- Field 31's term at (r, d). -/
theorem fld31 (x0 : Vec Ideal S256x32 .i32) (x1 : Vec Ideal S32x1000x64 .bf16)
    (hx : ∀ (r : Fin 256) (f : Fin 32), (x0 (ix2 r f)).toNat < 1000) :
    ∀ (r : Fin 256) (d : Fin 64), k0_pay41 (F := Ideal) (iota .tc S1x1000 32 [1] iota_S1x1000_d1_w32) (View.ld x0 r0_62) (View.ld x1 r0_63) (ix2 r d) = Eblk x0 x1 31 r d := by
  intro r d
  have e : k0_pay41 (F := Ideal) (iota .tc S1x1000 32 [1] iota_S1x1000_d1_w32) (View.ld x0 r0_62) (View.ld x1 r0_63)
      = lookup (View.ld x0 r0_62) (View.ld x1 r0_63) := rfl
  rw [e]
  exact lookup_ld x0 x1 hx 31 (by decide) _ _ r d

end Cert.KernelIdeal.Body

end
-- ==== Proof.KerCross.lean ====
/-
  The stack of the 32 field vectors and the cross parts 0 … 28 of one grid point's body, read index by index in terms of
  the field values E (field, row, entry): the stack S[r, f, d] = E f r d, and cross part a at (r, q) is the inner product
  over d of field a + 1 + q with field a.
-/
import proofs.«401391_j12421045420606_1_alg».proof.Proof.KerSpec
import Idealize.ShloMosaic.Lib.ValueIdx
import Idealize.ShloMosaic.Lib.Pipeline.Value
import Idealize.ShloMosaic.Lib.ValueLayout
import Idealize.ShloMosaic.PureOps.Ideal.Laws
import Mathlib.Tactic.FinCases

noncomputable section

namespace Cert.KernelIdeal.Body

open Cert.KernelIdeal Cert.KernelIdeal.Gen Idealize.ShloMosaic Idealize.ShloMosaic.ValueIdx Cert.Spec
open scoped BigOperators

/-! ## General readings -/

/-- A reshape `[m, n] → [m, 1, n]` read at `(r, u, d)` is the operand at `(r, d)`: the two row-major positions agree. -/
theorem shapeCast_midUnit_apply {α : Type} {m n : Nat} (x : (⟨2, ![m, n]⟩ : Shape).Idx → α)
    (h : (⟨2, ![m, n]⟩ : Shape).ShapeCasts ⟨3, ![m, 1, n]⟩) (r : Fin m) (u : Fin 1) (d : Fin n) :
    shapeCast ⟨3, ![m, 1, n]⟩ x h (ix3 r u d) = x (ix2 r d) :=
  shapeCast_apply x h _ _ (by
    have hu : u.val = 0 := by omega
    rw [Shape.rowMajor_val_two, Shape.rowMajor_val_three]
    show r.val * n + d.val = (r.val * 1 + u.val) * n + d.val
    rw [hu, Nat.mul_one, Nat.add_zero])

/-- The product inside a cross part, read at `(r, q, d)`: the stack's slice of `n` fields from field `o1` on, times
    the single field `o0` repeated `n` times, is entry `d` of field `o1 + q` times entry `d` of field `o0`. -/
theorem crossProd_apply {n : Nat} (o0 o1 : Nat) (S : FVec Ideal ⟨3, ![256, 32, 64]⟩ .f32)
    (h0 : (⟨3, ![256, 32, 64]⟩ : Shape).Slices ![0, o0, 0] ⟨3, ![256, 1, 64]⟩)
    (h1 : (⟨3, ![256, 32, 64]⟩ : Shape).Slices ![0, o1, 0] ⟨3, ![256, n, 64]⟩)
    (hb : (⟨3, ![256, 1, 64]⟩ : Shape).Broadcasts ⟨3, ![256, n, 64]⟩)
    (r : Fin 256) (q : Fin n) (d : Fin 64) (k0 k1 : Fin 32) (hk0 : k0.val = o0) (hk1 : k1.val = o1 + q.val) :
    mulf (extractStridedSlice ⟨3, ![256, n, 64]⟩ ![0, o1, 0] S h1)
        (broadcastTo ⟨3, ![256, n, 64]⟩ (extractStridedSlice ⟨3, ![256, 1, 64]⟩ ![0, o0, 0] S h0) hb) (ix3 r q d)
      = S (ix3 r k1 d) * S (ix3 r k0 d) := by
  rw [mulf_apply]
  have e1 := slice3_axis1_apply o1 S h1 r q d k1 hk1
  have e0 : broadcastTo ⟨3, ![256, n, 64]⟩ (extractStridedSlice ⟨3, ![256, 1, 64]⟩ ![0, o0, 0] S h0) hb (ix3 r q d)
      = S (ix3 r k0 d) := by
    refine (broadcastTo_apply _ hb (ix3 r q d) (ix3 r (0 : Fin 1) d) ?_).trans ?_
    · intro a
      match a with
      | ⟨0, _⟩ => rfl
      | ⟨1, _⟩ => rfl
      | ⟨2, _⟩ => rfl
    · exact slice3_axis1_apply o0 S h0 r (0 : Fin 1) d k0 (by rw [hk0]; rfl)
  rw [e1, e0]

/-- The sum over the last axis of a `[256, n, 64]` array, read at `(r, q)`. -/
theorem sumLast_apply {n : Nat} (X : FVec Ideal ⟨3, ![256, n, 64]⟩ .f32)
    (h : (⟨3, ![256, n, 64]⟩ : Shape).Reduces [2] ⟨2, ![256, n]⟩) (r : Fin 256) (q : Fin n) :
    multiReduction (F := Ideal) .add [2] ⟨2, ![256, n]⟩ X 0x00000000#32 h (.inl rfl) rfl (ix2 r q)
      = ∑ d : Fin 64, X (ix3 r q d) := by
  refine (Ideal.multiReduction_add_single X _ h _ _ (ix2 r q)).trans ?_
  refine Finset.sum_congr rfl fun k _ => congrArg X ?_
  funext c
  match c with
  | ⟨0, _⟩ => rfl
  | ⟨1, _⟩ => rfl
  | ⟨2, _⟩ => rfl

/-! ## The reshapes of single field results -/

theorem pay43_apply (v : FVec Ideal S256x64 .f32) (r : Fin 256) (d : Fin 64) : k0_pay43 v (ix3 r 0 d) = v (ix2 r d) :=
  shapeCast_midUnit_apply v _ r 0 d

theorem pay44_apply (v : FVec Ideal S256x64 .f32) (r : Fin 256) (d : Fin 64) : k0_pay44 v (ix3 r 0 d) = v (ix2 r d) :=
  shapeCast_midUnit_apply v _ r 0 d

theorem pay45_apply (v : FVec Ideal S256x64 .f32) (r : Fin 256) (d : Fin 64) : k0_pay45 v (ix3 r 0 d) = v (ix2 r d) :=
  shapeCast_midUnit_apply v _ r 0 d

theorem pay46_apply (v : FVec Ideal S256x64 .f32) (r : Fin 256) (d : Fin 64) : k0_pay46 v (ix3 r 0 d) = v (ix2 r d) :=
  shapeCast_midUnit_apply v _ r 0 d

theorem pay47_apply (v : FVec Ideal S256x64 .f32) (r : Fin 256) (d : Fin 64) : k0_pay47 v (ix3 r 0 d) = v (ix2 r d) :=
  shapeCast_midUnit_apply v _ r 0 d

theorem pay48_apply (v : FVec Ideal S256x64 .f32) (r : Fin 256) (d : Fin 64) : k0_pay48 v (ix3 r 0 d) = v (ix2 r d) :=
  shapeCast_midUnit_apply v _ r 0 d

theorem pay49_apply (v : FVec Ideal S256x64 .f32) (r : Fin 256) (d : Fin 64) : k0_pay49 v (ix3 r 0 d) = v (ix2 r d) :=
  shapeCast_midUnit_apply v _ r 0 d

theorem pay50_apply (v : FVec Ideal S256x64 .f32) (r : Fin 256) (d : Fin 64) : k0_pay50 v (ix3 r 0 d) = v (ix2 r d) :=
  shapeCast_midUnit_apply v _ r 0 d

theorem pay51_apply (v : FVec Ideal S256x64 .f32) (r : Fin 256) (d : Fin 64) : k0_pay51 v (ix3 r 0 d) = v (ix2 r d) :=
  shapeCast_midUnit_apply v _ r 0 d

theorem pay52_apply (v : FVec Ideal S256x64 .f32) (r : Fin 256) (d : Fin 64) : k0_pay52 v (ix3 r 0 d) = v (ix2 r d) :=
  shapeCast_midUnit_apply v _ r 0 d

theorem pay53_apply (v : FVec Ideal S256x64 .f32) (r : Fin 256) (d : Fin 64) : k0_pay53 v (ix3 r 0 d) = v (ix2 r d) :=
  shapeCast_midUnit_apply v _ r 0 d

theorem pay54_apply (v : FVec Ideal S256x64 .f32) (r : Fin 256) (d : Fin 64) : k0_pay54 v (ix3 r 0 d) = v (ix2 r d) :=
  shapeCast_midUnit_apply v _ r 0 d

theorem pay55_apply (v : FVec Ideal S256x64 .f32) (r : Fin 256) (d : Fin 64) : k0_pay55 v (ix3 r 0 d) = v (ix2 r d) :=
  shapeCast_midUnit_apply v _ r 0 d

theorem pay56_apply (v : FVec Ideal S256x64 .f32) (r : Fin 256) (d : Fin 64) : k0_pay56 v (ix3 r 0 d) = v (ix2 r d) :=
  shapeCast_midUnit_apply v _ r 0 d

theorem pay57_apply (v : FVec Ideal S256x64 .f32) (r : Fin 256) (d : Fin 64) : k0_pay57 v (ix3 r 0 d) = v (ix2 r d) :=
  shapeCast_midUnit_apply v _ r 0 d

theorem pay58_apply (v : FVec Ideal S256x64 .f32) (r : Fin 256) (d : Fin 64) : k0_pay58 v (ix3 r 0 d) = v (ix2 r d) :=
  shapeCast_midUnit_apply v _ r 0 d

theorem pay59_apply (v : FVec Ideal S256x64 .f32) (r : Fin 256) (d : Fin 64) : k0_pay59 v (ix3 r 0 d) = v (ix2 r d) :=
  shapeCast_midUnit_apply v _ r 0 d

theorem pay60_apply (v : FVec Ideal S256x64 .f32) (r : Fin 256) (d : Fin 64) : k0_pay60 v (ix3 r 0 d) = v (ix2 r d) :=
  shapeCast_midUnit_apply v _ r 0 d

theorem pay61_apply (v : FVec Ideal S256x64 .f32) (r : Fin 256) (d : Fin 64) : k0_pay61 v (ix3 r 0 d) = v (ix2 r d) :=
  shapeCast_midUnit_apply v _ r 0 d

theorem pay62_apply (v : FVec Ideal S256x64 .f32) (r : Fin 256) (d : Fin 64) : k0_pay62 v (ix3 r 0 d) = v (ix2 r d) :=
  shapeCast_midUnit_apply v _ r 0 d

theorem pay63_apply (v : FVec Ideal S256x64 .f32) (r : Fin 256) (d : Fin 64) : k0_pay63 v (ix3 r 0 d) = v (ix2 r d) :=
  shapeCast_midUnit_apply v _ r 0 d

theorem pay64_apply (v : FVec Ideal S256x64 .f32) (r : Fin 256) (d : Fin 64) : k0_pay64 v (ix3 r 0 d) = v (ix2 r d) :=
  shapeCast_midUnit_apply v _ r 0 d

theorem pay65_apply (v : FVec Ideal S256x64 .f32) (r : Fin 256) (d : Fin 64) : k0_pay65 v (ix3 r 0 d) = v (ix2 r d) :=
  shapeCast_midUnit_apply v _ r 0 d

theorem pay66_apply (v : FVec Ideal S256x64 .f32) (r : Fin 256) (d : Fin 64) : k0_pay66 v (ix3 r 0 d) = v (ix2 r d) :=
  shapeCast_midUnit_apply v _ r 0 d

theorem pay67_apply (v : FVec Ideal S256x64 .f32) (r : Fin 256) (d : Fin 64) : k0_pay67 v (ix3 r 0 d) = v (ix2 r d) :=
  shapeCast_midUnit_apply v _ r 0 d

/-! ## The stack -/

/-- Piece `k` of a concatenation along axis 1 of 32 pieces of extent 1, read at `(r, k, d)`: that piece at
    `(r, 0, d)` (the extents of the pieces before it sum to `k`). -/
theorem stackPiece_apply {α : Type} (xs : List ((s : Shape) × (s.Idx → α)))
    (h : Shape.Concatenates (xs.map (·.1)) S256x32x64 1) (hsh : xs.map (·.1) = List.replicate 32 S256x1x64)
    (r : Fin 256) (d : Fin 64) (k : Nat) (hk32 : k < 32) (x₁ : S256x1x64.Idx → α)
    (hxk : xs[k]? = some ⟨S256x1x64, x₁⟩) :
    concatenate S256x32x64 1 xs h (ix3 r ⟨k, hk32⟩ d) = x₁ (ix3 r 0 d) := by
  have hlen : xs.length = 32 := by
    have e := congrArg List.length hsh
    rwa [List.length_map, List.length_replicate] at e
  have hk : k < xs.length := by rw [hlen]; exact hk32
  have hxk' : xs[k] = ⟨S256x1x64, x₁⟩ := by
    obtain ⟨_, e⟩ := List.getElem?_eq_some_iff.1 hxk
    exact e
  refine concatenate_apply_piece (t := S256x32x64) (1 : Fin 3) xs h (ix3 r ⟨k, hk32⟩ d) k hk S256x1x64 x₁ hxk' rfl k ?_
    (ix3 r 0 d) (fun b hb => ?_) ?_
  · rw [List.map_take, hsh, List.take_replicate, List.map_replicate, List.sum_replicate]
    show min k 32 * 1 = k
    omega
  · match b, hb with
    | ⟨0, _⟩, _ => rfl
    | ⟨1, _⟩, hb => exact absurd rfl hb
    | ⟨2, _⟩, _ => rfl
  · exact Nat.add_zero k

theorem stack_apply (E : Fin 32 → Fin 256 → Fin 64 → EReal)
    (v260 v270 v280 v290 v300 v310 v320 : FVec Ideal S256x64 .f32)
    (v322 v323 v324 v325 v326 v327 v328 v329 v330 v331 v332 v333 v334 v335 v336 v337 v338 v339 v340 v341 v342 v343 v344 v345 v346 : FVec Ideal S256x1x64 .f32)
    (h25 : ∀ (r : Fin 256) (d : Fin 64), v260 (ix2 r d) = E 25 r d)
    (h26 : ∀ (r : Fin 256) (d : Fin 64), v270 (ix2 r d) = E 26 r d)
    (h27 : ∀ (r : Fin 256) (d : Fin 64), v280 (ix2 r d) = E 27 r d)
    (h28 : ∀ (r : Fin 256) (d : Fin 64), v290 (ix2 r d) = E 28 r d)
    (h29 : ∀ (r : Fin 256) (d : Fin 64), v300 (ix2 r d) = E 29 r d)
    (h30 : ∀ (r : Fin 256) (d : Fin 64), v310 (ix2 r d) = E 30 r d)
    (h31 : ∀ (r : Fin 256) (d : Fin 64), v320 (ix2 r d) = E 31 r d)
    (g0 : ∀ (r : Fin 256) (d : Fin 64), v322 (ix3 r 0 d) = E 0 r d)
    (g1 : ∀ (r : Fin 256) (d : Fin 64), v323 (ix3 r 0 d) = E 1 r d)
    (g2 : ∀ (r : Fin 256) (d : Fin 64), v324 (ix3 r 0 d) = E 2 r d)
    (g3 : ∀ (r : Fin 256) (d : Fin 64), v325 (ix3 r 0 d) = E 3 r d)
    (g4 : ∀ (r : Fin 256) (d : Fin 64), v326 (ix3 r 0 d) = E 4 r d)
    (g5 : ∀ (r : Fin 256) (d : Fin 64), v327 (ix3 r 0 d) = E 5 r d)
    (g6 : ∀ (r : Fin 256) (d : Fin 64), v328 (ix3 r 0 d) = E 6 r d)
    (g7 : ∀ (r : Fin 256) (d : Fin 64), v329 (ix3 r 0 d) = E 7 r d)
    (g8 : ∀ (r : Fin 256) (d : Fin 64), v330 (ix3 r 0 d) = E 8 r d)
    (g9 : ∀ (r : Fin 256) (d : Fin 64), v331 (ix3 r 0 d) = E 9 r d)
    (g10 : ∀ (r : Fin 256) (d : Fin 64), v332 (ix3 r 0 d) = E 10 r d)
    (g11 : ∀ (r : Fin 256) (d : Fin 64), v333 (ix3 r 0 d) = E 11 r d)
    (g12 : ∀ (r : Fin 256) (d : Fin 64), v334 (ix3 r 0 d) = E 12 r d)
    (g13 : ∀ (r : Fin 256) (d : Fin 64), v335 (ix3 r 0 d) = E 13 r d)
    (g14 : ∀ (r : Fin 256) (d : Fin 64), v336 (ix3 r 0 d) = E 14 r d)
    (g15 : ∀ (r : Fin 256) (d : Fin 64), v337 (ix3 r 0 d) = E 15 r d)
    (g16 : ∀ (r : Fin 256) (d : Fin 64), v338 (ix3 r 0 d) = E 16 r d)
    (g17 : ∀ (r : Fin 256) (d : Fin 64), v339 (ix3 r 0 d) = E 17 r d)
    (g18 : ∀ (r : Fin 256) (d : Fin 64), v340 (ix3 r 0 d) = E 18 r d)
    (g19 : ∀ (r : Fin 256) (d : Fin 64), v341 (ix3 r 0 d) = E 19 r d)
    (g20 : ∀ (r : Fin 256) (d : Fin 64), v342 (ix3 r 0 d) = E 20 r d)
    (g21 : ∀ (r : Fin 256) (d : Fin 64), v343 (ix3 r 0 d) = E 21 r d)
    (g22 : ∀ (r : Fin 256) (d : Fin 64), v344 (ix3 r 0 d) = E 22 r d)
    (g23 : ∀ (r : Fin 256) (d : Fin 64), v345 (ix3 r 0 d) = E 23 r d)
    (g24 : ∀ (r : Fin 256) (d : Fin 64), v346 (ix3 r 0 d) = E 24 r d) :
    ∀ (r : Fin 256) (f : Fin 32) (d : Fin 64), k0_pay68 v260 v270 v280 v290 v300 v310 v320 v322 v323 v324 v325 v326 v327 v328 v329 v330 v331 v332 v333 v334 v335 v336 v337 v338 v339 v340 v341 v342 v343 v344 v345 v346 (ix3 r f d) = E f r d := by
  intro r f d
  have hc := Gen.concatenates_S256x1x64_S256x1x64_S256x1x64_S256x1x64_S256x1x64_S256x1x64_S256x1x64_S256x1x64_S256x1x64_S256x1x64_S256x1x64_S256x1x64_S256x1x64_S256x1x64_S256x1x64_S256x1x64_S256x1x64_S256x1x64_S256x1x64_S256x1x64_S256x1x64_S256x1x64_S256x1x64_S256x1x64_S256x1x64_S256x1x64_S256x1x64_S256x1x64_S256x1x64_S256x1x64_S256x1x64_S256x1x64_S256x32x64_d1
  fin_cases f
  · exact (stackPiece_apply _ (by exact hc) (by rfl) r d 0 (by decide) v322 (by rfl)).trans (g0 r d)
  · exact (stackPiece_apply _ (by exact hc) (by rfl) r d 1 (by decide) v323 (by rfl)).trans (g1 r d)
  · exact (stackPiece_apply _ (by exact hc) (by rfl) r d 2 (by decide) v324 (by rfl)).trans (g2 r d)
  · exact (stackPiece_apply _ (by exact hc) (by rfl) r d 3 (by decide) v325 (by rfl)).trans (g3 r d)
  · exact (stackPiece_apply _ (by exact hc) (by rfl) r d 4 (by decide) v326 (by rfl)).trans (g4 r d)
  · exact (stackPiece_apply _ (by exact hc) (by rfl) r d 5 (by decide) v327 (by rfl)).trans (g5 r d)
  · exact (stackPiece_apply _ (by exact hc) (by rfl) r d 6 (by decide) v328 (by rfl)).trans (g6 r d)
  · exact (stackPiece_apply _ (by exact hc) (by rfl) r d 7 (by decide) v329 (by rfl)).trans (g7 r d)
  · exact (stackPiece_apply _ (by exact hc) (by rfl) r d 8 (by decide) v330 (by rfl)).trans (g8 r d)
  · exact (stackPiece_apply _ (by exact hc) (by rfl) r d 9 (by decide) v331 (by rfl)).trans (g9 r d)
  · exact (stackPiece_apply _ (by exact hc) (by rfl) r d 10 (by decide) v332 (by rfl)).trans (g10 r d)
  · exact (stackPiece_apply _ (by exact hc) (by rfl) r d 11 (by decide) v333 (by rfl)).trans (g11 r d)
  · exact (stackPiece_apply _ (by exact hc) (by rfl) r d 12 (by decide) v334 (by rfl)).trans (g12 r d)
  · exact (stackPiece_apply _ (by exact hc) (by rfl) r d 13 (by decide) v335 (by rfl)).trans (g13 r d)
  · exact (stackPiece_apply _ (by exact hc) (by rfl) r d 14 (by decide) v336 (by rfl)).trans (g14 r d)
  · exact (stackPiece_apply _ (by exact hc) (by rfl) r d 15 (by decide) v337 (by rfl)).trans (g15 r d)
  · exact (stackPiece_apply _ (by exact hc) (by rfl) r d 16 (by decide) v338 (by rfl)).trans (g16 r d)
  · exact (stackPiece_apply _ (by exact hc) (by rfl) r d 17 (by decide) v339 (by rfl)).trans (g17 r d)
  · exact (stackPiece_apply _ (by exact hc) (by rfl) r d 18 (by decide) v340 (by rfl)).trans (g18 r d)
  · exact (stackPiece_apply _ (by exact hc) (by rfl) r d 19 (by decide) v341 (by rfl)).trans (g19 r d)
  · exact (stackPiece_apply _ (by exact hc) (by rfl) r d 20 (by decide) v342 (by rfl)).trans (g20 r d)
  · exact (stackPiece_apply _ (by exact hc) (by rfl) r d 21 (by decide) v343 (by rfl)).trans (g21 r d)
  · exact (stackPiece_apply _ (by exact hc) (by rfl) r d 22 (by decide) v344 (by rfl)).trans (g22 r d)
  · exact (stackPiece_apply _ (by exact hc) (by rfl) r d 23 (by decide) v345 (by rfl)).trans (g23 r d)
  · exact (stackPiece_apply _ (by exact hc) (by rfl) r d 24 (by decide) v346 (by rfl)).trans (g24 r d)
  · exact (stackPiece_apply _ (by exact hc) (by rfl) r d 25 (by decide) _ (by rfl)).trans
      ((shapeCast_midUnit_apply v260 _ r 0 d).trans (h25 r d))
  · exact (stackPiece_apply _ (by exact hc) (by rfl) r d 26 (by decide) _ (by rfl)).trans
      ((shapeCast_midUnit_apply v270 _ r 0 d).trans (h26 r d))
  · exact (stackPiece_apply _ (by exact hc) (by rfl) r d 27 (by decide) _ (by rfl)).trans
      ((shapeCast_midUnit_apply v280 _ r 0 d).trans (h27 r d))
  · exact (stackPiece_apply _ (by exact hc) (by rfl) r d 28 (by decide) _ (by rfl)).trans
      ((shapeCast_midUnit_apply v290 _ r 0 d).trans (h28 r d))
  · exact (stackPiece_apply _ (by exact hc) (by rfl) r d 29 (by decide) _ (by rfl)).trans
      ((shapeCast_midUnit_apply v300 _ r 0 d).trans (h29 r d))
  · exact (stackPiece_apply _ (by exact hc) (by rfl) r d 30 (by decide) _ (by rfl)).trans
      ((shapeCast_midUnit_apply v310 _ r 0 d).trans (h30 r d))
  · exact (stackPiece_apply _ (by exact hc) (by rfl) r d 31 (by decide) _ (by rfl)).trans
      ((shapeCast_midUnit_apply v320 _ r 0 d).trans (h31 r d))

/-! ## Cross parts 0 … 8, from the stack's pieces -/

theorem part0_apply (E : Fin 32 → Fin 256 → Fin 64 → EReal)
    (v260 v270 v280 v290 v300 v310 v320 : FVec Ideal S256x64 .f32)
    (v322 v323 v324 v325 v326 v327 v328 v329 v330 v331 v332 v333 v334 v335 v336 v337 v338 v339 v340 v341 v342 v343 v344 v345 v346 : FVec Ideal S256x1x64 .f32)
    (h25 : ∀ (r : Fin 256) (d : Fin 64), v260 (ix2 r d) = E 25 r d)
    (h26 : ∀ (r : Fin 256) (d : Fin 64), v270 (ix2 r d) = E 26 r d)
    (h27 : ∀ (r : Fin 256) (d : Fin 64), v280 (ix2 r d) = E 27 r d)
    (h28 : ∀ (r : Fin 256) (d : Fin 64), v290 (ix2 r d) = E 28 r d)
    (h29 : ∀ (r : Fin 256) (d : Fin 64), v300 (ix2 r d) = E 29 r d)
    (h30 : ∀ (r : Fin 256) (d : Fin 64), v310 (ix2 r d) = E 30 r d)
    (h31 : ∀ (r : Fin 256) (d : Fin 64), v320 (ix2 r d) = E 31 r d)
    (g0 : ∀ (r : Fin 256) (d : Fin 64), v322 (ix3 r 0 d) = E 0 r d)
    (g1 : ∀ (r : Fin 256) (d : Fin 64), v323 (ix3 r 0 d) = E 1 r d)
    (g2 : ∀ (r : Fin 256) (d : Fin 64), v324 (ix3 r 0 d) = E 2 r d)
    (g3 : ∀ (r : Fin 256) (d : Fin 64), v325 (ix3 r 0 d) = E 3 r d)
    (g4 : ∀ (r : Fin 256) (d : Fin 64), v326 (ix3 r 0 d) = E 4 r d)
    (g5 : ∀ (r : Fin 256) (d : Fin 64), v327 (ix3 r 0 d) = E 5 r d)
    (g6 : ∀ (r : Fin 256) (d : Fin 64), v328 (ix3 r 0 d) = E 6 r d)
    (g7 : ∀ (r : Fin 256) (d : Fin 64), v329 (ix3 r 0 d) = E 7 r d)
    (g8 : ∀ (r : Fin 256) (d : Fin 64), v330 (ix3 r 0 d) = E 8 r d)
    (g9 : ∀ (r : Fin 256) (d : Fin 64), v331 (ix3 r 0 d) = E 9 r d)
    (g10 : ∀ (r : Fin 256) (d : Fin 64), v332 (ix3 r 0 d) = E 10 r d)
    (g11 : ∀ (r : Fin 256) (d : Fin 64), v333 (ix3 r 0 d) = E 11 r d)
    (g12 : ∀ (r : Fin 256) (d : Fin 64), v334 (ix3 r 0 d) = E 12 r d)
    (g13 : ∀ (r : Fin 256) (d : Fin 64), v335 (ix3 r 0 d) = E 13 r d)
    (g14 : ∀ (r : Fin 256) (d : Fin 64), v336 (ix3 r 0 d) = E 14 r d)
    (g15 : ∀ (r : Fin 256) (d : Fin 64), v337 (ix3 r 0 d) = E 15 r d)
    (g16 : ∀ (r : Fin 256) (d : Fin 64), v338 (ix3 r 0 d) = E 16 r d)
    (g17 : ∀ (r : Fin 256) (d : Fin 64), v339 (ix3 r 0 d) = E 17 r d)
    (g18 : ∀ (r : Fin 256) (d : Fin 64), v340 (ix3 r 0 d) = E 18 r d)
    (g19 : ∀ (r : Fin 256) (d : Fin 64), v341 (ix3 r 0 d) = E 19 r d)
    (g20 : ∀ (r : Fin 256) (d : Fin 64), v342 (ix3 r 0 d) = E 20 r d)
    (g21 : ∀ (r : Fin 256) (d : Fin 64), v343 (ix3 r 0 d) = E 21 r d)
    (g22 : ∀ (r : Fin 256) (d : Fin 64), v344 (ix3 r 0 d) = E 22 r d)
    (g23 : ∀ (r : Fin 256) (d : Fin 64), v345 (ix3 r 0 d) = E 23 r d)
    (g24 : ∀ (r : Fin 256) (d : Fin 64), v346 (ix3 r 0 d) = E 24 r d) :
    ∀ (r : Fin 256) (q : Fin 31), k0_pay69 v260 v270 v280 v290 v300 v310 v320 v322 v323 v324 v325 v326 v327 v328 v329 v330 v331 v332 v333 v334 v335 v336 v337 v338 v339 v340 v341 v342 v343 v344 v345 v346 (ix2 r q)
      = ∑ d : Fin 64, E ⟨1 + q.val, by omega⟩ r d * E ⟨0, by decide⟩ r d := by
  intro r q
  have hS := stack_apply E v260 v270 v280 v290 v300 v310 v320 v322 v323 v324 v325 v326 v327 v328 v329 v330 v331 v332 v333 v334 v335 v336 v337 v338 v339 v340 v341 v342 v343 v344 v345 v346 h25 h26 h27 h28 h29 h30 h31 g0 g1 g2 g3 g4 g5 g6 g7 g8 g9 g10 g11 g12 g13 g14 g15 g16 g17 g18 g19 g20 g21 g22 g23 g24
  refine (sumLast_apply _ _ r q).trans ?_
  refine Finset.sum_congr rfl fun d _ => ?_
  refine (crossProd_apply 0 1 _ _ _ _ r q d ⟨0, by decide⟩ ⟨1 + q.val, by omega⟩ rfl rfl).trans ?_
  rw [hS, hS]

theorem part1_apply (E : Fin 32 → Fin 256 → Fin 64 → EReal)
    (v260 v270 v280 v290 v300 v310 v320 : FVec Ideal S256x64 .f32)
    (v322 v323 v324 v325 v326 v327 v328 v329 v330 v331 v332 v333 v334 v335 v336 v337 v338 v339 v340 v341 v342 v343 v344 v345 v346 : FVec Ideal S256x1x64 .f32)
    (h25 : ∀ (r : Fin 256) (d : Fin 64), v260 (ix2 r d) = E 25 r d)
    (h26 : ∀ (r : Fin 256) (d : Fin 64), v270 (ix2 r d) = E 26 r d)
    (h27 : ∀ (r : Fin 256) (d : Fin 64), v280 (ix2 r d) = E 27 r d)
    (h28 : ∀ (r : Fin 256) (d : Fin 64), v290 (ix2 r d) = E 28 r d)
    (h29 : ∀ (r : Fin 256) (d : Fin 64), v300 (ix2 r d) = E 29 r d)
    (h30 : ∀ (r : Fin 256) (d : Fin 64), v310 (ix2 r d) = E 30 r d)
    (h31 : ∀ (r : Fin 256) (d : Fin 64), v320 (ix2 r d) = E 31 r d)
    (g0 : ∀ (r : Fin 256) (d : Fin 64), v322 (ix3 r 0 d) = E 0 r d)
    (g1 : ∀ (r : Fin 256) (d : Fin 64), v323 (ix3 r 0 d) = E 1 r d)
    (g2 : ∀ (r : Fin 256) (d : Fin 64), v324 (ix3 r 0 d) = E 2 r d)
    (g3 : ∀ (r : Fin 256) (d : Fin 64), v325 (ix3 r 0 d) = E 3 r d)
    (g4 : ∀ (r : Fin 256) (d : Fin 64), v326 (ix3 r 0 d) = E 4 r d)
    (g5 : ∀ (r : Fin 256) (d : Fin 64), v327 (ix3 r 0 d) = E 5 r d)
    (g6 : ∀ (r : Fin 256) (d : Fin 64), v328 (ix3 r 0 d) = E 6 r d)
    (g7 : ∀ (r : Fin 256) (d : Fin 64), v329 (ix3 r 0 d) = E 7 r d)
    (g8 : ∀ (r : Fin 256) (d : Fin 64), v330 (ix3 r 0 d) = E 8 r d)
    (g9 : ∀ (r : Fin 256) (d : Fin 64), v331 (ix3 r 0 d) = E 9 r d)
    (g10 : ∀ (r : Fin 256) (d : Fin 64), v332 (ix3 r 0 d) = E 10 r d)
    (g11 : ∀ (r : Fin 256) (d : Fin 64), v333 (ix3 r 0 d) = E 11 r d)
    (g12 : ∀ (r : Fin 256) (d : Fin 64), v334 (ix3 r 0 d) = E 12 r d)
    (g13 : ∀ (r : Fin 256) (d : Fin 64), v335 (ix3 r 0 d) = E 13 r d)
    (g14 : ∀ (r : Fin 256) (d : Fin 64), v336 (ix3 r 0 d) = E 14 r d)
    (g15 : ∀ (r : Fin 256) (d : Fin 64), v337 (ix3 r 0 d) = E 15 r d)
    (g16 : ∀ (r : Fin 256) (d : Fin 64), v338 (ix3 r 0 d) = E 16 r d)
    (g17 : ∀ (r : Fin 256) (d : Fin 64), v339 (ix3 r 0 d) = E 17 r d)
    (g18 : ∀ (r : Fin 256) (d : Fin 64), v340 (ix3 r 0 d) = E 18 r d)
    (g19 : ∀ (r : Fin 256) (d : Fin 64), v341 (ix3 r 0 d) = E 19 r d)
    (g20 : ∀ (r : Fin 256) (d : Fin 64), v342 (ix3 r 0 d) = E 20 r d)
    (g21 : ∀ (r : Fin 256) (d : Fin 64), v343 (ix3 r 0 d) = E 21 r d)
    (g22 : ∀ (r : Fin 256) (d : Fin 64), v344 (ix3 r 0 d) = E 22 r d)
    (g23 : ∀ (r : Fin 256) (d : Fin 64), v345 (ix3 r 0 d) = E 23 r d)
    (g24 : ∀ (r : Fin 256) (d : Fin 64), v346 (ix3 r 0 d) = E 24 r d) :
    ∀ (r : Fin 256) (q : Fin 30), k0_pay70 v260 v270 v280 v290 v300 v310 v320 v322 v323 v324 v325 v326 v327 v328 v329 v330 v331 v332 v333 v334 v335 v336 v337 v338 v339 v340 v341 v342 v343 v344 v345 v346 (ix2 r q)
      = ∑ d : Fin 64, E ⟨2 + q.val, by omega⟩ r d * E ⟨1, by decide⟩ r d := by
  intro r q
  have hS := stack_apply E v260 v270 v280 v290 v300 v310 v320 v322 v323 v324 v325 v326 v327 v328 v329 v330 v331 v332 v333 v334 v335 v336 v337 v338 v339 v340 v341 v342 v343 v344 v345 v346 h25 h26 h27 h28 h29 h30 h31 g0 g1 g2 g3 g4 g5 g6 g7 g8 g9 g10 g11 g12 g13 g14 g15 g16 g17 g18 g19 g20 g21 g22 g23 g24
  refine (sumLast_apply _ _ r q).trans ?_
  refine Finset.sum_congr rfl fun d _ => ?_
  refine (crossProd_apply 1 2 _ _ _ _ r q d ⟨1, by decide⟩ ⟨2 + q.val, by omega⟩ rfl rfl).trans ?_
  rw [hS, hS]

theorem part2_apply (E : Fin 32 → Fin 256 → Fin 64 → EReal)
    (v260 v270 v280 v290 v300 v310 v320 : FVec Ideal S256x64 .f32)
    (v322 v323 v324 v325 v326 v327 v328 v329 v330 v331 v332 v333 v334 v335 v336 v337 v338 v339 v340 v341 v342 v343 v344 v345 v346 : FVec Ideal S256x1x64 .f32)
    (h25 : ∀ (r : Fin 256) (d : Fin 64), v260 (ix2 r d) = E 25 r d)
    (h26 : ∀ (r : Fin 256) (d : Fin 64), v270 (ix2 r d) = E 26 r d)
    (h27 : ∀ (r : Fin 256) (d : Fin 64), v280 (ix2 r d) = E 27 r d)
    (h28 : ∀ (r : Fin 256) (d : Fin 64), v290 (ix2 r d) = E 28 r d)
    (h29 : ∀ (r : Fin 256) (d : Fin 64), v300 (ix2 r d) = E 29 r d)
    (h30 : ∀ (r : Fin 256) (d : Fin 64), v310 (ix2 r d) = E 30 r d)
    (h31 : ∀ (r : Fin 256) (d : Fin 64), v320 (ix2 r d) = E 31 r d)
    (g0 : ∀ (r : Fin 256) (d : Fin 64), v322 (ix3 r 0 d) = E 0 r d)
    (g1 : ∀ (r : Fin 256) (d : Fin 64), v323 (ix3 r 0 d) = E 1 r d)
    (g2 : ∀ (r : Fin 256) (d : Fin 64), v324 (ix3 r 0 d) = E 2 r d)
    (g3 : ∀ (r : Fin 256) (d : Fin 64), v325 (ix3 r 0 d) = E 3 r d)
    (g4 : ∀ (r : Fin 256) (d : Fin 64), v326 (ix3 r 0 d) = E 4 r d)
    (g5 : ∀ (r : Fin 256) (d : Fin 64), v327 (ix3 r 0 d) = E 5 r d)
    (g6 : ∀ (r : Fin 256) (d : Fin 64), v328 (ix3 r 0 d) = E 6 r d)
    (g7 : ∀ (r : Fin 256) (d : Fin 64), v329 (ix3 r 0 d) = E 7 r d)
    (g8 : ∀ (r : Fin 256) (d : Fin 64), v330 (ix3 r 0 d) = E 8 r d)
    (g9 : ∀ (r : Fin 256) (d : Fin 64), v331 (ix3 r 0 d) = E 9 r d)
    (g10 : ∀ (r : Fin 256) (d : Fin 64), v332 (ix3 r 0 d) = E 10 r d)
    (g11 : ∀ (r : Fin 256) (d : Fin 64), v333 (ix3 r 0 d) = E 11 r d)
    (g12 : ∀ (r : Fin 256) (d : Fin 64), v334 (ix3 r 0 d) = E 12 r d)
    (g13 : ∀ (r : Fin 256) (d : Fin 64), v335 (ix3 r 0 d) = E 13 r d)
    (g14 : ∀ (r : Fin 256) (d : Fin 64), v336 (ix3 r 0 d) = E 14 r d)
    (g15 : ∀ (r : Fin 256) (d : Fin 64), v337 (ix3 r 0 d) = E 15 r d)
    (g16 : ∀ (r : Fin 256) (d : Fin 64), v338 (ix3 r 0 d) = E 16 r d)
    (g17 : ∀ (r : Fin 256) (d : Fin 64), v339 (ix3 r 0 d) = E 17 r d)
    (g18 : ∀ (r : Fin 256) (d : Fin 64), v340 (ix3 r 0 d) = E 18 r d)
    (g19 : ∀ (r : Fin 256) (d : Fin 64), v341 (ix3 r 0 d) = E 19 r d)
    (g20 : ∀ (r : Fin 256) (d : Fin 64), v342 (ix3 r 0 d) = E 20 r d)
    (g21 : ∀ (r : Fin 256) (d : Fin 64), v343 (ix3 r 0 d) = E 21 r d)
    (g22 : ∀ (r : Fin 256) (d : Fin 64), v344 (ix3 r 0 d) = E 22 r d)
    (g23 : ∀ (r : Fin 256) (d : Fin 64), v345 (ix3 r 0 d) = E 23 r d)
    (g24 : ∀ (r : Fin 256) (d : Fin 64), v346 (ix3 r 0 d) = E 24 r d) :
    ∀ (r : Fin 256) (q : Fin 29), k0_pay71 v260 v270 v280 v290 v300 v310 v320 v322 v323 v324 v325 v326 v327 v328 v329 v330 v331 v332 v333 v334 v335 v336 v337 v338 v339 v340 v341 v342 v343 v344 v345 v346 (ix2 r q)
      = ∑ d : Fin 64, E ⟨3 + q.val, by omega⟩ r d * E ⟨2, by decide⟩ r d := by
  intro r q
  have hS := stack_apply E v260 v270 v280 v290 v300 v310 v320 v322 v323 v324 v325 v326 v327 v328 v329 v330 v331 v332 v333 v334 v335 v336 v337 v338 v339 v340 v341 v342 v343 v344 v345 v346 h25 h26 h27 h28 h29 h30 h31 g0 g1 g2 g3 g4 g5 g6 g7 g8 g9 g10 g11 g12 g13 g14 g15 g16 g17 g18 g19 g20 g21 g22 g23 g24
  refine (sumLast_apply _ _ r q).trans ?_
  refine Finset.sum_congr rfl fun d _ => ?_
  refine (crossProd_apply 2 3 _ _ _ _ r q d ⟨2, by decide⟩ ⟨3 + q.val, by omega⟩ rfl rfl).trans ?_
  rw [hS, hS]

theorem part3_apply (E : Fin 32 → Fin 256 → Fin 64 → EReal)
    (v260 v270 v280 v290 v300 v310 v320 : FVec Ideal S256x64 .f32)
    (v322 v323 v324 v325 v326 v327 v328 v329 v330 v331 v332 v333 v334 v335 v336 v337 v338 v339 v340 v341 v342 v343 v344 v345 v346 : FVec Ideal S256x1x64 .f32)
    (h25 : ∀ (r : Fin 256) (d : Fin 64), v260 (ix2 r d) = E 25 r d)
    (h26 : ∀ (r : Fin 256) (d : Fin 64), v270 (ix2 r d) = E 26 r d)
    (h27 : ∀ (r : Fin 256) (d : Fin 64), v280 (ix2 r d) = E 27 r d)
    (h28 : ∀ (r : Fin 256) (d : Fin 64), v290 (ix2 r d) = E 28 r d)
    (h29 : ∀ (r : Fin 256) (d : Fin 64), v300 (ix2 r d) = E 29 r d)
    (h30 : ∀ (r : Fin 256) (d : Fin 64), v310 (ix2 r d) = E 30 r d)
    (h31 : ∀ (r : Fin 256) (d : Fin 64), v320 (ix2 r d) = E 31 r d)
    (g0 : ∀ (r : Fin 256) (d : Fin 64), v322 (ix3 r 0 d) = E 0 r d)
    (g1 : ∀ (r : Fin 256) (d : Fin 64), v323 (ix3 r 0 d) = E 1 r d)
    (g2 : ∀ (r : Fin 256) (d : Fin 64), v324 (ix3 r 0 d) = E 2 r d)
    (g3 : ∀ (r : Fin 256) (d : Fin 64), v325 (ix3 r 0 d) = E 3 r d)
    (g4 : ∀ (r : Fin 256) (d : Fin 64), v326 (ix3 r 0 d) = E 4 r d)
    (g5 : ∀ (r : Fin 256) (d : Fin 64), v327 (ix3 r 0 d) = E 5 r d)
    (g6 : ∀ (r : Fin 256) (d : Fin 64), v328 (ix3 r 0 d) = E 6 r d)
    (g7 : ∀ (r : Fin 256) (d : Fin 64), v329 (ix3 r 0 d) = E 7 r d)
    (g8 : ∀ (r : Fin 256) (d : Fin 64), v330 (ix3 r 0 d) = E 8 r d)
    (g9 : ∀ (r : Fin 256) (d : Fin 64), v331 (ix3 r 0 d) = E 9 r d)
    (g10 : ∀ (r : Fin 256) (d : Fin 64), v332 (ix3 r 0 d) = E 10 r d)
    (g11 : ∀ (r : Fin 256) (d : Fin 64), v333 (ix3 r 0 d) = E 11 r d)
    (g12 : ∀ (r : Fin 256) (d : Fin 64), v334 (ix3 r 0 d) = E 12 r d)
    (g13 : ∀ (r : Fin 256) (d : Fin 64), v335 (ix3 r 0 d) = E 13 r d)
    (g14 : ∀ (r : Fin 256) (d : Fin 64), v336 (ix3 r 0 d) = E 14 r d)
    (g15 : ∀ (r : Fin 256) (d : Fin 64), v337 (ix3 r 0 d) = E 15 r d)
    (g16 : ∀ (r : Fin 256) (d : Fin 64), v338 (ix3 r 0 d) = E 16 r d)
    (g17 : ∀ (r : Fin 256) (d : Fin 64), v339 (ix3 r 0 d) = E 17 r d)
    (g18 : ∀ (r : Fin 256) (d : Fin 64), v340 (ix3 r 0 d) = E 18 r d)
    (g19 : ∀ (r : Fin 256) (d : Fin 64), v341 (ix3 r 0 d) = E 19 r d)
    (g20 : ∀ (r : Fin 256) (d : Fin 64), v342 (ix3 r 0 d) = E 20 r d)
    (g21 : ∀ (r : Fin 256) (d : Fin 64), v343 (ix3 r 0 d) = E 21 r d)
    (g22 : ∀ (r : Fin 256) (d : Fin 64), v344 (ix3 r 0 d) = E 22 r d)
    (g23 : ∀ (r : Fin 256) (d : Fin 64), v345 (ix3 r 0 d) = E 23 r d)
    (g24 : ∀ (r : Fin 256) (d : Fin 64), v346 (ix3 r 0 d) = E 24 r d) :
    ∀ (r : Fin 256) (q : Fin 28), k0_pay72 v260 v270 v280 v290 v300 v310 v320 v322 v323 v324 v325 v326 v327 v328 v329 v330 v331 v332 v333 v334 v335 v336 v337 v338 v339 v340 v341 v342 v343 v344 v345 v346 (ix2 r q)
      = ∑ d : Fin 64, E ⟨4 + q.val, by omega⟩ r d * E ⟨3, by decide⟩ r d := by
  intro r q
  have hS := stack_apply E v260 v270 v280 v290 v300 v310 v320 v322 v323 v324 v325 v326 v327 v328 v329 v330 v331 v332 v333 v334 v335 v336 v337 v338 v339 v340 v341 v342 v343 v344 v345 v346 h25 h26 h27 h28 h29 h30 h31 g0 g1 g2 g3 g4 g5 g6 g7 g8 g9 g10 g11 g12 g13 g14 g15 g16 g17 g18 g19 g20 g21 g22 g23 g24
  refine (sumLast_apply _ _ r q).trans ?_
  refine Finset.sum_congr rfl fun d _ => ?_
  refine (crossProd_apply 3 4 _ _ _ _ r q d ⟨3, by decide⟩ ⟨4 + q.val, by omega⟩ rfl rfl).trans ?_
  rw [hS, hS]

theorem part4_apply (E : Fin 32 → Fin 256 → Fin 64 → EReal)
    (v260 v270 v280 v290 v300 v310 v320 : FVec Ideal S256x64 .f32)
    (v322 v323 v324 v325 v326 v327 v328 v329 v330 v331 v332 v333 v334 v335 v336 v337 v338 v339 v340 v341 v342 v343 v344 v345 v346 : FVec Ideal S256x1x64 .f32)
    (h25 : ∀ (r : Fin 256) (d : Fin 64), v260 (ix2 r d) = E 25 r d)
    (h26 : ∀ (r : Fin 256) (d : Fin 64), v270 (ix2 r d) = E 26 r d)
    (h27 : ∀ (r : Fin 256) (d : Fin 64), v280 (ix2 r d) = E 27 r d)
    (h28 : ∀ (r : Fin 256) (d : Fin 64), v290 (ix2 r d) = E 28 r d)
    (h29 : ∀ (r : Fin 256) (d : Fin 64), v300 (ix2 r d) = E 29 r d)
    (h30 : ∀ (r : Fin 256) (d : Fin 64), v310 (ix2 r d) = E 30 r d)
    (h31 : ∀ (r : Fin 256) (d : Fin 64), v320 (ix2 r d) = E 31 r d)
    (g0 : ∀ (r : Fin 256) (d : Fin 64), v322 (ix3 r 0 d) = E 0 r d)
    (g1 : ∀ (r : Fin 256) (d : Fin 64), v323 (ix3 r 0 d) = E 1 r d)
    (g2 : ∀ (r : Fin 256) (d : Fin 64), v324 (ix3 r 0 d) = E 2 r d)
    (g3 : ∀ (r : Fin 256) (d : Fin 64), v325 (ix3 r 0 d) = E 3 r d)
    (g4 : ∀ (r : Fin 256) (d : Fin 64), v326 (ix3 r 0 d) = E 4 r d)
    (g5 : ∀ (r : Fin 256) (d : Fin 64), v327 (ix3 r 0 d) = E 5 r d)
    (g6 : ∀ (r : Fin 256) (d : Fin 64), v328 (ix3 r 0 d) = E 6 r d)
    (g7 : ∀ (r : Fin 256) (d : Fin 64), v329 (ix3 r 0 d) = E 7 r d)
    (g8 : ∀ (r : Fin 256) (d : Fin 64), v330 (ix3 r 0 d) = E 8 r d)
    (g9 : ∀ (r : Fin 256) (d : Fin 64), v331 (ix3 r 0 d) = E 9 r d)
    (g10 : ∀ (r : Fin 256) (d : Fin 64), v332 (ix3 r 0 d) = E 10 r d)
    (g11 : ∀ (r : Fin 256) (d : Fin 64), v333 (ix3 r 0 d) = E 11 r d)
    (g12 : ∀ (r : Fin 256) (d : Fin 64), v334 (ix3 r 0 d) = E 12 r d)
    (g13 : ∀ (r : Fin 256) (d : Fin 64), v335 (ix3 r 0 d) = E 13 r d)
    (g14 : ∀ (r : Fin 256) (d : Fin 64), v336 (ix3 r 0 d) = E 14 r d)
    (g15 : ∀ (r : Fin 256) (d : Fin 64), v337 (ix3 r 0 d) = E 15 r d)
    (g16 : ∀ (r : Fin 256) (d : Fin 64), v338 (ix3 r 0 d) = E 16 r d)
    (g17 : ∀ (r : Fin 256) (d : Fin 64), v339 (ix3 r 0 d) = E 17 r d)
    (g18 : ∀ (r : Fin 256) (d : Fin 64), v340 (ix3 r 0 d) = E 18 r d)
    (g19 : ∀ (r : Fin 256) (d : Fin 64), v341 (ix3 r 0 d) = E 19 r d)
    (g20 : ∀ (r : Fin 256) (d : Fin 64), v342 (ix3 r 0 d) = E 20 r d)
    (g21 : ∀ (r : Fin 256) (d : Fin 64), v343 (ix3 r 0 d) = E 21 r d)
    (g22 : ∀ (r : Fin 256) (d : Fin 64), v344 (ix3 r 0 d) = E 22 r d)
    (g23 : ∀ (r : Fin 256) (d : Fin 64), v345 (ix3 r 0 d) = E 23 r d)
    (g24 : ∀ (r : Fin 256) (d : Fin 64), v346 (ix3 r 0 d) = E 24 r d) :
    ∀ (r : Fin 256) (q : Fin 27), k0_pay73 v260 v270 v280 v290 v300 v310 v320 v322 v323 v324 v325 v326 v327 v328 v329 v330 v331 v332 v333 v334 v335 v336 v337 v338 v339 v340 v341 v342 v343 v344 v345 v346 (ix2 r q)
      = ∑ d : Fin 64, E ⟨5 + q.val, by omega⟩ r d * E ⟨4, by decide⟩ r d := by
  intro r q
  have hS := stack_apply E v260 v270 v280 v290 v300 v310 v320 v322 v323 v324 v325 v326 v327 v328 v329 v330 v331 v332 v333 v334 v335 v336 v337 v338 v339 v340 v341 v342 v343 v344 v345 v346 h25 h26 h27 h28 h29 h30 h31 g0 g1 g2 g3 g4 g5 g6 g7 g8 g9 g10 g11 g12 g13 g14 g15 g16 g17 g18 g19 g20 g21 g22 g23 g24
  refine (sumLast_apply _ _ r q).trans ?_
  refine Finset.sum_congr rfl fun d _ => ?_
  refine (crossProd_apply 4 5 _ _ _ _ r q d ⟨4, by decide⟩ ⟨5 + q.val, by omega⟩ rfl rfl).trans ?_
  rw [hS, hS]

theorem part5_apply (E : Fin 32 → Fin 256 → Fin 64 → EReal)
    (v260 v270 v280 v290 v300 v310 v320 : FVec Ideal S256x64 .f32)
    (v322 v323 v324 v325 v326 v327 v328 v329 v330 v331 v332 v333 v334 v335 v336 v337 v338 v339 v340 v341 v342 v343 v344 v345 v346 : FVec Ideal S256x1x64 .f32)
    (h25 : ∀ (r : Fin 256) (d : Fin 64), v260 (ix2 r d) = E 25 r d)
    (h26 : ∀ (r : Fin 256) (d : Fin 64), v270 (ix2 r d) = E 26 r d)
    (h27 : ∀ (r : Fin 256) (d : Fin 64), v280 (ix2 r d) = E 27 r d)
    (h28 : ∀ (r : Fin 256) (d : Fin 64), v290 (ix2 r d) = E 28 r d)
    (h29 : ∀ (r : Fin 256) (d : Fin 64), v300 (ix2 r d) = E 29 r d)
    (h30 : ∀ (r : Fin 256) (d : Fin 64), v310 (ix2 r d) = E 30 r d)
    (h31 : ∀ (r : Fin 256) (d : Fin 64), v320 (ix2 r d) = E 31 r d)
    (g0 : ∀ (r : Fin 256) (d : Fin 64), v322 (ix3 r 0 d) = E 0 r d)
    (g1 : ∀ (r : Fin 256) (d : Fin 64), v323 (ix3 r 0 d) = E 1 r d)
    (g2 : ∀ (r : Fin 256) (d : Fin 64), v324 (ix3 r 0 d) = E 2 r d)
    (g3 : ∀ (r : Fin 256) (d : Fin 64), v325 (ix3 r 0 d) = E 3 r d)
    (g4 : ∀ (r : Fin 256) (d : Fin 64), v326 (ix3 r 0 d) = E 4 r d)
    (g5 : ∀ (r : Fin 256) (d : Fin 64), v327 (ix3 r 0 d) = E 5 r d)
    (g6 : ∀ (r : Fin 256) (d : Fin 64), v328 (ix3 r 0 d) = E 6 r d)
    (g7 : ∀ (r : Fin 256) (d : Fin 64), v329 (ix3 r 0 d) = E 7 r d)
    (g8 : ∀ (r : Fin 256) (d : Fin 64), v330 (ix3 r 0 d) = E 8 r d)
    (g9 : ∀ (r : Fin 256) (d : Fin 64), v331 (ix3 r 0 d) = E 9 r d)
    (g10 : ∀ (r : Fin 256) (d : Fin 64), v332 (ix3 r 0 d) = E 10 r d)
    (g11 : ∀ (r : Fin 256) (d : Fin 64), v333 (ix3 r 0 d) = E 11 r d)
    (g12 : ∀ (r : Fin 256) (d : Fin 64), v334 (ix3 r 0 d) = E 12 r d)
    (g13 : ∀ (r : Fin 256) (d : Fin 64), v335 (ix3 r 0 d) = E 13 r d)
    (g14 : ∀ (r : Fin 256) (d : Fin 64), v336 (ix3 r 0 d) = E 14 r d)
    (g15 : ∀ (r : Fin 256) (d : Fin 64), v337 (ix3 r 0 d) = E 15 r d)
    (g16 : ∀ (r : Fin 256) (d : Fin 64), v338 (ix3 r 0 d) = E 16 r d)
    (g17 : ∀ (r : Fin 256) (d : Fin 64), v339 (ix3 r 0 d) = E 17 r d)
    (g18 : ∀ (r : Fin 256) (d : Fin 64), v340 (ix3 r 0 d) = E 18 r d)
    (g19 : ∀ (r : Fin 256) (d : Fin 64), v341 (ix3 r 0 d) = E 19 r d)
    (g20 : ∀ (r : Fin 256) (d : Fin 64), v342 (ix3 r 0 d) = E 20 r d)
    (g21 : ∀ (r : Fin 256) (d : Fin 64), v343 (ix3 r 0 d) = E 21 r d)
    (g22 : ∀ (r : Fin 256) (d : Fin 64), v344 (ix3 r 0 d) = E 22 r d)
    (g23 : ∀ (r : Fin 256) (d : Fin 64), v345 (ix3 r 0 d) = E 23 r d)
    (g24 : ∀ (r : Fin 256) (d : Fin 64), v346 (ix3 r 0 d) = E 24 r d) :
    ∀ (r : Fin 256) (q : Fin 26), k0_pay74 v260 v270 v280 v290 v300 v310 v320 v322 v323 v324 v325 v326 v327 v328 v329 v330 v331 v332 v333 v334 v335 v336 v337 v338 v339 v340 v341 v342 v343 v344 v345 v346 (ix2 r q)
      = ∑ d : Fin 64, E ⟨6 + q.val, by omega⟩ r d * E ⟨5, by decide⟩ r d := by
  intro r q
  have hS := stack_apply E v260 v270 v280 v290 v300 v310 v320 v322 v323 v324 v325 v326 v327 v328 v329 v330 v331 v332 v333 v334 v335 v336 v337 v338 v339 v340 v341 v342 v343 v344 v345 v346 h25 h26 h27 h28 h29 h30 h31 g0 g1 g2 g3 g4 g5 g6 g7 g8 g9 g10 g11 g12 g13 g14 g15 g16 g17 g18 g19 g20 g21 g22 g23 g24
  refine (sumLast_apply _ _ r q).trans ?_
  refine Finset.sum_congr rfl fun d _ => ?_
  refine (crossProd_apply 5 6 _ _ _ _ r q d ⟨5, by decide⟩ ⟨6 + q.val, by omega⟩ rfl rfl).trans ?_
  rw [hS, hS]

theorem part6_apply (E : Fin 32 → Fin 256 → Fin 64 → EReal)
    (v260 v270 v280 v290 v300 v310 v320 : FVec Ideal S256x64 .f32)
    (v322 v323 v324 v325 v326 v327 v328 v329 v330 v331 v332 v333 v334 v335 v336 v337 v338 v339 v340 v341 v342 v343 v344 v345 v346 : FVec Ideal S256x1x64 .f32)
    (h25 : ∀ (r : Fin 256) (d : Fin 64), v260 (ix2 r d) = E 25 r d)
    (h26 : ∀ (r : Fin 256) (d : Fin 64), v270 (ix2 r d) = E 26 r d)
    (h27 : ∀ (r : Fin 256) (d : Fin 64), v280 (ix2 r d) = E 27 r d)
    (h28 : ∀ (r : Fin 256) (d : Fin 64), v290 (ix2 r d) = E 28 r d)
    (h29 : ∀ (r : Fin 256) (d : Fin 64), v300 (ix2 r d) = E 29 r d)
    (h30 : ∀ (r : Fin 256) (d : Fin 64), v310 (ix2 r d) = E 30 r d)
    (h31 : ∀ (r : Fin 256) (d : Fin 64), v320 (ix2 r d) = E 31 r d)
    (g0 : ∀ (r : Fin 256) (d : Fin 64), v322 (ix3 r 0 d) = E 0 r d)
    (g1 : ∀ (r : Fin 256) (d : Fin 64), v323 (ix3 r 0 d) = E 1 r d)
    (g2 : ∀ (r : Fin 256) (d : Fin 64), v324 (ix3 r 0 d) = E 2 r d)
    (g3 : ∀ (r : Fin 256) (d : Fin 64), v325 (ix3 r 0 d) = E 3 r d)
    (g4 : ∀ (r : Fin 256) (d : Fin 64), v326 (ix3 r 0 d) = E 4 r d)
    (g5 : ∀ (r : Fin 256) (d : Fin 64), v327 (ix3 r 0 d) = E 5 r d)
    (g6 : ∀ (r : Fin 256) (d : Fin 64), v328 (ix3 r 0 d) = E 6 r d)
    (g7 : ∀ (r : Fin 256) (d : Fin 64), v329 (ix3 r 0 d) = E 7 r d)
    (g8 : ∀ (r : Fin 256) (d : Fin 64), v330 (ix3 r 0 d) = E 8 r d)
    (g9 : ∀ (r : Fin 256) (d : Fin 64), v331 (ix3 r 0 d) = E 9 r d)
    (g10 : ∀ (r : Fin 256) (d : Fin 64), v332 (ix3 r 0 d) = E 10 r d)
    (g11 : ∀ (r : Fin 256) (d : Fin 64), v333 (ix3 r 0 d) = E 11 r d)
    (g12 : ∀ (r : Fin 256) (d : Fin 64), v334 (ix3 r 0 d) = E 12 r d)
    (g13 : ∀ (r : Fin 256) (d : Fin 64), v335 (ix3 r 0 d) = E 13 r d)
    (g14 : ∀ (r : Fin 256) (d : Fin 64), v336 (ix3 r 0 d) = E 14 r d)
    (g15 : ∀ (r : Fin 256) (d : Fin 64), v337 (ix3 r 0 d) = E 15 r d)
    (g16 : ∀ (r : Fin 256) (d : Fin 64), v338 (ix3 r 0 d) = E 16 r d)
    (g17 : ∀ (r : Fin 256) (d : Fin 64), v339 (ix3 r 0 d) = E 17 r d)
    (g18 : ∀ (r : Fin 256) (d : Fin 64), v340 (ix3 r 0 d) = E 18 r d)
    (g19 : ∀ (r : Fin 256) (d : Fin 64), v341 (ix3 r 0 d) = E 19 r d)
    (g20 : ∀ (r : Fin 256) (d : Fin 64), v342 (ix3 r 0 d) = E 20 r d)
    (g21 : ∀ (r : Fin 256) (d : Fin 64), v343 (ix3 r 0 d) = E 21 r d)
    (g22 : ∀ (r : Fin 256) (d : Fin 64), v344 (ix3 r 0 d) = E 22 r d)
    (g23 : ∀ (r : Fin 256) (d : Fin 64), v345 (ix3 r 0 d) = E 23 r d)
    (g24 : ∀ (r : Fin 256) (d : Fin 64), v346 (ix3 r 0 d) = E 24 r d) :
    ∀ (r : Fin 256) (q : Fin 25), k0_pay75 v260 v270 v280 v290 v300 v310 v320 v322 v323 v324 v325 v326 v327 v328 v329 v330 v331 v332 v333 v334 v335 v336 v337 v338 v339 v340 v341 v342 v343 v344 v345 v346 (ix2 r q)
      = ∑ d : Fin 64, E ⟨7 + q.val, by omega⟩ r d * E ⟨6, by decide⟩ r d := by
  intro r q
  have hS := stack_apply E v260 v270 v280 v290 v300 v310 v320 v322 v323 v324 v325 v326 v327 v328 v329 v330 v331 v332 v333 v334 v335 v336 v337 v338 v339 v340 v341 v342 v343 v344 v345 v346 h25 h26 h27 h28 h29 h30 h31 g0 g1 g2 g3 g4 g5 g6 g7 g8 g9 g10 g11 g12 g13 g14 g15 g16 g17 g18 g19 g20 g21 g22 g23 g24
  refine (sumLast_apply _ _ r q).trans ?_
  refine Finset.sum_congr rfl fun d _ => ?_
  refine (crossProd_apply 6 7 _ _ _ _ r q d ⟨6, by decide⟩ ⟨7 + q.val, by omega⟩ rfl rfl).trans ?_
  rw [hS, hS]

theorem part7_apply (E : Fin 32 → Fin 256 → Fin 64 → EReal)
    (v260 v270 v280 v290 v300 v310 v320 : FVec Ideal S256x64 .f32)
    (v322 v323 v324 v325 v326 v327 v328 v329 v330 v331 v332 v333 v334 v335 v336 v337 v338 v339 v340 v341 v342 v343 v344 v345 v346 : FVec Ideal S256x1x64 .f32)
    (h25 : ∀ (r : Fin 256) (d : Fin 64), v260 (ix2 r d) = E 25 r d)
    (h26 : ∀ (r : Fin 256) (d : Fin 64), v270 (ix2 r d) = E 26 r d)
    (h27 : ∀ (r : Fin 256) (d : Fin 64), v280 (ix2 r d) = E 27 r d)
    (h28 : ∀ (r : Fin 256) (d : Fin 64), v290 (ix2 r d) = E 28 r d)
    (h29 : ∀ (r : Fin 256) (d : Fin 64), v300 (ix2 r d) = E 29 r d)
    (h30 : ∀ (r : Fin 256) (d : Fin 64), v310 (ix2 r d) = E 30 r d)
    (h31 : ∀ (r : Fin 256) (d : Fin 64), v320 (ix2 r d) = E 31 r d)
    (g0 : ∀ (r : Fin 256) (d : Fin 64), v322 (ix3 r 0 d) = E 0 r d)
    (g1 : ∀ (r : Fin 256) (d : Fin 64), v323 (ix3 r 0 d) = E 1 r d)
    (g2 : ∀ (r : Fin 256) (d : Fin 64), v324 (ix3 r 0 d) = E 2 r d)
    (g3 : ∀ (r : Fin 256) (d : Fin 64), v325 (ix3 r 0 d) = E 3 r d)
    (g4 : ∀ (r : Fin 256) (d : Fin 64), v326 (ix3 r 0 d) = E 4 r d)
    (g5 : ∀ (r : Fin 256) (d : Fin 64), v327 (ix3 r 0 d) = E 5 r d)
    (g6 : ∀ (r : Fin 256) (d : Fin 64), v328 (ix3 r 0 d) = E 6 r d)
    (g7 : ∀ (r : Fin 256) (d : Fin 64), v329 (ix3 r 0 d) = E 7 r d)
    (g8 : ∀ (r : Fin 256) (d : Fin 64), v330 (ix3 r 0 d) = E 8 r d)
    (g9 : ∀ (r : Fin 256) (d : Fin 64), v331 (ix3 r 0 d) = E 9 r d)
    (g10 : ∀ (r : Fin 256) (d : Fin 64), v332 (ix3 r 0 d) = E 10 r d)
    (g11 : ∀ (r : Fin 256) (d : Fin 64), v333 (ix3 r 0 d) = E 11 r d)
    (g12 : ∀ (r : Fin 256) (d : Fin 64), v334 (ix3 r 0 d) = E 12 r d)
    (g13 : ∀ (r : Fin 256) (d : Fin 64), v335 (ix3 r 0 d) = E 13 r d)
    (g14 : ∀ (r : Fin 256) (d : Fin 64), v336 (ix3 r 0 d) = E 14 r d)
    (g15 : ∀ (r : Fin 256) (d : Fin 64), v337 (ix3 r 0 d) = E 15 r d)
    (g16 : ∀ (r : Fin 256) (d : Fin 64), v338 (ix3 r 0 d) = E 16 r d)
    (g17 : ∀ (r : Fin 256) (d : Fin 64), v339 (ix3 r 0 d) = E 17 r d)
    (g18 : ∀ (r : Fin 256) (d : Fin 64), v340 (ix3 r 0 d) = E 18 r d)
    (g19 : ∀ (r : Fin 256) (d : Fin 64), v341 (ix3 r 0 d) = E 19 r d)
    (g20 : ∀ (r : Fin 256) (d : Fin 64), v342 (ix3 r 0 d) = E 20 r d)
    (g21 : ∀ (r : Fin 256) (d : Fin 64), v343 (ix3 r 0 d) = E 21 r d)
    (g22 : ∀ (r : Fin 256) (d : Fin 64), v344 (ix3 r 0 d) = E 22 r d)
    (g23 : ∀ (r : Fin 256) (d : Fin 64), v345 (ix3 r 0 d) = E 23 r d)
    (g24 : ∀ (r : Fin 256) (d : Fin 64), v346 (ix3 r 0 d) = E 24 r d) :
    ∀ (r : Fin 256) (q : Fin 24), k0_pay76 v260 v270 v280 v290 v300 v310 v320 v322 v323 v324 v325 v326 v327 v328 v329 v330 v331 v332 v333 v334 v335 v336 v337 v338 v339 v340 v341 v342 v343 v344 v345 v346 (ix2 r q)
      = ∑ d : Fin 64, E ⟨8 + q.val, by omega⟩ r d * E ⟨7, by decide⟩ r d := by
  intro r q
  have hS := stack_apply E v260 v270 v280 v290 v300 v310 v320 v322 v323 v324 v325 v326 v327 v328 v329 v330 v331 v332 v333 v334 v335 v336 v337 v338 v339 v340 v341 v342 v343 v344 v345 v346 h25 h26 h27 h28 h29 h30 h31 g0 g1 g2 g3 g4 g5 g6 g7 g8 g9 g10 g11 g12 g13 g14 g15 g16 g17 g18 g19 g20 g21 g22 g23 g24
  refine (sumLast_apply _ _ r q).trans ?_
  refine Finset.sum_congr rfl fun d _ => ?_
  refine (crossProd_apply 7 8 _ _ _ _ r q d ⟨7, by decide⟩ ⟨8 + q.val, by omega⟩ rfl rfl).trans ?_
  rw [hS, hS]

theorem prod8_apply (E : Fin 32 → Fin 256 → Fin 64 → EReal)
    (v260 v270 v280 v290 v300 v310 v320 : FVec Ideal S256x64 .f32)
    (v322 v323 v324 v325 v326 v327 v328 v329 v330 v331 v332 v333 v334 v335 v336 v337 v338 v339 v340 v341 v342 v343 v344 v345 v346 : FVec Ideal S256x1x64 .f32)
    (h25 : ∀ (r : Fin 256) (d : Fin 64), v260 (ix2 r d) = E 25 r d)
    (h26 : ∀ (r : Fin 256) (d : Fin 64), v270 (ix2 r d) = E 26 r d)
    (h27 : ∀ (r : Fin 256) (d : Fin 64), v280 (ix2 r d) = E 27 r d)
    (h28 : ∀ (r : Fin 256) (d : Fin 64), v290 (ix2 r d) = E 28 r d)
    (h29 : ∀ (r : Fin 256) (d : Fin 64), v300 (ix2 r d) = E 29 r d)
    (h30 : ∀ (r : Fin 256) (d : Fin 64), v310 (ix2 r d) = E 30 r d)
    (h31 : ∀ (r : Fin 256) (d : Fin 64), v320 (ix2 r d) = E 31 r d)
    (g0 : ∀ (r : Fin 256) (d : Fin 64), v322 (ix3 r 0 d) = E 0 r d)
    (g1 : ∀ (r : Fin 256) (d : Fin 64), v323 (ix3 r 0 d) = E 1 r d)
    (g2 : ∀ (r : Fin 256) (d : Fin 64), v324 (ix3 r 0 d) = E 2 r d)
    (g3 : ∀ (r : Fin 256) (d : Fin 64), v325 (ix3 r 0 d) = E 3 r d)
    (g4 : ∀ (r : Fin 256) (d : Fin 64), v326 (ix3 r 0 d) = E 4 r d)
    (g5 : ∀ (r : Fin 256) (d : Fin 64), v327 (ix3 r 0 d) = E 5 r d)
    (g6 : ∀ (r : Fin 256) (d : Fin 64), v328 (ix3 r 0 d) = E 6 r d)
    (g7 : ∀ (r : Fin 256) (d : Fin 64), v329 (ix3 r 0 d) = E 7 r d)
    (g8 : ∀ (r : Fin 256) (d : Fin 64), v330 (ix3 r 0 d) = E 8 r d)
    (g9 : ∀ (r : Fin 256) (d : Fin 64), v331 (ix3 r 0 d) = E 9 r d)
    (g10 : ∀ (r : Fin 256) (d : Fin 64), v332 (ix3 r 0 d) = E 10 r d)
    (g11 : ∀ (r : Fin 256) (d : Fin 64), v333 (ix3 r 0 d) = E 11 r d)
    (g12 : ∀ (r : Fin 256) (d : Fin 64), v334 (ix3 r 0 d) = E 12 r d)
    (g13 : ∀ (r : Fin 256) (d : Fin 64), v335 (ix3 r 0 d) = E 13 r d)
    (g14 : ∀ (r : Fin 256) (d : Fin 64), v336 (ix3 r 0 d) = E 14 r d)
    (g15 : ∀ (r : Fin 256) (d : Fin 64), v337 (ix3 r 0 d) = E 15 r d)
    (g16 : ∀ (r : Fin 256) (d : Fin 64), v338 (ix3 r 0 d) = E 16 r d)
    (g17 : ∀ (r : Fin 256) (d : Fin 64), v339 (ix3 r 0 d) = E 17 r d)
    (g18 : ∀ (r : Fin 256) (d : Fin 64), v340 (ix3 r 0 d) = E 18 r d)
    (g19 : ∀ (r : Fin 256) (d : Fin 64), v341 (ix3 r 0 d) = E 19 r d)
    (g20 : ∀ (r : Fin 256) (d : Fin 64), v342 (ix3 r 0 d) = E 20 r d)
    (g21 : ∀ (r : Fin 256) (d : Fin 64), v343 (ix3 r 0 d) = E 21 r d)
    (g22 : ∀ (r : Fin 256) (d : Fin 64), v344 (ix3 r 0 d) = E 22 r d)
    (g23 : ∀ (r : Fin 256) (d : Fin 64), v345 (ix3 r 0 d) = E 23 r d)
    (g24 : ∀ (r : Fin 256) (d : Fin 64), v346 (ix3 r 0 d) = E 24 r d) :
    ∀ (r : Fin 256) (q : Fin 23) (d : Fin 64), k0_pay77 v260 v270 v280 v290 v300 v310 v320 v322 v323 v324 v325 v326 v327 v328 v329 v330 v331 v332 v333 v334 v335 v336 v337 v338 v339 v340 v341 v342 v343 v344 v345 v346 (ix3 r q d)
      = E ⟨9 + q.val, by omega⟩ r d * E ⟨8, by decide⟩ r d := by
  intro r q d
  have hS := stack_apply E v260 v270 v280 v290 v300 v310 v320 v322 v323 v324 v325 v326 v327 v328 v329 v330 v331 v332 v333 v334 v335 v336 v337 v338 v339 v340 v341 v342 v343 v344 v345 v346 h25 h26 h27 h28 h29 h30 h31 g0 g1 g2 g3 g4 g5 g6 g7 g8 g9 g10 g11 g12 g13 g14 g15 g16 g17 g18 g19 g20 g21 g22 g23 g24
  refine (crossProd_apply 8 9 _ _ _ _ r q d ⟨8, by decide⟩ ⟨9 + q.val, by omega⟩ rfl rfl).trans ?_
  rw [hS, hS]

theorem sum78_apply (v398 : FVec Ideal S256x23x64 .f32) (r : Fin 256) (q : Fin 23) :
    k0_pay78 v398 (ix2 r q) = ∑ d : Fin 64, v398 (ix3 r q d) :=
  sumLast_apply v398 _ r q

theorem sum89_apply (v448 : FVec Ideal S256x13x64 .f32) (r : Fin 256) (q : Fin 13) :
    k0_pay89 v448 (ix2 r q) = ∑ d : Fin 64, v448 (ix3 r q d) :=
  sumLast_apply v448 _ r q

/-! ## Cross parts 9 … 28, from the stack -/

theorem part9_apply (E : Fin 32 → Fin 256 → Fin 64 → EReal) (S : FVec Ideal S256x32x64 .f32)
    (hS : ∀ (r : Fin 256) (f : Fin 32) (d : Fin 64), S (ix3 r f d) = E f r d) :
    ∀ (r : Fin 256) (q : Fin 22), k0_pay79 S (ix2 r q)
      = ∑ d : Fin 64, E ⟨10 + q.val, by omega⟩ r d * E ⟨9, by decide⟩ r d := by
  intro r q
  refine (sumLast_apply _ _ r q).trans ?_
  refine Finset.sum_congr rfl fun d _ => ?_
  refine (crossProd_apply 9 10 S _ _ _ r q d ⟨9, by decide⟩ ⟨10 + q.val, by omega⟩ rfl rfl).trans ?_
  rw [hS, hS]

theorem part10_apply (E : Fin 32 → Fin 256 → Fin 64 → EReal) (S : FVec Ideal S256x32x64 .f32)
    (hS : ∀ (r : Fin 256) (f : Fin 32) (d : Fin 64), S (ix3 r f d) = E f r d) :
    ∀ (r : Fin 256) (q : Fin 21), k0_pay80 S (ix2 r q)
      = ∑ d : Fin 64, E ⟨11 + q.val, by omega⟩ r d * E ⟨10, by decide⟩ r d := by
  intro r q
  refine (sumLast_apply _ _ r q).trans ?_
  refine Finset.sum_congr rfl fun d _ => ?_
  refine (crossProd_apply 10 11 S _ _ _ r q d ⟨10, by decide⟩ ⟨11 + q.val, by omega⟩ rfl rfl).trans ?_
  rw [hS, hS]

theorem part11_apply (E : Fin 32 → Fin 256 → Fin 64 → EReal) (S : FVec Ideal S256x32x64 .f32)
    (hS : ∀ (r : Fin 256) (f : Fin 32) (d : Fin 64), S (ix3 r f d) = E f r d) :
    ∀ (r : Fin 256) (q : Fin 20), k0_pay81 S (ix2 r q)
      = ∑ d : Fin 64, E ⟨12 + q.val, by omega⟩ r d * E ⟨11, by decide⟩ r d := by
  intro r q
  refine (sumLast_apply _ _ r q).trans ?_
  refine Finset.sum_congr rfl fun d _ => ?_
  refine (crossProd_apply 11 12 S _ _ _ r q d ⟨11, by decide⟩ ⟨12 + q.val, by omega⟩ rfl rfl).trans ?_
  rw [hS, hS]

theorem part12_apply (E : Fin 32 → Fin 256 → Fin 64 → EReal) (S : FVec Ideal S256x32x64 .f32)
    (hS : ∀ (r : Fin 256) (f : Fin 32) (d : Fin 64), S (ix3 r f d) = E f r d) :
    ∀ (r : Fin 256) (q : Fin 19), k0_pay82 S (ix2 r q)
      = ∑ d : Fin 64, E ⟨13 + q.val, by omega⟩ r d * E ⟨12, by decide⟩ r d := by
  intro r q
  refine (sumLast_apply _ _ r q).trans ?_
  refine Finset.sum_congr rfl fun d _ => ?_
  refine (crossProd_apply 12 13 S _ _ _ r q d ⟨12, by decide⟩ ⟨13 + q.val, by omega⟩ rfl rfl).trans ?_
  rw [hS, hS]

theorem part13_apply (E : Fin 32 → Fin 256 → Fin 64 → EReal) (S : FVec Ideal S256x32x64 .f32)
    (hS : ∀ (r : Fin 256) (f : Fin 32) (d : Fin 64), S (ix3 r f d) = E f r d) :
    ∀ (r : Fin 256) (q : Fin 18), k0_pay83 S (ix2 r q)
      = ∑ d : Fin 64, E ⟨14 + q.val, by omega⟩ r d * E ⟨13, by decide⟩ r d := by
  intro r q
  refine (sumLast_apply _ _ r q).trans ?_
  refine Finset.sum_congr rfl fun d _ => ?_
  refine (crossProd_apply 13 14 S _ _ _ r q d ⟨13, by decide⟩ ⟨14 + q.val, by omega⟩ rfl rfl).trans ?_
  rw [hS, hS]

theorem part14_apply (E : Fin 32 → Fin 256 → Fin 64 → EReal) (S : FVec Ideal S256x32x64 .f32)
    (hS : ∀ (r : Fin 256) (f : Fin 32) (d : Fin 64), S (ix3 r f d) = E f r d) :
    ∀ (r : Fin 256) (q : Fin 17), k0_pay84 S (ix2 r q)
      = ∑ d : Fin 64, E ⟨15 + q.val, by omega⟩ r d * E ⟨14, by decide⟩ r d := by
  intro r q
  refine (sumLast_apply _ _ r q).trans ?_
  refine Finset.sum_congr rfl fun d _ => ?_
  refine (crossProd_apply 14 15 S _ _ _ r q d ⟨14, by decide⟩ ⟨15 + q.val, by omega⟩ rfl rfl).trans ?_
  rw [hS, hS]

theorem part15_apply (E : Fin 32 → Fin 256 → Fin 64 → EReal) (S : FVec Ideal S256x32x64 .f32)
    (hS : ∀ (r : Fin 256) (f : Fin 32) (d : Fin 64), S (ix3 r f d) = E f r d) :
    ∀ (r : Fin 256) (q : Fin 16), k0_pay85 S (ix2 r q)
      = ∑ d : Fin 64, E ⟨16 + q.val, by omega⟩ r d * E ⟨15, by decide⟩ r d := by
  intro r q
  refine (sumLast_apply _ _ r q).trans ?_
  refine Finset.sum_congr rfl fun d _ => ?_
  refine (crossProd_apply 15 16 S _ _ _ r q d ⟨15, by decide⟩ ⟨16 + q.val, by omega⟩ rfl rfl).trans ?_
  rw [hS, hS]

theorem part16_apply (E : Fin 32 → Fin 256 → Fin 64 → EReal) (S : FVec Ideal S256x32x64 .f32)
    (hS : ∀ (r : Fin 256) (f : Fin 32) (d : Fin 64), S (ix3 r f d) = E f r d) :
    ∀ (r : Fin 256) (q : Fin 15), k0_pay86 S (ix2 r q)
      = ∑ d : Fin 64, E ⟨17 + q.val, by omega⟩ r d * E ⟨16, by decide⟩ r d := by
  intro r q
  refine (sumLast_apply _ _ r q).trans ?_
  refine Finset.sum_congr rfl fun d _ => ?_
  refine (crossProd_apply 16 17 S _ _ _ r q d ⟨16, by decide⟩ ⟨17 + q.val, by omega⟩ rfl rfl).trans ?_
  rw [hS, hS]

theorem part17_apply (E : Fin 32 → Fin 256 → Fin 64 → EReal) (S : FVec Ideal S256x32x64 .f32)
    (hS : ∀ (r : Fin 256) (f : Fin 32) (d : Fin 64), S (ix3 r f d) = E f r d) :
    ∀ (r : Fin 256) (q : Fin 14), k0_pay87 S (ix2 r q)
      = ∑ d : Fin 64, E ⟨18 + q.val, by omega⟩ r d * E ⟨17, by decide⟩ r d := by
  intro r q
  refine (sumLast_apply _ _ r q).trans ?_
  refine Finset.sum_congr rfl fun d _ => ?_
  refine (crossProd_apply 17 18 S _ _ _ r q d ⟨17, by decide⟩ ⟨18 + q.val, by omega⟩ rfl rfl).trans ?_
  rw [hS, hS]

theorem prod18_apply (E : Fin 32 → Fin 256 → Fin 64 → EReal) (S : FVec Ideal S256x32x64 .f32)
    (hS : ∀ (r : Fin 256) (f : Fin 32) (d : Fin 64), S (ix3 r f d) = E f r d) :
    ∀ (r : Fin 256) (q : Fin 13) (d : Fin 64), k0_pay88 S (ix3 r q d) = E ⟨19 + q.val, by omega⟩ r d * E ⟨18, by decide⟩ r d := by
  intro r q d
  refine (crossProd_apply 18 19 S _ _ _ r q d ⟨18, by decide⟩ ⟨19 + q.val, by omega⟩ rfl rfl).trans ?_
  rw [hS, hS]

theorem part19_apply (E : Fin 32 → Fin 256 → Fin 64 → EReal) (S : FVec Ideal S256x32x64 .f32)
    (hS : ∀ (r : Fin 256) (f : Fin 32) (d : Fin 64), S (ix3 r f d) = E f r d) :
    ∀ (r : Fin 256) (q : Fin 12), k0_pay90 S (ix2 r q)
      = ∑ d : Fin 64, E ⟨20 + q.val, by omega⟩ r d * E ⟨19, by decide⟩ r d := by
  intro r q
  refine (sumLast_apply _ _ r q).trans ?_
  refine Finset.sum_congr rfl fun d _ => ?_
  refine (crossProd_apply 19 20 S _ _ _ r q d ⟨19, by decide⟩ ⟨20 + q.val, by omega⟩ rfl rfl).trans ?_
  rw [hS, hS]

theorem part20_apply (E : Fin 32 → Fin 256 → Fin 64 → EReal) (S : FVec Ideal S256x32x64 .f32)
    (hS : ∀ (r : Fin 256) (f : Fin 32) (d : Fin 64), S (ix3 r f d) = E f r d) :
    ∀ (r : Fin 256) (q : Fin 11), k0_pay91 S (ix2 r q)
      = ∑ d : Fin 64, E ⟨21 + q.val, by omega⟩ r d * E ⟨20, by decide⟩ r d := by
  intro r q
  refine (sumLast_apply _ _ r q).trans ?_
  refine Finset.sum_congr rfl fun d _ => ?_
  refine (crossProd_apply 20 21 S _ _ _ r q d ⟨20, by decide⟩ ⟨21 + q.val, by omega⟩ rfl rfl).trans ?_
  rw [hS, hS]

theorem part21_apply (E : Fin 32 → Fin 256 → Fin 64 → EReal) (S : FVec Ideal S256x32x64 .f32)
    (hS : ∀ (r : Fin 256) (f : Fin 32) (d : Fin 64), S (ix3 r f d) = E f r d) :
    ∀ (r : Fin 256) (q : Fin 10), k0_pay92 S (ix2 r q)
      = ∑ d : Fin 64, E ⟨22 + q.val, by omega⟩ r d * E ⟨21, by decide⟩ r d := by
  intro r q
  refine (sumLast_apply _ _ r q).trans ?_
  refine Finset.sum_congr rfl fun d _ => ?_
  refine (crossProd_apply 21 22 S _ _ _ r q d ⟨21, by decide⟩ ⟨22 + q.val, by omega⟩ rfl rfl).trans ?_
  rw [hS, hS]

theorem part22_apply (E : Fin 32 → Fin 256 → Fin 64 → EReal) (S : FVec Ideal S256x32x64 .f32)
    (hS : ∀ (r : Fin 256) (f : Fin 32) (d : Fin 64), S (ix3 r f d) = E f r d) :
    ∀ (r : Fin 256) (q : Fin 9), k0_pay93 S (ix2 r q)
      = ∑ d : Fin 64, E ⟨23 + q.val, by omega⟩ r d * E ⟨22, by decide⟩ r d := by
  intro r q
  refine (sumLast_apply _ _ r q).trans ?_
  refine Finset.sum_congr rfl fun d _ => ?_
  refine (crossProd_apply 22 23 S _ _ _ r q d ⟨22, by decide⟩ ⟨23 + q.val, by omega⟩ rfl rfl).trans ?_
  rw [hS, hS]

theorem part23_apply (E : Fin 32 → Fin 256 → Fin 64 → EReal) (S : FVec Ideal S256x32x64 .f32)
    (hS : ∀ (r : Fin 256) (f : Fin 32) (d : Fin 64), S (ix3 r f d) = E f r d) :
    ∀ (r : Fin 256) (q : Fin 8), k0_pay94 S (ix2 r q)
      = ∑ d : Fin 64, E ⟨24 + q.val, by omega⟩ r d * E ⟨23, by decide⟩ r d := by
  intro r q
  refine (sumLast_apply _ _ r q).trans ?_
  refine Finset.sum_congr rfl fun d _ => ?_
  refine (crossProd_apply 23 24 S _ _ _ r q d ⟨23, by decide⟩ ⟨24 + q.val, by omega⟩ rfl rfl).trans ?_
  rw [hS, hS]

theorem part24_apply (E : Fin 32 → Fin 256 → Fin 64 → EReal) (S : FVec Ideal S256x32x64 .f32)
    (hS : ∀ (r : Fin 256) (f : Fin 32) (d : Fin 64), S (ix3 r f d) = E f r d) :
    ∀ (r : Fin 256) (q : Fin 7), k0_pay95 S (ix2 r q)
      = ∑ d : Fin 64, E ⟨25 + q.val, by omega⟩ r d * E ⟨24, by decide⟩ r d := by
  intro r q
  refine (sumLast_apply _ _ r q).trans ?_
  refine Finset.sum_congr rfl fun d _ => ?_
  refine (crossProd_apply 24 25 S _ _ _ r q d ⟨24, by decide⟩ ⟨25 + q.val, by omega⟩ rfl rfl).trans ?_
  rw [hS, hS]

theorem part25_apply (E : Fin 32 → Fin 256 → Fin 64 → EReal) (S : FVec Ideal S256x32x64 .f32)
    (hS : ∀ (r : Fin 256) (f : Fin 32) (d : Fin 64), S (ix3 r f d) = E f r d) :
    ∀ (r : Fin 256) (q : Fin 6), k0_pay96 S (ix2 r q)
      = ∑ d : Fin 64, E ⟨26 + q.val, by omega⟩ r d * E ⟨25, by decide⟩ r d := by
  intro r q
  refine (sumLast_apply _ _ r q).trans ?_
  refine Finset.sum_congr rfl fun d _ => ?_
  refine (crossProd_apply 25 26 S _ _ _ r q d ⟨25, by decide⟩ ⟨26 + q.val, by omega⟩ rfl rfl).trans ?_
  rw [hS, hS]

theorem part26_apply (E : Fin 32 → Fin 256 → Fin 64 → EReal) (S : FVec Ideal S256x32x64 .f32)
    (hS : ∀ (r : Fin 256) (f : Fin 32) (d : Fin 64), S (ix3 r f d) = E f r d) :
    ∀ (r : Fin 256) (q : Fin 5), k0_pay97 S (ix2 r q)
      = ∑ d : Fin 64, E ⟨27 + q.val, by omega⟩ r d * E ⟨26, by decide⟩ r d := by
  intro r q
  refine (sumLast_apply _ _ r q).trans ?_
  refine Finset.sum_congr rfl fun d _ => ?_
  refine (crossProd_apply 26 27 S _ _ _ r q d ⟨26, by decide⟩ ⟨27 + q.val, by omega⟩ rfl rfl).trans ?_
  rw [hS, hS]

theorem part27_apply (E : Fin 32 → Fin 256 → Fin 64 → EReal) (S : FVec Ideal S256x32x64 .f32)
    (hS : ∀ (r : Fin 256) (f : Fin 32) (d : Fin 64), S (ix3 r f d) = E f r d) :
    ∀ (r : Fin 256) (q : Fin 4), k0_pay98 S (ix2 r q)
      = ∑ d : Fin 64, E ⟨28 + q.val, by omega⟩ r d * E ⟨27, by decide⟩ r d := by
  intro r q
  refine (sumLast_apply _ _ r q).trans ?_
  refine Finset.sum_congr rfl fun d _ => ?_
  refine (crossProd_apply 27 28 S _ _ _ r q d ⟨27, by decide⟩ ⟨28 + q.val, by omega⟩ rfl rfl).trans ?_
  rw [hS, hS]

theorem prod28_apply (E : Fin 32 → Fin 256 → Fin 64 → EReal) (S : FVec Ideal S256x32x64 .f32)
    (hS : ∀ (r : Fin 256) (f : Fin 32) (d : Fin 64), S (ix3 r f d) = E f r d) :
    ∀ (r : Fin 256) (q : Fin 3) (d : Fin 64), k0_pay99 S (ix3 r q d) = E ⟨29 + q.val, by omega⟩ r d * E ⟨28, by decide⟩ r d := by
  intro r q d
  refine (crossProd_apply 28 29 S _ _ _ r q d ⟨28, by decide⟩ ⟨29 + q.val, by omega⟩ rfl rfl).trans ?_
  rw [hS, hS]

end Cert.KernelIdeal.Body

end
-- ==== Proof.KerTail.lean ====
/-
  The flat field block and the tail of one grid point's body: the 32 field results laid side by side, the 496 inner
  products of distinct fields collected in row-major order of the pair, and the three-layer perceptron with the
  logistic on top.
-/
import proofs.«401391_j12421045420606_1_alg».proof.Proof.KerSpec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StackMember

noncomputable section

namespace Cert.KernelIdeal.Body

open Cert.KernelIdeal Idealize.ShloMosaic Idealize.ShloMosaic.ValueIdx Cert.Spec
open Cert.KernelIdeal.Gen
open scoped BigOperators

/-- A field number a + q, with q below n and a + n = 32, is below 32 (a term proof of the bound, for the statements below). -/
theorem tail_fieldLt (a n : Nat) (h : a + n = 32) (q : Fin n) : a + q.val < 32 := by omega

/-- A literal field number a with a + k + 1 = 32 is below 32. -/
theorem tail_litLt (a k : Nat) (h : a + k + 1 = 32) : a < 32 := by omega

/-! ## General readings -/

/-- The sum over the last axis of a rank-3 array, read at (r, q): the sum over the last coordinate. -/
theorem reduceLast_apply {m n k : Nat} (src : FVec Ideal ⟨3, ![m, n, k]⟩ .f32)
    (h : (⟨3, ![m, n, k]⟩ : Shape).Reduces [2] ⟨2, ![m, n]⟩) (hφ : FKind.Formats .f32)
    (hacc : (0x00000000#32 : BitVec 32) = FKind.add.neutral .f32 hφ) (r : Fin m) (q : Fin n) :
    multiReduction (F := Ideal) .add [2] ⟨2, ![m, n]⟩ src 0x00000000#32 h hφ hacc (ix2 r q) = ∑ d : Fin k, src (ix3 r q d) := by
  refine (Ideal.multiReduction_add_single src _ h hφ hacc (ix2 r q)).trans ?_
  refine Finset.sum_congr rfl fun d _ => congrArg src ?_
  funext c
  apply Fin.ext
  rw [Shape.Reduces.lift_val]
  unfold Shape.Reduces.liftVal
  match c with
  | ⟨0, _⟩ => rfl
  | ⟨1, _⟩ => rfl
  | ⟨2, _⟩ => rfl

/-- A plain [m, k] by [k, n] matrix product into a zero accumulator, read at (a, b): the sum over the contracted coordinate. -/
theorem matmul_plain_apply {m k n : Nat} {φ₁ φ₂ : FTy} (D : DotDims ⟨2, ![m, k]⟩ ⟨2, ![k, n]⟩ ⟨2, ![m, n]⟩)
    (hD : D = DotDims.plain m k n) (prec : Option ContractPrecision)
    (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  subst hD
  refine (Ideal.matmul_constant_zero_apply (DotDims.plain m k n) prec A B (ix2 a b)).trans ?_
  refine (Ideal.dotGeneral_apply (DotDims.plain m k n) prec default A B (ix2 a b)).symm.trans ?_
  exact StackMember.dotGeneral_plain_apply prec A B a b

/-! ## The flat fields -/

/-- The 32 field results side by side: column i is entry i mod 64 of field i / 64. -/
theorem flat_apply (E : Fin 32 → Fin 256 → Fin 64 → EReal) (v0 : IVec S1x1000 32)
    (v10 : FVec Ideal S256x64 .f32) (v20 : FVec Ideal S256x64 .f32) (v30 : FVec Ideal S256x64 .f32) (v40 : FVec Ideal S256x64 .f32) (v50 : FVec Ideal S256x64 .f32) (v60 : FVec Ideal S256x64 .f32) (v70 : FVec Ideal S256x64 .f32) (v80 : FVec Ideal S256x64 .f32) (v90 : FVec Ideal S256x64 .f32) (v100 : FVec Ideal S256x64 .f32) (v110 : FVec Ideal S256x64 .f32) (v120 : FVec Ideal S256x64 .f32) (v130 : FVec Ideal S256x64 .f32) (v140 : FVec Ideal S256x64 .f32) (v150 : FVec Ideal S256x64 .f32) (v160 : FVec Ideal S256x64 .f32) (v170 : FVec Ideal S256x64 .f32) (v180 : FVec Ideal S256x64 .f32) (v190 : FVec Ideal S256x64 .f32) (v200 : FVec Ideal S256x64 .f32) (v210 : FVec Ideal S256x64 .f32) (v220 : FVec Ideal S256x64 .f32) (v230 : FVec Ideal S256x64 .f32) (v240 : FVec Ideal S256x64 .f32) (v250 : FVec Ideal S256x64 .f32) (v260 : FVec Ideal S256x64 .f32) (v270 : FVec Ideal S256x64 .f32) (v280 : FVec Ideal S256x64 .f32) (v290 : FVec Ideal S256x64 .f32)
    (v297 : FVec Ideal S256x1000 .bf16) (v299 : FVec Ideal S1000x64 .bf16) (v301 : Vec Ideal S256x1 .i32) (v308 : Vec Ideal S1x1000x64 .bf16) (v311 : Vec Ideal S256x1 .i32) (v318 : Vec Ideal S1x1000x64 .bf16)
    (h0 : ∀ r d, v10 (ix2 r d) = E 0 r d) (h1 : ∀ r d, v20 (ix2 r d) = E 1 r d) (h2 : ∀ r d, v30 (ix2 r d) = E 2 r d) (h3 : ∀ r d, v40 (ix2 r d) = E 3 r d) (h4 : ∀ r d, v50 (ix2 r d) = E 4 r d) (h5 : ∀ r d, v60 (ix2 r d) = E 5 r d) (h6 : ∀ r d, v70 (ix2 r d) = E 6 r d) (h7 : ∀ r d, v80 (ix2 r d) = E 7 r d) (h8 : ∀ r d, v90 (ix2 r d) = E 8 r d) (h9 : ∀ r d, v100 (ix2 r d) = E 9 r d) (h10 : ∀ r d, v110 (ix2 r d) = E 10 r d) (h11 : ∀ r d, v120 (ix2 r d) = E 11 r d) (h12 : ∀ r d, v130 (ix2 r d) = E 12 r d) (h13 : ∀ r d, v140 (ix2 r d) = E 13 r d) (h14 : ∀ r d, v150 (ix2 r d) = E 14 r d) (h15 : ∀ r d, v160 (ix2 r d) = E 15 r d) (h16 : ∀ r d, v170 (ix2 r d) = E 16 r d) (h17 : ∀ r d, v180 (ix2 r d) = E 17 r d) (h18 : ∀ r d, v190 (ix2 r d) = E 18 r d) (h19 : ∀ r d, v200 (ix2 r d) = E 19 r d) (h20 : ∀ r d, v210 (ix2 r d) = E 20 r d) (h21 : ∀ r d, v220 (ix2 r d) = E 21 r d) (h22 : ∀ r d, v230 (ix2 r d) = E 22 r d) (h23 : ∀ r d, v240 (ix2 r d) = E 23 r d) (h24 : ∀ r d, v250 (ix2 r d) = E 24 r d) (h25 : ∀ r d, v260 (ix2 r d) = E 25 r d) (h26 : ∀ r d, v270 (ix2 r d) = E 26 r d) (h27 : ∀ r d, v280 (ix2 r d) = E 27 r d) (h28 : ∀ r d, v290 (ix2 r d) = E 28 r d)
    (h29 : ∀ r d, k0_pay39 v297 v299 (ix2 r d) = E 29 r d) (h30 : ∀ r d, k0_pay40 v0 v301 v308 (ix2 r d) = E 30 r d) (h31 : ∀ r d, k0_pay41 v0 v311 v318 (ix2 r d) = E 31 r d) :
    ∀ (r : Fin 256) (i : Fin 2048), k0_pay42 v0 v10 v20 v30 v40 v50 v60 v70 v80 v90 v100 v110 v120 v130 v140 v150 v160 v170 v180 v190 v200 v210 v220 v230 v240 v250 v260 v270 v280 v290 v297 v299 v301 v308 v311 v318 (ix2 r i)
      = E ⟨i.val / 64, by omega⟩ r ⟨i.val % 64, Nat.mod_lt _ (by decide)⟩ := by
  intro r i
  -- the 32 pieces as one family over the field number
  let P : Fin 32 → (S256x64.Idx → Ideal .f32) :=
    ![v10, v20, v30, v40, v50, v60, v70, v80, v90, v100, v110, v120, v130, v140, v150, v160, v170, v180, v190, v200,
      v210, v220, v230, v240, v250, v260, v270, v280, v290, k0_pay39 v297 v299, k0_pay40 v0 v301 v308, k0_pay41 v0 v311 v318]
  have hP : ∀ (n : Fin 32) (d : Fin 64), P n (ix2 r d) = E n r d := by
    intro n d
    fin_cases n
    exacts [h0 r d, h1 r d, h2 r d, h3 r d, h4 r d, h5 r d, h6 r d, h7 r d, h8 r d, h9 r d, h10 r d, h11 r d, h12 r d,
      h13 r d, h14 r d, h15 r d, h16 r d, h17 r d, h18 r d, h19 r d, h20 r d, h21 r d, h22 r d, h23 r d, h24 r d, h25 r d,
      h26 r d, h27 r d, h28 r d, h29 r d, h30 r d, h31 r d]
  -- the literal list of pieces is the family listed in order: 32 pieces of 64 columns
  have hc : Shape.Concatenates ((List.ofFn fun n : Fin 32 => (⟨S256x64, P n⟩ : (s : Shape) × (s.Idx → Ideal .f32))).map (·.1))
      S256x2048 1 := (by decide : Shape.Concatenates (List.replicate 32 S256x64) S256x2048 1)
  exact (concatenate_ofFn_apply (t := S256x2048) (s₁ := S256x64) (1 : Fin 2) P hc rfl 64 rfl (ix2 r i) ⟨i.val / 64, by omega⟩ rfl
    (ix2 r ⟨i.val % 64, Nat.mod_lt _ (by decide)⟩) rfl fun b hb => by
      match b with
      | ⟨0, _⟩ => rfl
      | ⟨1, _⟩ => exact absurd rfl hb).trans (hP _ _)

/-! ## The inner-product block: 31 parts side by side -/

/-- Column p of the inner-product block belongs to the pair (a, j) = (pairI p, pairJ p): a < j, and p sits j - a - 1 places
    after the columns of the earlier parts, 31 a - a (a - 1) / 2 of them. Decided over the 496 columns. -/
theorem pair_facts : ∀ p : Fin 496, (pairI p).val < (pairJ p).val ∧
    p.val + (pairI p).val * ((pairI p).val + 1) / 2 + 1 = 31 * (pairI p).val + (pairJ p).val := by
  decide +kernel

/-- The widths of the 31 parts: part a has a column for each field above a. -/
def partWidths : List Nat :=
  [31, 30, 29, 28, 27, 26, 25, 24, 23, 22, 21, 20, 19, 18, 17, 16, 15, 14, 13, 12, 11, 10, 9, 8, 7, 6, 5, 4, 3, 2, 1]

/-- A concatenation of [256, w] pieces (widths ws) along the columns, read at (r, p): piece k, whose columns start after the
    pre columns of the pieces before it, at (r, q) with pre + q = p. -/
theorem cat_col_apply {N : Nat} (xs : List ((s : Shape) × (s.Idx → Ideal .f32)))
    (h : Shape.Concatenates (xs.map (·.1)) ⟨2, ![256, N]⟩ 1) (ws : List Nat)
    (hws : xs.map (·.1) = ws.map fun w => (⟨2, ![256, w]⟩ : Shape)) (k : Nat) (w : Nat)
    (x : (⟨2, ![256, w]⟩ : Shape).Idx → Ideal .f32) (hxk : xs[k]? = some ⟨⟨2, ![256, w]⟩, x⟩) (pre : Nat)
    (hpre : (ws.take k).sum = pre) (r : Fin 256) (p : Fin N) (q : Fin w) (hq : pre + q.val = p.val) :
    concatenate ⟨2, ![256, N]⟩ 1 xs h (ix2 r p) = x (ix2 r q) := by
  obtain ⟨hk, hxk'⟩ := List.getElem?_eq_some_iff.mp hxk
  have e : ((xs.take k).map (·.1)).map (fun s : Shape =>
      if h : s.rank = (⟨2, ![256, N]⟩ : Shape).rank then s.size ((1 : Fin 2).cast h.symm) else 0) = ws.take k := by
    rw [List.map_take, hws, ← List.map_take, List.map_map]
    conv_rhs => rw [← List.map_id (ws.take k)]
    exact List.map_congr_left fun w _ => rfl
  exact concatenate_apply_piece (t := ⟨2, ![256, N]⟩) (1 : Fin 2) xs h (ix2 r p) k hk _ x hxk' rfl pre (by rw [e]; exact hpre) (ix2 r q)
    (fun b hb => by
      match b with
      | ⟨0, _⟩ => rfl
      | ⟨1, _⟩ => exact absurd rfl hb) hq

/-- The 31 parts side by side: column p is the inner product of the fields of pair p (the larger field's vector first, as the
    parts compute it). Part a has a column for each field above a. -/
theorem cross_apply (E : Fin 32 → Fin 256 → Fin 64 → EReal)
    (v359 : FVec Ideal S256x31 .f32) (v364 : FVec Ideal S256x30 .f32) (v369 : FVec Ideal S256x29 .f32) (v374 : FVec Ideal S256x28 .f32)
    (v379 : FVec Ideal S256x27 .f32) (v384 : FVec Ideal S256x26 .f32) (v389 : FVec Ideal S256x25 .f32) (v394 : FVec Ideal S256x24 .f32)
    (v399 : FVec Ideal S256x23 .f32) (v404 : FVec Ideal S256x22 .f32) (v409 : FVec Ideal S256x21 .f32) (v414 : FVec Ideal S256x20 .f32)
    (v419 : FVec Ideal S256x19 .f32) (v424 : FVec Ideal S256x18 .f32) (v429 : FVec Ideal S256x17 .f32) (v434 : FVec Ideal S256x16 .f32)
    (v439 : FVec Ideal S256x15 .f32) (v444 : FVec Ideal S256x14 .f32) (v449 : FVec Ideal S256x13 .f32) (v454 : FVec Ideal S256x12 .f32)
    (v459 : FVec Ideal S256x11 .f32) (v464 : FVec Ideal S256x10 .f32) (v469 : FVec Ideal S256x9 .f32) (v474 : FVec Ideal S256x8 .f32)
    (v479 : FVec Ideal S256x7 .f32) (v484 : FVec Ideal S256x6 .f32) (v489 : FVec Ideal S256x5 .f32) (v494 : FVec Ideal S256x4 .f32)
    (x28 : FVec Ideal S256x3 .f32) (x29 : FVec Ideal S256x2 .f32) (x30 : FVec Ideal S256x1 .f32)
    (xs : List ((s : Shape) × (s.Idx → Ideal .f32)))
    (hxs : xs = [⟨S256x31, v359⟩, ⟨S256x30, v364⟩, ⟨S256x29, v369⟩, ⟨S256x28, v374⟩, ⟨S256x27, v379⟩, ⟨S256x26, v384⟩, ⟨S256x25, v389⟩,
      ⟨S256x24, v394⟩, ⟨S256x23, v399⟩, ⟨S256x22, v404⟩, ⟨S256x21, v409⟩, ⟨S256x20, v414⟩, ⟨S256x19, v419⟩, ⟨S256x18, v424⟩,
      ⟨S256x17, v429⟩, ⟨S256x16, v434⟩, ⟨S256x15, v439⟩, ⟨S256x14, v444⟩, ⟨S256x13, v449⟩, ⟨S256x12, v454⟩, ⟨S256x11, v459⟩,
      ⟨S256x10, v464⟩, ⟨S256x9, v469⟩, ⟨S256x8, v474⟩, ⟨S256x7, v479⟩, ⟨S256x6, v484⟩, ⟨S256x5, v489⟩, ⟨S256x4, v494⟩,
      ⟨S256x3, x28⟩, ⟨S256x2, x29⟩, ⟨S256x1, x30⟩])
    (hcat : Shape.Concatenates (xs.map (·.1)) S256x496 1)
    (hp0 : ∀ r (q : Fin 31), v359 (ix2 r q) = ∑ d : Fin 64, E ⟨1 + q.val, tail_fieldLt 1 31 rfl q⟩ r d * E ⟨0, tail_litLt 0 31 rfl⟩ r d)
    (hp1 : ∀ r (q : Fin 30), v364 (ix2 r q) = ∑ d : Fin 64, E ⟨2 + q.val, tail_fieldLt 2 30 rfl q⟩ r d * E ⟨1, tail_litLt 1 30 rfl⟩ r d)
    (hp2 : ∀ r (q : Fin 29), v369 (ix2 r q) = ∑ d : Fin 64, E ⟨3 + q.val, tail_fieldLt 3 29 rfl q⟩ r d * E ⟨2, tail_litLt 2 29 rfl⟩ r d)
    (hp3 : ∀ r (q : Fin 28), v374 (ix2 r q) = ∑ d : Fin 64, E ⟨4 + q.val, tail_fieldLt 4 28 rfl q⟩ r d * E ⟨3, tail_litLt 3 28 rfl⟩ r d)
    (hp4 : ∀ r (q : Fin 27), v379 (ix2 r q) = ∑ d : Fin 64, E ⟨5 + q.val, tail_fieldLt 5 27 rfl q⟩ r d * E ⟨4, tail_litLt 4 27 rfl⟩ r d)
    (hp5 : ∀ r (q : Fin 26), v384 (ix2 r q) = ∑ d : Fin 64, E ⟨6 + q.val, tail_fieldLt 6 26 rfl q⟩ r d * E ⟨5, tail_litLt 5 26 rfl⟩ r d)
    (hp6 : ∀ r (q : Fin 25), v389 (ix2 r q) = ∑ d : Fin 64, E ⟨7 + q.val, tail_fieldLt 7 25 rfl q⟩ r d * E ⟨6, tail_litLt 6 25 rfl⟩ r d)
    (hp7 : ∀ r (q : Fin 24), v394 (ix2 r q) = ∑ d : Fin 64, E ⟨8 + q.val, tail_fieldLt 8 24 rfl q⟩ r d * E ⟨7, tail_litLt 7 24 rfl⟩ r d)
    (hp8 : ∀ r (q : Fin 23), v399 (ix2 r q) = ∑ d : Fin 64, E ⟨9 + q.val, tail_fieldLt 9 23 rfl q⟩ r d * E ⟨8, tail_litLt 8 23 rfl⟩ r d)
    (hp9 : ∀ r (q : Fin 22), v404 (ix2 r q) = ∑ d : Fin 64, E ⟨10 + q.val, tail_fieldLt 10 22 rfl q⟩ r d * E ⟨9, tail_litLt 9 22 rfl⟩ r d)
    (hp10 : ∀ r (q : Fin 21), v409 (ix2 r q) = ∑ d : Fin 64, E ⟨11 + q.val, tail_fieldLt 11 21 rfl q⟩ r d * E ⟨10, tail_litLt 10 21 rfl⟩ r d)
    (hp11 : ∀ r (q : Fin 20), v414 (ix2 r q) = ∑ d : Fin 64, E ⟨12 + q.val, tail_fieldLt 12 20 rfl q⟩ r d * E ⟨11, tail_litLt 11 20 rfl⟩ r d)
    (hp12 : ∀ r (q : Fin 19), v419 (ix2 r q) = ∑ d : Fin 64, E ⟨13 + q.val, tail_fieldLt 13 19 rfl q⟩ r d * E ⟨12, tail_litLt 12 19 rfl⟩ r d)
    (hp13 : ∀ r (q : Fin 18), v424 (ix2 r q) = ∑ d : Fin 64, E ⟨14 + q.val, tail_fieldLt 14 18 rfl q⟩ r d * E ⟨13, tail_litLt 13 18 rfl⟩ r d)
    (hp14 : ∀ r (q : Fin 17), v429 (ix2 r q) = ∑ d : Fin 64, E ⟨15 + q.val, tail_fieldLt 15 17 rfl q⟩ r d * E ⟨14, tail_litLt 14 17 rfl⟩ r d)
    (hp15 : ∀ r (q : Fin 16), v434 (ix2 r q) = ∑ d : Fin 64, E ⟨16 + q.val, tail_fieldLt 16 16 rfl q⟩ r d * E ⟨15, tail_litLt 15 16 rfl⟩ r d)
    (hp16 : ∀ r (q : Fin 15), v439 (ix2 r q) = ∑ d : Fin 64, E ⟨17 + q.val, tail_fieldLt 17 15 rfl q⟩ r d * E ⟨16, tail_litLt 16 15 rfl⟩ r d)
    (hp17 : ∀ r (q : Fin 14), v444 (ix2 r q) = ∑ d : Fin 64, E ⟨18 + q.val, tail_fieldLt 18 14 rfl q⟩ r d * E ⟨17, tail_litLt 17 14 rfl⟩ r d)
    (hp18 : ∀ r (q : Fin 13), v449 (ix2 r q) = ∑ d : Fin 64, E ⟨19 + q.val, tail_fieldLt 19 13 rfl q⟩ r d * E ⟨18, tail_litLt 18 13 rfl⟩ r d)
    (hp19 : ∀ r (q : Fin 12), v454 (ix2 r q) = ∑ d : Fin 64, E ⟨20 + q.val, tail_fieldLt 20 12 rfl q⟩ r d * E ⟨19, tail_litLt 19 12 rfl⟩ r d)
    (hp20 : ∀ r (q : Fin 11), v459 (ix2 r q) = ∑ d : Fin 64, E ⟨21 + q.val, tail_fieldLt 21 11 rfl q⟩ r d * E ⟨20, tail_litLt 20 11 rfl⟩ r d)
    (hp21 : ∀ r (q : Fin 10), v464 (ix2 r q) = ∑ d : Fin 64, E ⟨22 + q.val, tail_fieldLt 22 10 rfl q⟩ r d * E ⟨21, tail_litLt 21 10 rfl⟩ r d)
    (hp22 : ∀ r (q : Fin 9), v469 (ix2 r q) = ∑ d : Fin 64, E ⟨23 + q.val, tail_fieldLt 23 9 rfl q⟩ r d * E ⟨22, tail_litLt 22 9 rfl⟩ r d)
    (hp23 : ∀ r (q : Fin 8), v474 (ix2 r q) = ∑ d : Fin 64, E ⟨24 + q.val, tail_fieldLt 24 8 rfl q⟩ r d * E ⟨23, tail_litLt 23 8 rfl⟩ r d)
    (hp24 : ∀ r (q : Fin 7), v479 (ix2 r q) = ∑ d : Fin 64, E ⟨25 + q.val, tail_fieldLt 25 7 rfl q⟩ r d * E ⟨24, tail_litLt 24 7 rfl⟩ r d)
    (hp25 : ∀ r (q : Fin 6), v484 (ix2 r q) = ∑ d : Fin 64, E ⟨26 + q.val, tail_fieldLt 26 6 rfl q⟩ r d * E ⟨25, tail_litLt 25 6 rfl⟩ r d)
    (hp26 : ∀ r (q : Fin 5), v489 (ix2 r q) = ∑ d : Fin 64, E ⟨27 + q.val, tail_fieldLt 27 5 rfl q⟩ r d * E ⟨26, tail_litLt 26 5 rfl⟩ r d)
    (hp27 : ∀ r (q : Fin 4), v494 (ix2 r q) = ∑ d : Fin 64, E ⟨28 + q.val, tail_fieldLt 28 4 rfl q⟩ r d * E ⟨27, tail_litLt 27 4 rfl⟩ r d)
    (hp28 : ∀ r (q : Fin 3), x28 (ix2 r q) = ∑ d : Fin 64, E ⟨29 + q.val, tail_fieldLt 29 3 rfl q⟩ r d * E ⟨28, tail_litLt 28 3 rfl⟩ r d)
    (hp29 : ∀ r (q : Fin 2), x29 (ix2 r q) = ∑ d : Fin 64, E ⟨30 + q.val, tail_fieldLt 30 2 rfl q⟩ r d * E ⟨29, tail_litLt 29 2 rfl⟩ r d)
    (hp30 : ∀ r (q : Fin 1), x30 (ix2 r q) = ∑ d : Fin 64, E ⟨31 + q.val, tail_fieldLt 31 1 rfl q⟩ r d * E ⟨30, tail_litLt 30 1 rfl⟩ r d) :
    ∀ (r : Fin 256) (p : Fin 496), concatenate S256x496 1 xs hcat (ix2 r p) = ∑ d : Fin 64, E (pairJ p) r d * E (pairI p) r d := by
  intro r p
  subst hxs
  obtain ⟨hlt, hpos⟩ := pair_facts p
  have hj32 : (pairJ p).val < 32 := (pairJ p).isLt
  -- the pair's two fields as numbers a < j
  obtain ⟨a, ha⟩ : ∃ a, (pairI p).val = a := ⟨_, rfl⟩
  obtain ⟨j, hj⟩ : ∃ j, (pairJ p).val = j := ⟨_, rfl⟩
  rw [ha, hj] at hlt hpos
  rw [hj] at hj32
  have fin : ∀ (a' j' : Nat) (ha' : a' < 32) (hj' : j' < 32), a' = a → j' = j →
      (∑ d : Fin 64, E ⟨j', hj'⟩ r d * E ⟨a', ha'⟩ r d) = ∑ d : Fin 64, E (pairJ p) r d * E (pairI p) r d := by
    intro a' j' ha' hj' ea ej
    have eI : pairI p = ⟨a', ha'⟩ := Fin.ext (ha.trans ea.symm)
    have eJ : pairJ p = ⟨j', hj'⟩ := Fin.ext (hj.trans ej.symm)
    rw [eI, eJ]
  have ha31 : a < 31 := by omega
  have hws : ([⟨S256x31, v359⟩, ⟨S256x30, v364⟩, ⟨S256x29, v369⟩, ⟨S256x28, v374⟩, ⟨S256x27, v379⟩, ⟨S256x26, v384⟩, ⟨S256x25, v389⟩,
      ⟨S256x24, v394⟩, ⟨S256x23, v399⟩, ⟨S256x22, v404⟩, ⟨S256x21, v409⟩, ⟨S256x20, v414⟩, ⟨S256x19, v419⟩, ⟨S256x18, v424⟩,
      ⟨S256x17, v429⟩, ⟨S256x16, v434⟩, ⟨S256x15, v439⟩, ⟨S256x14, v444⟩, ⟨S256x13, v449⟩, ⟨S256x12, v454⟩, ⟨S256x11, v459⟩,
      ⟨S256x10, v464⟩, ⟨S256x9, v469⟩, ⟨S256x8, v474⟩, ⟨S256x7, v479⟩, ⟨S256x6, v484⟩, ⟨S256x5, v489⟩, ⟨S256x4, v494⟩,
      ⟨S256x3, x28⟩, ⟨S256x2, x29⟩, ⟨S256x1, x30⟩] : List ((s : Shape) × (s.Idx → Ideal .f32))).map (·.1)
      = partWidths.map fun w => (⟨2, ![256, w]⟩ : Shape) := rfl
  -- part a holds the column: the parts before it have 31 a - a (a - 1) / 2 columns
  interval_cases a
  · exact (cat_col_apply _ hcat partWidths hws 0 31 v359 rfl 0 (by decide) r p ⟨j - 1, by omega⟩ (show 0 + (j - 1) = p.val by omega)).trans
      ((hp0 r ⟨j - 1, by omega⟩).trans (fin 0 (1 + (j - 1)) _ _ rfl (by omega)))
  · exact (cat_col_apply _ hcat partWidths hws 1 30 v364 rfl 31 (by decide) r p ⟨j - 2, by omega⟩ (show 31 + (j - 2) = p.val by omega)).trans
      ((hp1 r ⟨j - 2, by omega⟩).trans (fin 1 (2 + (j - 2)) _ _ rfl (by omega)))
  · exact (cat_col_apply _ hcat partWidths hws 2 29 v369 rfl 61 (by decide) r p ⟨j - 3, by omega⟩ (show 61 + (j - 3) = p.val by omega)).trans
      ((hp2 r ⟨j - 3, by omega⟩).trans (fin 2 (3 + (j - 3)) _ _ rfl (by omega)))
  · exact (cat_col_apply _ hcat partWidths hws 3 28 v374 rfl 90 (by decide) r p ⟨j - 4, by omega⟩ (show 90 + (j - 4) = p.val by omega)).trans
      ((hp3 r ⟨j - 4, by omega⟩).trans (fin 3 (4 + (j - 4)) _ _ rfl (by omega)))
  · exact (cat_col_apply _ hcat partWidths hws 4 27 v379 rfl 118 (by decide) r p ⟨j - 5, by omega⟩ (show 118 + (j - 5) = p.val by omega)).trans
      ((hp4 r ⟨j - 5, by omega⟩).trans (fin 4 (5 + (j - 5)) _ _ rfl (by omega)))
  · exact (cat_col_apply _ hcat partWidths hws 5 26 v384 rfl 145 (by decide) r p ⟨j - 6, by omega⟩ (show 145 + (j - 6) = p.val by omega)).trans
      ((hp5 r ⟨j - 6, by omega⟩).trans (fin 5 (6 + (j - 6)) _ _ rfl (by omega)))
  · exact (cat_col_apply _ hcat partWidths hws 6 25 v389 rfl 171 (by decide) r p ⟨j - 7, by omega⟩ (show 171 + (j - 7) = p.val by omega)).trans
      ((hp6 r ⟨j - 7, by omega⟩).trans (fin 6 (7 + (j - 7)) _ _ rfl (by omega)))
  · exact (cat_col_apply _ hcat partWidths hws 7 24 v394 rfl 196 (by decide) r p ⟨j - 8, by omega⟩ (show 196 + (j - 8) = p.val by omega)).trans
      ((hp7 r ⟨j - 8, by omega⟩).trans (fin 7 (8 + (j - 8)) _ _ rfl (by omega)))
  · exact (cat_col_apply _ hcat partWidths hws 8 23 v399 rfl 220 (by decide) r p ⟨j - 9, by omega⟩ (show 220 + (j - 9) = p.val by omega)).trans
      ((hp8 r ⟨j - 9, by omega⟩).trans (fin 8 (9 + (j - 9)) _ _ rfl (by omega)))
  · exact (cat_col_apply _ hcat partWidths hws 9 22 v404 rfl 243 (by decide) r p ⟨j - 10, by omega⟩ (show 243 + (j - 10) = p.val by omega)).trans
      ((hp9 r ⟨j - 10, by omega⟩).trans (fin 9 (10 + (j - 10)) _ _ rfl (by omega)))
  · exact (cat_col_apply _ hcat partWidths hws 10 21 v409 rfl 265 (by decide) r p ⟨j - 11, by omega⟩ (show 265 + (j - 11) = p.val by omega)).trans
      ((hp10 r ⟨j - 11, by omega⟩).trans (fin 10 (11 + (j - 11)) _ _ rfl (by omega)))
  · exact (cat_col_apply _ hcat partWidths hws 11 20 v414 rfl 286 (by decide) r p ⟨j - 12, by omega⟩ (show 286 + (j - 12) = p.val by omega)).trans
      ((hp11 r ⟨j - 12, by omega⟩).trans (fin 11 (12 + (j - 12)) _ _ rfl (by omega)))
  · exact (cat_col_apply _ hcat partWidths hws 12 19 v419 rfl 306 (by decide) r p ⟨j - 13, by omega⟩ (show 306 + (j - 13) = p.val by omega)).trans
      ((hp12 r ⟨j - 13, by omega⟩).trans (fin 12 (13 + (j - 13)) _ _ rfl (by omega)))
  · exact (cat_col_apply _ hcat partWidths hws 13 18 v424 rfl 325 (by decide) r p ⟨j - 14, by omega⟩ (show 325 + (j - 14) = p.val by omega)).trans
      ((hp13 r ⟨j - 14, by omega⟩).trans (fin 13 (14 + (j - 14)) _ _ rfl (by omega)))
  · exact (cat_col_apply _ hcat partWidths hws 14 17 v429 rfl 343 (by decide) r p ⟨j - 15, by omega⟩ (show 343 + (j - 15) = p.val by omega)).trans
      ((hp14 r ⟨j - 15, by omega⟩).trans (fin 14 (15 + (j - 15)) _ _ rfl (by omega)))
  · exact (cat_col_apply _ hcat partWidths hws 15 16 v434 rfl 360 (by decide) r p ⟨j - 16, by omega⟩ (show 360 + (j - 16) = p.val by omega)).trans
      ((hp15 r ⟨j - 16, by omega⟩).trans (fin 15 (16 + (j - 16)) _ _ rfl (by omega)))
  · exact (cat_col_apply _ hcat partWidths hws 16 15 v439 rfl 376 (by decide) r p ⟨j - 17, by omega⟩ (show 376 + (j - 17) = p.val by omega)).trans
      ((hp16 r ⟨j - 17, by omega⟩).trans (fin 16 (17 + (j - 17)) _ _ rfl (by omega)))
  · exact (cat_col_apply _ hcat partWidths hws 17 14 v444 rfl 391 (by decide) r p ⟨j - 18, by omega⟩ (show 391 + (j - 18) = p.val by omega)).trans
      ((hp17 r ⟨j - 18, by omega⟩).trans (fin 17 (18 + (j - 18)) _ _ rfl (by omega)))
  · exact (cat_col_apply _ hcat partWidths hws 18 13 v449 rfl 405 (by decide) r p ⟨j - 19, by omega⟩ (show 405 + (j - 19) = p.val by omega)).trans
      ((hp18 r ⟨j - 19, by omega⟩).trans (fin 18 (19 + (j - 19)) _ _ rfl (by omega)))
  · exact (cat_col_apply _ hcat partWidths hws 19 12 v454 rfl 418 (by decide) r p ⟨j - 20, by omega⟩ (show 418 + (j - 20) = p.val by omega)).trans
      ((hp19 r ⟨j - 20, by omega⟩).trans (fin 19 (20 + (j - 20)) _ _ rfl (by omega)))
  · exact (cat_col_apply _ hcat partWidths hws 20 11 v459 rfl 430 (by decide) r p ⟨j - 21, by omega⟩ (show 430 + (j - 21) = p.val by omega)).trans
      ((hp20 r ⟨j - 21, by omega⟩).trans (fin 20 (21 + (j - 21)) _ _ rfl (by omega)))
  · exact (cat_col_apply _ hcat partWidths hws 21 10 v464 rfl 441 (by decide) r p ⟨j - 22, by omega⟩ (show 441 + (j - 22) = p.val by omega)).trans
      ((hp21 r ⟨j - 22, by omega⟩).trans (fin 21 (22 + (j - 22)) _ _ rfl (by omega)))
  · exact (cat_col_apply _ hcat partWidths hws 22 9 v469 rfl 451 (by decide) r p ⟨j - 23, by omega⟩ (show 451 + (j - 23) = p.val by omega)).trans
      ((hp22 r ⟨j - 23, by omega⟩).trans (fin 22 (23 + (j - 23)) _ _ rfl (by omega)))
  · exact (cat_col_apply _ hcat partWidths hws 23 8 v474 rfl 460 (by decide) r p ⟨j - 24, by omega⟩ (show 460 + (j - 24) = p.val by omega)).trans
      ((hp23 r ⟨j - 24, by omega⟩).trans (fin 23 (24 + (j - 24)) _ _ rfl (by omega)))
  · exact (cat_col_apply _ hcat partWidths hws 24 7 v479 rfl 468 (by decide) r p ⟨j - 25, by omega⟩ (show 468 + (j - 25) = p.val by omega)).trans
      ((hp24 r ⟨j - 25, by omega⟩).trans (fin 24 (25 + (j - 25)) _ _ rfl (by omega)))
  · exact (cat_col_apply _ hcat partWidths hws 25 6 v484 rfl 475 (by decide) r p ⟨j - 26, by omega⟩ (show 475 + (j - 26) = p.val by omega)).trans
      ((hp25 r ⟨j - 26, by omega⟩).trans (fin 25 (26 + (j - 26)) _ _ rfl (by omega)))
  · exact (cat_col_apply _ hcat partWidths hws 26 5 v489 rfl 481 (by decide) r p ⟨j - 27, by omega⟩ (show 481 + (j - 27) = p.val by omega)).trans
      ((hp26 r ⟨j - 27, by omega⟩).trans (fin 26 (27 + (j - 27)) _ _ rfl (by omega)))
  · exact (cat_col_apply _ hcat partWidths hws 27 4 v494 rfl 486 (by decide) r p ⟨j - 28, by omega⟩ (show 486 + (j - 28) = p.val by omega)).trans
      ((hp27 r ⟨j - 28, by omega⟩).trans (fin 27 (28 + (j - 28)) _ _ rfl (by omega)))
  · exact (cat_col_apply _ hcat partWidths hws 28 3 x28 rfl 490 (by decide) r p ⟨j - 29, by omega⟩ (show 490 + (j - 29) = p.val by omega)).trans
      ((hp28 r ⟨j - 29, by omega⟩).trans (fin 28 (29 + (j - 29)) _ _ rfl (by omega)))
  · exact (cat_col_apply _ hcat partWidths hws 29 2 x29 rfl 493 (by decide) r p ⟨j - 30, by omega⟩ (show 493 + (j - 30) = p.val by omega)).trans
      ((hp29 r ⟨j - 30, by omega⟩).trans (fin 29 (30 + (j - 30)) _ _ rfl (by omega)))
  · exact (cat_col_apply _ hcat partWidths hws 30 1 x30 rfl 495 (by decide) r p ⟨j - 31, by omega⟩ (show 495 + (j - 31) = p.val by omega)).trans
      ((hp30 r ⟨j - 31, by omega⟩).trans (fin 30 (31 + (j - 31)) _ _ rfl (by omega)))

/-! ## The last three parts, from the stacked fields -/

/-- Part 28: the sum over the entries of the products already formed. -/
theorem part28_apply (E : Fin 32 → Fin 256 → Fin 64 → EReal) (v498 : FVec Ideal S256x3x64 .f32)
    (hm28 : ∀ r (q : Fin 3) d, v498 (ix3 r q d) = E ⟨29 + q.val, tail_fieldLt 29 3 rfl q⟩ r d * E ⟨28, tail_litLt 28 3 rfl⟩ r d)
    (r : Fin 256) (q : Fin 3) :
    multiReduction (F := Ideal) .add [2] S256x3 v498 0x00000000#32 reduces_S256x3x64_S256x3 (.inl rfl) rfl (ix2 r q)
      = ∑ d : Fin 64, E ⟨29 + q.val, tail_fieldLt 29 3 rfl q⟩ r d * E ⟨28, tail_litLt 28 3 rfl⟩ r d :=
  (reduceLast_apply v498 _ _ _ r q).trans (Finset.sum_congr rfl fun d _ => hm28 r q d)

/-- Part 29: fields 30 and 31 against field 29, spread over the two rows. -/
theorem part29_apply (E : Fin 32 → Fin 256 → Fin 64 → EReal) (v354 : FVec Ideal S256x32x64 .f32)
    (hS : ∀ r f d, v354 (ix3 r f d) = E f r d) (r : Fin 256) (q : Fin 2) :
    multiReduction (F := Ideal) .add [2] S256x2
        (mulf (extractStridedSlice S256x2x64 ![0, 30, 0] v354 slices_S256x32x64_o0_30_0_S256x2x64)
          (broadcastTo S256x2x64 (extractStridedSlice S256x1x64 ![0, 29, 0] v354 slices_S256x32x64_o0_29_0_S256x1x64)
            broadcasts_S256x1x64_S256x2x64))
        0x00000000#32 reduces_S256x2x64_S256x2 (.inl rfl) rfl (ix2 r q)
      = ∑ d : Fin 64, E ⟨30 + q.val, tail_fieldLt 30 2 rfl q⟩ r d * E ⟨29, tail_litLt 29 2 rfl⟩ r d := by
  refine (reduceLast_apply _ _ _ _ r q).trans (Finset.sum_congr rfl fun d _ => ?_)
  rw [mulf_apply]
  refine congrArg₂ (· * ·) ?_ ?_
  · exact (slice3_axis1_apply 30 v354 _ r q d ⟨30 + q.val, tail_fieldLt 30 2 rfl q⟩ rfl).trans (hS r _ d)
  · refine (broadcastTo_apply _ _ (ix3 r q d) (ix3 r (0 : Fin 1) d) fun ax => ?_).trans ?_
    · match ax with
      | ⟨0, _⟩ => rfl
      | ⟨1, _⟩ => rfl
      | ⟨2, _⟩ => rfl
    · exact (slice3_axis1_apply 29 v354 _ r (0 : Fin 1) d ⟨29, tail_litLt 29 2 rfl⟩ rfl).trans (hS r _ d)

/-- Part 30: field 31 against field 30. -/
theorem part30_apply (E : Fin 32 → Fin 256 → Fin 64 → EReal) (v354 : FVec Ideal S256x32x64 .f32)
    (hS : ∀ r f d, v354 (ix3 r f d) = E f r d) (r : Fin 256) (q : Fin 1) :
    multiReduction (F := Ideal) .add [2] S256x1
        (mulf (extractStridedSlice S256x1x64 ![0, 31, 0] v354 slices_S256x32x64_o0_31_0_S256x1x64)
          (extractStridedSlice S256x1x64 ![0, 30, 0] v354 slices_S256x32x64_o0_30_0_S256x1x64))
        0x00000000#32 reduces_S256x1x64_S256x1 (.inl rfl) rfl (ix2 r q)
      = ∑ d : Fin 64, E ⟨31 + q.val, tail_fieldLt 31 1 rfl q⟩ r d * E ⟨30, tail_litLt 30 1 rfl⟩ r d := by
  refine (reduceLast_apply _ _ _ _ r q).trans (Finset.sum_congr rfl fun d _ => ?_)
  rw [mulf_apply]
  refine congrArg₂ (· * ·) ?_ ?_
  · exact (slice3_axis1_apply 31 v354 _ r q d ⟨31 + q.val, tail_fieldLt 31 1 rfl q⟩ rfl).trans (hS r _ d)
  · exact (slice3_axis1_apply 30 v354 _ r q d ⟨30, tail_litLt 30 1 rfl⟩
      (show 30 = 30 + q.val by have := q.isLt; omega)).trans (hS r _ d)

/-! ## The perceptron's input and its layers -/

/-- The flat fields followed by the inner-product block is the perceptron's input, entry by entry. -/
theorem hvec_apply (E : Fin 32 → Fin 256 → Fin 64 → EReal) (v321 : FVec Ideal S256x2048 .f32) (v509 : FVec Ideal S256x496 .f32)
    (hflat : ∀ r (i : Fin 2048), v321 (ix2 r i) = E ⟨i.val / 64, by omega⟩ r ⟨i.val % 64, Nat.mod_lt _ (by decide)⟩)
    (hcross : ∀ r (p : Fin 496), v509 (ix2 r p) = ∑ d : Fin 64, E (pairJ p) r d * E (pairI p) r d)
    (r : Fin 256) (i : Fin 2544) :
    concatenate S256x2544 1 [⟨S256x2048, v321⟩, ⟨S256x496, v509⟩] concatenates_S256x2048_S256x496_S256x2544_d1 (ix2 r i)
      = hK E r i := by
  unfold hK
  by_cases h : i.val < 2048
  · rw [dif_pos h]
    refine (concatenate_pair_apply_left (t := S256x2544) (1 : Fin 2) v321 v509 _ (ix2 r i) rfl (ix2 r ⟨i.val, h⟩) fun b => ?_).trans
      (hflat r ⟨i.val, h⟩)
    match b with
    | ⟨0, _⟩ => rfl
    | ⟨1, _⟩ => rfl
  · rw [dif_neg h]
    refine (concatenate_pair_apply_right (t := S256x2544) (1 : Fin 2) v321 v509 _ (ix2 r i) rfl rfl
      (ix2 r ⟨i.val - 2048, by omega⟩) (fun b hb => ?_) ?_).trans ?_
    · match b with
      | ⟨0, _⟩ => rfl
      | ⟨1, _⟩ => exact absurd rfl hb
    · show (i.val - 2048) + 2048 = i.val
      omega
    · exact (hcross r _).trans (Finset.sum_congr rfl fun d _ => mul_comm _ _)

/-- One layer before its rectifier: the rows times the weights (no rounding at the ideal values) plus the bias row. -/
theorem dense_apply {m k n : Nat} (D : DotDims ⟨2, ![m, k]⟩ ⟨2, ![k, n]⟩ ⟨2, ![m, n]⟩) (hD : D = DotDims.plain m k n)
    (A : FVec Ideal ⟨2, ![m, k]⟩ .f32) (W : FVec Ideal ⟨2, ![k, n]⟩ .bf16) (c : FVec Ideal ⟨2, ![1, n]⟩ .f32)
    (hb : FTy.bits .bf16 < FTy.bits .f32) (hW : (⟨2, ![k, n]⟩ : Shape).ShapeCasts ⟨2, ![k, n]⟩)
    (hc : (⟨2, ![1, n]⟩ : Shape).ShapeCasts ⟨2, ![1, n]⟩) (hbc : (⟨2, ![1, n]⟩ : Shape).Broadcasts ⟨2, ![m, n]⟩)
    (a : Fin m) (b : Fin n) :
    addf (matmul D none (truncf .bf16 A hb) (shapeCast ⟨2, ![k, n]⟩ W hW) (constant (F := Ideal) ⟨2, ![m, n]⟩ .f32 0x00000000#32))
        (broadcastTo ⟨2, ![m, n]⟩ (shapeCast ⟨2, ![1, n]⟩ c hc) hbc) (ix2 a b)
      = (∑ i : Fin k, A (ix2 a i) * W (ix2 i b)) + c (ix2 0 b) := by
  rw [addf_apply, shapeCast_self, shapeCast_self]
  refine congrArg₂ (· + ·) ?_ ?_
  · exact matmul_plain_apply D hD none _ W a b
  · exact broadcastTo_1b_ab_apply c hbc a b

/-- The rectifier: the maximum with the zero word is the maximum with 0. -/
theorem relu_apply {s : Shape} (x : FVec Ideal s .f32) (j : s.Idx) :
    maximumf x (broadcast s (Scalar.ofBits (F := Ideal) .f32 0x00000000#32)) j = max (x j) 0 := by
  show max (x j) (Ideal.ofBits .f32 0x00000000#32) = _
  rw [Ideal.ofBits_zero_f32]

/-! ## The tail: the inner-product block after the flat fields, three layers, the logistic -/

/-- The tail of the body on the field values: the perceptron and the logistic on each row's input. -/
theorem tail_apply (E : Fin 32 → Fin 256 → Fin 64 → EReal) (v321 : FVec Ideal S256x2048 .f32) (v354 : FVec Ideal S256x32x64 .f32)
    (v359 : FVec Ideal S256x31 .f32) (v364 : FVec Ideal S256x30 .f32) (v369 : FVec Ideal S256x29 .f32) (v374 : FVec Ideal S256x28 .f32) (v379 : FVec Ideal S256x27 .f32) (v384 : FVec Ideal S256x26 .f32) (v389 : FVec Ideal S256x25 .f32) (v394 : FVec Ideal S256x24 .f32) (v399 : FVec Ideal S256x23 .f32) (v404 : FVec Ideal S256x22 .f32) (v409 : FVec Ideal S256x21 .f32) (v414 : FVec Ideal S256x20 .f32) (v419 : FVec Ideal S256x19 .f32) (v424 : FVec Ideal S256x18 .f32) (v429 : FVec Ideal S256x17 .f32) (v434 : FVec Ideal S256x16 .f32) (v439 : FVec Ideal S256x15 .f32) (v444 : FVec Ideal S256x14 .f32) (v449 : FVec Ideal S256x13 .f32) (v454 : FVec Ideal S256x12 .f32) (v459 : FVec Ideal S256x11 .f32) (v464 : FVec Ideal S256x10 .f32) (v469 : FVec Ideal S256x9 .f32) (v474 : FVec Ideal S256x8 .f32) (v479 : FVec Ideal S256x7 .f32) (v484 : FVec Ideal S256x6 .f32) (v489 : FVec Ideal S256x5 .f32) (v494 : FVec Ideal S256x4 .f32)
    (v498 : FVec Ideal S256x3x64 .f32) (v512 : Vec Ideal S2544x1024 .bf16) (v515 : Vec Ideal S1x1024 .f32) (v522 : Vec Ideal S1024x512 .bf16) (v525 : Vec Ideal S1x512 .f32) (v532 : Vec Ideal S512x1000 .bf16) (v535 : Vec Ideal S1x1000 .f32)
    (hflat : ∀ r (i : Fin 2048), v321 (ix2 r i) = E ⟨i.val / 64, by omega⟩ r ⟨i.val % 64, Nat.mod_lt _ (by decide)⟩)
    (hS : ∀ r f d, v354 (ix3 r f d) = E f r d)
    (hp0 : ∀ r (q : Fin 31), v359 (ix2 r q) = ∑ d : Fin 64, E ⟨1 + q.val, tail_fieldLt 1 31 rfl q⟩ r d * E ⟨0, tail_litLt 0 31 rfl⟩ r d)
    (hp1 : ∀ r (q : Fin 30), v364 (ix2 r q) = ∑ d : Fin 64, E ⟨2 + q.val, tail_fieldLt 2 30 rfl q⟩ r d * E ⟨1, tail_litLt 1 30 rfl⟩ r d)
    (hp2 : ∀ r (q : Fin 29), v369 (ix2 r q) = ∑ d : Fin 64, E ⟨3 + q.val, tail_fieldLt 3 29 rfl q⟩ r d * E ⟨2, tail_litLt 2 29 rfl⟩ r d)
    (hp3 : ∀ r (q : Fin 28), v374 (ix2 r q) = ∑ d : Fin 64, E ⟨4 + q.val, tail_fieldLt 4 28 rfl q⟩ r d * E ⟨3, tail_litLt 3 28 rfl⟩ r d)
    (hp4 : ∀ r (q : Fin 27), v379 (ix2 r q) = ∑ d : Fin 64, E ⟨5 + q.val, tail_fieldLt 5 27 rfl q⟩ r d * E ⟨4, tail_litLt 4 27 rfl⟩ r d)
    (hp5 : ∀ r (q : Fin 26), v384 (ix2 r q) = ∑ d : Fin 64, E ⟨6 + q.val, tail_fieldLt 6 26 rfl q⟩ r d * E ⟨5, tail_litLt 5 26 rfl⟩ r d)
    (hp6 : ∀ r (q : Fin 25), v389 (ix2 r q) = ∑ d : Fin 64, E ⟨7 + q.val, tail_fieldLt 7 25 rfl q⟩ r d * E ⟨6, tail_litLt 6 25 rfl⟩ r d)
    (hp7 : ∀ r (q : Fin 24), v394 (ix2 r q) = ∑ d : Fin 64, E ⟨8 + q.val, tail_fieldLt 8 24 rfl q⟩ r d * E ⟨7, tail_litLt 7 24 rfl⟩ r d)
    (hp8 : ∀ r (q : Fin 23), v399 (ix2 r q) = ∑ d : Fin 64, E ⟨9 + q.val, tail_fieldLt 9 23 rfl q⟩ r d * E ⟨8, tail_litLt 8 23 rfl⟩ r d)
    (hp9 : ∀ r (q : Fin 22), v404 (ix2 r q) = ∑ d : Fin 64, E ⟨10 + q.val, tail_fieldLt 10 22 rfl q⟩ r d * E ⟨9, tail_litLt 9 22 rfl⟩ r d)
    (hp10 : ∀ r (q : Fin 21), v409 (ix2 r q) = ∑ d : Fin 64, E ⟨11 + q.val, tail_fieldLt 11 21 rfl q⟩ r d * E ⟨10, tail_litLt 10 21 rfl⟩ r d)
    (hp11 : ∀ r (q : Fin 20), v414 (ix2 r q) = ∑ d : Fin 64, E ⟨12 + q.val, tail_fieldLt 12 20 rfl q⟩ r d * E ⟨11, tail_litLt 11 20 rfl⟩ r d)
    (hp12 : ∀ r (q : Fin 19), v419 (ix2 r q) = ∑ d : Fin 64, E ⟨13 + q.val, tail_fieldLt 13 19 rfl q⟩ r d * E ⟨12, tail_litLt 12 19 rfl⟩ r d)
    (hp13 : ∀ r (q : Fin 18), v424 (ix2 r q) = ∑ d : Fin 64, E ⟨14 + q.val, tail_fieldLt 14 18 rfl q⟩ r d * E ⟨13, tail_litLt 13 18 rfl⟩ r d)
    (hp14 : ∀ r (q : Fin 17), v429 (ix2 r q) = ∑ d : Fin 64, E ⟨15 + q.val, tail_fieldLt 15 17 rfl q⟩ r d * E ⟨14, tail_litLt 14 17 rfl⟩ r d)
    (hp15 : ∀ r (q : Fin 16), v434 (ix2 r q) = ∑ d : Fin 64, E ⟨16 + q.val, tail_fieldLt 16 16 rfl q⟩ r d * E ⟨15, tail_litLt 15 16 rfl⟩ r d)
    (hp16 : ∀ r (q : Fin 15), v439 (ix2 r q) = ∑ d : Fin 64, E ⟨17 + q.val, tail_fieldLt 17 15 rfl q⟩ r d * E ⟨16, tail_litLt 16 15 rfl⟩ r d)
    (hp17 : ∀ r (q : Fin 14), v444 (ix2 r q) = ∑ d : Fin 64, E ⟨18 + q.val, tail_fieldLt 18 14 rfl q⟩ r d * E ⟨17, tail_litLt 17 14 rfl⟩ r d)
    (hp18 : ∀ r (q : Fin 13), v449 (ix2 r q) = ∑ d : Fin 64, E ⟨19 + q.val, tail_fieldLt 19 13 rfl q⟩ r d * E ⟨18, tail_litLt 18 13 rfl⟩ r d)
    (hp19 : ∀ r (q : Fin 12), v454 (ix2 r q) = ∑ d : Fin 64, E ⟨20 + q.val, tail_fieldLt 20 12 rfl q⟩ r d * E ⟨19, tail_litLt 19 12 rfl⟩ r d)
    (hp20 : ∀ r (q : Fin 11), v459 (ix2 r q) = ∑ d : Fin 64, E ⟨21 + q.val, tail_fieldLt 21 11 rfl q⟩ r d * E ⟨20, tail_litLt 20 11 rfl⟩ r d)
    (hp21 : ∀ r (q : Fin 10), v464 (ix2 r q) = ∑ d : Fin 64, E ⟨22 + q.val, tail_fieldLt 22 10 rfl q⟩ r d * E ⟨21, tail_litLt 21 10 rfl⟩ r d)
    (hp22 : ∀ r (q : Fin 9), v469 (ix2 r q) = ∑ d : Fin 64, E ⟨23 + q.val, tail_fieldLt 23 9 rfl q⟩ r d * E ⟨22, tail_litLt 22 9 rfl⟩ r d)
    (hp23 : ∀ r (q : Fin 8), v474 (ix2 r q) = ∑ d : Fin 64, E ⟨24 + q.val, tail_fieldLt 24 8 rfl q⟩ r d * E ⟨23, tail_litLt 23 8 rfl⟩ r d)
    (hp24 : ∀ r (q : Fin 7), v479 (ix2 r q) = ∑ d : Fin 64, E ⟨25 + q.val, tail_fieldLt 25 7 rfl q⟩ r d * E ⟨24, tail_litLt 24 7 rfl⟩ r d)
    (hp25 : ∀ r (q : Fin 6), v484 (ix2 r q) = ∑ d : Fin 64, E ⟨26 + q.val, tail_fieldLt 26 6 rfl q⟩ r d * E ⟨25, tail_litLt 25 6 rfl⟩ r d)
    (hp26 : ∀ r (q : Fin 5), v489 (ix2 r q) = ∑ d : Fin 64, E ⟨27 + q.val, tail_fieldLt 27 5 rfl q⟩ r d * E ⟨26, tail_litLt 26 5 rfl⟩ r d)
    (hp27 : ∀ r (q : Fin 4), v494 (ix2 r q) = ∑ d : Fin 64, E ⟨28 + q.val, tail_fieldLt 28 4 rfl q⟩ r d * E ⟨27, tail_litLt 27 4 rfl⟩ r d)
    (hm28 : ∀ r (q : Fin 3) d, v498 (ix3 r q d) = E ⟨29 + q.val, tail_fieldLt 29 3 rfl q⟩ r d * E ⟨28, tail_litLt 28 3 rfl⟩ r d) :
    ∀ (r : Fin 256) (o : Fin 1000), k0_pay1 (k0_pay100 v321 v354 v359 v364 v369 v374 v379 v384 v389 v394 v399 v404 v409 v414 v419 v424 v429 v434 v439 v444 v449 v454 v459 v464 v469 v474 v479 v484 v489 v494 v498 v512 v515 v522 v525 v532 v535) (ix2 r o)
      = mlpK (hK E r) v512 v515 v522 v525 v532 v535 o := by
  intro r o
  -- the block of inner products, column by column: the 28 parts handed in, and parts 28, 29, 30 computed here
  have hcross := cross_apply E v359 v364 v369 v374 v379 v384 v389 v394 v399 v404 v409 v414 v419 v424 v429 v434 v439 v444 v449
    v454 v459 v464 v469 v474 v479 v484 v489 v494 _ _ _ _ rfl
    concatenates_S256x31_S256x30_S256x29_S256x28_S256x27_S256x26_S256x25_S256x24_S256x23_S256x22_S256x21_S256x20_S256x19_S256x18_S256x17_S256x16_S256x15_S256x14_S256x13_S256x12_S256x11_S256x10_S256x9_S256x8_S256x7_S256x6_S256x5_S256x4_S256x3_S256x2_S256x1_S256x496_d1
    hp0 hp1 hp2 hp3 hp4 hp5 hp6 hp7 hp8 hp9 hp10 hp11 hp12 hp13 hp14 hp15 hp16 hp17 hp18 hp19 hp20 hp21 hp22 hp23 hp24 hp25
    hp26 hp27 (part28_apply E v498 hm28) (part29_apply E v354 hS) (part30_apply E v354 hS)
  -- the perceptron's input, entry by entry
  have hH := fun i => hvec_apply E v321 _ hflat hcross r i
  unfold k0_pay1 k0_pay100 mlpK
  dsimp only
  show Ideal.logistic _ = _
  refine congrArg Ideal.logistic ?_
  -- third layer
  refine (dense_apply _ rfl _ _ _ _ _ _ _ r o).trans ?_
  refine congrArg₂ (· + ·) (Finset.sum_congr rfl fun k _ => congrArg₂ (· * ·) ?_ rfl) rfl
  refine (relu_apply _ _).trans (congrArg (max · 0) ?_)
  -- second layer
  refine (dense_apply _ rfl _ _ _ _ _ _ _ r k).trans ?_
  refine congrArg₂ (· + ·) (Finset.sum_congr rfl fun j _ => congrArg₂ (· * ·) ?_ rfl) rfl
  refine (relu_apply _ _).trans (congrArg (max · 0) ?_)
  -- first layer
  refine (dense_apply _ rfl _ _ _ _ _ _ _ r j).trans ?_
  exact congrArg₂ (· + ·) (Finset.sum_congr rfl fun i _ => congrArg₂ (· * ·) (hH i) rfl) rfl

end Cert.KernelIdeal.Body

end
-- ==== Proof.KerBody.lean ====
/-
  One grid point's body, read at an index: the block it stores is the perceptron of the rows' field vectors.

  The body computes each field's 64-vector as a product of a one-hot matrix with the field's table, lays the 32
  vectors side by side, stacks them, takes for every field a the products of the later fields' vectors with field a's
  summed over the 64 entries, concatenates these parts behind the flat vectors and runs the perceptron. Read at row r,
  every field vector is the table row the index word selects, so the perceptron's input is the specification's.
-/
import proofs.«401391_j12421045420606_1_alg».proof.Proof.KerSpec
import proofs.«401391_j12421045420606_1_alg».proof.Proof.KerEmb
import proofs.«401391_j12421045420606_1_alg».proof.Proof.KerCross
import proofs.«401391_j12421045420606_1_alg».proof.Proof.KerTail
import proofs.«401391_j12421045420606_1_alg».proof.Proof.Gen.KernelIdeal.Frame

noncomputable section

namespace Cert.KernelIdeal.Body

open Cert.KernelIdeal Cert.KernelIdeal.Gen Idealize.ShloMosaic Idealize.ShloMosaic.ValueIdx Cert.Spec
open scoped BigOperators

theorem zero_off2 : (![0, 0] : Fin 2 → Nat) = fun _ => 0 := funext fun a => by fin_cases a <;> rfl

set_option maxHeartbeats 4000000 in
set_option maxRecDepth 8192 in
/-- The block a grid point stores, entry (r, o), from the blocks it loads, when every index word of the index block is
    below 1000: the logistic of the three-layer perceptron of row r's input, which is the 32 selected table rows side by
    side followed by their 496 pairwise inner products. -/
theorem body_apply (x0 : Vec Ideal S256x32 .i32) (x1 : Vec Ideal S32x1000x64 .bf16) (x2 : Vec Ideal S2544x1024 .bf16)
    (x3 : Vec Ideal S1x1024 .f32) (x4 : Vec Ideal S1024x512 .bf16) (x5 : Vec Ideal S1x512 .f32) (x6 : Vec Ideal S512x1000 .bf16)
    (x7 : Vec Ideal S1x1000 .f32) (hx : ∀ (r : Fin 256) (f : Fin 32), (x0 (ix2 r f)).toNat < 1000) (r : Fin 256) (o : Fin 1000) :
    out0_8 (F := Ideal) x0 x1 x2 x3 x4 x5 x6 x7 (ix2 r o) = mlpK (hK (Eblk x0 x1) r) x2 x3 x4 x5 x6 x7 o := by
  -- the field vectors, as the body computes them
  have f0 := fld0 x0 x1 hx
  have f1 := fld1 x0 x1 hx
  have f2 := fld2 x0 x1 hx
  have f3 := fld3 x0 x1 hx
  have f4 := fld4 x0 x1 hx
  have f5 := fld5 x0 x1 hx
  have f6 := fld6 x0 x1 hx
  have f7 := fld7 x0 x1 hx
  have f8 := fld8 x0 x1 hx
  have f9 := fld9 x0 x1 hx
  have f10 := fld10 x0 x1 hx
  have f11 := fld11 x0 x1 hx
  have f12 := fld12 x0 x1 hx
  have f13 := fld13 x0 x1 hx
  have f14 := fld14 x0 x1 hx
  have f15 := fld15 x0 x1 hx
  have f16 := fld16 x0 x1 hx
  have f17 := fld17 x0 x1 hx
  have f18 := fld18 x0 x1 hx
  have f19 := fld19 x0 x1 hx
  have f20 := fld20 x0 x1 hx
  have f21 := fld21 x0 x1 hx
  have f22 := fld22 x0 x1 hx
  have f23 := fld23 x0 x1 hx
  have f24 := fld24 x0 x1 hx
  have f25 := fld25 x0 x1 hx
  have f26 := fld26 x0 x1 hx
  have f27 := fld27 x0 x1 hx
  have f28 := fld28 x0 x1 hx
  have f29 := fld29 x0 x1 hx
  have f30 := fld30 x0 x1 hx
  have f31 := fld31 x0 x1 hx
  -- the first 25 of them reshaped to [256, 1, 64]
  have g0 : ∀ (r : Fin 256) (d : Fin 64), _ = Eblk x0 x1 0 r d := fun r d => (pay43_apply _ r d).trans (f0 r d)
  have g1 : ∀ (r : Fin 256) (d : Fin 64), _ = Eblk x0 x1 1 r d := fun r d => (pay44_apply _ r d).trans (f1 r d)
  have g2 : ∀ (r : Fin 256) (d : Fin 64), _ = Eblk x0 x1 2 r d := fun r d => (pay45_apply _ r d).trans (f2 r d)
  have g3 : ∀ (r : Fin 256) (d : Fin 64), _ = Eblk x0 x1 3 r d := fun r d => (pay46_apply _ r d).trans (f3 r d)
  have g4 : ∀ (r : Fin 256) (d : Fin 64), _ = Eblk x0 x1 4 r d := fun r d => (pay47_apply _ r d).trans (f4 r d)
  have g5 : ∀ (r : Fin 256) (d : Fin 64), _ = Eblk x0 x1 5 r d := fun r d => (pay48_apply _ r d).trans (f5 r d)
  have g6 : ∀ (r : Fin 256) (d : Fin 64), _ = Eblk x0 x1 6 r d := fun r d => (pay49_apply _ r d).trans (f6 r d)
  have g7 : ∀ (r : Fin 256) (d : Fin 64), _ = Eblk x0 x1 7 r d := fun r d => (pay50_apply _ r d).trans (f7 r d)
  have g8 : ∀ (r : Fin 256) (d : Fin 64), _ = Eblk x0 x1 8 r d := fun r d => (pay51_apply _ r d).trans (f8 r d)
  have g9 : ∀ (r : Fin 256) (d : Fin 64), _ = Eblk x0 x1 9 r d := fun r d => (pay52_apply _ r d).trans (f9 r d)
  have g10 : ∀ (r : Fin 256) (d : Fin 64), _ = Eblk x0 x1 10 r d := fun r d => (pay53_apply _ r d).trans (f10 r d)
  have g11 : ∀ (r : Fin 256) (d : Fin 64), _ = Eblk x0 x1 11 r d := fun r d => (pay54_apply _ r d).trans (f11 r d)
  have g12 : ∀ (r : Fin 256) (d : Fin 64), _ = Eblk x0 x1 12 r d := fun r d => (pay55_apply _ r d).trans (f12 r d)
  have g13 : ∀ (r : Fin 256) (d : Fin 64), _ = Eblk x0 x1 13 r d := fun r d => (pay56_apply _ r d).trans (f13 r d)
  have g14 : ∀ (r : Fin 256) (d : Fin 64), _ = Eblk x0 x1 14 r d := fun r d => (pay57_apply _ r d).trans (f14 r d)
  have g15 : ∀ (r : Fin 256) (d : Fin 64), _ = Eblk x0 x1 15 r d := fun r d => (pay58_apply _ r d).trans (f15 r d)
  have g16 : ∀ (r : Fin 256) (d : Fin 64), _ = Eblk x0 x1 16 r d := fun r d => (pay59_apply _ r d).trans (f16 r d)
  have g17 : ∀ (r : Fin 256) (d : Fin 64), _ = Eblk x0 x1 17 r d := fun r d => (pay60_apply _ r d).trans (f17 r d)
  have g18 : ∀ (r : Fin 256) (d : Fin 64), _ = Eblk x0 x1 18 r d := fun r d => (pay61_apply _ r d).trans (f18 r d)
  have g19 : ∀ (r : Fin 256) (d : Fin 64), _ = Eblk x0 x1 19 r d := fun r d => (pay62_apply _ r d).trans (f19 r d)
  have g20 : ∀ (r : Fin 256) (d : Fin 64), _ = Eblk x0 x1 20 r d := fun r d => (pay63_apply _ r d).trans (f20 r d)
  have g21 : ∀ (r : Fin 256) (d : Fin 64), _ = Eblk x0 x1 21 r d := fun r d => (pay64_apply _ r d).trans (f21 r d)
  have g22 : ∀ (r : Fin 256) (d : Fin 64), _ = Eblk x0 x1 22 r d := fun r d => (pay65_apply _ r d).trans (f22 r d)
  have g23 : ∀ (r : Fin 256) (d : Fin 64), _ = Eblk x0 x1 23 r d := fun r d => (pay66_apply _ r d).trans (f23 r d)
  have g24 : ∀ (r : Fin 256) (d : Fin 64), _ = Eblk x0 x1 24 r d := fun r d => (pay67_apply _ r d).trans (f24 r d)
  generalize hE : Eblk x0 x1 = E at *
  -- the stack and the flat layout hold the field vectors
  have hS := stack_apply E _ _ _ _ _ _ _ _ _ _ _ _ _ _ _ _ _ _ _ _ _ _ _ _ _ _ _ _ _ _ _ _ f25 f26 f27 f28 f29 f30 f31 g0 g1 g2 g3 g4 g5 g6 g7 g8 g9 g10 g11 g12 g13 g14 g15 g16 g17 g18 g19 g20 g21 g22 g23 g24
  have hflat := flat_apply E _ _ _ _ _ _ _ _ _ _ _ _ _ _ _ _ _ _ _ _ _ _ _ _ _ _ _ _ _ _ _ _ _ _ _ _ f0 f1 f2 f3 f4 f5 f6 f7 f8 f9 f10 f11 f12 f13 f14 f15 f16 f17 f18 f19 f20 f21 f22 f23 f24 f25 f26 f27 f28 f29 f30 f31
  -- the whole-array loads
  have e2 : View.ld x2 r0_64 = x2 := View.ld_unit_zero zero_off2 _ x2
  have e3 : View.ld x3 r0_65 = x3 := View.ld_unit_zero zero_off2 _ x3
  have e4 : View.ld x4 r0_66 = x4 := View.ld_unit_zero zero_off2 _ x4
  have e5 : View.ld x5 r0_67 = x5 := View.ld_unit_zero zero_off2 _ x5
  have e6 : View.ld x6 r0_68 = x6 := View.ld_unit_zero zero_off2 _ x6
  have e7 : View.ld x7 r0_69 = x7 := View.ld_unit_zero zero_off2 _ x7
  unfold out0_8
  rw [View.canon_unit_zero zero_off2, e2, e3, e4, e5, e6, e7]
  refine tail_apply E _ _ _ _ _ _ _ _ _ _ _ _ _ _ _ _ _ _ _ _ _ _ _ _ _ _ _ _ _ _ _ _ _ _ _ _ _ hflat hS
    (part0_apply E _ _ _ _ _ _ _ _ _ _ _ _ _ _ _ _ _ _ _ _ _ _ _ _ _ _ _ _ _ _ _ _ f25 f26 f27 f28 f29 f30 f31 g0 g1 g2 g3 g4 g5 g6 g7 g8 g9 g10 g11 g12 g13 g14 g15 g16 g17 g18 g19 g20 g21 g22 g23 g24)
    (part1_apply E _ _ _ _ _ _ _ _ _ _ _ _ _ _ _ _ _ _ _ _ _ _ _ _ _ _ _ _ _ _ _ _ f25 f26 f27 f28 f29 f30 f31 g0 g1 g2 g3 g4 g5 g6 g7 g8 g9 g10 g11 g12 g13 g14 g15 g16 g17 g18 g19 g20 g21 g22 g23 g24)
    (part2_apply E _ _ _ _ _ _ _ _ _ _ _ _ _ _ _ _ _ _ _ _ _ _ _ _ _ _ _ _ _ _ _ _ f25 f26 f27 f28 f29 f30 f31 g0 g1 g2 g3 g4 g5 g6 g7 g8 g9 g10 g11 g12 g13 g14 g15 g16 g17 g18 g19 g20 g21 g22 g23 g24)
    (part3_apply E _ _ _ _ _ _ _ _ _ _ _ _ _ _ _ _ _ _ _ _ _ _ _ _ _ _ _ _ _ _ _ _ f25 f26 f27 f28 f29 f30 f31 g0 g1 g2 g3 g4 g5 g6 g7 g8 g9 g10 g11 g12 g13 g14 g15 g16 g17 g18 g19 g20 g21 g22 g23 g24)
    (part4_apply E _ _ _ _ _ _ _ _ _ _ _ _ _ _ _ _ _ _ _ _ _ _ _ _ _ _ _ _ _ _ _ _ f25 f26 f27 f28 f29 f30 f31 g0 g1 g2 g3 g4 g5 g6 g7 g8 g9 g10 g11 g12 g13 g14 g15 g16 g17 g18 g19 g20 g21 g22 g23 g24)
    (part5_apply E _ _ _ _ _ _ _ _ _ _ _ _ _ _ _ _ _ _ _ _ _ _ _ _ _ _ _ _ _ _ _ _ f25 f26 f27 f28 f29 f30 f31 g0 g1 g2 g3 g4 g5 g6 g7 g8 g9 g10 g11 g12 g13 g14 g15 g16 g17 g18 g19 g20 g21 g22 g23 g24)
    (part6_apply E _ _ _ _ _ _ _ _ _ _ _ _ _ _ _ _ _ _ _ _ _ _ _ _ _ _ _ _ _ _ _ _ f25 f26 f27 f28 f29 f30 f31 g0 g1 g2 g3 g4 g5 g6 g7 g8 g9 g10 g11 g12 g13 g14 g15 g16 g17 g18 g19 g20 g21 g22 g23 g24)
    (part7_apply E _ _ _ _ _ _ _ _ _ _ _ _ _ _ _ _ _ _ _ _ _ _ _ _ _ _ _ _ _ _ _ _ f25 f26 f27 f28 f29 f30 f31 g0 g1 g2 g3 g4 g5 g6 g7 g8 g9 g10 g11 g12 g13 g14 g15 g16 g17 g18 g19 g20 g21 g22 g23 g24)
    (fun r q => (sum78_apply _ r q).trans (Finset.sum_congr rfl fun d _ => prod8_apply E _ _ _ _ _ _ _ _ _ _ _ _ _ _ _ _ _ _ _ _ _ _ _ _ _ _ _ _ _ _ _ _ f25 f26 f27 f28 f29 f30 f31 g0 g1 g2 g3 g4 g5 g6 g7 g8 g9 g10 g11 g12 g13 g14 g15 g16 g17 g18 g19 g20 g21 g22 g23 g24 r q d))
    (part9_apply E _ hS)
    (part10_apply E _ hS)
    (part11_apply E _ hS)
    (part12_apply E _ hS)
    (part13_apply E _ hS)
    (part14_apply E _ hS)
    (part15_apply E _ hS)
    (part16_apply E _ hS)
    (part17_apply E _ hS)
    (fun r q => (sum89_apply _ r q).trans (Finset.sum_congr rfl fun d _ => prod18_apply E _ hS r q d))
    (part19_apply E _ hS)
    (part20_apply E _ hS)
    (part21_apply E _ hS)
    (part22_apply E _ hS)
    (part23_apply E _ hS)
    (part24_apply E _ hS)
    (part25_apply E _ hS)
    (part26_apply E _ hS)
    (part27_apply E _ hS)
    (prod28_apply E _ hS) r o

end Cert.KernelIdeal.Body

end
-- ==== Proof.KerArray.lean ====
/-
  From the blocks to the array: the result array the kernel's run leaves is the specification's function of the
  argument arrays. Grid point t stores rows 256 t … 256 t + 255; the 32 points' blocks tile the 8192 rows.
-/
import proofs.«401391_j12421045420606_1_alg».proof.Proof.KerBody
import proofs.«401391_j12421045420606_1_alg».proof.Proof.Gen.KernelIdeal.Value
import Idealize.ShloMosaic.Lib.Pipeline.Value
import Idealize.ShloMosaic.Lib.Tactic

noncomputable section

namespace Cert.KernelIdeal.ArrayValue

open Cert.KernelIdeal Cert.KernelIdeal.Gen Cert.KernelIdeal.Value Cert.KernelIdeal.Body Cert.Spec
open Idealize.ShloMosaic Idealize.ShloMosaic.TcCoe Idealize.SL.Sem Idealize.ShloMosaic.ValueIdx
open Idealize.ShloMosaic.Tactic
open Idealize.ShloMosaic.Pipeline (Dat)
open scoped BigOperators

variable (m : (ℓ : Loc nD τ sig) → Buf (Elt Ideal) ℓ) (ρ : Dev nD → PrngReg)

/-- The specification's result array of the argument arrays as launched on core `c`. -/
abbrev Gm (c : Dev nD) : S8192x1000.Idx → EReal :=
  Cert.Spec.G (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))

/-! ## The staged arrays

Before the region the tables and the three weight matrices change format (the identity on the extended reals) and the
three biases are laid out as one row each. -/

theorem V_v0 (c : Dev nD) : (V m c main_v0 : S32x1000x64.Idx → EReal) = m ((c : Thread nD τ).loc main_arg1) := by
  have e : (V m c main_v0 : S32x1000x64.Idx → EReal)
      = truncf (F := Ideal) .bf16 (m ((c : Thread nD τ).loc main_arg1) : FVec Ideal S32x1000x64 .f32) bitsLt_bf16_f32 := by
    dsimp only [Gen.V, Gen.hostOps0]; after_results
  rw [e]; rfl

theorem V_v1 (c : Dev nD) : (V m c main_v1 : S2544x1024.Idx → EReal) = m ((c : Thread nD τ).loc main_arg2) := by
  have e : (V m c main_v1 : S2544x1024.Idx → EReal)
      = truncf (F := Ideal) .bf16 (m ((c : Thread nD τ).loc main_arg2) : FVec Ideal S2544x1024 .f32) bitsLt_bf16_f32 := by
    dsimp only [Gen.V, Gen.hostOps0]; after_results
  rw [e]; rfl

theorem V_v2 (c : Dev nD) : (V m c main_v2 : S1024x512.Idx → EReal) = m ((c : Thread nD τ).loc main_arg4) := by
  have e : (V m c main_v2 : S1024x512.Idx → EReal)
      = truncf (F := Ideal) .bf16 (m ((c : Thread nD τ).loc main_arg4) : FVec Ideal S1024x512 .f32) bitsLt_bf16_f32 := by
    dsimp only [Gen.V, Gen.hostOps0]; after_results
  rw [e]; rfl

theorem V_v3 (c : Dev nD) : (V m c main_v3 : S512x1000.Idx → EReal) = m ((c : Thread nD τ).loc main_arg6) := by
  have e : (V m c main_v3 : S512x1000.Idx → EReal)
      = truncf (F := Ideal) .bf16 (m ((c : Thread nD τ).loc main_arg6) : FVec Ideal S512x1000 .f32) bitsLt_bf16_f32 := by
    dsimp only [Gen.V, Gen.hostOps0]; after_results
  rw [e]; rfl

/-- The first bias as one row: entry (0, j) is entry j. -/
theorem V_v4 (c : Dev nD) (j : Fin 1024) :
    (V m c main_v4 : S1x1024.Idx → EReal) (ix2 0 j) = (m ((c : Thread nD τ).loc main_arg3) : S1024.Idx → EReal) (ix1 j) := by
  have e : (V m c main_v4 : S1x1024.Idx → EReal)
      = shapeCast S1x1024 (m ((c : Thread nD τ).loc main_arg3) : S1024.Idx → EReal) shapeCasts_S1024_S1x1024 := by
    dsimp only [Gen.V, Gen.hostOps0]; after_results; rfl
  rw [e]
  refine shapeCast_apply _ _ _ (ix1 j) ?_
  rw [Shape.rowMajor_val_two, Shape.rowMajor_val_one]
  show j.val = 0 * 1024 + j.val
  omega

/-- The second bias as one row. -/
theorem V_v5 (c : Dev nD) (j : Fin 512) :
    (V m c main_v5 : S1x512.Idx → EReal) (ix2 0 j) = (m ((c : Thread nD τ).loc main_arg5) : S512.Idx → EReal) (ix1 j) := by
  have e : (V m c main_v5 : S1x512.Idx → EReal)
      = shapeCast S1x512 (m ((c : Thread nD τ).loc main_arg5) : S512.Idx → EReal) shapeCasts_S512_S1x512 := by
    dsimp only [Gen.V, Gen.hostOps0]; after_results; rfl
  rw [e]
  refine shapeCast_apply _ _ _ (ix1 j) ?_
  rw [Shape.rowMajor_val_two, Shape.rowMajor_val_one]
  show j.val = 0 * 512 + j.val
  omega

/-- The third bias as one row. -/
theorem V_v6 (c : Dev nD) (j : Fin 1000) :
    (V m c main_v6 : S1x1000.Idx → EReal) (ix2 0 j) = (m ((c : Thread nD τ).loc main_arg7) : S1000.Idx → EReal) (ix1 j) := by
  have e : (V m c main_v6 : S1x1000.Idx → EReal)
      = shapeCast S1x1000 (m ((c : Thread nD τ).loc main_arg7) : S1000.Idx → EReal) shapeCasts_S1000_S1x1000 := by
    dsimp only [Gen.V, Gen.hostOps0]; after_results; rfl
  rw [e]
  refine shapeCast_apply _ _ _ (ix1 j) ?_
  rw [Shape.rowMajor_val_two, Shape.rowMajor_val_one]
  show j.val = 0 * 1000 + j.val
  omega

/-! ## The blocks a point loads -/

/-- The grid has 32 points. -/
theorem t_lt (t : Fin cfg0.N) : t.val < 32 := lt_of_lt_of_eq t.isLt N_0

/-- The printed index maps over the grid: the index block and the result block move with the point along the rows;
    every other window is its whole array at every point. -/
theorem idx_facts : ∀ t : Fin cfg0.N,
    (win0_0.index t (0 : Fin 2) = t.val ∧ win0_0.index t (1 : Fin 2) = 0)
    ∧ (win0_1.index t (0 : Fin 3) = 0 ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0) :=
  (by decide +kernel : ∀ t : Fin grid0.N, _)

/-- The index block of point `t`. -/
abbrev xblk (c : Dev nD) (t : Fin cfg0.N) : Vec Ideal S256x32 .i32 := iblk m c 0 t
/-- The tables as point `t` loads them. -/
abbrev tblk (c : Dev nD) (t : Fin cfg0.N) : Vec Ideal S32x1000x64 .bf16 := iblk m c 1 t
/-- The first layer's weights as point `t` loads them. -/
abbrev w1blk (c : Dev nD) (t : Fin cfg0.N) : Vec Ideal S2544x1024 .bf16 := iblk m c 2 t
/-- The first layer's bias row as point `t` loads it. -/
abbrev c1blk (c : Dev nD) (t : Fin cfg0.N) : Vec Ideal S1x1024 .f32 := iblk m c 3 t
/-- The second layer's weights as point `t` loads them. -/
abbrev w2blk (c : Dev nD) (t : Fin cfg0.N) : Vec Ideal S1024x512 .bf16 := iblk m c 4 t
/-- The second layer's bias row as point `t` loads it. -/
abbrev c2blk (c : Dev nD) (t : Fin cfg0.N) : Vec Ideal S1x512 .f32 := iblk m c 5 t
/-- The third layer's weights as point `t` loads them. -/
abbrev w3blk (c : Dev nD) (t : Fin cfg0.N) : Vec Ideal S512x1000 .bf16 := iblk m c 6 t
/-- The third layer's bias row as point `t` loads it. -/
abbrev c3blk (c : Dev nD) (t : Fin cfg0.N) : Vec Ideal S1x1000 .f32 := iblk m c 7 t

/-- Row `r` of point `t`'s index block is row `256 t + r` of the index array. -/
theorem xblk_apply (c : Dev nD) (t : Fin cfg0.N) (r : Fin 256) (f : Fin 32) :
    xblk m c t (ix2 r f)
      = (m ((c : Thread nD τ).loc main_arg0) : S8192x32.Idx → BitVec 32) (ix2 ⟨256 * t.val + r.val, by have := t_lt t; omega⟩ f) := by
  obtain ⟨⟨i0, i1⟩, -⟩ := idx_facts t
  unfold xblk iblk
  rw [View.read_apply]
  show (V m c main_arg0 : S8192x32.Idx → BitVec 32) (((cfg0.win 0).blk t).view.emb (ix2 r f)) = _
  rw [V_main_arg0]
  refine congrArg _ (funext fun a => Fin.ext ?_)
  match a with
  | ⟨0, _⟩ => show win0_0.index t (0 : Fin 2) * 256 + 1 * r.val = 256 * t.val + r.val; omega
  | ⟨1, _⟩ => show win0_0.index t (1 : Fin 2) * 32 + 1 * f.val = f.val; omega

/-- Every point loads the whole stack of tables. -/
theorem tblk_eq (c : Dev nD) (t : Fin cfg0.N) : tblk m c t = m ((c : Thread nD τ).loc main_arg1) := by
  obtain ⟨-, ⟨i0, i1, i2⟩, -⟩ := idx_facts t
  funext y
  unfold tblk iblk
  rw [View.read_apply]
  show (V m c main_v0 : S32x1000x64.Idx → EReal) (((cfg0.win 1).blk t).view.emb y) = _
  rw [V_v0]
  refine congrArg _ (funext fun a => Fin.ext ?_)
  match a with
  | ⟨0, _⟩ => show win0_1.index t (0 : Fin 3) * 32 + 1 * (y 0).val = (y 0).val; omega
  | ⟨1, _⟩ => show win0_1.index t (1 : Fin 3) * 1000 + 1 * (y 1).val = (y 1).val; omega
  | ⟨2, _⟩ => show win0_1.index t (2 : Fin 3) * 64 + 1 * (y 2).val = (y 2).val; omega

/-- Every point loads the whole first weight matrix. -/
theorem w1blk_eq (c : Dev nD) (t : Fin cfg0.N) : w1blk m c t = m ((c : Thread nD τ).loc main_arg2) := by
  obtain ⟨-, -, ⟨i0, i1⟩, -⟩ := idx_facts t
  funext y
  unfold w1blk iblk
  rw [View.read_apply]
  show (V m c main_v1 : S2544x1024.Idx → EReal) (((cfg0.win 2).blk t).view.emb y) = _
  rw [V_v1]
  refine congrArg _ (funext fun a => Fin.ext ?_)
  match a with
  | ⟨0, _⟩ => show win0_2.index t (0 : Fin 2) * 2544 + 1 * (y 0).val = (y 0).val; omega
  | ⟨1, _⟩ => show win0_2.index t (1 : Fin 2) * 1024 + 1 * (y 1).val = (y 1).val; omega

/-- Every point loads the whole second weight matrix. -/
theorem w2blk_eq (c : Dev nD) (t : Fin cfg0.N) : w2blk m c t = m ((c : Thread nD τ).loc main_arg4) := by
  obtain ⟨-, -, -, -, ⟨i0, i1⟩, -⟩ := idx_facts t
  funext y
  unfold w2blk iblk
  rw [View.read_apply]
  show (V m c main_v2 : S1024x512.Idx → EReal) (((cfg0.win 4).blk t).view.emb y) = _
  rw [V_v2]
  refine congrArg _ (funext fun a => Fin.ext ?_)
  match a with
  | ⟨0, _⟩ => show win0_4.index t (0 : Fin 2) * 1024 + 1 * (y 0).val = (y 0).val; omega
  | ⟨1, _⟩ => show win0_4.index t (1 : Fin 2) * 512 + 1 * (y 1).val = (y 1).val; omega

/-- Every point loads the whole third weight matrix. -/
theorem w3blk_eq (c : Dev nD) (t : Fin cfg0.N) : w3blk m c t = m ((c : Thread nD τ).loc main_arg6) := by
  obtain ⟨-, -, -, -, -, -, ⟨i0, i1⟩, -⟩ := idx_facts t
  funext y
  unfold w3blk iblk
  rw [View.read_apply]
  show (V m c main_v3 : S512x1000.Idx → EReal) (((cfg0.win 6).blk t).view.emb y) = _
  rw [V_v3]
  refine congrArg _ (funext fun a => Fin.ext ?_)
  match a with
  | ⟨0, _⟩ => show win0_6.index t (0 : Fin 2) * 512 + 1 * (y 0).val = (y 0).val; omega
  | ⟨1, _⟩ => show win0_6.index t (1 : Fin 2) * 1000 + 1 * (y 1).val = (y 1).val; omega

/-- Every point loads the first bias row: entry (0, j) is the bias's entry j. -/
theorem c1blk_apply (c : Dev nD) (t : Fin cfg0.N) (j : Fin 1024) :
    c1blk m c t (ix2 0 j) = (m ((c : Thread nD τ).loc main_arg3) : S1024.Idx → EReal) (ix1 j) := by
  obtain ⟨-, -, -, ⟨i0, i1⟩, -⟩ := idx_facts t
  unfold c1blk iblk
  rw [View.read_apply]
  show (V m c main_v4 : S1x1024.Idx → EReal) (((cfg0.win 3).blk t).view.emb (ix2 0 j)) = _
  refine Eq.trans (congrArg _ (funext fun a => Fin.ext ?_)) (V_v4 m c j)
  match a with
  | ⟨0, _⟩ => show win0_3.index t (0 : Fin 2) * 1 + 1 * 0 = 0; omega
  | ⟨1, _⟩ => show win0_3.index t (1 : Fin 2) * 1024 + 1 * j.val = j.val; omega

/-- Every point loads the second bias row. -/
theorem c2blk_apply (c : Dev nD) (t : Fin cfg0.N) (j : Fin 512) :
    c2blk m c t (ix2 0 j) = (m ((c : Thread nD τ).loc main_arg5) : S512.Idx → EReal) (ix1 j) := by
  obtain ⟨-, -, -, -, -, ⟨i0, i1⟩, -⟩ := idx_facts t
  unfold c2blk iblk
  rw [View.read_apply]
  show (V m c main_v5 : S1x512.Idx → EReal) (((cfg0.win 5).blk t).view.emb (ix2 0 j)) = _
  refine Eq.trans (congrArg _ (funext fun a => Fin.ext ?_)) (V_v5 m c j)
  match a with
  | ⟨0, _⟩ => show win0_5.index t (0 : Fin 2) * 1 + 1 * 0 = 0; omega
  | ⟨1, _⟩ => show win0_5.index t (1 : Fin 2) * 512 + 1 * j.val = j.val; omega

/-- Every point loads the third bias row. -/
theorem c3blk_apply (c : Dev nD) (t : Fin cfg0.N) (j : Fin 1000) :
    c3blk m c t (ix2 0 j) = (m ((c : Thread nD τ).loc main_arg7) : S1000.Idx → EReal) (ix1 j) := by
  obtain ⟨-, -, -, -, -, -, -, ⟨i0, i1⟩, -⟩ := idx_facts t
  unfold c3blk iblk
  rw [View.read_apply]
  show (V m c main_v6 : S1x1000.Idx → EReal) (((cfg0.win 7).blk t).view.emb (ix2 0 j)) = _
  refine Eq.trans (congrArg _ (funext fun a => Fin.ext ?_)) (V_v6 m c j)
  match a with
  | ⟨0, _⟩ => show win0_7.index t (0 : Fin 2) * 1 + 1 * 0 = 0; omega
  | ⟨1, _⟩ => show win0_7.index t (1 : Fin 2) * 1000 + 1 * j.val = j.val; omega

/-! ## One row's perceptron -/

/-- When row `r` of an index block is row `b` of the index array, the block's field vectors in row `r` are the
    array's in row `b`. -/
theorem Eblk_eq (x0 : Vec Ideal S256x32 .i32) (x : IVec SX 32) (T : FVec Ideal ST .f32) (r : Fin 256) (b : Fin 8192)
    (h : ∀ f, x0 (ix2 r f) = x (ix2 b f)) (f : Fin 32) (d : Fin 64) : Eblk x0 T f r d = emb x T b f d := by
  unfold Eblk emb sel
  exact congrArg T (congrArg (fun k => ix3 f k d) (Fin.ext (by show min _ 999 = min _ 999; rw [h f])))

/-- So the perceptron's inputs agree: the 32 vectors side by side, then the 496 inner products. -/
theorem hK_eq (x0 : Vec Ideal S256x32 .i32) (x : IVec SX 32) (T : FVec Ideal ST .f32) (r : Fin 256) (b : Fin 8192)
    (h : ∀ f, x0 (ix2 r f) = x (ix2 b f)) (i : Fin 2544) : hK (Eblk x0 T) r i = hvec x T b i := by
  unfold hK hvec
  by_cases hi : i.val < 2048
  · rw [dif_pos hi, dif_pos hi]; exact Eblk_eq x0 x T r b h _ _
  · rw [dif_neg hi, dif_neg hi]
    exact Finset.sum_congr rfl fun d _ => by rw [Eblk_eq x0 x T r b h, Eblk_eq x0 x T r b h]

/-- And the three layers and the logistic agree, the biases read off their one-row layouts. -/
theorem mlpK_eq (x0 : Vec Ideal S256x32 .i32) (x : IVec SX 32) (T : FVec Ideal ST .f32)
    (W1 : FVec Ideal SW1 .f32) (b1 : FVec Ideal SB1 .f32) (c1 : Vec Ideal S1x1024 .f32)
    (W2 : FVec Ideal SW2 .f32) (b2 : FVec Ideal SB2 .f32) (c2 : Vec Ideal S1x512 .f32)
    (W3 : FVec Ideal SW3 .f32) (b3 : FVec Ideal SB3 .f32) (c3 : Vec Ideal S1x1000 .f32)
    (r : Fin 256) (b : Fin 8192) (h : ∀ f, x0 (ix2 r f) = x (ix2 b f))
    (h1 : ∀ j, c1 (ix2 0 j) = b1 (ix1 j)) (h2 : ∀ k, c2 (ix2 0 k) = b2 (ix1 k)) (h3 : ∀ o, c3 (ix2 0 o) = b3 (ix1 o))
    (o : Fin 1000) :
    mlpK (hK (Eblk x0 T) r) W1 c1 W2 c2 W3 c3 o = Cert.Spec.out x T W1 b1 W2 b2 W3 b3 b o := by
  unfold mlpK Cert.Spec.out Cert.Spec.l2 Cert.Spec.l1
  simp only [hK_eq x0 x T r b h, h1, h2, h3]

/-! ## One point's block -/

/-- Point `t` writes back rows 256 t … 256 t + 255 of the specification's array. -/
theorem flushed_eq (c : Dev nD) (hx : Cert.Spec.InRange (m ((c : Thread nD τ).loc main_arg0))) (t : Fin cfg0.N) :
    (dats m 0 c).flushed 8 t = ((cfg0.win 8).blk t).view.read (Elt Ideal) (Gm m c) := by
  have ht := t_lt t
  obtain ⟨-, -, -, -, -, -, -, -, ⟨i0, i1⟩⟩ := idx_facts t
  rw [Value.flushed8]
  funext j
  obtain ⟨r, o, rfl⟩ : ∃ (r : Fin 256) (o : Fin 1000), j = ix2 r o := ⟨j 0, j 1, eq_ix2 j⟩
  have e : ((cfg0.win 8).blk t).view.emb (ix2 r o) = (ix2 ⟨256 * t.val + r.val, by omega⟩ o : S8192x1000.Idx) := by
    funext a; apply Fin.ext
    match a with
    | ⟨0, _⟩ => show win0_8.index t (0 : Fin 2) * 256 + 1 * r.val = 256 * t.val + r.val; omega
    | ⟨1, _⟩ => show win0_8.index t (1 : Fin 2) * 1000 + 1 * o.val = o.val; omega
  show out0_8 (F := Ideal) (xblk m c t) (tblk m c t) (w1blk m c t) (c1blk m c t) (w2blk m c t) (c2blk m c t)
      (w3blk m c t) (c3blk m c t) (ix2 r o) = Gm m c (((cfg0.win 8).blk t).view.emb (ix2 r o))
  rw [e]
  refine (body_apply (xblk m c t) (tblk m c t) (w1blk m c t) (c1blk m c t) (w2blk m c t) (c2blk m c t)
    (w3blk m c t) (c3blk m c t) (fun r' f => by rw [xblk_apply m c t r' f]; exact hx _) r o).trans ?_
  rw [tblk_eq m c t, w1blk_eq m c t, w2blk_eq m c t, w3blk_eq m c t]
  exact mlpK_eq (xblk m c t) (m ((c : Thread nD τ).loc main_arg0)) (m ((c : Thread nD τ).loc main_arg1))
    (m ((c : Thread nD τ).loc main_arg2)) (m ((c : Thread nD τ).loc main_arg3)) (c1blk m c t)
    (m ((c : Thread nD τ).loc main_arg4)) (m ((c : Thread nD τ).loc main_arg5)) (c2blk m c t)
    (m ((c : Thread nD τ).loc main_arg6)) (m ((c : Thread nD τ).loc main_arg7)) (c3blk m c t)
    r ⟨256 * t.val + r.val, by omega⟩ (xblk_apply m c t r) (c1blk_apply m c t) (c2blk_apply m c t) (c3blk_apply m c t) o

/-! ## The whole array -/

/-- The 32 blocks tile the 8192 rows (row `b` is in point `b / 256`'s block), so the array ends holding the
    specification's. -/
theorem final (c : Dev nD) (hx : Cert.Spec.InRange (m ((c : Thread nD τ).loc main_arg0))) :
    (dats m 0 c).arrAt 8 cfg0.N = Gm m c :=
  (dats m 0 c).arrAt_eq_of_cover 8 (Gm m c) (fun t _ => flushed_eq m c hx t) fun i => by
    have hi0 : (i 0 : Nat) < 8192 := (i 0).isLt
    have hi1 : (i 1 : Nat) < 1000 := (i 1).isLt
    have hN : cfg0.N = 32 := N_0
    obtain ⟨t, ht⟩ : ∃ t : Fin cfg0.N, t.val = (i 0 : Nat) / 256 := ⟨⟨(i 0 : Nat) / 256, by rw [hN]; omega⟩, rfl⟩
    obtain ⟨-, -, -, -, -, -, -, -, ⟨i0, i1⟩⟩ := idx_facts t
    refine ⟨t, flush0_8 t, ?_⟩
    show i ∈ ((View.whole main_v7).slice (win0_8.rect t)).set
    rw [View.set_slice_whole, Rect.mem_set_unit]
    intro a
    match a with
    | ⟨0, _⟩ =>
      show win0_8.index t (0 : Fin 2) * 256 ≤ (i 0 : Nat) ∧ (i 0 : Nat) < win0_8.index t (0 : Fin 2) * 256 + 256
      omega
    | ⟨1, _⟩ =>
      show win0_8.index t (1 : Fin 2) * 1000 ≤ (i 1 : Nat) ∧ (i 1 : Nat) < win0_8.index t (1 : Fin 2) * 1000 + 1000
      omega

/-! ## The run -/

/-- The run leaves the specification's array in the result and the arguments as launched. -/
theorem run (hx : ∀ c : Dev nD, Cert.Spec.InRange (m ((c : Thread nD τ).loc main_arg0))) :
    θ_run defs (onTc (τ := τ) (main (F := Ideal))) ⟨m, fun _ => 0, ρ⟩ fun r => ∀ c : Dev nD,
      r.2.mem ((c : Thread nD τ).loc main_v7) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c (hx c)), (h c).2⟩) (Value.run_blocks m ρ)

end Cert.KernelIdeal.ArrayValue

end
-- ==== Proof.RefOps.lean ====
import proofs.«401391_j12421045420606_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 185 host operations in order, each callee's operations listed at its call site over that call's buffers. -/
abbrev ops : List (HloOp τ sig (Elt F)) :=
  [ nullary main_v0 (iotaInDim S32 32 0),
    unary main_v0 main_v1 (broadcastInDim S1x32 ![1] bcast_S32_S1x32_1 : (⟨S32, .i32⟩ : BufTy).Contents (Elt F) → (⟨S1x32, .i32⟩ : BufTy).Contents (Elt F)),
    nullary main_c (constantI S_ 32 0#32),
    unary main_c main_v2 (broadcastInDim S1x32 ![] bcast_S_S1x32 : (⟨S_, .i32⟩ : BufTy).Contents (Elt F) → (⟨S1x32, .i32⟩ : BufTy).Contents (Elt F)),
    binary main_v1 main_v2 main_v3 (cmpi .slt : (⟨S1x32, .i32⟩ : BufTy).Contents (Elt F) → (⟨S1x32, .i32⟩ : BufTy).Contents (Elt F) → (⟨S1x32, .i1⟩ : BufTy).Contents (Elt F)),
    nullary main_c_0 (constantI S_ 32 32#32),
    unary main_c_0 main_v4 (broadcastInDim S1x32 ![] bcast_S_S1x32 : (⟨S_, .i32⟩ : BufTy).Contents (Elt F) → (⟨S1x32, .i32⟩ : BufTy).Contents (Elt F)),
    binary main_v1 main_v4 main_v5 (addi : (⟨S1x32, .i32⟩ : BufTy).Contents (Elt F) → (⟨S1x32, .i32⟩ : BufTy).Contents (Elt F) → (⟨S1x32, .i32⟩ : BufTy).Contents (Elt F)),
    ternary main_v3 main_v5 main_v1 main_v6 (select : (⟨S1x32, .i1⟩ : BufTy).Contents (Elt F) → (⟨S1x32, .i32⟩ : BufTy).Contents (Elt F) → (⟨S1x32, .i32⟩ : BufTy).Contents (Elt F) → (⟨S1x32, .i32⟩ : BufTy).Contents (Elt F)),
    nullary main_c_1 (constantI S_ 32 0#32),
    unary main_c_1 main_v7 (broadcastInDim S8192x32 ![] bcast_S_S8192x32 : (⟨S_, .i32⟩ : BufTy).Contents (Elt F) → (⟨S8192x32, .i32⟩ : BufTy).Contents (Elt F)),
    binary main_arg0 main_v7 main_v8 (cmpi .slt : (⟨S8192x32, .i32⟩ : BufTy).Contents (Elt F) → (⟨S8192x32, .i32⟩ : BufTy).Contents (Elt F) → (⟨S8192x32, .i1⟩ : BufTy).Contents (Elt F)),
    nullary main_c_2 (constantI S_ 32 1000#32),
    unary main_c_2 main_v9 (broadcastInDim S8192x32 ![] bcast_S_S8192x32 : (⟨S_, .i32⟩ : BufTy).Contents (Elt F) → (⟨S8192x32, .i32⟩ : BufTy).Contents (Elt F)),
    binary main_arg0 main_v9 main_v10 (addi : (⟨S8192x32, .i32⟩ : BufTy).Contents (Elt F) → (⟨S8192x32, .i32⟩ : BufTy).Contents (Elt F) → (⟨S8192x32, .i32⟩ : BufTy).Contents (Elt F)),
    ternary main_v8 main_v10 main_arg0 main_v11 (select : (⟨S8192x32, .i1⟩ : BufTy).Contents (Elt F) → (⟨S8192x32, .i32⟩ : BufTy).Contents (Elt F) → (⟨S8192x32, .i32⟩ : BufTy).Contents (Elt F) → (⟨S8192x32, .i32⟩ : BufTy).Contents (Elt F)),
    unary main_v6 main_v12 (broadcastInDim S8192x32 ![0, 1] bcast_S1x32_S8192x32_0_1 : (⟨S1x32, .i32⟩ : BufTy).Contents (Elt F) → (⟨S8192x32, .i32⟩ : BufTy).Contents (Elt F)),
    unary main_v12 main_v13 (broadcastInDim S8192x32x1 ![0, 1] bcast_S8192x32_S8192x32x1_0_1 : (⟨S8192x32, .i32⟩ : BufTy).Contents (Elt F) → (⟨S8192x32x1, .i32⟩ : BufTy).Contents (Elt F)),
    unary main_v11 main_v14 (broadcastInDim S8192x32x1 ![0, 1] bcast_S8192x32_S8192x32x1_0_1 : (⟨S8192x32, .i32⟩ : BufTy).Contents (Elt F) → (⟨S8192x32x1, .i32⟩ : BufTy).Contents (Elt F)),
    binary main_v13 main_v14 main_v15 ((fun a b => concatenate S8192x32x2 2 [⟨S8192x32x1, a⟩, ⟨S8192x32x1, b⟩] concatenates_S8192x32x1_S8192x32x1_S8192x32x2_d2) : (⟨S8192x32x1, .i32⟩ : BufTy).Contents (Elt F) → (⟨S8192x32x1, .i32⟩ : BufTy).Contents (Elt F) → (⟨S8192x32x2, .i32⟩ : BufTy).Contents (Elt F)),
    binary main_arg1 main_v15 main_v16 ((fun x i => Host.gather gather_S32x1000x64_S8192x32x2_S8192x32x64_2_01_n_n_01_2_1164 x i) : (⟨S32x1000x64, .f32⟩ : BufTy).Contents (Elt F) → (⟨S8192x32x2, .i32⟩ : BufTy).Contents (Elt F) → (⟨S8192x32x64, .f32⟩ : BufTy).Contents (Elt F)),
    binary main_v16 main_v16 main_v17 ((fun l r => Host.dotGeneral dot_S8192x32x64_S8192x32x64_S8192x32x32_2_2_1_1_0_0 none l r) : (⟨S8192x32x64, .f32⟩ : BufTy).Contents (Elt F) → (⟨S8192x32x64, .f32⟩ : BufTy).Contents (Elt F) → (⟨S8192x32x32, .f32⟩ : BufTy).Contents (Elt F)),
    nullary main_cst (constant S_ .f32 0x3F800000#32),
    unary main_cst main_v18 (broadcastInDim S32x32 ![] bcast_S_S32x32 : (⟨S_, .f32⟩ : BufTy).Contents (Elt F) → (⟨S32x32, .f32⟩ : BufTy).Contents (Elt F)),
    TRef.nullary main_call0.v0 (iotaInDim S32x32 32 0),
    TRef.nullary main_call0.c (constantI S_ 32 0#32),
    TRef.unary main_call0.c main_call0.v1 (broadcastInDim S32x32 ![] bcast_S_S32x32),
    TRef.binary main_call0.v0 main_call0.v1 main_call0.v2 addi,
    TRef.nullary main_call0.v3 (iotaInDim S32x32 32 1),
    TRef.binary main_call0.v2 main_call0.v3 main_call0.v4 (cmpi .sge),
    TRef.nullary main_call0.cst (constant S_ .f32 0x00000000#32),
    TRef.unary main_call0.cst main_call0.v5 (broadcastInDim S32x32 ![] bcast_S_S32x32),
    TRef.ternary main_call0.v4 main_call0.v5 (.of main_v18 : TRef sig ⟨S32x32, .f32⟩) main_call0.v6 select,
    nullary main_cst_3 (constant S_ .f32 0x00000000#32),
    unary main_cst_3 main_v20 (broadcastInDim S32x32 ![] bcast_S_S32x32 : (⟨S_, .f32⟩ : BufTy).Contents (Elt F) → (⟨S32x32, .f32⟩ : BufTy).Contents (Elt F)),
    binary main_v19 main_v20 main_v21 (cmpf .une : (⟨S32x32, .f32⟩ : BufTy).Contents (Elt F) → (⟨S32x32, .f32⟩ : BufTy).Contents (Elt F) → (⟨S32x32, .i1⟩ : BufTy).Contents (Elt F)),
    TRef.reshape (.of main_v21 : TRef sig ⟨S32x32, .i1⟩) main_call1.v0 rfl shapeCasts_S32x32_S1024,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![1024] ![1] ![1023] ![0] x v reduceWindows_S1024_S1024_w1024s1p1023_0 h_S_),
    nullary main_c_4 (constantI S_ 32 0#32),
    unary main_c_4 main_v23 (broadcastInDim S496 ![] bcast_S_S496 : (⟨S_, .i32⟩ : BufTy).Contents (Elt F) → (⟨S496, .i32⟩ : BufTy).Contents (Elt F)),
    nullary main_c_5 (constantI S_ 32 0#32),
    TRef.unary (.of main_c_5 : TRef sig ⟨S_, .i32⟩) main_call2.v0 id,
    TRef.unary main_call2.v0 main_call2.v1 (broadcastInDim S1024 ![] bcast_S_S1024),
    TRef.binary main_call2.v1 (.of main_v22 : TRef sig ⟨S1024, .i32⟩) main_call2.v2 maxsi,
    nullary main_c_6 (constantI S_ 32 0#32),
    unary main_c_6 main_v25 (broadcastInDim S1024 ![] bcast_S_S1024 : (⟨S_, .i32⟩ : BufTy).Contents (Elt F) → (⟨S1024, .i32⟩ : BufTy).Contents (Elt F)),
    binary main_v24 main_v25 main_v26 (cmpi .slt : (⟨S1024, .i32⟩ : BufTy).Contents (Elt F) → (⟨S1024, .i32⟩ : BufTy).Contents (Elt F) → (⟨S1024, .i1⟩ : BufTy).Contents (Elt F)),
    nullary main_c_7 (constantI S_ 32 496#32),
    unary main_c_7 main_v27 (broadcastInDim S1024 ![] bcast_S_S1024 : (⟨S_, .i32⟩ : BufTy).Contents (Elt F) → (⟨S1024, .i32⟩ : BufTy).Contents (Elt F)),
    binary main_v24 main_v27 main_v28 (addi : (⟨S1024, .i32⟩ : BufTy).Contents (Elt F) → (⟨S1024, .i32⟩ : BufTy).Contents (Elt F) → (⟨S1024, .i32⟩ : BufTy).Contents (Elt F)),
    ternary main_v26 main_v28 main_v24 main_v29 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v29 main_v30 (broadcastInDim S1024x1 ![0] bcast_S1024_S1024x1_0 : (⟨S1024, .i32⟩ : BufTy).Contents (Elt F) → (⟨S1024x1, .i32⟩ : BufTy).Contents (Elt F)),
    nullary main_c_8 (constantI S_ 32 1#32),
    unary main_c_8 main_v31 (broadcastInDim S1024 ![] bcast_S_S1024 : (⟨S_, .i32⟩ : BufTy).Contents (Elt F) → (⟨S1024, .i32⟩ : BufTy).Contents (Elt F)),
    ternary main_v23 main_v30 main_v31 main_v32 ((fun x i u => Host.scatter scatter_S496_S1024x1_S1024_n_0_0_1 IntOp.addi x i u) : (⟨S496, .i32⟩ : BufTy).Contents (Elt F) → (⟨S1024x1, .i32⟩ : BufTy).Contents (Elt F) → (⟨S1024, .i32⟩ : BufTy).Contents (Elt F) → (⟨S496, .i32⟩ : BufTy).Contents (Elt F)),
    TRef.nullary main_call3.call0.c (constantI S_ 32 0#32),
    TRef.unary main_call3.call0.c main_call3.call0.v0 (broadcastInDim S_ ![] bcast_S_S_),
    TRef.binary (.of main_v32 : TRef sig ⟨S496, .i32⟩) main_call3.call0.v0 main_call3.call0.v1 (fun x v => Host.reduceWindow IntOp.addi ![496] ![1] ![495] ![0] x v reduceWindows_S496_S496_w496s1p495_0 h_S_),
    nullary main_c_9 (constantI S_ 32 32#32),
    TRef.unary (.of main_c_9 : TRef sig ⟨S_, .i32⟩) main_call4.v0 (broadcastInDim S496 ![] bcast_S_S496),
    TRef.binary (.of main_v33 : TRef sig ⟨S496, .i32⟩) main_call4.v0 main_call4.v1 Host.divsi,
    TRef.unary (.of main_v33 : TRef sig ⟨S496, .i32⟩) main_call4.v2 signi,
    TRef.unary (.of main_c_9 : TRef sig ⟨S_, .i32⟩) main_call4.v3 signi,
    TRef.unary main_call4.v3 main_call4.v4 (broadcastInDim S496 ![] bcast_S_S496),
    TRef.binary main_call4.v2 main_call4.v4 main_call4.v5 (cmpi .ne),
    TRef.unary (.of main_c_9 : TRef sig ⟨S_, .i32⟩) main_call4.v6 (broadcastInDim S496 ![] bcast_S_S496),
    TRef.binary (.of main_v33 : TRef sig ⟨S496, .i32⟩) main_call4.v6 main_call4.v7 Host.remsi,
    TRef.nullary main_call4.c (constantI S_ 32 0#32),
    TRef.unary main_call4.c main_call4.v8 (broadcastInDim S496 ![] bcast_S_S496),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S496 ![] bcast_S_S496),
    TRef.binary main_call4.v1 main_call4.v11 main_call4.v12 subi,
    TRef.ternary main_call4.v10 main_call4.v12 main_call4.v1 main_call4.call0.v0 select,
    nullary main_c_10 (constantI S_ 32 32#32),
    TRef.unary (.of main_c_10 : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S496 ![] bcast_S_S496),
    TRef.binary (.of main_v34 : TRef sig ⟨S496, .i32⟩) main_call5.v3 main_call5.v4 Host.remsi,
    TRef.nullary main_call5.c_1 (constantI S_ 32 0#32),
    TRef.unary main_call5.c_1 main_call5.v5 (broadcastInDim S496 ![] bcast_S_S496),
    TRef.binary main_call5.v4 main_call5.v5 main_call5.v6 (cmpi .ne),
    TRef.nullary main_call5.c_2 (constantI S_ 32 0#32),
    TRef.unary main_call5.c_2 main_call5.v7 (broadcastInDim S496 ![] bcast_S_S496),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S496 ![] bcast_S_S496),
    TRef.binary main_call5.v8 main_call5.v10 main_call5.v11 (cmpi .ne),
    TRef.binary main_call5.v11 main_call5.v6 main_call5.v12 andi,
    TRef.unary main_call5.call0.v0 main_call5.v13 (broadcastInDim S496 ![] bcast_S_S496),
    TRef.binary main_call5.v4 main_call5.v13 main_call5.v14 addi,
    TRef.ternary main_call5.v12 main_call5.v14 main_call5.v4 main_call5.v15 select,
    nullary main_c_11 (constantI S_ 32 1#32),
    TRef.unary (.of main_c_11 : TRef sig ⟨S_, .i32⟩) main_call6.v0 (broadcastInDim S496 ![] bcast_S_S496),
    TRef.binary (.of main_v33 : TRef sig ⟨S496, .i32⟩) main_call6.v0 main_call6.v1 Host.divsi,
    TRef.unary (.of main_v33 : TRef sig ⟨S496, .i32⟩) main_call6.v2 signi,
    TRef.unary (.of main_c_11 : TRef sig ⟨S_, .i32⟩) main_call6.v3 signi,
    TRef.unary main_call6.v3 main_call6.v4 (broadcastInDim S496 ![] bcast_S_S496),
    TRef.binary main_call6.v2 main_call6.v4 main_call6.v5 (cmpi .ne),
    TRef.unary (.of main_c_11 : TRef sig ⟨S_, .i32⟩) main_call6.v6 (broadcastInDim S496 ![] bcast_S_S496),
    TRef.binary (.of main_v33 : TRef sig ⟨S496, .i32⟩) main_call6.v6 main_call6.v7 Host.remsi,
    TRef.nullary main_call6.c (constantI S_ 32 0#32),
    TRef.unary main_call6.c main_call6.v8 (broadcastInDim S496 ![] bcast_S_S496),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S496 ![] bcast_S_S496),
    TRef.binary main_call6.v1 main_call6.v11 main_call6.v12 subi,
    TRef.ternary main_call6.v10 main_call6.v12 main_call6.v1 main_call6.call0.v0 select,
    nullary main_c_12 (constantI S_ 32 32#32),
    TRef.unary (.of main_c_12 : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S496 ![] bcast_S_S496),
    TRef.binary (.of main_v36 : TRef sig ⟨S496, .i32⟩) main_call7.v3 main_call7.v4 Host.remsi,
    TRef.nullary main_call7.c_1 (constantI S_ 32 0#32),
    TRef.unary main_call7.c_1 main_call7.v5 (broadcastInDim S496 ![] bcast_S_S496),
    TRef.binary main_call7.v4 main_call7.v5 main_call7.v6 (cmpi .ne),
    TRef.nullary main_call7.c_2 (constantI S_ 32 0#32),
    TRef.unary main_call7.c_2 main_call7.v7 (broadcastInDim S496 ![] bcast_S_S496),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S496 ![] bcast_S_S496),
    TRef.binary main_call7.v8 main_call7.v10 main_call7.v11 (cmpi .ne),
    TRef.binary main_call7.v11 main_call7.v6 main_call7.v12 andi,
    TRef.unary main_call7.call0.v0 main_call7.v13 (broadcastInDim S496 ![] bcast_S_S496),
    TRef.binary main_call7.v4 main_call7.v13 main_call7.v14 addi,
    TRef.ternary main_call7.v12 main_call7.v14 main_call7.v4 main_call7.v15 select,
    nullary main_c_13 (constantI S_ 32 0#32),
    unary main_c_13 main_v38 (broadcastInDim S496 ![] bcast_S_S496 : (⟨S_, .i32⟩ : BufTy).Contents (Elt F) → (⟨S496, .i32⟩ : BufTy).Contents (Elt F)),
    binary main_v35 main_v38 main_v39 (cmpi .slt : (⟨S496, .i32⟩ : BufTy).Contents (Elt F) → (⟨S496, .i32⟩ : BufTy).Contents (Elt F) → (⟨S496, .i1⟩ : BufTy).Contents (Elt F)),
    nullary main_c_14 (constantI S_ 32 32#32),
    unary main_c_14 main_v40 (broadcastInDim S496 ![] bcast_S_S496 : (⟨S_, .i32⟩ : BufTy).Contents (Elt F) → (⟨S496, .i32⟩ : BufTy).Contents (Elt F)),
    binary main_v35 main_v40 main_v41 (addi : (⟨S496, .i32⟩ : BufTy).Contents (Elt F) → (⟨S496, .i32⟩ : BufTy).Contents (Elt F) → (⟨S496, .i32⟩ : BufTy).Contents (Elt F)),
    ternary main_v39 main_v41 main_v35 main_v42 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    nullary main_c_15 (constantI S_ 32 0#32),
    unary main_c_15 main_v43 (broadcastInDim S496 ![] bcast_S_S496 : (⟨S_, .i32⟩ : BufTy).Contents (Elt F) → (⟨S496, .i32⟩ : BufTy).Contents (Elt F)),
    binary main_v37 main_v43 main_v44 (cmpi .slt : (⟨S496, .i32⟩ : BufTy).Contents (Elt F) → (⟨S496, .i32⟩ : BufTy).Contents (Elt F) → (⟨S496, .i1⟩ : BufTy).Contents (Elt F)),
    nullary main_c_16 (constantI S_ 32 32#32),
    unary main_c_16 main_v45 (broadcastInDim S496 ![] bcast_S_S496 : (⟨S_, .i32⟩ : BufTy).Contents (Elt F) → (⟨S496, .i32⟩ : BufTy).Contents (Elt F)),
    binary main_v37 main_v45 main_v46 (addi : (⟨S496, .i32⟩ : BufTy).Contents (Elt F) → (⟨S496, .i32⟩ : BufTy).Contents (Elt F) → (⟨S496, .i32⟩ : BufTy).Contents (Elt F)),
    ternary main_v44 main_v46 main_v37 main_v47 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    unary main_v42 main_v48 (broadcastInDim S496x1 ![0] bcast_S496_S496x1_0 : (⟨S496, .i32⟩ : BufTy).Contents (Elt F) → (⟨S496x1, .i32⟩ : BufTy).Contents (Elt F)),
    unary main_v47 main_v49 (broadcastInDim S496x1 ![0] bcast_S496_S496x1_0 : (⟨S496, .i32⟩ : BufTy).Contents (Elt F) → (⟨S496x1, .i32⟩ : BufTy).Contents (Elt F)),
    binary main_v48 main_v49 main_v50 ((fun a b => concatenate S496x2 1 [⟨S496x1, a⟩, ⟨S496x1, b⟩] concatenates_S496x1_S496x1_S496x2_d1) : (⟨S496x1, .i32⟩ : BufTy).Contents (Elt F) → (⟨S496x1, .i32⟩ : BufTy).Contents (Elt F) → (⟨S496x2, .i32⟩ : BufTy).Contents (Elt F)),
    binary main_v17 main_v50 main_v51 ((fun x i => Host.gather gather_S8192x32x32_S496x2_S8192x496_0_12_n_n_12_1_819211 x i) : (⟨S8192x32x32, .f32⟩ : BufTy).Contents (Elt F) → (⟨S496x2, .i32⟩ : BufTy).Contents (Elt F) → (⟨S8192x496, .f32⟩ : BufTy).Contents (Elt F)),
    reshape main_v16 main_v52 rfl shapeCasts_S8192x32x64_S8192x2048,
    binary main_v52 main_v51 main_v53 ((fun a b => concatenate S8192x2544 1 [⟨S8192x2048, a⟩, ⟨S8192x496, b⟩] concatenates_S8192x2048_S8192x496_S8192x2544_d1) : (⟨S8192x2048, .f32⟩ : BufTy).Contents (Elt F) → (⟨S8192x496, .f32⟩ : BufTy).Contents (Elt F) → (⟨S8192x2544, .f32⟩ : BufTy).Contents (Elt F)),
    binary main_v53 main_arg2 main_v54 ((fun l r => Host.dotGeneral dot_S8192x2544_S2544x1024_S8192x1024_1_0_0_1_n_n none l r) : (⟨S8192x2544, .f32⟩ : BufTy).Contents (Elt F) → (⟨S2544x1024, .f32⟩ : BufTy).Contents (Elt F) → (⟨S8192x1024, .f32⟩ : BufTy).Contents (Elt F)),
    unary main_arg3 main_v55 (broadcastInDim S1x1024 ![1] bcast_S1024_S1x1024_1 : (⟨S1024, .f32⟩ : BufTy).Contents (Elt F) → (⟨S1x1024, .f32⟩ : BufTy).Contents (Elt F)),
    unary main_v55 main_v56 (broadcastInDim S8192x1024 ![0, 1] bcast_S1x1024_S8192x1024_0_1 : (⟨S1x1024, .f32⟩ : BufTy).Contents (Elt F) → (⟨S8192x1024, .f32⟩ : BufTy).Contents (Elt F)),
    binary main_v54 main_v56 main_v57 (addf : (⟨S8192x1024, .f32⟩ : BufTy).Contents (Elt F) → (⟨S8192x1024, .f32⟩ : BufTy).Contents (Elt F) → (⟨S8192x1024, .f32⟩ : BufTy).Contents (Elt F)),
    TRef.nullary main_call8.cst (constant S_ .f32 0x00000000#32),
    TRef.unary main_call8.cst main_call8.v0 (broadcastInDim S8192x1024 ![] bcast_S_S8192x1024),
    TRef.binary (.of main_v57 : TRef sig ⟨S8192x1024, .f32⟩) main_call8.v0 main_call8.v1 maximumf,
    binary main_v58 main_arg4 main_v59 ((fun l r => Host.dotGeneral dot_S8192x1024_S1024x512_S8192x512_1_0_0_1_n_n none l r) : (⟨S8192x1024, .f32⟩ : BufTy).Contents (Elt F) → (⟨S1024x512, .f32⟩ : BufTy).Contents (Elt F) → (⟨S8192x512, .f32⟩ : BufTy).Contents (Elt F)),
    unary main_arg5 main_v60 (broadcastInDim S1x512 ![1] bcast_S512_S1x512_1 : (⟨S512, .f32⟩ : BufTy).Contents (Elt F) → (⟨S1x512, .f32⟩ : BufTy).Contents (Elt F)),
    unary main_v60 main_v61 (broadcastInDim S8192x512 ![0, 1] bcast_S1x512_S8192x512_0_1 : (⟨S1x512, .f32⟩ : BufTy).Contents (Elt F) → (⟨S8192x512, .f32⟩ : BufTy).Contents (Elt F)),
    binary main_v59 main_v61 main_v62 (addf : (⟨S8192x512, .f32⟩ : BufTy).Contents (Elt F) → (⟨S8192x512, .f32⟩ : BufTy).Contents (Elt F) → (⟨S8192x512, .f32⟩ : BufTy).Contents (Elt F)),
    TRef.nullary main_call9.cst (constant S_ .f32 0x00000000#32),
    TRef.unary main_call9.cst main_call9.v0 (broadcastInDim S8192x512 ![] bcast_S_S8192x512),
    TRef.binary (.of main_v62 : TRef sig ⟨S8192x512, .f32⟩) main_call9.v0 main_call9.v1 maximumf,
    binary main_v63 main_arg6 main_v64 ((fun l r => Host.dotGeneral dot_S8192x512_S512x1000_S8192x1000_1_0_0_1_n_n none l r) : (⟨S8192x512, .f32⟩ : BufTy).Contents (Elt F) → (⟨S512x1000, .f32⟩ : BufTy).Contents (Elt F) → (⟨S8192x1000, .f32⟩ : BufTy).Contents (Elt F)),
    unary main_arg7 main_v65 (broadcastInDim S1x1000 ![1] bcast_S1000_S1x1000_1 : (⟨S1000, .f32⟩ : BufTy).Contents (Elt F) → (⟨S1x1000, .f32⟩ : BufTy).Contents (Elt F)),
    unary main_v65 main_v66 (broadcastInDim S8192x1000 ![0, 1] bcast_S1x1000_S8192x1000_0_1 : (⟨S1x1000, .f32⟩ : BufTy).Contents (Elt F) → (⟨S8192x1000, .f32⟩ : BufTy).Contents (Elt F)),
    binary main_v64 main_v66 main_v67 (addf : (⟨S8192x1000, .f32⟩ : BufTy).Contents (Elt F) → (⟨S8192x1000, .f32⟩ : BufTy).Contents (Elt F) → (⟨S8192x1000, .f32⟩ : BufTy).Contents (Elt F)),
    unary main_v67 main_v68 (Host.negf : (⟨S8192x1000, .f32⟩ : BufTy).Contents (Elt F) → (⟨S8192x1000, .f32⟩ : BufTy).Contents (Elt F)),
    unary main_v68 main_v69 (Host.exp : (⟨S8192x1000, .f32⟩ : BufTy).Contents (Elt F) → (⟨S8192x1000, .f32⟩ : BufTy).Contents (Elt F)),
    nullary main_cst_17 (constant S_ .f32 0x3F800000#32),
    unary main_cst_17 main_v70 (broadcastInDim S8192x1000 ![] bcast_S_S8192x1000 : (⟨S_, .f32⟩ : BufTy).Contents (Elt F) → (⟨S8192x1000, .f32⟩ : BufTy).Contents (Elt F)),
    binary main_v70 main_v69 main_v71 (addf : (⟨S8192x1000, .f32⟩ : BufTy).Contents (Elt F) → (⟨S8192x1000, .f32⟩ : BufTy).Contents (Elt F) → (⟨S8192x1000, .f32⟩ : BufTy).Contents (Elt F)),
    nullary main_cst_18 (constant S_ .f32 0x3F800000#32),
    unary main_cst_18 main_v72 (broadcastInDim S8192x1000 ![] bcast_S_S8192x1000 : (⟨S_, .f32⟩ : BufTy).Contents (Elt F) → (⟨S8192x1000, .f32⟩ : BufTy).Contents (Elt F)),
    binary main_v72 main_v71 main_v73 (Host.divf : (⟨S8192x1000, .f32⟩ : BufTy).Contents (Elt F) → (⟨S8192x1000, .f32⟩ : BufTy).Contents (Elt F) → (⟨S8192x1000, .f32⟩ : BufTy).Contents (Elt F)) ]

/-- Every operation's buffers are TensorCore buffers of the signature: one library lemma per operation, in order. -/
theorem ops_sub : (ops : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub .., reshape_bufs_sub .., unary_bufs_sub .., nullary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., reshape_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

set_option maxHeartbeats 1000000 in
/-- Operations 13 to 21 of that stage, over the names live at their head. -/
def rE_part1 (main_arg0 : IVec S8192x32 32) (main_arg1 : FVec F S32x1000x64 .f32) (main_v6 : IVec S1x32 32) (main_v8 : IVec S8192x32 1) : FVec F S8192x32x64 .f32 :=
  let main_c_2 : IVec S_ 32 := (constantI S_ 32 1000#32)
  let main_v9 : IVec S8192x32 32 := (broadcastInDim S8192x32 ![] bcast_S_S8192x32 : (⟨S_, .i32⟩ : BufTy).Contents (Elt F) → (⟨S8192x32, .i32⟩ : BufTy).Contents (Elt F)) main_c_2
  let main_v10 : IVec S8192x32 32 := (addi : (⟨S8192x32, .i32⟩ : BufTy).Contents (Elt F) → (⟨S8192x32, .i32⟩ : BufTy).Contents (Elt F) → (⟨S8192x32, .i32⟩ : BufTy).Contents (Elt F)) main_arg0 main_v9
  let main_v11 : IVec S8192x32 32 := (select : (⟨S8192x32, .i1⟩ : BufTy).Contents (Elt F) → (⟨S8192x32, .i32⟩ : BufTy).Contents (Elt F) → (⟨S8192x32, .i32⟩ : BufTy).Contents (Elt F) → (⟨S8192x32, .i32⟩ : BufTy).Contents (Elt F)) main_v8 main_v10 main_arg0
  let main_v12 : IVec S8192x32 32 := (broadcastInDim S8192x32 ![0, 1] bcast_S1x32_S8192x32_0_1 : (⟨S1x32, .i32⟩ : BufTy).Contents (Elt F) → (⟨S8192x32, .i32⟩ : BufTy).Contents (Elt F)) main_v6
  let main_v13 : IVec S8192x32x1 32 := (broadcastInDim S8192x32x1 ![0, 1] bcast_S8192x32_S8192x32x1_0_1 : (⟨S8192x32, .i32⟩ : BufTy).Contents (Elt F) → (⟨S8192x32x1, .i32⟩ : BufTy).Contents (Elt F)) main_v12
  let main_v14 : IVec S8192x32x1 32 := (broadcastInDim S8192x32x1 ![0, 1] bcast_S8192x32_S8192x32x1_0_1 : (⟨S8192x32, .i32⟩ : BufTy).Contents (Elt F) → (⟨S8192x32x1, .i32⟩ : BufTy).Contents (Elt F)) main_v11
  let main_v15 : IVec S8192x32x2 32 := ((fun a b => concatenate S8192x32x2 2 [⟨S8192x32x1, a⟩, ⟨S8192x32x1, b⟩] concatenates_S8192x32x1_S8192x32x1_S8192x32x2_d2) : (⟨S8192x32x1, .i32⟩ : BufTy).Contents (Elt F) → (⟨S8192x32x1, .i32⟩ : BufTy).Contents (Elt F) → (⟨S8192x32x2, .i32⟩ : BufTy).Contents (Elt F)) main_v13 main_v14
  let main_v16 : FVec F S8192x32x64 .f32 := ((fun x i => Host.gather gather_S32x1000x64_S8192x32x2_S8192x32x64_2_01_n_n_01_2_1164 x i) : (⟨S32x1000x64, .f32⟩ : BufTy).Contents (Elt F) → (⟨S8192x32x2, .i32⟩ : BufTy).Contents (Elt F) → (⟨S8192x32x64, .f32⟩ : BufTy).Contents (Elt F)) main_arg1 main_v15
  main_v16

set_option maxHeartbeats 1000000 in
/-- The embedding rows the index array selects (@main up to its first gather). -/
def rE (main_arg0 : IVec S8192x32 32) (main_arg1 : FVec F S32x1000x64 .f32) : FVec F S8192x32x64 .f32 :=
  let main_v0 : IVec S32 32 := (iotaInDim S32 32 0)
  let main_v1 : IVec S1x32 32 := (broadcastInDim S1x32 ![1] bcast_S32_S1x32_1 : (⟨S32, .i32⟩ : BufTy).Contents (Elt F) → (⟨S1x32, .i32⟩ : BufTy).Contents (Elt F)) main_v0
  let main_c : IVec S_ 32 := (constantI S_ 32 0#32)
  let main_v2 : IVec S1x32 32 := (broadcastInDim S1x32 ![] bcast_S_S1x32 : (⟨S_, .i32⟩ : BufTy).Contents (Elt F) → (⟨S1x32, .i32⟩ : BufTy).Contents (Elt F)) main_c
  let main_v3 : IVec S1x32 1 := (cmpi .slt : (⟨S1x32, .i32⟩ : BufTy).Contents (Elt F) → (⟨S1x32, .i32⟩ : BufTy).Contents (Elt F) → (⟨S1x32, .i1⟩ : BufTy).Contents (Elt F)) main_v1 main_v2
  let main_c_0 : IVec S_ 32 := (constantI S_ 32 32#32)
  let main_v4 : IVec S1x32 32 := (broadcastInDim S1x32 ![] bcast_S_S1x32 : (⟨S_, .i32⟩ : BufTy).Contents (Elt F) → (⟨S1x32, .i32⟩ : BufTy).Contents (Elt F)) main_c_0
  let main_v5 : IVec S1x32 32 := (addi : (⟨S1x32, .i32⟩ : BufTy).Contents (Elt F) → (⟨S1x32, .i32⟩ : BufTy).Contents (Elt F) → (⟨S1x32, .i32⟩ : BufTy).Contents (Elt F)) main_v1 main_v4
  let main_v6 : IVec S1x32 32 := (select : (⟨S1x32, .i1⟩ : BufTy).Contents (Elt F) → (⟨S1x32, .i32⟩ : BufTy).Contents (Elt F) → (⟨S1x32, .i32⟩ : BufTy).Contents (Elt F) → (⟨S1x32, .i32⟩ : BufTy).Contents (Elt F)) main_v3 main_v5 main_v1
  let main_c_1 : IVec S_ 32 := (constantI S_ 32 0#32)
  let main_v7 : IVec S8192x32 32 := (broadcastInDim S8192x32 ![] bcast_S_S8192x32 : (⟨S_, .i32⟩ : BufTy).Contents (Elt F) → (⟨S8192x32, .i32⟩ : BufTy).Contents (Elt F)) main_c_1
  let main_v8 : IVec S8192x32 1 := (cmpi .slt : (⟨S8192x32, .i32⟩ : BufTy).Contents (Elt F) → (⟨S8192x32, .i32⟩ : BufTy).Contents (Elt F) → (⟨S8192x32, .i1⟩ : BufTy).Contents (Elt F)) main_arg0 main_v7
  rE_part1 (F := F) main_arg0 main_arg1 main_v6 main_v8

set_option maxHeartbeats 1000000 in
/-- All pairwise inner products of a row's field embeddings. -/
def rGram (main_v16 : FVec F S8192x32x64 .f32) : FVec F S8192x32x32 .f32 :=
  let main_v17 : FVec F S8192x32x32 .f32 := ((fun l r => Host.dotGeneral dot_S8192x32x64_S8192x32x64_S8192x32x32_2_2_1_1_0_0 none l r) : (⟨S8192x32x64, .f32⟩ : BufTy).Contents (Elt F) → (⟨S8192x32x64, .f32⟩ : BufTy).Contents (Elt F) → (⟨S8192x32x32, .f32⟩ : BufTy).Contents (Elt F)) main_v16 main_v16
  main_v17

set_option maxHeartbeats 1000000 in
/-- Operations 13 to 14 of that stage, over the names live at their head. -/
def rMask_part1 (main_v19 : FVec F S32x32 .f32) (main_cst_3 : FVec F S_ .f32) : IVec S32x32 1 :=
  let main_v20 : FVec F S32x32 .f32 := (broadcastInDim S32x32 ![] bcast_S_S32x32 : (⟨S_, .f32⟩ : BufTy).Contents (Elt F) → (⟨S32x32, .f32⟩ : BufTy).Contents (Elt F)) main_cst_3
  let main_v21 : IVec S32x32 1 := (cmpf .une : (⟨S32x32, .f32⟩ : BufTy).Contents (Elt F) → (⟨S32x32, .f32⟩ : BufTy).Contents (Elt F) → (⟨S32x32, .i1⟩ : BufTy).Contents (Elt F)) main_v19 main_v20
  main_v21

set_option maxHeartbeats 1000000 in
/-- The strict upper triangle of a 32 by 32 square as a mask: ones above the diagonal compared with zero. -/
def rMask  : IVec S32x32 1 :=
  let main_cst : FVec F S_ .f32 := (constant (F := F) S_ .f32 0x3F800000#32)
  let main_v18 : FVec F S32x32 .f32 := (broadcastInDim S32x32 ![] bcast_S_S32x32 : (⟨S_, .f32⟩ : BufTy).Contents (Elt F) → (⟨S32x32, .f32⟩ : BufTy).Contents (Elt F)) main_cst
  let main_call0_v0 : IVec S32x32 32 := (iotaInDim S32x32 32 0)
  let main_call0_c : IVec S_ 32 := (constantI S_ 32 0#32)
  let main_call0_v1 : IVec S32x32 32 := (broadcastInDim S32x32 ![] bcast_S_S32x32) main_call0_c
  let main_call0_v2 : IVec S32x32 32 := addi main_call0_v0 main_call0_v1
  let main_call0_v3 : IVec S32x32 32 := (iotaInDim S32x32 32 1)
  let main_call0_v4 : IVec S32x32 1 := (cmpi .sge) main_call0_v2 main_call0_v3
  let main_call0_cst : FVec F S_ .f32 := (constant (F := F) S_ .f32 0x00000000#32)
  let main_call0_v5 : FVec F S32x32 .f32 := (broadcastInDim S32x32 ![] bcast_S_S32x32) main_call0_cst
  let main_v19 : FVec F S32x32 .f32 := select main_call0_v4 main_call0_v5 main_v18
  let main_cst_3 : FVec F S_ .f32 := (constant (F := F) S_ .f32 0x00000000#32)
  rMask_part1 (F := F) main_v19 main_cst_3

set_option maxHeartbeats 1000000 in
/-- The mask flattened and widened, and its inclusive cumulative sum. -/
def rCum (main_v21 : IVec S32x32 1) : IVec S1024 32 :=
  let main_call1_v0 : IVec S1024 1 := shapeCast S1024 main_v21 shapeCasts_S32x32_S1024
  let main_call1_v1 : IVec S1024 32 := (extui 32 · natLt_1_32) main_call1_v0
  let main_call1_call0_c : IVec S_ 32 := (constantI S_ 32 0#32)
  let main_call1_call0_v0 : IVec S_ 32 := (broadcastInDim S_ ![] bcast_S_S_) main_call1_call0_c
  let main_v22 : IVec S1024 32 := (fun x v => Host.reduceWindow IntOp.addi ![1024] ![1] ![1023] ![0] x v reduceWindows_S1024_S1024_w1024s1p1023_0 h_S_) main_call1_v1 main_call1_call0_v0
  main_v22

set_option maxHeartbeats 1000000 in
/-- Operations 13 to 17 of that stage, over the names live at their head. -/
def rBins_part1 (main_v23 : IVec S496 32) (main_v24 : IVec S1024 32) (main_v26 : IVec S1024 1) (main_v28 : IVec S1024 32) : IVec S496 32 :=
  let main_v29 : IVec S1024 32 := (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) main_v26 main_v28 main_v24
  let main_v30 : IVec S1024x1 32 := (broadcastInDim S1024x1 ![0] bcast_S1024_S1024x1_0 : (⟨S1024, .i32⟩ : BufTy).Contents (Elt F) → (⟨S1024x1, .i32⟩ : BufTy).Contents (Elt F)) main_v29
  let main_c_8 : IVec S_ 32 := (constantI S_ 32 1#32)
  let main_v31 : IVec S1024 32 := (broadcastInDim S1024 ![] bcast_S_S1024 : (⟨S_, .i32⟩ : BufTy).Contents (Elt F) → (⟨S1024, .i32⟩ : BufTy).Contents (Elt F)) main_c_8
  let main_v32 : IVec S496 32 := ((fun x i u => Host.scatter scatter_S496_S1024x1_S1024_n_0_0_1 IntOp.addi x i u) : (⟨S496, .i32⟩ : BufTy).Contents (Elt F) → (⟨S1024x1, .i32⟩ : BufTy).Contents (Elt F) → (⟨S1024, .i32⟩ : BufTy).Contents (Elt F) → (⟨S496, .i32⟩ : BufTy).Contents (Elt F)) main_v23 main_v30 main_v31
  main_v32

set_option maxHeartbeats 1000000 in
/-- How many positions have each cumulative count: a scatter-add of ones into 496 bins. -/
def rBins (main_v22 : IVec S1024 32) : IVec S496 32 :=
  let main_c_4 : IVec S_ 32 := (constantI S_ 32 0#32)
  let main_v23 : IVec S496 32 := (broadcastInDim S496 ![] bcast_S_S496 : (⟨S_, .i32⟩ : BufTy).Contents (Elt F) → (⟨S496, .i32⟩ : BufTy).Contents (Elt F)) main_c_4
  let main_c_5 : IVec S_ 32 := (constantI S_ 32 0#32)
  let main_call2_v0 : IVec S_ 32 := id main_c_5
  let main_call2_v1 : IVec S1024 32 := (broadcastInDim S1024 ![] bcast_S_S1024) main_call2_v0
  let main_v24 : IVec S1024 32 := maxsi main_call2_v1 main_v22
  let main_c_6 : IVec S_ 32 := (constantI S_ 32 0#32)
  let main_v25 : IVec S1024 32 := (broadcastInDim S1024 ![] bcast_S_S1024 : (⟨S_, .i32⟩ : BufTy).Contents (Elt F) → (⟨S1024, .i32⟩ : BufTy).Contents (Elt F)) main_c_6
  let main_v26 : IVec S1024 1 := (cmpi .slt : (⟨S1024, .i32⟩ : BufTy).Contents (Elt F) → (⟨S1024, .i32⟩ : BufTy).Contents (Elt F) → (⟨S1024, .i1⟩ : BufTy).Contents (Elt F)) main_v24 main_v25
  let main_c_7 : IVec S_ 32 := (constantI S_ 32 496#32)
  let main_v27 : IVec S1024 32 := (broadcastInDim S1024 ![] bcast_S_S1024 : (⟨S_, .i32⟩ : BufTy).Contents (Elt F) → (⟨S1024, .i32⟩ : BufTy).Contents (Elt F)) main_c_7
  let main_v28 : IVec S1024 32 := (addi : (⟨S1024, .i32⟩ : BufTy).Contents (Elt F) → (⟨S1024, .i32⟩ : BufTy).Contents (Elt F) → (⟨S1024, .i32⟩ : BufTy).Contents (Elt F)) main_v24 main_v27
  rBins_part1 (F := F) main_v23 main_v24 main_v26 main_v28

set_option maxHeartbeats 1000000 in
/-- The inclusive cumulative sum of the bins: the flat position of each set entry. -/
def rFlat (main_v32 : IVec S496 32) : IVec S496 32 :=
  let main_call3_call0_c : IVec S_ 32 := (constantI S_ 32 0#32)
  let main_call3_call0_v0 : IVec S_ 32 := (broadcastInDim S_ ![] bcast_S_S_) main_call3_call0_c
  let main_v33 : IVec S496 32 := (fun x v => Host.reduceWindow IntOp.addi ![496] ![1] ![495] ![0] x v reduceWindows_S496_S496_w496s1p495_0 h_S_) main_v32 main_call3_call0_v0
  main_v33

set_option maxHeartbeats 1000000 in
/-- Operations 85 to 95 of that stage, over the names live at their head. -/
def rIdx_part7 (main_v35 : IVec S496 32) (main_v37 : IVec S496 32) (main_v39 : IVec S496 1) (main_v41 : IVec S496 32) : IVec S496x2 32 :=
  let main_v42 : IVec S496 32 := (select : (⟨S496, .i1⟩ : BufTy).Contents (Elt F) → (⟨S496, .i32⟩ : BufTy).Contents (Elt F) → (⟨S496, .i32⟩ : BufTy).Contents (Elt F) → (⟨S496, .i32⟩ : BufTy).Contents (Elt F)) main_v39 main_v41 main_v35
  let main_c_15 : IVec S_ 32 := (constantI S_ 32 0#32)
  let main_v43 : IVec S496 32 := (broadcastInDim S496 ![] bcast_S_S496 : (⟨S_, .i32⟩ : BufTy).Contents (Elt F) → (⟨S496, .i32⟩ : BufTy).Contents (Elt F)) main_c_15
  let main_v44 : IVec S496 1 := (cmpi .slt : (⟨S496, .i32⟩ : BufTy).Contents (Elt F) → (⟨S496, .i32⟩ : BufTy).Contents (Elt F) → (⟨S496, .i1⟩ : BufTy).Contents (Elt F)) main_v37 main_v43
  let main_c_16 : IVec S_ 32 := (constantI S_ 32 32#32)
  let main_v45 : IVec S496 32 := (broadcastInDim S496 ![] bcast_S_S496 : (⟨S_, .i32⟩ : BufTy).Contents (Elt F) → (⟨S496, .i32⟩ : BufTy).Contents (Elt F)) main_c_16
  let main_v46 : IVec S496 32 := (addi : (⟨S496, .i32⟩ : BufTy).Contents (Elt F) → (⟨S496, .i32⟩ : BufTy).Contents (Elt F) → (⟨S496, .i32⟩ : BufTy).Contents (Elt F)) main_v37 main_v45
  let main_v47 : IVec S496 32 := (select : (⟨S496, .i1⟩ : BufTy).Contents (Elt F) → (⟨S496, .i32⟩ : BufTy).Contents (Elt F) → (⟨S496, .i32⟩ : BufTy).Contents (Elt F) → (⟨S496, .i32⟩ : BufTy).Contents (Elt F)) main_v44 main_v46 main_v37
  let main_v48 : IVec S496x1 32 := (broadcastInDim S496x1 ![0] bcast_S496_S496x1_0 : (⟨S496, .i32⟩ : BufTy).Contents (Elt F) → (⟨S496x1, .i32⟩ : BufTy).Contents (Elt F)) main_v42
  let main_v49 : IVec S496x1 32 := (broadcastInDim S496x1 ![0] bcast_S496_S496x1_0 : (⟨S496, .i32⟩ : BufTy).Contents (Elt F) → (⟨S496x1, .i32⟩ : BufTy).Contents (Elt F)) main_v47
  let main_v50 : IVec S496x2 32 := ((fun a b => concatenate S496x2 1 [⟨S496x1, a⟩, ⟨S496x1, b⟩] concatenates_S496x1_S496x1_S496x2_d1) : (⟨S496x1, .i32⟩ : BufTy).Contents (Elt F) → (⟨S496x1, .i32⟩ : BufTy).Contents (Elt F) → (⟨S496x2, .i32⟩ : BufTy).Contents (Elt F)) main_v48 main_v49
  main_v50

set_option maxHeartbeats 1000000 in
/-- Operations 73 to 84 of that stage, over the names live at their head. -/
def rIdx_part6 (main_v35 : IVec S496 32) (main_call7_v2 : IVec S_ 32) (main_call7_v4 : IVec S496 32) (main_call7_v6 : IVec S496 1) (main_call7_v8 : IVec S496 1) (main_call7_v9 : IVec S_ 1) : IVec S496x2 32 :=
  let main_call7_v10 : IVec S496 1 := (broadcastInDim S496 ![] bcast_S_S496) main_call7_v9
  let main_call7_v11 : IVec S496 1 := (cmpi .ne) main_call7_v8 main_call7_v10
  let main_call7_v12 : IVec S496 1 := andi main_call7_v11 main_call7_v6
  let main_call7_v13 : IVec S496 32 := (broadcastInDim S496 ![] bcast_S_S496) main_call7_v2
  let main_call7_v14 : IVec S496 32 := addi main_call7_v4 main_call7_v13
  let main_v37 : IVec S496 32 := select main_call7_v12 main_call7_v14 main_call7_v4
  let main_c_13 : IVec S_ 32 := (constantI S_ 32 0#32)
  let main_v38 : IVec S496 32 := (broadcastInDim S496 ![] bcast_S_S496 : (⟨S_, .i32⟩ : BufTy).Contents (Elt F) → (⟨S496, .i32⟩ : BufTy).Contents (Elt F)) main_c_13
  let main_v39 : IVec S496 1 := (cmpi .slt : (⟨S496, .i32⟩ : BufTy).Contents (Elt F) → (⟨S496, .i32⟩ : BufTy).Contents (Elt F) → (⟨S496, .i1⟩ : BufTy).Contents (Elt F)) main_v35 main_v38
  let main_c_14 : IVec S_ 32 := (constantI S_ 32 32#32)
  let main_v40 : IVec S496 32 := (broadcastInDim S496 ![] bcast_S_S496 : (⟨S_, .i32⟩ : BufTy).Contents (Elt F) → (⟨S496, .i32⟩ : BufTy).Contents (Elt F)) main_c_14
  let main_v41 : IVec S496 32 := (addi : (⟨S496, .i32⟩ : BufTy).Contents (Elt F) → (⟨S496, .i32⟩ : BufTy).Contents (Elt F) → (⟨S496, .i32⟩ : BufTy).Contents (Elt F)) main_v35 main_v40
  rIdx_part7 (F := F) main_v35 main_v37 main_v39 main_v41

set_option maxHeartbeats 1000000 in
/-- Operations 61 to 72 of that stage, over the names live at their head. -/
def rIdx_part5 (main_v35 : IVec S496 32) (main_v36 : IVec S496 32) (main_call7_v0 : IVec S_ 32) (main_call7_v1 : IVec S_ 1) : IVec S496x2 32 :=
  let main_call7_c_0 : IVec S_ 32 := (constantI S_ 32 1#32)
  let main_call7_v2 : IVec S_ 32 := select main_call7_v1 main_call7_c_0 main_call7_v0
  let main_call7_v3 : IVec S496 32 := (broadcastInDim S496 ![] bcast_S_S496) main_call7_v2
  let main_call7_v4 : IVec S496 32 := Host.remsi main_v36 main_call7_v3
  let main_call7_c_1 : IVec S_ 32 := (constantI S_ 32 0#32)
  let main_call7_v5 : IVec S496 32 := (broadcastInDim S496 ![] bcast_S_S496) main_call7_c_1
  let main_call7_v6 : IVec S496 1 := (cmpi .ne) main_call7_v4 main_call7_v5
  let main_call7_c_2 : IVec S_ 32 := (constantI S_ 32 0#32)
  let main_call7_v7 : IVec S496 32 := (broadcastInDim S496 ![] bcast_S_S496) main_call7_c_2
  let main_call7_v8 : IVec S496 1 := (cmpi .slt) main_call7_v4 main_call7_v7
  let main_call7_c_3 : IVec S_ 32 := (constantI S_ 32 0#32)
  let main_call7_v9 : IVec S_ 1 := (cmpi .slt) main_call7_v2 main_call7_c_3
  rIdx_part6 (F := F) main_v35 main_call7_v2 main_call7_v4 main_call7_v6 main_call7_v8 main_call7_v9

set_option maxHeartbeats 1000000 in
/-- Operations 49 to 60 of that stage, over the names live at their head. -/
def rIdx_part4 (main_v35 : IVec S496 32) (main_call6_v1 : IVec S496 32) (main_call6_v5 : IVec S496 1) (main_call6_v7 : IVec S496 32) : IVec S496x2 32 :=
  let main_call6_c : IVec S_ 32 := (constantI S_ 32 0#32)
  let main_call6_v8 : IVec S496 32 := (broadcastInDim S496 ![] bcast_S_S496) main_call6_c
  let main_call6_v9 : IVec S496 1 := (cmpi .ne) main_call6_v7 main_call6_v8
  let main_call6_v10 : IVec S496 1 := andi main_call6_v5 main_call6_v9
  let main_call6_c_0 : IVec S_ 32 := (constantI S_ 32 1#32)
  let main_call6_v11 : IVec S496 32 := (broadcastInDim S496 ![] bcast_S_S496) main_call6_c_0
  let main_call6_v12 : IVec S496 32 := subi main_call6_v1 main_call6_v11
  let main_v36 : IVec S496 32 := select main_call6_v10 main_call6_v12 main_call6_v1
  let main_c_12 : IVec S_ 32 := (constantI S_ 32 32#32)
  let main_call7_v0 : IVec S_ 32 := id main_c_12
  let main_call7_c : IVec S_ 32 := (constantI S_ 32 0#32)
  let main_call7_v1 : IVec S_ 1 := (cmpi .eq) main_call7_v0 main_call7_c
  rIdx_part5 (F := F) main_v35 main_v36 main_call7_v0 main_call7_v1

set_option maxHeartbeats 1000000 in
/-- Operations 37 to 48 of that stage, over the names live at their head. -/
def rIdx_part3 (main_v33 : IVec S496 32) (main_call5_v2 : IVec S_ 32) (main_call5_v4 : IVec S496 32) (main_call5_v12 : IVec S496 1) : IVec S496x2 32 :=
  let main_call5_v13 : IVec S496 32 := (broadcastInDim S496 ![] bcast_S_S496) main_call5_v2
  let main_call5_v14 : IVec S496 32 := addi main_call5_v4 main_call5_v13
  let main_v35 : IVec S496 32 := select main_call5_v12 main_call5_v14 main_call5_v4
  let main_c_11 : IVec S_ 32 := (constantI S_ 32 1#32)
  let main_call6_v0 : IVec S496 32 := (broadcastInDim S496 ![] bcast_S_S496) main_c_11
  let main_call6_v1 : IVec S496 32 := Host.divsi main_v33 main_call6_v0
  let main_call6_v2 : IVec S496 32 := signi main_v33
  let main_call6_v3 : IVec S_ 32 := signi main_c_11
  let main_call6_v4 : IVec S496 32 := (broadcastInDim S496 ![] bcast_S_S496) main_call6_v3
  let main_call6_v5 : IVec S496 1 := (cmpi .ne) main_call6_v2 main_call6_v4
  let main_call6_v6 : IVec S496 32 := (broadcastInDim S496 ![] bcast_S_S496) main_c_11
  let main_call6_v7 : IVec S496 32 := Host.remsi main_v33 main_call6_v6
  rIdx_part4 (F := F) main_v35 main_call6_v1 main_call6_v5 main_call6_v7

set_option maxHeartbeats 1000000 in
/-- Operations 25 to 36 of that stage, over the names live at their head. -/
def rIdx_part2 (main_v33 : IVec S496 32) (main_v34 : IVec S496 32) (main_call5_v2 : IVec S_ 32) (main_call5_v3 : IVec S496 32) : IVec S496x2 32 :=
  let main_call5_v4 : IVec S496 32 := Host.remsi main_v34 main_call5_v3
  let main_call5_c_1 : IVec S_ 32 := (constantI S_ 32 0#32)
  let main_call5_v5 : IVec S496 32 := (broadcastInDim S496 ![] bcast_S_S496) main_call5_c_1
  let main_call5_v6 : IVec S496 1 := (cmpi .ne) main_call5_v4 main_call5_v5
  let main_call5_c_2 : IVec S_ 32 := (constantI S_ 32 0#32)
  let main_call5_v7 : IVec S496 32 := (broadcastInDim S496 ![] bcast_S_S496) main_call5_c_2
  let main_call5_v8 : IVec S496 1 := (cmpi .slt) main_call5_v4 main_call5_v7
  let main_call5_c_3 : IVec S_ 32 := (constantI S_ 32 0#32)
  let main_call5_v9 : IVec S_ 1 := (cmpi .slt) main_call5_v2 main_call5_c_3
  let main_call5_v10 : IVec S496 1 := (broadcastInDim S496 ![] bcast_S_S496) main_call5_v9
  let main_call5_v11 : IVec S496 1 := (cmpi .ne) main_call5_v8 main_call5_v10
  let main_call5_v12 : IVec S496 1 := andi main_call5_v11 main_call5_v6
  rIdx_part3 (F := F) main_v33 main_call5_v2 main_call5_v4 main_call5_v12

set_option maxHeartbeats 1000000 in
/-- Operations 13 to 24 of that stage, over the names live at their head. -/
def rIdx_part1 (main_v33 : IVec S496 32) (main_call4_v1 : IVec S496 32) (main_call4_v5 : IVec S496 1) (main_call4_v9 : IVec S496 1) : IVec S496x2 32 :=
  let main_call4_v10 : IVec S496 1 := andi main_call4_v5 main_call4_v9
  let main_call4_c_0 : IVec S_ 32 := (constantI S_ 32 1#32)
  let main_call4_v11 : IVec S496 32 := (broadcastInDim S496 ![] bcast_S_S496) main_call4_c_0
  let main_call4_v12 : IVec S496 32 := subi main_call4_v1 main_call4_v11
  let main_v34 : IVec S496 32 := select main_call4_v10 main_call4_v12 main_call4_v1
  let main_c_10 : IVec S_ 32 := (constantI S_ 32 32#32)
  let main_call5_v0 : IVec S_ 32 := id main_c_10
  let main_call5_c : IVec S_ 32 := (constantI S_ 32 0#32)
  let main_call5_v1 : IVec S_ 1 := (cmpi .eq) main_call5_v0 main_call5_c
  let main_call5_c_0 : IVec S_ 32 := (constantI S_ 32 1#32)
  let main_call5_v2 : IVec S_ 32 := select main_call5_v1 main_call5_c_0 main_call5_v0
  let main_call5_v3 : IVec S496 32 := (broadcastInDim S496 ![] bcast_S_S496) main_call5_v2
  rIdx_part2 (F := F) main_v33 main_v34 main_call5_v2 main_call5_v3

set_option maxHeartbeats 1000000 in
/-- Row and column of each flat position, side by side. -/
def rIdx (main_v33 : IVec S496 32) : IVec S496x2 32 :=
  let main_c_9 : IVec S_ 32 := (constantI S_ 32 32#32)
  let main_call4_v0 : IVec S496 32 := (broadcastInDim S496 ![] bcast_S_S496) main_c_9
  let main_call4_v1 : IVec S496 32 := Host.divsi main_v33 main_call4_v0
  let main_call4_v2 : IVec S496 32 := signi main_v33
  let main_call4_v3 : IVec S_ 32 := signi main_c_9
  let main_call4_v4 : IVec S496 32 := (broadcastInDim S496 ![] bcast_S_S496) main_call4_v3
  let main_call4_v5 : IVec S496 1 := (cmpi .ne) main_call4_v2 main_call4_v4
  let main_call4_v6 : IVec S496 32 := (broadcastInDim S496 ![] bcast_S_S496) main_c_9
  let main_call4_v7 : IVec S496 32 := Host.remsi main_v33 main_call4_v6
  let main_call4_c : IVec S_ 32 := (constantI S_ 32 0#32)
  let main_call4_v8 : IVec S496 32 := (broadcastInDim S496 ![] bcast_S_S496) main_call4_c
  let main_call4_v9 : IVec S496 1 := (cmpi .ne) main_call4_v7 main_call4_v8
  rIdx_part1 (F := F) main_v33 main_call4_v1 main_call4_v5 main_call4_v9

/-- The table of upper-triangle index pairs, as @main computes it. -/
def rPairs : IVec S496x2 32 := rIdx (F := F) (rFlat (rBins (F := F) (rCum (rMask (F := F)))))

set_option maxHeartbeats 1000000 in
/-- The perceptron's input: the embeddings flattened, then the upper-triangle products. -/
def rH (main_v16 : FVec F S8192x32x64 .f32) (main_v17 : FVec F S8192x32x32 .f32) (main_v50 : IVec S496x2 32) : FVec F S8192x2544 .f32 :=
  let main_v51 : FVec F S8192x496 .f32 := ((fun x i => Host.gather gather_S8192x32x32_S496x2_S8192x496_0_12_n_n_12_1_819211 x i) : (⟨S8192x32x32, .f32⟩ : BufTy).Contents (Elt F) → (⟨S496x2, .i32⟩ : BufTy).Contents (Elt F) → (⟨S8192x496, .f32⟩ : BufTy).Contents (Elt F)) main_v17 main_v50
  let main_v52 : FVec F S8192x2048 .f32 := shapeCast S8192x2048 main_v16 shapeCasts_S8192x32x64_S8192x2048
  let main_v53 : FVec F S8192x2544 .f32 := ((fun a b => concatenate S8192x2544 1 [⟨S8192x2048, a⟩, ⟨S8192x496, b⟩] concatenates_S8192x2048_S8192x496_S8192x2544_d1) : (⟨S8192x2048, .f32⟩ : BufTy).Contents (Elt F) → (⟨S8192x496, .f32⟩ : BufTy).Contents (Elt F) → (⟨S8192x2544, .f32⟩ : BufTy).Contents (Elt F)) main_v52 main_v51
  main_v53

set_option maxHeartbeats 1000000 in
/-- Operations 25 to 26 of that stage, over the names live at their head. -/
def rMLP_part2 (main_v71 : FVec F S8192x1000 .f32) (main_cst_18 : FVec F S_ .f32) : FVec F S8192x1000 .f32 :=
  let main_v72 : FVec F S8192x1000 .f32 := (broadcastInDim S8192x1000 ![] bcast_S_S8192x1000 : (⟨S_, .f32⟩ : BufTy).Contents (Elt F) → (⟨S8192x1000, .f32⟩ : BufTy).Contents (Elt F)) main_cst_18
  let main_v73 : FVec F S8192x1000 .f32 := (Host.divf : (⟨S8192x1000, .f32⟩ : BufTy).Contents (Elt F) → (⟨S8192x1000, .f32⟩ : BufTy).Contents (Elt F) → (⟨S8192x1000, .f32⟩ : BufTy).Contents (Elt F)) main_v72 main_v71
  main_v73

set_option maxHeartbeats 1000000 in
/-- Operations 13 to 24 of that stage, over the names live at their head. -/
def rMLP_part1 (main_arg6 : FVec F S512x1000 .f32) (main_arg7 : FVec F S1000 .f32) (main_v62 : FVec F S8192x512 .f32) (main_call9_cst : FVec F S_ .f32) : FVec F S8192x1000 .f32 :=
  let main_call9_v0 : FVec F S8192x512 .f32 := (broadcastInDim S8192x512 ![] bcast_S_S8192x512) main_call9_cst
  let main_v63 : FVec F S8192x512 .f32 := maximumf main_v62 main_call9_v0
  let main_v64 : FVec F S8192x1000 .f32 := ((fun l r => Host.dotGeneral dot_S8192x512_S512x1000_S8192x1000_1_0_0_1_n_n none l r) : (⟨S8192x512, .f32⟩ : BufTy).Contents (Elt F) → (⟨S512x1000, .f32⟩ : BufTy).Contents (Elt F) → (⟨S8192x1000, .f32⟩ : BufTy).Contents (Elt F)) main_v63 main_arg6
  let main_v65 : FVec F S1x1000 .f32 := (broadcastInDim S1x1000 ![1] bcast_S1000_S1x1000_1 : (⟨S1000, .f32⟩ : BufTy).Contents (Elt F) → (⟨S1x1000, .f32⟩ : BufTy).Contents (Elt F)) main_arg7
  let main_v66 : FVec F S8192x1000 .f32 := (broadcastInDim S8192x1000 ![0, 1] bcast_S1x1000_S8192x1000_0_1 : (⟨S1x1000, .f32⟩ : BufTy).Contents (Elt F) → (⟨S8192x1000, .f32⟩ : BufTy).Contents (Elt F)) main_v65
  let main_v67 : FVec F S8192x1000 .f32 := (addf : (⟨S8192x1000, .f32⟩ : BufTy).Contents (Elt F) → (⟨S8192x1000, .f32⟩ : BufTy).Contents (Elt F) → (⟨S8192x1000, .f32⟩ : BufTy).Contents (Elt F)) main_v64 main_v66
  let main_v68 : FVec F S8192x1000 .f32 := (Host.negf : (⟨S8192x1000, .f32⟩ : BufTy).Contents (Elt F) → (⟨S8192x1000, .f32⟩ : BufTy).Contents (Elt F)) main_v67
  let main_v69 : FVec F S8192x1000 .f32 := (Host.exp : (⟨S8192x1000, .f32⟩ : BufTy).Contents (Elt F) → (⟨S8192x1000, .f32⟩ : BufTy).Contents (Elt F)) main_v68
  let main_cst_17 : FVec F S_ .f32 := (constant (F := F) S_ .f32 0x3F800000#32)
  let main_v70 : FVec F S8192x1000 .f32 := (broadcastInDim S8192x1000 ![] bcast_S_S8192x1000 : (⟨S_, .f32⟩ : BufTy).Contents (Elt F) → (⟨S8192x1000, .f32⟩ : BufTy).Contents (Elt F)) main_cst_17
  let main_v71 : FVec F S8192x1000 .f32 := (addf : (⟨S8192x1000, .f32⟩ : BufTy).Contents (Elt F) → (⟨S8192x1000, .f32⟩ : BufTy).Contents (Elt F) → (⟨S8192x1000, .f32⟩ : BufTy).Contents (Elt F)) main_v70 main_v69
  let main_cst_18 : FVec F S_ .f32 := (constant (F := F) S_ .f32 0x3F800000#32)
  rMLP_part2 (F := F) main_v71 main_cst_18

set_option maxHeartbeats 1000000 in
/-- The three-layer perceptron and the logistic. -/
def rMLP (main_v53 : FVec F S8192x2544 .f32) (main_arg2 : FVec F S2544x1024 .f32) (main_arg3 : FVec F S1024 .f32) (main_arg4 : FVec F S1024x512 .f32) (main_arg5 : FVec F S512 .f32) (main_arg6 : FVec F S512x1000 .f32) (main_arg7 : FVec F S1000 .f32) : FVec F S8192x1000 .f32 :=
  let main_v54 : FVec F S8192x1024 .f32 := ((fun l r => Host.dotGeneral dot_S8192x2544_S2544x1024_S8192x1024_1_0_0_1_n_n none l r) : (⟨S8192x2544, .f32⟩ : BufTy).Contents (Elt F) → (⟨S2544x1024, .f32⟩ : BufTy).Contents (Elt F) → (⟨S8192x1024, .f32⟩ : BufTy).Contents (Elt F)) main_v53 main_arg2
  let main_v55 : FVec F S1x1024 .f32 := (broadcastInDim S1x1024 ![1] bcast_S1024_S1x1024_1 : (⟨S1024, .f32⟩ : BufTy).Contents (Elt F) → (⟨S1x1024, .f32⟩ : BufTy).Contents (Elt F)) main_arg3
  let main_v56 : FVec F S8192x1024 .f32 := (broadcastInDim S8192x1024 ![0, 1] bcast_S1x1024_S8192x1024_0_1 : (⟨S1x1024, .f32⟩ : BufTy).Contents (Elt F) → (⟨S8192x1024, .f32⟩ : BufTy).Contents (Elt F)) main_v55
  let main_v57 : FVec F S8192x1024 .f32 := (addf : (⟨S8192x1024, .f32⟩ : BufTy).Contents (Elt F) → (⟨S8192x1024, .f32⟩ : BufTy).Contents (Elt F) → (⟨S8192x1024, .f32⟩ : BufTy).Contents (Elt F)) main_v54 main_v56
  let main_call8_cst : FVec F S_ .f32 := (constant (F := F) S_ .f32 0x00000000#32)
  let main_call8_v0 : FVec F S8192x1024 .f32 := (broadcastInDim S8192x1024 ![] bcast_S_S8192x1024) main_call8_cst
  let main_v58 : FVec F S8192x1024 .f32 := maximumf main_v57 main_call8_v0
  let main_v59 : FVec F S8192x512 .f32 := ((fun l r => Host.dotGeneral dot_S8192x1024_S1024x512_S8192x512_1_0_0_1_n_n none l r) : (⟨S8192x1024, .f32⟩ : BufTy).Contents (Elt F) → (⟨S1024x512, .f32⟩ : BufTy).Contents (Elt F) → (⟨S8192x512, .f32⟩ : BufTy).Contents (Elt F)) main_v58 main_arg4
  let main_v60 : FVec F S1x512 .f32 := (broadcastInDim S1x512 ![1] bcast_S512_S1x512_1 : (⟨S512, .f32⟩ : BufTy).Contents (Elt F) → (⟨S1x512, .f32⟩ : BufTy).Contents (Elt F)) main_arg5
  let main_v61 : FVec F S8192x512 .f32 := (broadcastInDim S8192x512 ![0, 1] bcast_S1x512_S8192x512_0_1 : (⟨S1x512, .f32⟩ : BufTy).Contents (Elt F) → (⟨S8192x512, .f32⟩ : BufTy).Contents (Elt F)) main_v60
  let main_v62 : FVec F S8192x512 .f32 := (addf : (⟨S8192x512, .f32⟩ : BufTy).Contents (Elt F) → (⟨S8192x512, .f32⟩ : BufTy).Contents (Elt F) → (⟨S8192x512, .f32⟩ : BufTy).Contents (Elt F)) main_v59 main_v61
  let main_call9_cst : FVec F S_ .f32 := (constant (F := F) S_ .f32 0x00000000#32)
  rMLP_part1 (F := F) main_arg6 main_arg7 main_v62 main_call9_cst

/-- @main's result as one function of its arguments. -/
def refOut (main_arg0 : IVec S8192x32 32) (main_arg1 : FVec F S32x1000x64 .f32) (main_arg2 : FVec F S2544x1024 .f32) (main_arg3 : FVec F S1024 .f32) (main_arg4 : FVec F S1024x512 .f32) (main_arg5 : FVec F S512 .f32) (main_arg6 : FVec F S512x1000 .f32) (main_arg7 : FVec F S1000 .f32) : FVec F S8192x1000 .f32 :=
  rMLP (rH (rE main_arg0 main_arg1) (rGram (rE main_arg0 main_arg1)) (rPairs (F := F))) main_arg2 main_arg3 main_arg4 main_arg5 main_arg6 main_arg7

end Cert.ReferenceIdeal.RefRun

end
-- ==== Proof.RefSegs.lean ====
import proofs.«401391_j12421045420606_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- kept folded while terms are compared: their bodies are folds over the operand's elements
attribute [local irreducible] Host.reduceWindow Host.scatter Host.gather

/-- Operations 1 to 21 of @main's list. -/
abbrev seg1 : List (HloOp τ sig (Elt F)) :=
  [ nullary main_v0 (iotaInDim S32 32 0),
    unary main_v0 main_v1 (broadcastInDim S1x32 ![1] bcast_S32_S1x32_1 : (⟨S32, .i32⟩ : BufTy).Contents (Elt F) → (⟨S1x32, .i32⟩ : BufTy).Contents (Elt F)),
    nullary main_c (constantI S_ 32 0#32),
    unary main_c main_v2 (broadcastInDim S1x32 ![] bcast_S_S1x32 : (⟨S_, .i32⟩ : BufTy).Contents (Elt F) → (⟨S1x32, .i32⟩ : BufTy).Contents (Elt F)),
    binary main_v1 main_v2 main_v3 (cmpi .slt : (⟨S1x32, .i32⟩ : BufTy).Contents (Elt F) → (⟨S1x32, .i32⟩ : BufTy).Contents (Elt F) → (⟨S1x32, .i1⟩ : BufTy).Contents (Elt F)),
    nullary main_c_0 (constantI S_ 32 32#32),
    unary main_c_0 main_v4 (broadcastInDim S1x32 ![] bcast_S_S1x32 : (⟨S_, .i32⟩ : BufTy).Contents (Elt F) → (⟨S1x32, .i32⟩ : BufTy).Contents (Elt F)),
    binary main_v1 main_v4 main_v5 (addi : (⟨S1x32, .i32⟩ : BufTy).Contents (Elt F) → (⟨S1x32, .i32⟩ : BufTy).Contents (Elt F) → (⟨S1x32, .i32⟩ : BufTy).Contents (Elt F)),
    ternary main_v3 main_v5 main_v1 main_v6 (select : (⟨S1x32, .i1⟩ : BufTy).Contents (Elt F) → (⟨S1x32, .i32⟩ : BufTy).Contents (Elt F) → (⟨S1x32, .i32⟩ : BufTy).Contents (Elt F) → (⟨S1x32, .i32⟩ : BufTy).Contents (Elt F)),
    nullary main_c_1 (constantI S_ 32 0#32),
    unary main_c_1 main_v7 (broadcastInDim S8192x32 ![] bcast_S_S8192x32 : (⟨S_, .i32⟩ : BufTy).Contents (Elt F) → (⟨S8192x32, .i32⟩ : BufTy).Contents (Elt F)),
    binary main_arg0 main_v7 main_v8 (cmpi .slt : (⟨S8192x32, .i32⟩ : BufTy).Contents (Elt F) → (⟨S8192x32, .i32⟩ : BufTy).Contents (Elt F) → (⟨S8192x32, .i1⟩ : BufTy).Contents (Elt F)),
    nullary main_c_2 (constantI S_ 32 1000#32),
    unary main_c_2 main_v9 (broadcastInDim S8192x32 ![] bcast_S_S8192x32 : (⟨S_, .i32⟩ : BufTy).Contents (Elt F) → (⟨S8192x32, .i32⟩ : BufTy).Contents (Elt F)),
    binary main_arg0 main_v9 main_v10 (addi : (⟨S8192x32, .i32⟩ : BufTy).Contents (Elt F) → (⟨S8192x32, .i32⟩ : BufTy).Contents (Elt F) → (⟨S8192x32, .i32⟩ : BufTy).Contents (Elt F)),
    ternary main_v8 main_v10 main_arg0 main_v11 (select : (⟨S8192x32, .i1⟩ : BufTy).Contents (Elt F) → (⟨S8192x32, .i32⟩ : BufTy).Contents (Elt F) → (⟨S8192x32, .i32⟩ : BufTy).Contents (Elt F) → (⟨S8192x32, .i32⟩ : BufTy).Contents (Elt F)),
    unary main_v6 main_v12 (broadcastInDim S8192x32 ![0, 1] bcast_S1x32_S8192x32_0_1 : (⟨S1x32, .i32⟩ : BufTy).Contents (Elt F) → (⟨S8192x32, .i32⟩ : BufTy).Contents (Elt F)),
    unary main_v12 main_v13 (broadcastInDim S8192x32x1 ![0, 1] bcast_S8192x32_S8192x32x1_0_1 : (⟨S8192x32, .i32⟩ : BufTy).Contents (Elt F) → (⟨S8192x32x1, .i32⟩ : BufTy).Contents (Elt F)),
    unary main_v11 main_v14 (broadcastInDim S8192x32x1 ![0, 1] bcast_S8192x32_S8192x32x1_0_1 : (⟨S8192x32, .i32⟩ : BufTy).Contents (Elt F) → (⟨S8192x32x1, .i32⟩ : BufTy).Contents (Elt F)),
    binary main_v13 main_v14 main_v15 ((fun a b => concatenate S8192x32x2 2 [⟨S8192x32x1, a⟩, ⟨S8192x32x1, b⟩] concatenates_S8192x32x1_S8192x32x1_S8192x32x2_d2) : (⟨S8192x32x1, .i32⟩ : BufTy).Contents (Elt F) → (⟨S8192x32x1, .i32⟩ : BufTy).Contents (Elt F) → (⟨S8192x32x2, .i32⟩ : BufTy).Contents (Elt F)),
    binary main_arg1 main_v15 main_v16 ((fun x i => Host.gather gather_S32x1000x64_S8192x32x2_S8192x32x64_2_01_n_n_01_2_1164 x i) : (⟨S32x1000x64, .f32⟩ : BufTy).Contents (Elt F) → (⟨S8192x32x2, .i32⟩ : BufTy).Contents (Elt F) → (⟨S8192x32x64, .f32⟩ : BufTy).Contents (Elt F)) ]

/-- Operations 22 to 22 of @main's list. -/
abbrev seg2 : List (HloOp τ sig (Elt F)) :=
  [ binary main_v16 main_v16 main_v17 ((fun l r => Host.dotGeneral dot_S8192x32x64_S8192x32x64_S8192x32x32_2_2_1_1_0_0 none l r) : (⟨S8192x32x64, .f32⟩ : BufTy).Contents (Elt F) → (⟨S8192x32x64, .f32⟩ : BufTy).Contents (Elt F) → (⟨S8192x32x32, .f32⟩ : BufTy).Contents (Elt F)) ]

/-- Operations 23 to 36 of @main's list. -/
abbrev seg3 : List (HloOp τ sig (Elt F)) :=
  [ nullary main_cst (constant S_ .f32 0x3F800000#32),
    unary main_cst main_v18 (broadcastInDim S32x32 ![] bcast_S_S32x32 : (⟨S_, .f32⟩ : BufTy).Contents (Elt F) → (⟨S32x32, .f32⟩ : BufTy).Contents (Elt F)),
    TRef.nullary main_call0.v0 (iotaInDim S32x32 32 0),
    TRef.nullary main_call0.c (constantI S_ 32 0#32),
    TRef.unary main_call0.c main_call0.v1 (broadcastInDim S32x32 ![] bcast_S_S32x32),
    TRef.binary main_call0.v0 main_call0.v1 main_call0.v2 addi,
    TRef.nullary main_call0.v3 (iotaInDim S32x32 32 1),
    TRef.binary main_call0.v2 main_call0.v3 main_call0.v4 (cmpi .sge),
    TRef.nullary main_call0.cst (constant S_ .f32 0x00000000#32),
    TRef.unary main_call0.cst main_call0.v5 (broadcastInDim S32x32 ![] bcast_S_S32x32),
    TRef.ternary main_call0.v4 main_call0.v5 (.of main_v18 : TRef sig ⟨S32x32, .f32⟩) main_call0.v6 select,
    nullary main_cst_3 (constant S_ .f32 0x00000000#32),
    unary main_cst_3 main_v20 (broadcastInDim S32x32 ![] bcast_S_S32x32 : (⟨S_, .f32⟩ : BufTy).Contents (Elt F) → (⟨S32x32, .f32⟩ : BufTy).Contents (Elt F)),
    binary main_v19 main_v20 main_v21 (cmpf .une : (⟨S32x32, .f32⟩ : BufTy).Contents (Elt F) → (⟨S32x32, .f32⟩ : BufTy).Contents (Elt F) → (⟨S32x32, .i1⟩ : BufTy).Contents (Elt F)) ]

/-- Operations 37 to 41 of @main's list. -/
abbrev seg4 : List (HloOp τ sig (Elt F)) :=
  [ TRef.reshape (.of main_v21 : TRef sig ⟨S32x32, .i1⟩) main_call1.v0 rfl shapeCasts_S32x32_S1024,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![1024] ![1] ![1023] ![0] x v reduceWindows_S1024_S1024_w1024s1p1023_0 h_S_) ]

/-- Operations 42 to 58 of @main's list. -/
abbrev seg5 : List (HloOp τ sig (Elt F)) :=
  [ nullary main_c_4 (constantI S_ 32 0#32),
    unary main_c_4 main_v23 (broadcastInDim S496 ![] bcast_S_S496 : (⟨S_, .i32⟩ : BufTy).Contents (Elt F) → (⟨S496, .i32⟩ : BufTy).Contents (Elt F)),
    nullary main_c_5 (constantI S_ 32 0#32),
    TRef.unary (.of main_c_5 : TRef sig ⟨S_, .i32⟩) main_call2.v0 id,
    TRef.unary main_call2.v0 main_call2.v1 (broadcastInDim S1024 ![] bcast_S_S1024),
    TRef.binary main_call2.v1 (.of main_v22 : TRef sig ⟨S1024, .i32⟩) main_call2.v2 maxsi,
    nullary main_c_6 (constantI S_ 32 0#32),
    unary main_c_6 main_v25 (broadcastInDim S1024 ![] bcast_S_S1024 : (⟨S_, .i32⟩ : BufTy).Contents (Elt F) → (⟨S1024, .i32⟩ : BufTy).Contents (Elt F)),
    binary main_v24 main_v25 main_v26 (cmpi .slt : (⟨S1024, .i32⟩ : BufTy).Contents (Elt F) → (⟨S1024, .i32⟩ : BufTy).Contents (Elt F) → (⟨S1024, .i1⟩ : BufTy).Contents (Elt F)),
    nullary main_c_7 (constantI S_ 32 496#32),
    unary main_c_7 main_v27 (broadcastInDim S1024 ![] bcast_S_S1024 : (⟨S_, .i32⟩ : BufTy).Contents (Elt F) → (⟨S1024, .i32⟩ : BufTy).Contents (Elt F)),
    binary main_v24 main_v27 main_v28 (addi : (⟨S1024, .i32⟩ : BufTy).Contents (Elt F) → (⟨S1024, .i32⟩ : BufTy).Contents (Elt F) → (⟨S1024, .i32⟩ : BufTy).Contents (Elt F)),
    ternary main_v26 main_v28 main_v24 main_v29 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v29 main_v30 (broadcastInDim S1024x1 ![0] bcast_S1024_S1024x1_0 : (⟨S1024, .i32⟩ : BufTy).Contents (Elt F) → (⟨S1024x1, .i32⟩ : BufTy).Contents (Elt F)),
    nullary main_c_8 (constantI S_ 32 1#32),
    unary main_c_8 main_v31 (broadcastInDim S1024 ![] bcast_S_S1024 : (⟨S_, .i32⟩ : BufTy).Contents (Elt F) → (⟨S1024, .i32⟩ : BufTy).Contents (Elt F)),
    ternary main_v23 main_v30 main_v31 main_v32 ((fun x i u => Host.scatter scatter_S496_S1024x1_S1024_n_0_0_1 IntOp.addi x i u) : (⟨S496, .i32⟩ : BufTy).Contents (Elt F) → (⟨S1024x1, .i32⟩ : BufTy).Contents (Elt F) → (⟨S1024, .i32⟩ : BufTy).Contents (Elt F) → (⟨S496, .i32⟩ : BufTy).Contents (Elt F)) ]

/-- Operations 59 to 61 of @main's list. -/
abbrev seg6 : List (HloOp τ sig (Elt F)) :=
  [ TRef.nullary main_call3.call0.c (constantI S_ 32 0#32),
    TRef.unary main_call3.call0.c main_call3.call0.v0 (broadcastInDim S_ ![] bcast_S_S_),
    TRef.binary (.of main_v32 : TRef sig ⟨S496, .i32⟩) main_call3.call0.v0 main_call3.call0.v1 (fun x v => Host.reduceWindow IntOp.addi ![496] ![1] ![495] ![0] x v reduceWindows_S496_S496_w496s1p495_0 h_S_) ]

/-- Operations 62 to 100 of @main's list. -/
abbrev seg7 : List (HloOp τ sig (Elt F)) :=
  [ nullary main_c_9 (constantI S_ 32 32#32),
    TRef.unary (.of main_c_9 : TRef sig ⟨S_, .i32⟩) main_call4.v0 (broadcastInDim S496 ![] bcast_S_S496),
    TRef.binary (.of main_v33 : TRef sig ⟨S496, .i32⟩) main_call4.v0 main_call4.v1 Host.divsi,
    TRef.unary (.of main_v33 : TRef sig ⟨S496, .i32⟩) main_call4.v2 signi,
    TRef.unary (.of main_c_9 : TRef sig ⟨S_, .i32⟩) main_call4.v3 signi,
    TRef.unary main_call4.v3 main_call4.v4 (broadcastInDim S496 ![] bcast_S_S496),
    TRef.binary main_call4.v2 main_call4.v4 main_call4.v5 (cmpi .ne),
    TRef.unary (.of main_c_9 : TRef sig ⟨S_, .i32⟩) main_call4.v6 (broadcastInDim S496 ![] bcast_S_S496),
    TRef.binary (.of main_v33 : TRef sig ⟨S496, .i32⟩) main_call4.v6 main_call4.v7 Host.remsi,
    TRef.nullary main_call4.c (constantI S_ 32 0#32),
    TRef.unary main_call4.c main_call4.v8 (broadcastInDim S496 ![] bcast_S_S496),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S496 ![] bcast_S_S496),
    TRef.binary main_call4.v1 main_call4.v11 main_call4.v12 subi,
    TRef.ternary main_call4.v10 main_call4.v12 main_call4.v1 main_call4.call0.v0 select,
    nullary main_c_10 (constantI S_ 32 32#32),
    TRef.unary (.of main_c_10 : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S496 ![] bcast_S_S496),
    TRef.binary (.of main_v34 : TRef sig ⟨S496, .i32⟩) main_call5.v3 main_call5.v4 Host.remsi,
    TRef.nullary main_call5.c_1 (constantI S_ 32 0#32),
    TRef.unary main_call5.c_1 main_call5.v5 (broadcastInDim S496 ![] bcast_S_S496),
    TRef.binary main_call5.v4 main_call5.v5 main_call5.v6 (cmpi .ne),
    TRef.nullary main_call5.c_2 (constantI S_ 32 0#32),
    TRef.unary main_call5.c_2 main_call5.v7 (broadcastInDim S496 ![] bcast_S_S496),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S496 ![] bcast_S_S496),
    TRef.binary main_call5.v8 main_call5.v10 main_call5.v11 (cmpi .ne),
    TRef.binary main_call5.v11 main_call5.v6 main_call5.v12 andi,
    TRef.unary main_call5.call0.v0 main_call5.v13 (broadcastInDim S496 ![] bcast_S_S496),
    TRef.binary main_call5.v4 main_call5.v13 main_call5.v14 addi,
    TRef.ternary main_call5.v12 main_call5.v14 main_call5.v4 main_call5.v15 select ]

/-- Operations 101 to 139 of @main's list. -/
abbrev seg8 : List (HloOp τ sig (Elt F)) :=
  [ nullary main_c_11 (constantI S_ 32 1#32),
    TRef.unary (.of main_c_11 : TRef sig ⟨S_, .i32⟩) main_call6.v0 (broadcastInDim S496 ![] bcast_S_S496),
    TRef.binary (.of main_v33 : TRef sig ⟨S496, .i32⟩) main_call6.v0 main_call6.v1 Host.divsi,
    TRef.unary (.of main_v33 : TRef sig ⟨S496, .i32⟩) main_call6.v2 signi,
    TRef.unary (.of main_c_11 : TRef sig ⟨S_, .i32⟩) main_call6.v3 signi,
    TRef.unary main_call6.v3 main_call6.v4 (broadcastInDim S496 ![] bcast_S_S496),
    TRef.binary main_call6.v2 main_call6.v4 main_call6.v5 (cmpi .ne),
    TRef.unary (.of main_c_11 : TRef sig ⟨S_, .i32⟩) main_call6.v6 (broadcastInDim S496 ![] bcast_S_S496),
    TRef.binary (.of main_v33 : TRef sig ⟨S496, .i32⟩) main_call6.v6 main_call6.v7 Host.remsi,
    TRef.nullary main_call6.c (constantI S_ 32 0#32),
    TRef.unary main_call6.c main_call6.v8 (broadcastInDim S496 ![] bcast_S_S496),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S496 ![] bcast_S_S496),
    TRef.binary main_call6.v1 main_call6.v11 main_call6.v12 subi,
    TRef.ternary main_call6.v10 main_call6.v12 main_call6.v1 main_call6.call0.v0 select,
    nullary main_c_12 (constantI S_ 32 32#32),
    TRef.unary (.of main_c_12 : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S496 ![] bcast_S_S496),
    TRef.binary (.of main_v36 : TRef sig ⟨S496, .i32⟩) main_call7.v3 main_call7.v4 Host.remsi,
    TRef.nullary main_call7.c_1 (constantI S_ 32 0#32),
    TRef.unary main_call7.c_1 main_call7.v5 (broadcastInDim S496 ![] bcast_S_S496),
    TRef.binary main_call7.v4 main_call7.v5 main_call7.v6 (cmpi .ne),
    TRef.nullary main_call7.c_2 (constantI S_ 32 0#32),
    TRef.unary main_call7.c_2 main_call7.v7 (broadcastInDim S496 ![] bcast_S_S496),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S496 ![] bcast_S_S496),
    TRef.binary main_call7.v8 main_call7.v10 main_call7.v11 (cmpi .ne),
    TRef.binary main_call7.v11 main_call7.v6 main_call7.v12 andi,
    TRef.unary main_call7.call0.v0 main_call7.v13 (broadcastInDim S496 ![] bcast_S_S496),
    TRef.binary main_call7.v4 main_call7.v13 main_call7.v14 addi,
    TRef.ternary main_call7.v12 main_call7.v14 main_call7.v4 main_call7.v15 select ]

/-- Operations 140 to 155 of @main's list. -/
abbrev seg9a : List (HloOp τ sig (Elt F)) :=
  [ nullary main_c_13 (constantI S_ 32 0#32),
    unary main_c_13 main_v38 (broadcastInDim S496 ![] bcast_S_S496 : (⟨S_, .i32⟩ : BufTy).Contents (Elt F) → (⟨S496, .i32⟩ : BufTy).Contents (Elt F)),
    binary main_v35 main_v38 main_v39 (cmpi .slt : (⟨S496, .i32⟩ : BufTy).Contents (Elt F) → (⟨S496, .i32⟩ : BufTy).Contents (Elt F) → (⟨S496, .i1⟩ : BufTy).Contents (Elt F)),
    nullary main_c_14 (constantI S_ 32 32#32),
    unary main_c_14 main_v40 (broadcastInDim S496 ![] bcast_S_S496 : (⟨S_, .i32⟩ : BufTy).Contents (Elt F) → (⟨S496, .i32⟩ : BufTy).Contents (Elt F)),
    binary main_v35 main_v40 main_v41 (addi : (⟨S496, .i32⟩ : BufTy).Contents (Elt F) → (⟨S496, .i32⟩ : BufTy).Contents (Elt F) → (⟨S496, .i32⟩ : BufTy).Contents (Elt F)),
    ternary main_v39 main_v41 main_v35 main_v42 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    nullary main_c_15 (constantI S_ 32 0#32),
    unary main_c_15 main_v43 (broadcastInDim S496 ![] bcast_S_S496 : (⟨S_, .i32⟩ : BufTy).Contents (Elt F) → (⟨S496, .i32⟩ : BufTy).Contents (Elt F)),
    binary main_v37 main_v43 main_v44 (cmpi .slt : (⟨S496, .i32⟩ : BufTy).Contents (Elt F) → (⟨S496, .i32⟩ : BufTy).Contents (Elt F) → (⟨S496, .i1⟩ : BufTy).Contents (Elt F)),
    nullary main_c_16 (constantI S_ 32 32#32),
    unary main_c_16 main_v45 (broadcastInDim S496 ![] bcast_S_S496 : (⟨S_, .i32⟩ : BufTy).Contents (Elt F) → (⟨S496, .i32⟩ : BufTy).Contents (Elt F)),
    binary main_v37 main_v45 main_v46 (addi : (⟨S496, .i32⟩ : BufTy).Contents (Elt F) → (⟨S496, .i32⟩ : BufTy).Contents (Elt F) → (⟨S496, .i32⟩ : BufTy).Contents (Elt F)),
    ternary main_v44 main_v46 main_v37 main_v47 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    unary main_v42 main_v48 (broadcastInDim S496x1 ![0] bcast_S496_S496x1_0 : (⟨S496, .i32⟩ : BufTy).Contents (Elt F) → (⟨S496x1, .i32⟩ : BufTy).Contents (Elt F)),
    unary main_v47 main_v49 (broadcastInDim S496x1 ![0] bcast_S496_S496x1_0 : (⟨S496, .i32⟩ : BufTy).Contents (Elt F) → (⟨S496x1, .i32⟩ : BufTy).Contents (Elt F)) ]

/-- Operations 140 to 156 of @main's list: the ones above, then a concatenate. -/
abbrev seg9 : List (HloOp τ sig (Elt F)) :=
  seg9a ++ [binary main_v48 main_v49 main_v50 ((fun a b => concatenate S496x2 1 [⟨S496x1, a⟩, ⟨S496x1, b⟩] concatenates_S496x1_S496x1_S496x2_d1) : (⟨S496x1, .i32⟩ : BufTy).Contents (Elt F) → (⟨S496x1, .i32⟩ : BufTy).Contents (Elt F) → (⟨S496x2, .i32⟩ : BufTy).Contents (Elt F))]

/-- Operations 157 to 158 of @main's list. -/
abbrev seg10a : List (HloOp τ sig (Elt F)) :=
  [ binary main_v17 main_v50 main_v51 ((fun x i => Host.gather gather_S8192x32x32_S496x2_S8192x496_0_12_n_n_12_1_819211 x i) : (⟨S8192x32x32, .f32⟩ : BufTy).Contents (Elt F) → (⟨S496x2, .i32⟩ : BufTy).Contents (Elt F) → (⟨S8192x496, .f32⟩ : BufTy).Contents (Elt F)),
    reshape main_v16 main_v52 rfl shapeCasts_S8192x32x64_S8192x2048 ]

/-- Operations 157 to 159 of @main's list: the ones above, then a concatenate. -/
abbrev seg10 : List (HloOp τ sig (Elt F)) :=
  seg10a ++ [binary main_v52 main_v51 main_v53 ((fun a b => concatenate S8192x2544 1 [⟨S8192x2048, a⟩, ⟨S8192x496, b⟩] concatenates_S8192x2048_S8192x496_S8192x2544_d1) : (⟨S8192x2048, .f32⟩ : BufTy).Contents (Elt F) → (⟨S8192x496, .f32⟩ : BufTy).Contents (Elt F) → (⟨S8192x2544, .f32⟩ : BufTy).Contents (Elt F))]

/-- Operations 160 to 185 of @main's list. -/
abbrev seg11 : List (HloOp τ sig (Elt F)) :=
  [ binary main_v53 main_arg2 main_v54 ((fun l r => Host.dotGeneral dot_S8192x2544_S2544x1024_S8192x1024_1_0_0_1_n_n none l r) : (⟨S8192x2544, .f32⟩ : BufTy).Contents (Elt F) → (⟨S2544x1024, .f32⟩ : BufTy).Contents (Elt F) → (⟨S8192x1024, .f32⟩ : BufTy).Contents (Elt F)),
    unary main_arg3 main_v55 (broadcastInDim S1x1024 ![1] bcast_S1024_S1x1024_1 : (⟨S1024, .f32⟩ : BufTy).Contents (Elt F) → (⟨S1x1024, .f32⟩ : BufTy).Contents (Elt F)),
    unary main_v55 main_v56 (broadcastInDim S8192x1024 ![0, 1] bcast_S1x1024_S8192x1024_0_1 : (⟨S1x1024, .f32⟩ : BufTy).Contents (Elt F) → (⟨S8192x1024, .f32⟩ : BufTy).Contents (Elt F)),
    binary main_v54 main_v56 main_v57 (addf : (⟨S8192x1024, .f32⟩ : BufTy).Contents (Elt F) → (⟨S8192x1024, .f32⟩ : BufTy).Contents (Elt F) → (⟨S8192x1024, .f32⟩ : BufTy).Contents (Elt F)),
    TRef.nullary main_call8.cst (constant S_ .f32 0x00000000#32),
    TRef.unary main_call8.cst main_call8.v0 (broadcastInDim S8192x1024 ![] bcast_S_S8192x1024),
    TRef.binary (.of main_v57 : TRef sig ⟨S8192x1024, .f32⟩) main_call8.v0 main_call8.v1 maximumf,
    binary main_v58 main_arg4 main_v59 ((fun l r => Host.dotGeneral dot_S8192x1024_S1024x512_S8192x512_1_0_0_1_n_n none l r) : (⟨S8192x1024, .f32⟩ : BufTy).Contents (Elt F) → (⟨S1024x512, .f32⟩ : BufTy).Contents (Elt F) → (⟨S8192x512, .f32⟩ : BufTy).Contents (Elt F)),
    unary main_arg5 main_v60 (broadcastInDim S1x512 ![1] bcast_S512_S1x512_1 : (⟨S512, .f32⟩ : BufTy).Contents (Elt F) → (⟨S1x512, .f32⟩ : BufTy).Contents (Elt F)),
    unary main_v60 main_v61 (broadcastInDim S8192x512 ![0, 1] bcast_S1x512_S8192x512_0_1 : (⟨S1x512, .f32⟩ : BufTy).Contents (Elt F) → (⟨S8192x512, .f32⟩ : BufTy).Contents (Elt F)),
    binary main_v59 main_v61 main_v62 (addf : (⟨S8192x512, .f32⟩ : BufTy).Contents (Elt F) → (⟨S8192x512, .f32⟩ : BufTy).Contents (Elt F) → (⟨S8192x512, .f32⟩ : BufTy).Contents (Elt F)),
    TRef.nullary main_call9.cst (constant S_ .f32 0x00000000#32),
    TRef.unary main_call9.cst main_call9.v0 (broadcastInDim S8192x512 ![] bcast_S_S8192x512),
    TRef.binary (.of main_v62 : TRef sig ⟨S8192x512, .f32⟩) main_call9.v0 main_call9.v1 maximumf,
    binary main_v63 main_arg6 main_v64 ((fun l r => Host.dotGeneral dot_S8192x512_S512x1000_S8192x1000_1_0_0_1_n_n none l r) : (⟨S8192x512, .f32⟩ : BufTy).Contents (Elt F) → (⟨S512x1000, .f32⟩ : BufTy).Contents (Elt F) → (⟨S8192x1000, .f32⟩ : BufTy).Contents (Elt F)),
    unary main_arg7 main_v65 (broadcastInDim S1x1000 ![1] bcast_S1000_S1x1000_1 : (⟨S1000, .f32⟩ : BufTy).Contents (Elt F) → (⟨S1x1000, .f32⟩ : BufTy).Contents (Elt F)),
    unary main_v65 main_v66 (broadcastInDim S8192x1000 ![0, 1] bcast_S1x1000_S8192x1000_0_1 : (⟨S1x1000, .f32⟩ : BufTy).Contents (Elt F) → (⟨S8192x1000, .f32⟩ : BufTy).Contents (Elt F)),
    binary main_v64 main_v66 main_v67 (addf : (⟨S8192x1000, .f32⟩ : BufTy).Contents (Elt F) → (⟨S8192x1000, .f32⟩ : BufTy).Contents (Elt F) → (⟨S8192x1000, .f32⟩ : BufTy).Contents (Elt F)),
    unary main_v67 main_v68 (Host.negf : (⟨S8192x1000, .f32⟩ : BufTy).Contents (Elt F) → (⟨S8192x1000, .f32⟩ : BufTy).Contents (Elt F)),
    unary main_v68 main_v69 (Host.exp : (⟨S8192x1000, .f32⟩ : BufTy).Contents (Elt F) → (⟨S8192x1000, .f32⟩ : BufTy).Contents (Elt F)),
    nullary main_cst_17 (constant S_ .f32 0x3F800000#32),
    unary main_cst_17 main_v70 (broadcastInDim S8192x1000 ![] bcast_S_S8192x1000 : (⟨S_, .f32⟩ : BufTy).Contents (Elt F) → (⟨S8192x1000, .f32⟩ : BufTy).Contents (Elt F)),
    binary main_v70 main_v69 main_v71 (addf : (⟨S8192x1000, .f32⟩ : BufTy).Contents (Elt F) → (⟨S8192x1000, .f32⟩ : BufTy).Contents (Elt F) → (⟨S8192x1000, .f32⟩ : BufTy).Contents (Elt F)),
    nullary main_cst_18 (constant S_ .f32 0x3F800000#32),
    unary main_cst_18 main_v72 (broadcastInDim S8192x1000 ![] bcast_S_S8192x1000 : (⟨S_, .f32⟩ : BufTy).Contents (Elt F) → (⟨S8192x1000, .f32⟩ : BufTy).Contents (Elt F)),
    binary main_v72 main_v71 main_v73 (Host.divf : (⟨S8192x1000, .f32⟩ : BufTy).Contents (Elt F) → (⟨S8192x1000, .f32⟩ : BufTy).Contents (Elt F) → (⟨S8192x1000, .f32⟩ : BufTy).Contents (Elt F)) ]

/-- The list is its segments in order. -/
theorem ops_split : (ops : List (HloOp τ sig (Elt F))) = seg1 ++ (seg2 ++ (seg3 ++ (seg4 ++ (seg5 ++ (seg6 ++ (seg7 ++ (seg8 ++ (seg9 ++ (seg10 ++ (seg11)))))))))) := rfl

theorem after_append (l₁ l₂ : List (HloOp τ sig (Elt F))) (V : Valuation τ sig (Elt F)) : after (l₁ ++ l₂) V = after l₂ (after l₁ V) := by
  induction l₁ generalizing V with
  | nil => rfl
  | cons op l ih => simp only [List.cons_append, after_cons, ih]

/-- A list that ends in a two-operand operation, read at that operation's result: its function of what the list before it leaves in the two operands. -/
theorem after_snoc_binary {a b y : Ref sig .tc} (f : a.ty.Contents (Elt F) → b.ty.Contents (Elt F) → y.ty.Contents (Elt F)) (ha hb hy)
    (l : List (HloOp τ sig (Elt F))) (W : Valuation τ sig (Elt F)) {A : a.ty.Contents (Elt F)} {B : b.ty.Contents (Elt F)}
    (hA : after l W (Proc.devRef .tc a) = A) (hB : after l W (Proc.devRef .tc b) = B) :
    after (l ++ [binary a b y f ha hb hy]) W (no_index (Proc.devRef .tc y)) = f A B := by
  rw [after_append, after_cons, after_nil, binary_result, hA, hB]

set_option maxHeartbeats 1000000 in
/-- Operations 37 to 39 of that piece, over the names live at their head. -/
def rRow_part3 (main_call5_v2 : IVec S_ 32) (main_call5_v4 : IVec S496 32) (main_call5_v12 : IVec S496 1) : IVec S496 32 :=
  let main_call5_v13 : IVec S496 32 := (broadcastInDim S496 ![] bcast_S_S496) main_call5_v2
  let main_call5_v14 : IVec S496 32 := addi main_call5_v4 main_call5_v13
  let main_v35 : IVec S496 32 := select main_call5_v12 main_call5_v14 main_call5_v4
  main_v35

set_option maxHeartbeats 1000000 in
/-- Operations 25 to 36 of that piece, over the names live at their head. -/
def rRow_part2 (main_v34 : IVec S496 32) (main_call5_v2 : IVec S_ 32) (main_call5_v3 : IVec S496 32) : IVec S496 32 :=
  let main_call5_v4 : IVec S496 32 := Host.remsi main_v34 main_call5_v3
  let main_call5_c_1 : IVec S_ 32 := (constantI S_ 32 0#32)
  let main_call5_v5 : IVec S496 32 := (broadcastInDim S496 ![] bcast_S_S496) main_call5_c_1
  let main_call5_v6 : IVec S496 1 := (cmpi .ne) main_call5_v4 main_call5_v5
  let main_call5_c_2 : IVec S_ 32 := (constantI S_ 32 0#32)
  let main_call5_v7 : IVec S496 32 := (broadcastInDim S496 ![] bcast_S_S496) main_call5_c_2
  let main_call5_v8 : IVec S496 1 := (cmpi .slt) main_call5_v4 main_call5_v7
  let main_call5_c_3 : IVec S_ 32 := (constantI S_ 32 0#32)
  let main_call5_v9 : IVec S_ 1 := (cmpi .slt) main_call5_v2 main_call5_c_3
  let main_call5_v10 : IVec S496 1 := (broadcastInDim S496 ![] bcast_S_S496) main_call5_v9
  let main_call5_v11 : IVec S496 1 := (cmpi .ne) main_call5_v8 main_call5_v10
  let main_call5_v12 : IVec S496 1 := andi main_call5_v11 main_call5_v6
  rRow_part3 main_call5_v2 main_call5_v4 main_call5_v12

set_option maxHeartbeats 1000000 in
/-- Operations 13 to 24 of that piece, over the names live at their head. -/
def rRow_part1 (main_call4_v1 : IVec S496 32) (main_call4_v5 : IVec S496 1) (main_call4_v9 : IVec S496 1) : IVec S496 32 :=
  let main_call4_v10 : IVec S496 1 := andi main_call4_v5 main_call4_v9
  let main_call4_c_0 : IVec S_ 32 := (constantI S_ 32 1#32)
  let main_call4_v11 : IVec S496 32 := (broadcastInDim S496 ![] bcast_S_S496) main_call4_c_0
  let main_call4_v12 : IVec S496 32 := subi main_call4_v1 main_call4_v11
  let main_v34 : IVec S496 32 := select main_call4_v10 main_call4_v12 main_call4_v1
  let main_c_10 : IVec S_ 32 := (constantI S_ 32 32#32)
  let main_call5_v0 : IVec S_ 32 := id main_c_10
  let main_call5_c : IVec S_ 32 := (constantI S_ 32 0#32)
  let main_call5_v1 : IVec S_ 1 := (cmpi .eq) main_call5_v0 main_call5_c
  let main_call5_c_0 : IVec S_ 32 := (constantI S_ 32 1#32)
  let main_call5_v2 : IVec S_ 32 := select main_call5_v1 main_call5_c_0 main_call5_v0
  let main_call5_v3 : IVec S496 32 := (broadcastInDim S496 ![] bcast_S_S496) main_call5_v2
  rRow_part2 main_v34 main_call5_v2 main_call5_v3

set_option maxHeartbeats 1000000 in
/-- The row of each flat position: floor-divide by 32, then the remainder by 32. -/
def rRow (main_v33 : IVec S496 32) : IVec S496 32 :=
  let main_c_9 : IVec S_ 32 := (constantI S_ 32 32#32)
  let main_call4_v0 : IVec S496 32 := (broadcastInDim S496 ![] bcast_S_S496) main_c_9
  let main_call4_v1 : IVec S496 32 := Host.divsi main_v33 main_call4_v0
  let main_call4_v2 : IVec S496 32 := signi main_v33
  let main_call4_v3 : IVec S_ 32 := signi main_c_9
  let main_call4_v4 : IVec S496 32 := (broadcastInDim S496 ![] bcast_S_S496) main_call4_v3
  let main_call4_v5 : IVec S496 1 := (cmpi .ne) main_call4_v2 main_call4_v4
  let main_call4_v6 : IVec S496 32 := (broadcastInDim S496 ![] bcast_S_S496) main_c_9
  let main_call4_v7 : IVec S496 32 := Host.remsi main_v33 main_call4_v6
  let main_call4_c : IVec S_ 32 := (constantI S_ 32 0#32)
  let main_call4_v8 : IVec S496 32 := (broadcastInDim S496 ![] bcast_S_S496) main_call4_c
  let main_call4_v9 : IVec S496 1 := (cmpi .ne) main_call4_v7 main_call4_v8
  rRow_part1 main_call4_v1 main_call4_v5 main_call4_v9

set_option maxHeartbeats 1000000 in
/-- Operations 37 to 39 of that piece, over the names live at their head. -/
def rCol_part3 (main_call7_v2 : IVec S_ 32) (main_call7_v4 : IVec S496 32) (main_call7_v12 : IVec S496 1) : IVec S496 32 :=
  let main_call7_v13 : IVec S496 32 := (broadcastInDim S496 ![] bcast_S_S496) main_call7_v2
  let main_call7_v14 : IVec S496 32 := addi main_call7_v4 main_call7_v13
  let main_v37 : IVec S496 32 := select main_call7_v12 main_call7_v14 main_call7_v4
  main_v37

set_option maxHeartbeats 1000000 in
/-- Operations 25 to 36 of that piece, over the names live at their head. -/
def rCol_part2 (main_v36 : IVec S496 32) (main_call7_v2 : IVec S_ 32) (main_call7_v3 : IVec S496 32) : IVec S496 32 :=
  let main_call7_v4 : IVec S496 32 := Host.remsi main_v36 main_call7_v3
  let main_call7_c_1 : IVec S_ 32 := (constantI S_ 32 0#32)
  let main_call7_v5 : IVec S496 32 := (broadcastInDim S496 ![] bcast_S_S496) main_call7_c_1
  let main_call7_v6 : IVec S496 1 := (cmpi .ne) main_call7_v4 main_call7_v5
  let main_call7_c_2 : IVec S_ 32 := (constantI S_ 32 0#32)
  let main_call7_v7 : IVec S496 32 := (broadcastInDim S496 ![] bcast_S_S496) main_call7_c_2
  let main_call7_v8 : IVec S496 1 := (cmpi .slt) main_call7_v4 main_call7_v7
  let main_call7_c_3 : IVec S_ 32 := (constantI S_ 32 0#32)
  let main_call7_v9 : IVec S_ 1 := (cmpi .slt) main_call7_v2 main_call7_c_3
  let main_call7_v10 : IVec S496 1 := (broadcastInDim S496 ![] bcast_S_S496) main_call7_v9
  let main_call7_v11 : IVec S496 1 := (cmpi .ne) main_call7_v8 main_call7_v10
  let main_call7_v12 : IVec S496 1 := andi main_call7_v11 main_call7_v6
  rCol_part3 main_call7_v2 main_call7_v4 main_call7_v12

set_option maxHeartbeats 1000000 in
/-- Operations 13 to 24 of that piece, over the names live at their head. -/
def rCol_part1 (main_call6_v1 : IVec S496 32) (main_call6_v5 : IVec S496 1) (main_call6_v9 : IVec S496 1) : IVec S496 32 :=
  let main_call6_v10 : IVec S496 1 := andi main_call6_v5 main_call6_v9
  let main_call6_c_0 : IVec S_ 32 := (constantI S_ 32 1#32)
  let main_call6_v11 : IVec S496 32 := (broadcastInDim S496 ![] bcast_S_S496) main_call6_c_0
  let main_call6_v12 : IVec S496 32 := subi main_call6_v1 main_call6_v11
  let main_v36 : IVec S496 32 := select main_call6_v10 main_call6_v12 main_call6_v1
  let main_c_12 : IVec S_ 32 := (constantI S_ 32 32#32)
  let main_call7_v0 : IVec S_ 32 := id main_c_12
  let main_call7_c : IVec S_ 32 := (constantI S_ 32 0#32)
  let main_call7_v1 : IVec S_ 1 := (cmpi .eq) main_call7_v0 main_call7_c
  let main_call7_c_0 : IVec S_ 32 := (constantI S_ 32 1#32)
  let main_call7_v2 : IVec S_ 32 := select main_call7_v1 main_call7_c_0 main_call7_v0
  let main_call7_v3 : IVec S496 32 := (broadcastInDim S496 ![] bcast_S_S496) main_call7_v2
  rCol_part2 main_v36 main_call7_v2 main_call7_v3

set_option maxHeartbeats 1000000 in
/-- The column of each flat position: floor-divide by 1, then the remainder by 32. -/
def rCol (main_v33 : IVec S496 32) : IVec S496 32 :=
  let main_c_11 : IVec S_ 32 := (constantI S_ 32 1#32)
  let main_call6_v0 : IVec S496 32 := (broadcastInDim S496 ![] bcast_S_S496) main_c_11
  let main_call6_v1 : IVec S496 32 := Host.divsi main_v33 main_call6_v0
  let main_call6_v2 : IVec S496 32 := signi main_v33
  let main_call6_v3 : IVec S_ 32 := signi main_c_11
  let main_call6_v4 : IVec S496 32 := (broadcastInDim S496 ![] bcast_S_S496) main_call6_v3
  let main_call6_v5 : IVec S496 1 := (cmpi .ne) main_call6_v2 main_call6_v4
  let main_call6_v6 : IVec S496 32 := (broadcastInDim S496 ![] bcast_S_S496) main_c_11
  let main_call6_v7 : IVec S496 32 := Host.remsi main_v33 main_call6_v6
  let main_call6_c : IVec S_ 32 := (constantI S_ 32 0#32)
  let main_call6_v8 : IVec S496 32 := (broadcastInDim S496 ![] bcast_S_S496) main_call6_c
  let main_call6_v9 : IVec S496 1 := (cmpi .ne) main_call6_v7 main_call6_v8
  rCol_part1 main_call6_v1 main_call6_v5 main_call6_v9

set_option maxHeartbeats 1000000 in
/-- Operations 13 to 17 of that piece, over the names live at their head. -/
def rJoin_part1 (main_v37 : IVec S496 32) (main_v42 : IVec S496 32) (main_v44 : IVec S496 1) (main_v45 : IVec S496 32) : IVec S496x2 32 :=
  let main_v46 : IVec S496 32 := (addi : (⟨S496, .i32⟩ : BufTy).Contents (Elt F) → (⟨S496, .i32⟩ : BufTy).Contents (Elt F) → (⟨S496, .i32⟩ : BufTy).Contents (Elt F)) main_v37 main_v45
  let main_v47 : IVec S496 32 := (select : (⟨S496, .i1⟩ : BufTy).Contents (Elt F) → (⟨S496, .i32⟩ : BufTy).Contents (Elt F) → (⟨S496, .i32⟩ : BufTy).Contents (Elt F) → (⟨S496, .i32⟩ : BufTy).Contents (Elt F)) main_v44 main_v46 main_v37
  let main_v48 : IVec S496x1 32 := (broadcastInDim S496x1 ![0] bcast_S496_S496x1_0 : (⟨S496, .i32⟩ : BufTy).Contents (Elt F) → (⟨S496x1, .i32⟩ : BufTy).Contents (Elt F)) main_v42
  let main_v49 : IVec S496x1 32 := (broadcastInDim S496x1 ![0] bcast_S496_S496x1_0 : (⟨S496, .i32⟩ : BufTy).Contents (Elt F) → (⟨S496x1, .i32⟩ : BufTy).Contents (Elt F)) main_v47
  let main_v50 : IVec S496x2 32 := ((fun a b => concatenate S496x2 1 [⟨S496x1, a⟩, ⟨S496x1, b⟩] concatenates_S496x1_S496x1_S496x2_d1) : (⟨S496x1, .i32⟩ : BufTy).Contents (Elt F) → (⟨S496x1, .i32⟩ : BufTy).Contents (Elt F) → (⟨S496x2, .i32⟩ : BufTy).Contents (Elt F)) main_v48 main_v49
  main_v50

set_option maxHeartbeats 1000000 in
/-- Row and column, negatives wrapped, side by side. -/
def rJoin (main_v35 : IVec S496 32) (main_v37 : IVec S496 32) : IVec S496x2 32 :=
  let main_c_13 : IVec S_ 32 := (constantI S_ 32 0#32)
  let main_v38 : IVec S496 32 := (broadcastInDim S496 ![] bcast_S_S496 : (⟨S_, .i32⟩ : BufTy).Contents (Elt F) → (⟨S496, .i32⟩ : BufTy).Contents (Elt F)) main_c_13
  let main_v39 : IVec S496 1 := (cmpi .slt : (⟨S496, .i32⟩ : BufTy).Contents (Elt F) → (⟨S496, .i32⟩ : BufTy).Contents (Elt F) → (⟨S496, .i1⟩ : BufTy).Contents (Elt F)) main_v35 main_v38
  let main_c_14 : IVec S_ 32 := (constantI S_ 32 32#32)
  let main_v40 : IVec S496 32 := (broadcastInDim S496 ![] bcast_S_S496 : (⟨S_, .i32⟩ : BufTy).Contents (Elt F) → (⟨S496, .i32⟩ : BufTy).Contents (Elt F)) main_c_14
  let main_v41 : IVec S496 32 := (addi : (⟨S496, .i32⟩ : BufTy).Contents (Elt F) → (⟨S496, .i32⟩ : BufTy).Contents (Elt F) → (⟨S496, .i32⟩ : BufTy).Contents (Elt F)) main_v35 main_v40
  let main_v42 : IVec S496 32 := (select : (⟨S496, .i1⟩ : BufTy).Contents (Elt F) → (⟨S496, .i32⟩ : BufTy).Contents (Elt F) → (⟨S496, .i32⟩ : BufTy).Contents (Elt F) → (⟨S496, .i32⟩ : BufTy).Contents (Elt F)) main_v39 main_v41 main_v35
  let main_c_15 : IVec S_ 32 := (constantI S_ 32 0#32)
  let main_v43 : IVec S496 32 := (broadcastInDim S496 ![] bcast_S_S496 : (⟨S_, .i32⟩ : BufTy).Contents (Elt F) → (⟨S496, .i32⟩ : BufTy).Contents (Elt F)) main_c_15
  let main_v44 : IVec S496 1 := (cmpi .slt : (⟨S496, .i32⟩ : BufTy).Contents (Elt F) → (⟨S496, .i32⟩ : BufTy).Contents (Elt F) → (⟨S496, .i1⟩ : BufTy).Contents (Elt F)) main_v37 main_v43
  let main_c_16 : IVec S_ 32 := (constantI S_ 32 32#32)
  let main_v45 : IVec S496 32 := (broadcastInDim S496 ![] bcast_S_S496 : (⟨S_, .i32⟩ : BufTy).Contents (Elt F) → (⟨S496, .i32⟩ : BufTy).Contents (Elt F)) main_c_16
  rJoin_part1 (F := F) main_v37 main_v42 main_v44 main_v45

set_option maxRecDepth 65536 in
set_option maxHeartbeats 4000000 in
/-- The row-and-column stage is its three pieces. -/
theorem rIdx_eq (main_v33 : IVec S496 32) : rIdx (F := F) main_v33 = rJoin (F := F) (rRow main_v33) (rCol main_v33) := rfl

/-- The buffers' contents before any operation. -/
abbrev val0 (V : Valuation τ sig (Elt F)) : Valuation τ sig (Elt F) := V
/-- The buffers' contents after the first 1 segments. -/
def val1 (V : Valuation τ sig (Elt F)) : Valuation τ sig (Elt F) := after seg1 (val0 V)
/-- The buffers' contents after the first 2 segments. -/
def val2 (V : Valuation τ sig (Elt F)) : Valuation τ sig (Elt F) := after seg2 (val1 V)
/-- The buffers' contents after the first 3 segments. -/
def val3 (V : Valuation τ sig (Elt F)) : Valuation τ sig (Elt F) := after seg3 (val2 V)
/-- The buffers' contents after the first 4 segments. -/
def val4 (V : Valuation τ sig (Elt F)) : Valuation τ sig (Elt F) := after seg4 (val3 V)
/-- The buffers' contents after the first 5 segments. -/
def val5 (V : Valuation τ sig (Elt F)) : Valuation τ sig (Elt F) := after seg5 (val4 V)
/-- The buffers' contents after the first 6 segments. -/
def val6 (V : Valuation τ sig (Elt F)) : Valuation τ sig (Elt F) := after seg6 (val5 V)
/-- The buffers' contents after the first 7 segments. -/
def val7 (V : Valuation τ sig (Elt F)) : Valuation τ sig (Elt F) := after seg7 (val6 V)
/-- The buffers' contents after the first 8 segments. -/
def val8 (V : Valuation τ sig (Elt F)) : Valuation τ sig (Elt F) := after seg8 (val7 V)
/-- The buffers' contents after the first 9 segments. -/
def val9 (V : Valuation τ sig (Elt F)) : Valuation τ sig (Elt F) := after seg9 (val8 V)
/-- The buffers' contents after the first 10 segments. -/
def val10 (V : Valuation τ sig (Elt F)) : Valuation τ sig (Elt F) := after seg10 (val9 V)
/-- The buffers' contents after the first 11 segments. -/
def val11 (V : Valuation τ sig (Elt F)) : Valuation τ sig (Elt F) := after seg11 (val10 V)

theorem after_ops (V : Valuation τ sig (Elt F)) : after ops V = val11 V := by
  rw [ops_split]; simp only [after_append]; rfl

set_option maxRecDepth 65536 in
set_option maxHeartbeats 4000000 in
theorem val1_main_arg0 (V : Valuation τ sig (Elt F)) : val1 V (no_index (main_arg0 : DevRef τ sig)) = V (main_arg0 : DevRef τ sig) := by
  unfold val1
  simp only [seg1]
  after_results_simp

set_option maxRecDepth 65536 in
set_option maxHeartbeats 4000000 in
theorem val1_main_arg1 (V : Valuation τ sig (Elt F)) : val1 V (no_index (main_arg1 : DevRef τ sig)) = V (main_arg1 : DevRef τ sig) := by
  unfold val1
  simp only [seg1]
  after_results_simp

set_option maxRecDepth 65536 in
set_option maxHeartbeats 4000000 in
theorem val1_main_arg2 (V : Valuation τ sig (Elt F)) : val1 V (no_index (main_arg2 : DevRef τ sig)) = V (main_arg2 : DevRef τ sig) := by
  unfold val1
  simp only [seg1]
  after_results_simp

set_option maxRecDepth 65536 in
set_option maxHeartbeats 4000000 in
theorem val1_main_arg3 (V : Valuation τ sig (Elt F)) : val1 V (no_index (main_arg3 : DevRef τ sig)) = V (main_arg3 : DevRef τ sig) := by
  unfold val1
  simp only [seg1]
  after_results_simp

set_option maxRecDepth 65536 in
set_option maxHeartbeats 4000000 in
theorem val1_main_arg4 (V : Valuation τ sig (Elt F)) : val1 V (no_index (main_arg4 : DevRef τ sig)) = V (main_arg4 : DevRef τ sig) := by
  unfold val1
  simp only [seg1]
  after_results_simp

set_option maxRecDepth 65536 in
set_option maxHeartbeats 4000000 in
theorem val1_main_arg5 (V : Valuation τ sig (Elt F)) : val1 V (no_index (main_arg5 : DevRef τ sig)) = V (main_arg5 : DevRef τ sig) := by
  unfold val1
  simp only [seg1]
  after_results_simp

set_option maxRecDepth 65536 in
set_option maxHeartbeats 4000000 in
theorem val1_main_arg6 (V : Valuation τ sig (Elt F)) : val1 V (no_index (main_arg6 : DevRef τ sig)) = V (main_arg6 : DevRef τ sig) := by
  unfold val1
  simp only [seg1]
  after_results_simp

set_option maxRecDepth 65536 in
set_option maxHeartbeats 4000000 in
theorem val1_main_arg7 (V : Valuation τ sig (Elt F)) : val1 V (no_index (main_arg7 : DevRef τ sig)) = V (main_arg7 : DevRef τ sig) := by
  unfold val1
  simp only [seg1]
  after_results_simp

set_option maxRecDepth 65536 in
set_option maxHeartbeats 4000000 in
theorem val1_main_v16 (V : Valuation τ sig (Elt F)) : val1 V (no_index (main_v16 : DevRef τ sig)) = rE (V (main_arg0 : DevRef τ sig)) (V (main_arg1 : DevRef τ sig)) := by
  unfold val1
  simp only [seg1]
  after_results_simp
  rfl

set_option maxRecDepth 65536 in
set_option maxHeartbeats 4000000 in
theorem val2_main_arg0 (V : Valuation τ sig (Elt F)) : val2 V (no_index (main_arg0 : DevRef τ sig)) = V (main_arg0 : DevRef τ sig) := by
  unfold val2
  simp only [seg2]
  after_results_simp
  exact val1_main_arg0 V

set_option maxRecDepth 65536 in
set_option maxHeartbeats 4000000 in
theorem val2_main_arg1 (V : Valuation τ sig (Elt F)) : val2 V (no_index (main_arg1 : DevRef τ sig)) = V (main_arg1 : DevRef τ sig) := by
  unfold val2
  simp only [seg2]
  after_results_simp
  exact val1_main_arg1 V

set_option maxRecDepth 65536 in
set_option maxHeartbeats 4000000 in
theorem val2_main_arg2 (V : Valuation τ sig (Elt F)) : val2 V (no_index (main_arg2 : DevRef τ sig)) = V (main_arg2 : DevRef τ sig) := by
  unfold val2
  simp only [seg2]
  after_results_simp
  exact val1_main_arg2 V

set_option maxRecDepth 65536 in
set_option maxHeartbeats 4000000 in
theorem val2_main_arg3 (V : Valuation τ sig (Elt F)) : val2 V (no_index (main_arg3 : DevRef τ sig)) = V (main_arg3 : DevRef τ sig) := by
  unfold val2
  simp only [seg2]
  after_results_simp
  exact val1_main_arg3 V

set_option maxRecDepth 65536 in
set_option maxHeartbeats 4000000 in
theorem val2_main_arg4 (V : Valuation τ sig (Elt F)) : val2 V (no_index (main_arg4 : DevRef τ sig)) = V (main_arg4 : DevRef τ sig) := by
  unfold val2
  simp only [seg2]
  after_results_simp
  exact val1_main_arg4 V

set_option maxRecDepth 65536 in
set_option maxHeartbeats 4000000 in
theorem val2_main_arg5 (V : Valuation τ sig (Elt F)) : val2 V (no_index (main_arg5 : DevRef τ sig)) = V (main_arg5 : DevRef τ sig) := by
  unfold val2
  simp only [seg2]
  after_results_simp
  exact val1_main_arg5 V

set_option maxRecDepth 65536 in
set_option maxHeartbeats 4000000 in
theorem val2_main_arg6 (V : Valuation τ sig (Elt F)) : val2 V (no_index (main_arg6 : DevRef τ sig)) = V (main_arg6 : DevRef τ sig) := by
  unfold val2
  simp only [seg2]
  after_results_simp
  exact val1_main_arg6 V

set_option maxRecDepth 65536 in
set_option maxHeartbeats 4000000 in
theorem val2_main_arg7 (V : Valuation τ sig (Elt F)) : val2 V (no_index (main_arg7 : DevRef τ sig)) = V (main_arg7 : DevRef τ sig) := by
  unfold val2
  simp only [seg2]
  after_results_simp
  exact val1_main_arg7 V

set_option maxRecDepth 65536 in
set_option maxHeartbeats 4000000 in
theorem val2_main_v16 (V : Valuation τ sig (Elt F)) : val2 V (no_index (main_v16 : DevRef τ sig)) = rE (V (main_arg0 : DevRef τ sig)) (V (main_arg1 : DevRef τ sig)) := by
  unfold val2
  simp only [seg2]
  after_results_simp
  exact val1_main_v16 V

set_option maxRecDepth 65536 in
set_option maxHeartbeats 4000000 in
theorem val2_main_v17 (V : Valuation τ sig (Elt F)) : val2 V (no_index (main_v17 : DevRef τ sig)) = rGram (rE (V (main_arg0 : DevRef τ sig)) (V (main_arg1 : DevRef τ sig))) := by
  unfold val2
  simp only [seg2]
  after_results_simp
  simp only [val1_main_v16] <;> rfl

set_option maxRecDepth 65536 in
set_option maxHeartbeats 4000000 in
theorem val3_main_arg0 (V : Valuation τ sig (Elt F)) : val3 V (no_index (main_arg0 : DevRef τ sig)) = V (main_arg0 : DevRef τ sig) := by
  unfold val3
  simp only [seg3]
  after_results_simp
  exact val2_main_arg0 V

set_option maxRecDepth 65536 in
set_option maxHeartbeats 4000000 in
theorem val3_main_arg1 (V : Valuation τ sig (Elt F)) : val3 V (no_index (main_arg1 : DevRef τ sig)) = V (main_arg1 : DevRef τ sig) := by
  unfold val3
  simp only [seg3]
  after_results_simp
  exact val2_main_arg1 V

set_option maxRecDepth 65536 in
set_option maxHeartbeats 4000000 in
theorem val3_main_arg2 (V : Valuation τ sig (Elt F)) : val3 V (no_index (main_arg2 : DevRef τ sig)) = V (main_arg2 : DevRef τ sig) := by
  unfold val3
  simp only [seg3]
  after_results_simp
  exact val2_main_arg2 V

set_option maxRecDepth 65536 in
set_option maxHeartbeats 4000000 in
theorem val3_main_arg3 (V : Valuation τ sig (Elt F)) : val3 V (no_index (main_arg3 : DevRef τ sig)) = V (main_arg3 : DevRef τ sig) := by
  unfold val3
  simp only [seg3]
  after_results_simp
  exact val2_main_arg3 V

set_option maxRecDepth 65536 in
set_option maxHeartbeats 4000000 in
theorem val3_main_arg4 (V : Valuation τ sig (Elt F)) : val3 V (no_index (main_arg4 : DevRef τ sig)) = V (main_arg4 : DevRef τ sig) := by
  unfold val3
  simp only [seg3]
  after_results_simp
  exact val2_main_arg4 V

set_option maxRecDepth 65536 in
set_option maxHeartbeats 4000000 in
theorem val3_main_arg5 (V : Valuation τ sig (Elt F)) : val3 V (no_index (main_arg5 : DevRef τ sig)) = V (main_arg5 : DevRef τ sig) := by
  unfold val3
  simp only [seg3]
  after_results_simp
  exact val2_main_arg5 V

set_option maxRecDepth 65536 in
set_option maxHeartbeats 4000000 in
theorem val3_main_arg6 (V : Valuation τ sig (Elt F)) : val3 V (no_index (main_arg6 : DevRef τ sig)) = V (main_arg6 : DevRef τ sig) := by
  unfold val3
  simp only [seg3]
  after_results_simp
  exact val2_main_arg6 V

set_option maxRecDepth 65536 in
set_option maxHeartbeats 4000000 in
theorem val3_main_arg7 (V : Valuation τ sig (Elt F)) : val3 V (no_index (main_arg7 : DevRef τ sig)) = V (main_arg7 : DevRef τ sig) := by
  unfold val3
  simp only [seg3]
  after_results_simp
  exact val2_main_arg7 V

set_option maxRecDepth 65536 in
set_option maxHeartbeats 4000000 in
theorem val3_main_v16 (V : Valuation τ sig (Elt F)) : val3 V (no_index (main_v16 : DevRef τ sig)) = rE (V (main_arg0 : DevRef τ sig)) (V (main_arg1 : DevRef τ sig)) := by
  unfold val3
  simp only [seg3]
  after_results_simp
  exact val2_main_v16 V

set_option maxRecDepth 65536 in
set_option maxHeartbeats 4000000 in
theorem val3_main_v17 (V : Valuation τ sig (Elt F)) : val3 V (no_index (main_v17 : DevRef τ sig)) = rGram (rE (V (main_arg0 : DevRef τ sig)) (V (main_arg1 : DevRef τ sig))) := by
  unfold val3
  simp only [seg3]
  after_results_simp
  exact val2_main_v17 V

set_option maxRecDepth 65536 in
set_option maxHeartbeats 4000000 in
theorem val3_main_v21 (V : Valuation τ sig (Elt F)) : val3 V (no_index (main_v21 : DevRef τ sig)) = rMask (F := F) := by
  unfold val3
  simp only [seg3]
  after_results_simp
  rfl

set_option maxRecDepth 65536 in
set_option maxHeartbeats 4000000 in
theorem val4_main_arg0 (V : Valuation τ sig (Elt F)) : val4 V (no_index (main_arg0 : DevRef τ sig)) = V (main_arg0 : DevRef τ sig) := by
  unfold val4
  simp only [seg4]
  after_results_simp
  exact val3_main_arg0 V

set_option maxRecDepth 65536 in
set_option maxHeartbeats 4000000 in
theorem val4_main_arg1 (V : Valuation τ sig (Elt F)) : val4 V (no_index (main_arg1 : DevRef τ sig)) = V (main_arg1 : DevRef τ sig) := by
  unfold val4
  simp only [seg4]
  after_results_simp
  exact val3_main_arg1 V

set_option maxRecDepth 65536 in
set_option maxHeartbeats 4000000 in
theorem val4_main_arg2 (V : Valuation τ sig (Elt F)) : val4 V (no_index (main_arg2 : DevRef τ sig)) = V (main_arg2 : DevRef τ sig) := by
  unfold val4
  simp only [seg4]
  after_results_simp
  exact val3_main_arg2 V

set_option maxRecDepth 65536 in
set_option maxHeartbeats 4000000 in
theorem val4_main_arg3 (V : Valuation τ sig (Elt F)) : val4 V (no_index (main_arg3 : DevRef τ sig)) = V (main_arg3 : DevRef τ sig) := by
  unfold val4
  simp only [seg4]
  after_results_simp
  exact val3_main_arg3 V

set_option maxRecDepth 65536 in
set_option maxHeartbeats 4000000 in
theorem val4_main_arg4 (V : Valuation τ sig (Elt F)) : val4 V (no_index (main_arg4 : DevRef τ sig)) = V (main_arg4 : DevRef τ sig) := by
  unfold val4
  simp only [seg4]
  after_results_simp
  exact val3_main_arg4 V

set_option maxRecDepth 65536 in
set_option maxHeartbeats 4000000 in
theorem val4_main_arg5 (V : Valuation τ sig (Elt F)) : val4 V (no_index (main_arg5 : DevRef τ sig)) = V (main_arg5 : DevRef τ sig) := by
  unfold val4
  simp only [seg4]
  after_results_simp
  exact val3_main_arg5 V

set_option maxRecDepth 65536 in
set_option maxHeartbeats 4000000 in
theorem val4_main_arg6 (V : Valuation τ sig (Elt F)) : val4 V (no_index (main_arg6 : DevRef τ sig)) = V (main_arg6 : DevRef τ sig) := by
  unfold val4
  simp only [seg4]
  after_results_simp
  exact val3_main_arg6 V

set_option maxRecDepth 65536 in
set_option maxHeartbeats 4000000 in
theorem val4_main_arg7 (V : Valuation τ sig (Elt F)) : val4 V (no_index (main_arg7 : DevRef τ sig)) = V (main_arg7 : DevRef τ sig) := by
  unfold val4
  simp only [seg4]
  after_results_simp
  exact val3_main_arg7 V

set_option maxRecDepth 65536 in
set_option maxHeartbeats 4000000 in
theorem val4_main_v16 (V : Valuation τ sig (Elt F)) : val4 V (no_index (main_v16 : DevRef τ sig)) = rE (V (main_arg0 : DevRef τ sig)) (V (main_arg1 : DevRef τ sig)) := by
  unfold val4
  simp only [seg4]
  after_results_simp
  exact val3_main_v16 V

set_option maxRecDepth 65536 in
set_option maxHeartbeats 4000000 in
theorem val4_main_v17 (V : Valuation τ sig (Elt F)) : val4 V (no_index (main_v17 : DevRef τ sig)) = rGram (rE (V (main_arg0 : DevRef τ sig)) (V (main_arg1 : DevRef τ sig))) := by
  unfold val4
  simp only [seg4]
  after_results_simp
  exact val3_main_v17 V

set_option maxRecDepth 65536 in
set_option maxHeartbeats 4000000 in
theorem val4_main_v22 (V : Valuation τ sig (Elt F)) : val4 V (no_index (main_v22 : DevRef τ sig)) = rCum (rMask (F := F)) := by
  unfold val4
  simp only [seg4]
  after_results_simp
  simp only [val3_main_v21] <;> rfl

set_option maxRecDepth 65536 in
set_option maxHeartbeats 4000000 in
theorem val5_main_arg0 (V : Valuation τ sig (Elt F)) : val5 V (no_index (main_arg0 : DevRef τ sig)) = V (main_arg0 : DevRef τ sig) := by
  unfold val5
  simp only [seg5]
  after_results_simp
  exact val4_main_arg0 V

set_option maxRecDepth 65536 in
set_option maxHeartbeats 4000000 in
theorem val5_main_arg1 (V : Valuation τ sig (Elt F)) : val5 V (no_index (main_arg1 : DevRef τ sig)) = V (main_arg1 : DevRef τ sig) := by
  unfold val5
  simp only [seg5]
  after_results_simp
  exact val4_main_arg1 V

set_option maxRecDepth 65536 in
set_option maxHeartbeats 4000000 in
theorem val5_main_arg2 (V : Valuation τ sig (Elt F)) : val5 V (no_index (main_arg2 : DevRef τ sig)) = V (main_arg2 : DevRef τ sig) := by
  unfold val5
  simp only [seg5]
  after_results_simp
  exact val4_main_arg2 V

set_option maxRecDepth 65536 in
set_option maxHeartbeats 4000000 in
theorem val5_main_arg3 (V : Valuation τ sig (Elt F)) : val5 V (no_index (main_arg3 : DevRef τ sig)) = V (main_arg3 : DevRef τ sig) := by
  unfold val5
  simp only [seg5]
  after_results_simp
  exact val4_main_arg3 V

set_option maxRecDepth 65536 in
set_option maxHeartbeats 4000000 in
theorem val5_main_arg4 (V : Valuation τ sig (Elt F)) : val5 V (no_index (main_arg4 : DevRef τ sig)) = V (main_arg4 : DevRef τ sig) := by
  unfold val5
  simp only [seg5]
  after_results_simp
  exact val4_main_arg4 V

set_option maxRecDepth 65536 in
set_option maxHeartbeats 4000000 in
theorem val5_main_arg5 (V : Valuation τ sig (Elt F)) : val5 V (no_index (main_arg5 : DevRef τ sig)) = V (main_arg5 : DevRef τ sig) := by
  unfold val5
  simp only [seg5]
  after_results_simp
  exact val4_main_arg5 V

set_option maxRecDepth 65536 in
set_option maxHeartbeats 4000000 in
theorem val5_main_arg6 (V : Valuation τ sig (Elt F)) : val5 V (no_index (main_arg6 : DevRef τ sig)) = V (main_arg6 : DevRef τ sig) := by
  unfold val5
  simp only [seg5]
  after_results_simp
  exact val4_main_arg6 V

set_option maxRecDepth 65536 in
set_option maxHeartbeats 4000000 in
theorem val5_main_arg7 (V : Valuation τ sig (Elt F)) : val5 V (no_index (main_arg7 : DevRef τ sig)) = V (main_arg7 : DevRef τ sig) := by
  unfold val5
  simp only [seg5]
  after_results_simp
  exact val4_main_arg7 V

set_option maxRecDepth 65536 in
set_option maxHeartbeats 4000000 in
theorem val5_main_v16 (V : Valuation τ sig (Elt F)) : val5 V (no_index (main_v16 : DevRef τ sig)) = rE (V (main_arg0 : DevRef τ sig)) (V (main_arg1 : DevRef τ sig)) := by
  unfold val5
  simp only [seg5]
  after_results_simp
  exact val4_main_v16 V

set_option maxRecDepth 65536 in
set_option maxHeartbeats 4000000 in
theorem val5_main_v17 (V : Valuation τ sig (Elt F)) : val5 V (no_index (main_v17 : DevRef τ sig)) = rGram (rE (V (main_arg0 : DevRef τ sig)) (V (main_arg1 : DevRef τ sig))) := by
  unfold val5
  simp only [seg5]
  after_results_simp
  exact val4_main_v17 V

set_option maxRecDepth 65536 in
set_option maxHeartbeats 4000000 in
theorem val5_main_v32 (V : Valuation τ sig (Elt F)) : val5 V (no_index (main_v32 : DevRef τ sig)) = rBins (F := F) (rCum (rMask (F := F))) := by
  unfold val5
  simp only [seg5]
  after_results_simp
  simp only [val4_main_v22] <;> rfl

set_option maxRecDepth 65536 in
set_option maxHeartbeats 4000000 in
theorem val6_main_arg0 (V : Valuation τ sig (Elt F)) : val6 V (no_index (main_arg0 : DevRef τ sig)) = V (main_arg0 : DevRef τ sig) := by
  unfold val6
  simp only [seg6]
  after_results_simp
  exact val5_main_arg0 V

set_option maxRecDepth 65536 in
set_option maxHeartbeats 4000000 in
theorem val6_main_arg1 (V : Valuation τ sig (Elt F)) : val6 V (no_index (main_arg1 : DevRef τ sig)) = V (main_arg1 : DevRef τ sig) := by
  unfold val6
  simp only [seg6]
  after_results_simp
  exact val5_main_arg1 V

set_option maxRecDepth 65536 in
set_option maxHeartbeats 4000000 in
theorem val6_main_arg2 (V : Valuation τ sig (Elt F)) : val6 V (no_index (main_arg2 : DevRef τ sig)) = V (main_arg2 : DevRef τ sig) := by
  unfold val6
  simp only [seg6]
  after_results_simp
  exact val5_main_arg2 V

set_option maxRecDepth 65536 in
set_option maxHeartbeats 4000000 in
theorem val6_main_arg3 (V : Valuation τ sig (Elt F)) : val6 V (no_index (main_arg3 : DevRef τ sig)) = V (main_arg3 : DevRef τ sig) := by
  unfold val6
  simp only [seg6]
  after_results_simp
  exact val5_main_arg3 V

set_option maxRecDepth 65536 in
set_option maxHeartbeats 4000000 in
theorem val6_main_arg4 (V : Valuation τ sig (Elt F)) : val6 V (no_index (main_arg4 : DevRef τ sig)) = V (main_arg4 : DevRef τ sig) := by
  unfold val6
  simp only [seg6]
  after_results_simp
  exact val5_main_arg4 V

set_option maxRecDepth 65536 in
set_option maxHeartbeats 4000000 in
theorem val6_main_arg5 (V : Valuation τ sig (Elt F)) : val6 V (no_index (main_arg5 : DevRef τ sig)) = V (main_arg5 : DevRef τ sig) := by
  unfold val6
  simp only [seg6]
  after_results_simp
  exact val5_main_arg5 V

set_option maxRecDepth 65536 in
set_option maxHeartbeats 4000000 in
theorem val6_main_arg6 (V : Valuation τ sig (Elt F)) : val6 V (no_index (main_arg6 : DevRef τ sig)) = V (main_arg6 : DevRef τ sig) := by
  unfold val6
  simp only [seg6]
  after_results_simp
  exact val5_main_arg6 V

set_option maxRecDepth 65536 in
set_option maxHeartbeats 4000000 in
theorem val6_main_arg7 (V : Valuation τ sig (Elt F)) : val6 V (no_index (main_arg7 : DevRef τ sig)) = V (main_arg7 : DevRef τ sig) := by
  unfold val6
  simp only [seg6]
  after_results_simp
  exact val5_main_arg7 V

set_option maxRecDepth 65536 in
set_option maxHeartbeats 4000000 in
theorem val6_main_v16 (V : Valuation τ sig (Elt F)) : val6 V (no_index (main_v16 : DevRef τ sig)) = rE (V (main_arg0 : DevRef τ sig)) (V (main_arg1 : DevRef τ sig)) := by
  unfold val6
  simp only [seg6]
  after_results_simp
  exact val5_main_v16 V

set_option maxRecDepth 65536 in
set_option maxHeartbeats 4000000 in
theorem val6_main_v17 (V : Valuation τ sig (Elt F)) : val6 V (no_index (main_v17 : DevRef τ sig)) = rGram (rE (V (main_arg0 : DevRef τ sig)) (V (main_arg1 : DevRef τ sig))) := by
  unfold val6
  simp only [seg6]
  after_results_simp
  exact val5_main_v17 V

set_option maxRecDepth 65536 in
set_option maxHeartbeats 4000000 in
theorem val6_main_v33 (V : Valuation τ sig (Elt F)) : val6 V (no_index (main_v33 : DevRef τ sig)) = rFlat (rBins (F := F) (rCum (rMask (F := F)))) := by
  unfold val6
  simp only [seg6]
  after_results_simp
  simp only [val5_main_v32] <;> rfl

set_option maxRecDepth 65536 in
set_option maxHeartbeats 4000000 in
theorem val7_main_arg0 (V : Valuation τ sig (Elt F)) : val7 V (no_index (main_arg0 : DevRef τ sig)) = V (main_arg0 : DevRef τ sig) := by
  unfold val7
  simp only [seg7]
  after_results_simp
  exact val6_main_arg0 V

set_option maxRecDepth 65536 in
set_option maxHeartbeats 4000000 in
theorem val7_main_arg1 (V : Valuation τ sig (Elt F)) : val7 V (no_index (main_arg1 : DevRef τ sig)) = V (main_arg1 : DevRef τ sig) := by
  unfold val7
  simp only [seg7]
  after_results_simp
  exact val6_main_arg1 V

set_option maxRecDepth 65536 in
set_option maxHeartbeats 4000000 in
theorem val7_main_arg2 (V : Valuation τ sig (Elt F)) : val7 V (no_index (main_arg2 : DevRef τ sig)) = V (main_arg2 : DevRef τ sig) := by
  unfold val7
  simp only [seg7]
  after_results_simp
  exact val6_main_arg2 V

set_option maxRecDepth 65536 in
set_option maxHeartbeats 4000000 in
theorem val7_main_arg3 (V : Valuation τ sig (Elt F)) : val7 V (no_index (main_arg3 : DevRef τ sig)) = V (main_arg3 : DevRef τ sig) := by
  unfold val7
  simp only [seg7]
  after_results_simp
  exact val6_main_arg3 V

set_option maxRecDepth 65536 in
set_option maxHeartbeats 4000000 in
theorem val7_main_arg4 (V : Valuation τ sig (Elt F)) : val7 V (no_index (main_arg4 : DevRef τ sig)) = V (main_arg4 : DevRef τ sig) := by
  unfold val7
  simp only [seg7]
  after_results_simp
  exact val6_main_arg4 V

set_option maxRecDepth 65536 in
set_option maxHeartbeats 4000000 in
theorem val7_main_arg5 (V : Valuation τ sig (Elt F)) : val7 V (no_index (main_arg5 : DevRef τ sig)) = V (main_arg5 : DevRef τ sig) := by
  unfold val7
  simp only [seg7]
  after_results_simp
  exact val6_main_arg5 V

set_option maxRecDepth 65536 in
set_option maxHeartbeats 4000000 in
theorem val7_main_arg6 (V : Valuation τ sig (Elt F)) : val7 V (no_index (main_arg6 : DevRef τ sig)) = V (main_arg6 : DevRef τ sig) := by
  unfold val7
  simp only [seg7]
  after_results_simp
  exact val6_main_arg6 V

set_option maxRecDepth 65536 in
set_option maxHeartbeats 4000000 in
theorem val7_main_arg7 (V : Valuation τ sig (Elt F)) : val7 V (no_index (main_arg7 : DevRef τ sig)) = V (main_arg7 : DevRef τ sig) := by
  unfold val7
  simp only [seg7]
  after_results_simp
  exact val6_main_arg7 V

set_option maxRecDepth 65536 in
set_option maxHeartbeats 4000000 in
theorem val7_main_v16 (V : Valuation τ sig (Elt F)) : val7 V (no_index (main_v16 : DevRef τ sig)) = rE (V (main_arg0 : DevRef τ sig)) (V (main_arg1 : DevRef τ sig)) := by
  unfold val7
  simp only [seg7]
  after_results_simp
  exact val6_main_v16 V

set_option maxRecDepth 65536 in
set_option maxHeartbeats 4000000 in
theorem val7_main_v17 (V : Valuation τ sig (Elt F)) : val7 V (no_index (main_v17 : DevRef τ sig)) = rGram (rE (V (main_arg0 : DevRef τ sig)) (V (main_arg1 : DevRef τ sig))) := by
  unfold val7
  simp only [seg7]
  after_results_simp
  exact val6_main_v17 V

set_option maxRecDepth 65536 in
set_option maxHeartbeats 4000000 in
theorem val7_main_v33 (V : Valuation τ sig (Elt F)) : val7 V (no_index (main_v33 : DevRef τ sig)) = rFlat (rBins (F := F) (rCum (rMask (F := F)))) := by
  unfold val7
  simp only [seg7]
  after_results_simp
  exact val6_main_v33 V

set_option maxRecDepth 65536 in
set_option maxHeartbeats 4000000 in
theorem val7_main_v35 (V : Valuation τ sig (Elt F)) : val7 V (no_index (main_v35 : DevRef τ sig)) = rRow (rFlat (rBins (F := F) (rCum (rMask (F := F))))) := by
  unfold val7
  simp only [seg7]
  after_results_simp
  simp only [val6_main_v33] <;> rfl

set_option maxRecDepth 65536 in
set_option maxHeartbeats 4000000 in
theorem val8_main_arg0 (V : Valuation τ sig (Elt F)) : val8 V (no_index (main_arg0 : DevRef τ sig)) = V (main_arg0 : DevRef τ sig) := by
  unfold val8
  simp only [seg8]
  after_results_simp
  exact val7_main_arg0 V

set_option maxRecDepth 65536 in
set_option maxHeartbeats 4000000 in
theorem val8_main_arg1 (V : Valuation τ sig (Elt F)) : val8 V (no_index (main_arg1 : DevRef τ sig)) = V (main_arg1 : DevRef τ sig) := by
  unfold val8
  simp only [seg8]
  after_results_simp
  exact val7_main_arg1 V

set_option maxRecDepth 65536 in
set_option maxHeartbeats 4000000 in
theorem val8_main_arg2 (V : Valuation τ sig (Elt F)) : val8 V (no_index (main_arg2 : DevRef τ sig)) = V (main_arg2 : DevRef τ sig) := by
  unfold val8
  simp only [seg8]
  after_results_simp
  exact val7_main_arg2 V

set_option maxRecDepth 65536 in
set_option maxHeartbeats 4000000 in
theorem val8_main_arg3 (V : Valuation τ sig (Elt F)) : val8 V (no_index (main_arg3 : DevRef τ sig)) = V (main_arg3 : DevRef τ sig) := by
  unfold val8
  simp only [seg8]
  after_results_simp
  exact val7_main_arg3 V

set_option maxRecDepth 65536 in
set_option maxHeartbeats 4000000 in
theorem val8_main_arg4 (V : Valuation τ sig (Elt F)) : val8 V (no_index (main_arg4 : DevRef τ sig)) = V (main_arg4 : DevRef τ sig) := by
  unfold val8
  simp only [seg8]
  after_results_simp
  exact val7_main_arg4 V

set_option maxRecDepth 65536 in
set_option maxHeartbeats 4000000 in
theorem val8_main_arg5 (V : Valuation τ sig (Elt F)) : val8 V (no_index (main_arg5 : DevRef τ sig)) = V (main_arg5 : DevRef τ sig) := by
  unfold val8
  simp only [seg8]
  after_results_simp
  exact val7_main_arg5 V

set_option maxRecDepth 65536 in
set_option maxHeartbeats 4000000 in
theorem val8_main_arg6 (V : Valuation τ sig (Elt F)) : val8 V (no_index (main_arg6 : DevRef τ sig)) = V (main_arg6 : DevRef τ sig) := by
  unfold val8
  simp only [seg8]
  after_results_simp
  exact val7_main_arg6 V

set_option maxRecDepth 65536 in
set_option maxHeartbeats 4000000 in
theorem val8_main_arg7 (V : Valuation τ sig (Elt F)) : val8 V (no_index (main_arg7 : DevRef τ sig)) = V (main_arg7 : DevRef τ sig) := by
  unfold val8
  simp only [seg8]
  after_results_simp
  exact val7_main_arg7 V

set_option maxRecDepth 65536 in
set_option maxHeartbeats 4000000 in
theorem val8_main_v16 (V : Valuation τ sig (Elt F)) : val8 V (no_index (main_v16 : DevRef τ sig)) = rE (V (main_arg0 : DevRef τ sig)) (V (main_arg1 : DevRef τ sig)) := by
  unfold val8
  simp only [seg8]
  after_results_simp
  exact val7_main_v16 V

set_option maxRecDepth 65536 in
set_option maxHeartbeats 4000000 in
theorem val8_main_v17 (V : Valuation τ sig (Elt F)) : val8 V (no_index (main_v17 : DevRef τ sig)) = rGram (rE (V (main_arg0 : DevRef τ sig)) (V (main_arg1 : DevRef τ sig))) := by
  unfold val8
  simp only [seg8]
  after_results_simp
  exact val7_main_v17 V

set_option maxRecDepth 65536 in
set_option maxHeartbeats 4000000 in
theorem val8_main_v33 (V : Valuation τ sig (Elt F)) : val8 V (no_index (main_v33 : DevRef τ sig)) = rFlat (rBins (F := F) (rCum (rMask (F := F)))) := by
  unfold val8
  simp only [seg8]
  after_results_simp
  exact val7_main_v33 V

set_option maxRecDepth 65536 in
set_option maxHeartbeats 4000000 in
theorem val8_main_v35 (V : Valuation τ sig (Elt F)) : val8 V (no_index (main_v35 : DevRef τ sig)) = rRow (rFlat (rBins (F := F) (rCum (rMask (F := F))))) := by
  unfold val8
  simp only [seg8]
  after_results_simp
  exact val7_main_v35 V

set_option maxRecDepth 65536 in
set_option maxHeartbeats 4000000 in
theorem val8_main_v37 (V : Valuation τ sig (Elt F)) : val8 V (no_index (main_v37 : DevRef τ sig)) = rCol (rFlat (rBins (F := F) (rCum (rMask (F := F))))) := by
  unfold val8
  simp only [seg8]
  after_results_simp
  simp only [val7_main_v33] <;> rfl

end Cert.ReferenceIdeal.RefRun

end
-- ==== Proof.RefSegsB.lean ====
import proofs.«401391_j12421045420606_1_alg».proof.Proof.RefSegs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- kept folded while terms are compared: their bodies are folds over the operand's elements
attribute [local irreducible] Host.reduceWindow Host.scatter Host.gather

set_option maxRecDepth 65536 in
set_option maxHeartbeats 4000000 in
theorem val9_main_arg0 (V : Valuation τ sig (Elt F)) : val9 V (no_index (main_arg0 : DevRef τ sig)) = V (main_arg0 : DevRef τ sig) := by
  unfold val9
  simp only [seg9, seg9a, List.cons_append, List.nil_append]
  after_results_simp
  exact val8_main_arg0 V

set_option maxRecDepth 65536 in
set_option maxHeartbeats 4000000 in
theorem val9_main_arg1 (V : Valuation τ sig (Elt F)) : val9 V (no_index (main_arg1 : DevRef τ sig)) = V (main_arg1 : DevRef τ sig) := by
  unfold val9
  simp only [seg9, seg9a, List.cons_append, List.nil_append]
  after_results_simp
  exact val8_main_arg1 V

set_option maxRecDepth 65536 in
set_option maxHeartbeats 4000000 in
theorem val9_main_arg2 (V : Valuation τ sig (Elt F)) : val9 V (no_index (main_arg2 : DevRef τ sig)) = V (main_arg2 : DevRef τ sig) := by
  unfold val9
  simp only [seg9, seg9a, List.cons_append, List.nil_append]
  after_results_simp
  exact val8_main_arg2 V

set_option maxRecDepth 65536 in
set_option maxHeartbeats 4000000 in
theorem val9_main_arg3 (V : Valuation τ sig (Elt F)) : val9 V (no_index (main_arg3 : DevRef τ sig)) = V (main_arg3 : DevRef τ sig) := by
  unfold val9
  simp only [seg9, seg9a, List.cons_append, List.nil_append]
  after_results_simp
  exact val8_main_arg3 V

set_option maxRecDepth 65536 in
set_option maxHeartbeats 4000000 in
theorem val9_main_arg4 (V : Valuation τ sig (Elt F)) : val9 V (no_index (main_arg4 : DevRef τ sig)) = V (main_arg4 : DevRef τ sig) := by
  unfold val9
  simp only [seg9, seg9a, List.cons_append, List.nil_append]
  after_results_simp
  exact val8_main_arg4 V

set_option maxRecDepth 65536 in
set_option maxHeartbeats 4000000 in
theorem val9_main_arg5 (V : Valuation τ sig (Elt F)) : val9 V (no_index (main_arg5 : DevRef τ sig)) = V (main_arg5 : DevRef τ sig) := by
  unfold val9
  simp only [seg9, seg9a, List.cons_append, List.nil_append]
  after_results_simp
  exact val8_main_arg5 V

set_option maxRecDepth 65536 in
set_option maxHeartbeats 4000000 in
theorem val9_main_arg6 (V : Valuation τ sig (Elt F)) : val9 V (no_index (main_arg6 : DevRef τ sig)) = V (main_arg6 : DevRef τ sig) := by
  unfold val9
  simp only [seg9, seg9a, List.cons_append, List.nil_append]
  after_results_simp
  exact val8_main_arg6 V

set_option maxRecDepth 65536 in
set_option maxHeartbeats 4000000 in
theorem val9_main_arg7 (V : Valuation τ sig (Elt F)) : val9 V (no_index (main_arg7 : DevRef τ sig)) = V (main_arg7 : DevRef τ sig) := by
  unfold val9
  simp only [seg9, seg9a, List.cons_append, List.nil_append]
  after_results_simp
  exact val8_main_arg7 V

set_option maxRecDepth 65536 in
set_option maxHeartbeats 4000000 in
theorem val9_main_v16 (V : Valuation τ sig (Elt F)) : val9 V (no_index (main_v16 : DevRef τ sig)) = rE (V (main_arg0 : DevRef τ sig)) (V (main_arg1 : DevRef τ sig)) := by
  unfold val9
  simp only [seg9, seg9a, List.cons_append, List.nil_append]
  after_results_simp
  exact val8_main_v16 V

set_option maxRecDepth 65536 in
set_option maxHeartbeats 4000000 in
theorem val9_main_v17 (V : Valuation τ sig (Elt F)) : val9 V (no_index (main_v17 : DevRef τ sig)) = rGram (rE (V (main_arg0 : DevRef τ sig)) (V (main_arg1 : DevRef τ sig))) := by
  unfold val9
  simp only [seg9, seg9a, List.cons_append, List.nil_append]
  after_results_simp
  exact val8_main_v17 V

set_option maxRecDepth 65536 in
set_option maxHeartbeats 4000000 in
theorem val9_main_v35 (V : Valuation τ sig (Elt F)) : val9 V (no_index (main_v35 : DevRef τ sig)) = rRow (rFlat (rBins (F := F) (rCum (rMask (F := F))))) := by
  unfold val9
  simp only [seg9, seg9a, List.cons_append, List.nil_append]
  after_results_simp
  exact val8_main_v35 V

set_option maxRecDepth 65536 in
set_option maxHeartbeats 4000000 in
theorem val9_main_v37 (V : Valuation τ sig (Elt F)) : val9 V (no_index (main_v37 : DevRef τ sig)) = rCol (rFlat (rBins (F := F) (rCum (rMask (F := F))))) := by
  unfold val9
  simp only [seg9, seg9a, List.cons_append, List.nil_append]
  after_results_simp
  exact val8_main_v37 V

set_option maxRecDepth 65536 in
set_option maxHeartbeats 4000000 in
theorem seg9_main_v50 (W : Valuation τ sig (Elt F)) : after seg9 W (no_index (main_v50 : DevRef τ sig)) = rJoin (F := F) (W (main_v35 : DevRef τ sig)) (W (main_v37 : DevRef τ sig)) := by
  refine (after_snoc_binary _ _ _ _ seg9a W (A := ?A) (B := ?B) ?hA ?hB).trans ?_
  case hA => simp only [seg9a]; after_results_simp; rfl
  case hB => simp only [seg9a]; after_results_simp; rfl
  rfl

theorem val9_main_v50 (V : Valuation τ sig (Elt F)) : val9 V (no_index (main_v50 : DevRef τ sig)) = rJoin (F := F) (rRow (rFlat (rBins (F := F) (rCum (rMask (F := F)))))) (rCol (rFlat (rBins (F := F) (rCum (rMask (F := F)))))) := by
  unfold val9
  rw [seg9_main_v50, val8_main_v35, val8_main_v37]

set_option maxRecDepth 65536 in
set_option maxHeartbeats 4000000 in
theorem val10_main_arg0 (V : Valuation τ sig (Elt F)) : val10 V (no_index (main_arg0 : DevRef τ sig)) = V (main_arg0 : DevRef τ sig) := by
  unfold val10
  simp only [seg10, seg10a, List.cons_append, List.nil_append]
  after_results_simp
  exact val9_main_arg0 V

set_option maxRecDepth 65536 in
set_option maxHeartbeats 4000000 in
theorem val10_main_arg1 (V : Valuation τ sig (Elt F)) : val10 V (no_index (main_arg1 : DevRef τ sig)) = V (main_arg1 : DevRef τ sig) := by
  unfold val10
  simp only [seg10, seg10a, List.cons_append, List.nil_append]
  after_results_simp
  exact val9_main_arg1 V

set_option maxRecDepth 65536 in
set_option maxHeartbeats 4000000 in
theorem val10_main_arg2 (V : Valuation τ sig (Elt F)) : val10 V (no_index (main_arg2 : DevRef τ sig)) = V (main_arg2 : DevRef τ sig) := by
  unfold val10
  simp only [seg10, seg10a, List.cons_append, List.nil_append]
  after_results_simp
  exact val9_main_arg2 V

set_option maxRecDepth 65536 in
set_option maxHeartbeats 4000000 in
theorem val10_main_arg3 (V : Valuation τ sig (Elt F)) : val10 V (no_index (main_arg3 : DevRef τ sig)) = V (main_arg3 : DevRef τ sig) := by
  unfold val10
  simp only [seg10, seg10a, List.cons_append, List.nil_append]
  after_results_simp
  exact val9_main_arg3 V

set_option maxRecDepth 65536 in
set_option maxHeartbeats 4000000 in
theorem val10_main_arg4 (V : Valuation τ sig (Elt F)) : val10 V (no_index (main_arg4 : DevRef τ sig)) = V (main_arg4 : DevRef τ sig) := by
  unfold val10
  simp only [seg10, seg10a, List.cons_append, List.nil_append]
  after_results_simp
  exact val9_main_arg4 V

set_option maxRecDepth 65536 in
set_option maxHeartbeats 4000000 in
theorem val10_main_arg5 (V : Valuation τ sig (Elt F)) : val10 V (no_index (main_arg5 : DevRef τ sig)) = V (main_arg5 : DevRef τ sig) := by
  unfold val10
  simp only [seg10, seg10a, List.cons_append, List.nil_append]
  after_results_simp
  exact val9_main_arg5 V

set_option maxRecDepth 65536 in
set_option maxHeartbeats 4000000 in
theorem val10_main_arg6 (V : Valuation τ sig (Elt F)) : val10 V (no_index (main_arg6 : DevRef τ sig)) = V (main_arg6 : DevRef τ sig) := by
  unfold val10
  simp only [seg10, seg10a, List.cons_append, List.nil_append]
  after_results_simp
  exact val9_main_arg6 V

set_option maxRecDepth 65536 in
set_option maxHeartbeats 4000000 in
theorem val10_main_arg7 (V : Valuation τ sig (Elt F)) : val10 V (no_index (main_arg7 : DevRef τ sig)) = V (main_arg7 : DevRef τ sig) := by
  unfold val10
  simp only [seg10, seg10a, List.cons_append, List.nil_append]
  after_results_simp
  exact val9_main_arg7 V

set_option maxRecDepth 65536 in
set_option maxHeartbeats 4000000 in
theorem val10_main_v16 (V : Valuation τ sig (Elt F)) : val10 V (no_index (main_v16 : DevRef τ sig)) = rE (V (main_arg0 : DevRef τ sig)) (V (main_arg1 : DevRef τ sig)) := by
  unfold val10
  simp only [seg10, seg10a, List.cons_append, List.nil_append]
  after_results_simp
  exact val9_main_v16 V

set_option maxRecDepth 65536 in
set_option maxHeartbeats 4000000 in
theorem val10_main_v17 (V : Valuation τ sig (Elt F)) : val10 V (no_index (main_v17 : DevRef τ sig)) = rGram (rE (V (main_arg0 : DevRef τ sig)) (V (main_arg1 : DevRef τ sig))) := by
  unfold val10
  simp only [seg10, seg10a, List.cons_append, List.nil_append]
  after_results_simp
  exact val9_main_v17 V

set_option maxRecDepth 65536 in
set_option maxHeartbeats 4000000 in
theorem val10_main_v50 (V : Valuation τ sig (Elt F)) : val10 V (no_index (main_v50 : DevRef τ sig)) = rJoin (F := F) (rRow (rFlat (rBins (F := F) (rCum (rMask (F := F)))))) (rCol (rFlat (rBins (F := F) (rCum (rMask (F := F)))))) := by
  unfold val10
  simp only [seg10, seg10a, List.cons_append, List.nil_append]
  after_results_simp
  exact val9_main_v50 V

set_option maxRecDepth 65536 in
set_option maxHeartbeats 4000000 in
theorem seg10_main_v53 (W : Valuation τ sig (Elt F)) : after seg10 W (no_index (main_v53 : DevRef τ sig)) = rH (W (main_v16 : DevRef τ sig)) (W (main_v17 : DevRef τ sig)) (W (main_v50 : DevRef τ sig)) := by
  refine (after_snoc_binary _ _ _ _ seg10a W (A := ?A) (B := ?B) ?hA ?hB).trans ?_
  case hA => simp only [seg10a]; after_results_simp; rfl
  case hB => simp only [seg10a]; after_results_simp; rfl
  rfl

theorem val10_main_v53 (V : Valuation τ sig (Elt F)) : val10 V (no_index (main_v53 : DevRef τ sig)) = rH (rE (V (main_arg0 : DevRef τ sig)) (V (main_arg1 : DevRef τ sig))) (rGram (rE (V (main_arg0 : DevRef τ sig)) (V (main_arg1 : DevRef τ sig)))) (rJoin (F := F) (rRow (rFlat (rBins (F := F) (rCum (rMask (F := F)))))) (rCol (rFlat (rBins (F := F) (rCum (rMask (F := F))))))) := by
  unfold val10
  rw [seg10_main_v53, val9_main_v16, val9_main_v17, val9_main_v50]

set_option maxRecDepth 65536 in
set_option maxHeartbeats 4000000 in
theorem val11_main_arg0 (V : Valuation τ sig (Elt F)) : val11 V (no_index (main_arg0 : DevRef τ sig)) = V (main_arg0 : DevRef τ sig) := by
  unfold val11
  simp only [seg11]
  after_results_simp
  exact val10_main_arg0 V

set_option maxRecDepth 65536 in
set_option maxHeartbeats 4000000 in
theorem val11_main_arg1 (V : Valuation τ sig (Elt F)) : val11 V (no_index (main_arg1 : DevRef τ sig)) = V (main_arg1 : DevRef τ sig) := by
  unfold val11
  simp only [seg11]
  after_results_simp
  exact val10_main_arg1 V

set_option maxRecDepth 65536 in
set_option maxHeartbeats 4000000 in
theorem val11_main_arg2 (V : Valuation τ sig (Elt F)) : val11 V (no_index (main_arg2 : DevRef τ sig)) = V (main_arg2 : DevRef τ sig) := by
  unfold val11
  simp only [seg11]
  after_results_simp
  exact val10_main_arg2 V

set_option maxRecDepth 65536 in
set_option maxHeartbeats 4000000 in
theorem val11_main_arg3 (V : Valuation τ sig (Elt F)) : val11 V (no_index (main_arg3 : DevRef τ sig)) = V (main_arg3 : DevRef τ sig) := by
  unfold val11
  simp only [seg11]
  after_results_simp
  exact val10_main_arg3 V

set_option maxRecDepth 65536 in
set_option maxHeartbeats 4000000 in
theorem val11_main_arg4 (V : Valuation τ sig (Elt F)) : val11 V (no_index (main_arg4 : DevRef τ sig)) = V (main_arg4 : DevRef τ sig) := by
  unfold val11
  simp only [seg11]
  after_results_simp
  exact val10_main_arg4 V

set_option maxRecDepth 65536 in
set_option maxHeartbeats 4000000 in
theorem val11_main_arg5 (V : Valuation τ sig (Elt F)) : val11 V (no_index (main_arg5 : DevRef τ sig)) = V (main_arg5 : DevRef τ sig) := by
  unfold val11
  simp only [seg11]
  after_results_simp
  exact val10_main_arg5 V

set_option maxRecDepth 65536 in
set_option maxHeartbeats 4000000 in
theorem val11_main_arg6 (V : Valuation τ sig (Elt F)) : val11 V (no_index (main_arg6 : DevRef τ sig)) = V (main_arg6 : DevRef τ sig) := by
  unfold val11
  simp only [seg11]
  after_results_simp
  exact val10_main_arg6 V

set_option maxRecDepth 65536 in
set_option maxHeartbeats 4000000 in
theorem val11_main_arg7 (V : Valuation τ sig (Elt F)) : val11 V (no_index (main_arg7 : DevRef τ sig)) = V (main_arg7 : DevRef τ sig) := by
  unfold val11
  simp only [seg11]
  after_results_simp
  exact val10_main_arg7 V

set_option maxRecDepth 65536 in
set_option maxHeartbeats 4000000 in
theorem val11_main_v73 (V : Valuation τ sig (Elt F)) : val11 V (no_index (main_v73 : DevRef τ sig)) = rMLP (rH (rE (V (main_arg0 : DevRef τ sig)) (V (main_arg1 : DevRef τ sig))) (rGram (rE (V (main_arg0 : DevRef τ sig)) (V (main_arg1 : DevRef τ sig)))) (rJoin (F := F) (rRow (rFlat (rBins (F := F) (rCum (rMask (F := F)))))) (rCol (rFlat (rBins (F := F) (rCum (rMask (F := F)))))))) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  unfold val11
  simp only [seg11]
  after_results_simp
  simp only [val10_main_v53, val10_main_arg2, val10_main_arg3, val10_main_arg4, val10_main_arg5, val10_main_arg6, val10_main_arg7] <;> rfl

/-- The fold of all the operations, read at the result buffer, is the stages' composition. -/
theorem out_eq (V : Valuation τ sig (Elt F)) : after ops V (main_v73 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  rw [after_ops, val11_main_v73]
  unfold refOut rPairs
  simp only [rIdx_eq]

/-- No operation writes argument 0. -/
theorem arg0_eq (V : Valuation τ sig (Elt F)) : after ops V (main_arg0 : DevRef τ sig) = V (main_arg0 : DevRef τ sig) := by
  rw [after_ops, val11_main_arg0]

/-- No operation writes argument 1. -/
theorem arg1_eq (V : Valuation τ sig (Elt F)) : after ops V (main_arg1 : DevRef τ sig) = V (main_arg1 : DevRef τ sig) := by
  rw [after_ops, val11_main_arg1]

/-- No operation writes argument 2. -/
theorem arg2_eq (V : Valuation τ sig (Elt F)) : after ops V (main_arg2 : DevRef τ sig) = V (main_arg2 : DevRef τ sig) := by
  rw [after_ops, val11_main_arg2]

/-- No operation writes argument 3. -/
theorem arg3_eq (V : Valuation τ sig (Elt F)) : after ops V (main_arg3 : DevRef τ sig) = V (main_arg3 : DevRef τ sig) := by
  rw [after_ops, val11_main_arg3]

/-- No operation writes argument 4. -/
theorem arg4_eq (V : Valuation τ sig (Elt F)) : after ops V (main_arg4 : DevRef τ sig) = V (main_arg4 : DevRef τ sig) := by
  rw [after_ops, val11_main_arg4]

/-- No operation writes argument 5. -/
theorem arg5_eq (V : Valuation τ sig (Elt F)) : after ops V (main_arg5 : DevRef τ sig) = V (main_arg5 : DevRef τ sig) := by
  rw [after_ops, val11_main_arg5]

/-- No operation writes argument 6. -/
theorem arg6_eq (V : Valuation τ sig (Elt F)) : after ops V (main_arg6 : DevRef τ sig) = V (main_arg6 : DevRef τ sig) := by
  rw [after_ops, val11_main_arg6]

/-- No operation writes argument 7. -/
theorem arg7_eq (V : Valuation τ sig (Elt F)) : after ops V (main_arg7 : DevRef τ sig) = V (main_arg7 : DevRef τ sig) := by
  rw [after_ops, val11_main_arg7]

end Cert.ReferenceIdeal.RefRun

end
-- ==== Proof.RefRun.lean ====
/-
  The reference program's run: @main is a straight line of host operations (its callees' operations written out at
  their call sites), so every weakly fair execution ends with each buffer at the fold of those operations over the
  launch contents; the result buffer then holds the composed function of the arguments.
-/
import proofs.«401391_j12421045420606_1_alg».proof.Proof.RefSegsB

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- @main is that straight line: the callees' definitions unfolded at their calls and the records at their fields,
    both sides are one chain of steps once sequencing is reassociated. -/
theorem main_eq (c : Dev nD) : main (F := F) c = seq ops := by
  simp only [main, main_part0, main_part1, fn_triu.body, fn_cumsum.body, fn_cumsum_0.body, fn_clip.body, fn_cumsum_1.body,
    fn_cumsum_2.body, fn_floor_divide.body, fn_where.body, fn_remainder.body, fn_where_3.body, fn_relu.body, fn_relu_4.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every weakly fair execution of the reference's @main terminates with the result buffer at the composed function of
    the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v73) = refOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v73).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _)⟩)
    (run_seq scopedRefs_eq scopedSems_eq defs main (fun _ => ops) main_eq (fun _ => ops_sub) m ρ)

end Cert.ReferenceIdeal.RefRun

end
-- ==== Proof.RefStages.lean ====
/-
  The reference program's first stages read at an index: the embedding rows its first gather selects, the batched
  inner products of a row's field vectors, and the perceptron's input (the flattened embeddings followed by the
  upper-triangle products).

  A gather's operand index is computed coordinate by coordinate from its dimension numbers: on an axis the start index
  map names, the start index read signed and clamped; on an offset axis, the result's own coordinate. The index words
  met here are small and non-negative, so neither the wrap of negative indices nor the clamp changes them.
-/
import proofs.«401391_j12421045420606_1_alg».proof.Proof.RefOps
import proofs.«401391_j12421045420606_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Idealize.SL.Sem
open Cert.Spec Cert.ReferenceIdeal Cert.ReferenceIdeal.RefRun
open scoped BigOperators

/-! ## Words -/

/-- A field number written as a 32-bit word reads back, signed and clamped into the 32 fields, as itself. -/
private theorem clamp_field : ∀ n : Fin 32, min (BitVec.ofNat 32 n.val).toInt.toNat 31 = n.val := by decide

/-- A field number is not negative as a signed word, so the wrap of negative indices keeps it. -/
private theorem wrap_field : ∀ n : Fin 32,
    Scalar.select (IntOp.cmpi .slt (BitVec.ofNat 32 n.val) 0#32) (IntOp.addi (BitVec.ofNat 32 n.val) 32#32)
      (BitVec.ofNat 32 n.val) = BitVec.ofNat 32 n.val := by decide

/-- A word below 1000 read unsigned is not negative read signed: the wrap of negative indices keeps it, and read
    signed it is the same number. -/
private theorem wrap_row (w : BitVec 32) (hw : w.toNat < 1000) :
    Scalar.select (IntOp.cmpi .slt w 0#32) (IntOp.addi w 1000#32) w = w ∧ w.toInt.toNat = w.toNat := by
  have hi : w.toInt = (w.toNat : Int) := BitVec.toInt_eq_toNat_of_lt (by omega)
  constructor
  · have hs : w.slt 0#32 = false := by
      rw [BitVec.slt_eq_decide, hi]
      simp
    simp [Scalar.select, IntOp.cmpi, hs]
  · rw [hi]; rfl

/-! ## The embedding rows -/

private abbrev GE := gather_S32x1000x64_S8192x32x2_S8192x32x64_2_01_n_n_01_2_1164

/-- The first gather read at (b, f, d): entry `d` of the table row whose table number and row number are the two
    start indices at (b, f), each read signed and clamped into its axis. -/
private theorem GE_apply (T : FVec Ideal S32x1000x64 .f32) (idx : IVec S8192x32x2 32) (b : Fin 8192) (f : Fin 32)
    (d : Fin 64) :
    Host.gather GE T idx (ix3 b f d) =
      T (ix3 ⟨min (idx (ix3 b f 0)).toInt.toNat 31, by omega⟩ ⟨min (idx (ix3 b f 1)).toInt.toNat 999, by omega⟩ d) := by
  unfold Host.gather
  refine congrArg T (funext fun a => Fin.ext ?_)
  match a with
  | ⟨0, _⟩ =>
    show (GE).start (ix3 b f d) idx 0 + (GE).batchCoord (ix3 b f d) 0 + (GE).offCoord (ix3 b f d) 0 = _
    rw [GatherDims.batchCoord_eq_zero _ _ _ List.not_mem_nil,
      GatherDims.offCoord_eq_zero _ _ _ (fun h => ((GatherDims.mem_sKept _ _).mp h).1 (by decide))]
    unfold GatherDims.start
    rw [dif_pos (show (0 : Fin 3) ∈ (GE).startIndexMap by decide)]
    have hsi : (GE).siIdx (ix3 b f d) ⟨List.idxOf (0 : Fin 3) (GE).startIndexMap,
        List.idxOf_lt_length_iff.2 (by decide)⟩ = ix3 b f 0 := by
      funext c; refine Fin.ext ?_
      match c with
      | ⟨0, _⟩ => rfl
      | ⟨1, _⟩ => rfl
      | ⟨2, _⟩ => rfl
    rw [hsi]
    rfl
  | ⟨1, _⟩ =>
    show (GE).start (ix3 b f d) idx 1 + (GE).batchCoord (ix3 b f d) 1 + (GE).offCoord (ix3 b f d) 1 = _
    rw [GatherDims.batchCoord_eq_zero _ _ _ List.not_mem_nil,
      GatherDims.offCoord_eq_zero _ _ _ (fun h => ((GatherDims.mem_sKept _ _).mp h).1 (by decide))]
    unfold GatherDims.start
    rw [dif_pos (show (1 : Fin 3) ∈ (GE).startIndexMap by decide)]
    have hsi : (GE).siIdx (ix3 b f d) ⟨List.idxOf (1 : Fin 3) (GE).startIndexMap,
        List.idxOf_lt_length_iff.2 (by decide)⟩ = ix3 b f 1 := by
      funext c; refine Fin.ext ?_
      match c with
      | ⟨0, _⟩ => rfl
      | ⟨1, _⟩ => rfl
      | ⟨2, _⟩ => rfl
    rw [hsi]
    rfl
  | ⟨2, _⟩ =>
    show (GE).start (ix3 b f d) idx 2 + (GE).batchCoord (ix3 b f d) 2 + (GE).offCoord (ix3 b f d) 2 = d.val
    rw [GatherDims.batchCoord_eq_zero _ _ _ List.not_mem_nil]
    unfold GatherDims.start GatherDims.offCoord
    rw [dif_neg (show (2 : Fin 3) ∉ (GE).startIndexMap by decide), dif_pos (show (2 : Fin 3) ∈ (GE).sKept by decide),
      Nat.zero_add]
    rfl

/-- The first gather reads, for batch row `b` and field `f`, row `x[b, f]` of table `f`: the start indices at (b, f) are
    the field number and the index word, the one a small number, the other below 1000 on the admitted inputs. -/
theorem rE_apply (x : IVec S8192x32 32) (T : FVec Ideal S32x1000x64 .f32) (hx : Cert.Spec.InRange x)
    (b : Fin 8192) (f : Fin 32) (d : Fin 64) :
    rE (F := Ideal) x T (ix3 b f d) = Cert.Spec.emb x T b f d := by
  show Host.gather GE T _ (ix3 b f d) = _
  rw [GE_apply]
  unfold Cert.Spec.emb
  refine congrArg T (funext fun a => Fin.ext ?_)
  match a with
  | ⟨0, _⟩ =>
    show min (BitVec.toInt _).toNat 31 = f.val
    refine Eq.trans ?_ (clamp_field f)
    refine congrArg (fun w : BitVec 32 => min w.toInt.toNat 31) ?_
    refine (concatenate_pair_apply_left (t := S8192x32x2) (s₁ := S8192x32x1) (s₂ := S8192x32x1) (2 : Fin 3) _ _ _
      (ix3 b f 0) rfl (ix3 b f (0 : Fin 1)) (fun c => match c with | ⟨0, _⟩ => rfl | ⟨1, _⟩ => rfl | ⟨2, _⟩ => rfl)).trans ?_
    refine (broadcastInDim_apply _ _ _ (ix3 b f (0 : Fin 1)) (ix2 b f)
      (fun c => match c with | ⟨0, _⟩ => rfl | ⟨1, _⟩ => rfl)).trans ?_
    refine (broadcastInDim_apply _ _ _ (ix2 b f) (ix2 (0 : Fin 1) f)
      (fun c => match c with | ⟨0, _⟩ => rfl | ⟨1, _⟩ => rfl)).trans ?_
    exact wrap_field f
  | ⟨1, _⟩ =>
    show min (BitVec.toInt _).toNat 999 = min (x (ix2 b f)).toNat 999
    have hw := wrap_row (x (ix2 b f)) (hx (ix2 b f))
    refine Eq.trans ?_ (congrArg (fun n => min n 999) hw.2)
    refine congrArg (fun w : BitVec 32 => min w.toInt.toNat 999) ?_
    refine (concatenate_pair_apply_right (t := S8192x32x2) (s₁ := S8192x32x1) (s₂ := S8192x32x1) (2 : Fin 3) _ _ _
      (ix3 b f 1) rfl rfl (ix3 b f (0 : Fin 1))
      (fun c => match c with | ⟨0, _⟩ => fun _ => rfl | ⟨1, _⟩ => fun _ => rfl | ⟨2, _⟩ => fun hne => absurd rfl hne) rfl).trans ?_
    refine (broadcastInDim_apply _ _ _ (ix3 b f (0 : Fin 1)) (ix2 b f)
      (fun c => match c with | ⟨0, _⟩ => rfl | ⟨1, _⟩ => rfl)).trans ?_
    exact hw.1
  | ⟨2, _⟩ => rfl

/-! ## The inner products -/

private abbrev DG := dot_S8192x32x64_S8192x32x64_S8192x32x32_2_2_1_1_0_0

private theorem DG_rank : (DG).contr.rank = 1 := rfl
private theorem DG_size : (DG).contr.size ⟨0, by rw [DG_rank]; exact Nat.one_pos⟩ = 64 := rfl

private theorem DG_lhs (b : Fin 8192) (i j : Fin 32) (k : (DG).contr.Idx) :
    (DG).lhsIdx (ix3 b i j) k = ix3 b i (contrEquiv1 DG 64 DG_rank DG_size k) := by
  funext a
  refine Fin.ext ?_
  match a with
  | ⟨0, _⟩ => rfl
  | ⟨1, _⟩ => rfl
  | ⟨2, _⟩ => exact (DotDims.lhsIdx_val_of_single DG (cl := 2) rfl (ix3 b i j) k)

private theorem DG_rhs (b : Fin 8192) (i j : Fin 32) (k : (DG).contr.Idx) :
    (DG).rhsIdx (ix3 b i j) k = ix3 b j (contrEquiv1 DG 64 DG_rank DG_size k) := by
  funext a
  refine Fin.ext ?_
  match a with
  | ⟨0, _⟩ => rfl
  | ⟨1, _⟩ => rfl
  | ⟨2, _⟩ => exact (DotDims.rhsIdx_val_of_single DG (cr := 2) rfl (ix3 b i j) k)

/-- The batched product: entry (b, i, j) is the inner product of fields `i` and `j` of row `b`. The contraction runs
    over one axis of 64, re-indexed by its one coordinate. -/
theorem rGram_apply (e : FVec Ideal S8192x32x64 .f32) (b : Fin 8192) (i j : Fin 32) :
    rGram (F := Ideal) e (ix3 b i j) = ∑ d : Fin 64, e (ix3 b i d) * e (ix3 b j d) := by
  show FloatOps.dotGeneral DG none .single e e (ix3 b i j) = _
  rw [Ideal.dotGeneral_apply]
  simp only [DG_lhs, DG_rhs]
  exact Equiv.sum_comp (contrEquiv1 DG 64 DG_rank DG_size) (fun d => e (ix3 b i d) * e (ix3 b j d))

/-! ## The perceptron's input -/

private abbrev GH := gather_S8192x32x32_S496x2_S8192x496_0_12_n_n_12_1_819211

/-- The second gather read at (b, p): the gram entry of row `b` at the two start indices of pair `p`, each read signed
    and clamped into the 32 fields. -/
private theorem GH_apply (g : FVec Ideal S8192x32x32 .f32) (pairs : IVec S496x2 32) (b : Fin 8192) (p : Fin 496) :
    Host.gather GH g pairs (ix2 b p) =
      g (ix3 b ⟨min (pairs (ix2 p 0)).toInt.toNat 31, by omega⟩ ⟨min (pairs (ix2 p 1)).toInt.toNat 31, by omega⟩) := by
  unfold Host.gather
  refine congrArg g (funext fun a => Fin.ext ?_)
  match a with
  | ⟨0, _⟩ =>
    show (GH).start (ix2 b p) pairs 0 + (GH).batchCoord (ix2 b p) 0 + (GH).offCoord (ix2 b p) 0 = b.val
    rw [GatherDims.batchCoord_eq_zero _ _ _ List.not_mem_nil]
    unfold GatherDims.start GatherDims.offCoord
    rw [dif_neg (show (0 : Fin 3) ∉ (GH).startIndexMap by decide), dif_pos (show (0 : Fin 3) ∈ (GH).sKept by decide),
      Nat.zero_add]
    rfl
  | ⟨1, _⟩ =>
    show (GH).start (ix2 b p) pairs 1 + (GH).batchCoord (ix2 b p) 1 + (GH).offCoord (ix2 b p) 1 = _
    rw [GatherDims.batchCoord_eq_zero _ _ _ List.not_mem_nil,
      GatherDims.offCoord_eq_zero _ _ _ (fun h => ((GatherDims.mem_sKept _ _).mp h).1 (by decide))]
    unfold GatherDims.start
    rw [dif_pos (show (1 : Fin 3) ∈ (GH).startIndexMap by decide)]
    have hsi : (GH).siIdx (ix2 b p) ⟨List.idxOf (1 : Fin 3) (GH).startIndexMap,
        List.idxOf_lt_length_iff.2 (by decide)⟩ = ix2 p 0 := by
      funext c; refine Fin.ext ?_
      match c with
      | ⟨0, _⟩ => rfl
      | ⟨1, _⟩ => rfl
    rw [hsi]
    rfl
  | ⟨2, _⟩ =>
    show (GH).start (ix2 b p) pairs 2 + (GH).batchCoord (ix2 b p) 2 + (GH).offCoord (ix2 b p) 2 = _
    rw [GatherDims.batchCoord_eq_zero _ _ _ List.not_mem_nil,
      GatherDims.offCoord_eq_zero _ _ _ (fun h => ((GatherDims.mem_sKept _ _).mp h).1 (by decide))]
    unfold GatherDims.start
    rw [dif_pos (show (2 : Fin 3) ∈ (GH).startIndexMap by decide)]
    have hsi : (GH).siIdx (ix2 b p) ⟨List.idxOf (2 : Fin 3) (GH).startIndexMap,
        List.idxOf_lt_length_iff.2 (by decide)⟩ = ix2 p 1 := by
      funext c; refine Fin.ext ?_
      match c with
      | ⟨0, _⟩ => rfl
      | ⟨1, _⟩ => rfl
    rw [hsi]
    rfl

/-- The perceptron's input: the first 2048 entries are the row's embeddings laid side by side (the reshape keeps
    row-major order: entry 64 f + d is field `f`'s entry `d`), the last 496 are the gram entries at the pairs the index
    table names. -/
theorem rH_apply (e : FVec Ideal S8192x32x64 .f32) (g : FVec Ideal S8192x32x32 .f32) (pairs : IVec S496x2 32)
    (hp : ∀ p : Fin 496, pairs (ix2 p 0) = BitVec.ofNat 32 (Cert.Spec.pairI p).val
      ∧ pairs (ix2 p 1) = BitVec.ofNat 32 (Cert.Spec.pairJ p).val)
    (b : Fin 8192) (i : Fin 2544) :
    rH (F := Ideal) e g pairs (ix2 b i) =
      if h : i.val < 2048 then e (ix3 b ⟨i.val / 64, by omega⟩ ⟨i.val % 64, Nat.mod_lt _ (by decide)⟩)
      else g (ix3 b (Cert.Spec.pairI ⟨i.val - 2048, by omega⟩) (Cert.Spec.pairJ ⟨i.val - 2048, by omega⟩)) := by
  show concatenate S8192x2544 1 [⟨S8192x2048, shapeCast S8192x2048 e Gen.shapeCasts_S8192x32x64_S8192x2048⟩,
    ⟨S8192x496, Host.gather GH g pairs⟩] Gen.concatenates_S8192x2048_S8192x496_S8192x2544_d1 (ix2 b i) = _
  by_cases h : i.val < 2048
  · rw [dif_pos h]
    refine (concatenate_pair_apply_left (t := S8192x2544) (s₁ := S8192x2048) (s₂ := S8192x496) (1 : Fin 2) _ _ _ (ix2 b i) rfl
      (ix2 b (⟨i.val, h⟩ : Fin 2048))
      (fun a => match a with | ⟨0, _⟩ => rfl | ⟨1, _⟩ => rfl)).trans ?_
    refine shapeCast_apply e _ _ _ ?_
    rw [Shape.rowMajor_val_three, Shape.rowMajor_val_two]
    show (b.val * 32 + i.val / 64) * 64 + i.val % 64 = b.val * 2048 + i.val
    omega
  · rw [dif_neg h]
    have hi := i.isLt
    refine (concatenate_pair_apply_right (t := S8192x2544) (s₁ := S8192x2048) (s₂ := S8192x496) (1 : Fin 2) _ _ _ (ix2 b i) rfl rfl
      (ix2 b (⟨i.val - 2048, by omega⟩ : Fin 496))
      (fun a => match a with | ⟨0, _⟩ => fun _ => rfl | ⟨1, _⟩ => fun hne => absurd rfl hne) ?_).trans ?_
    · show i.val - 2048 + 2048 = i.val
      omega
    · rw [GH_apply]
      refine congrArg g ?_
      have h0 := (hp ⟨i.val - 2048, by omega⟩).1
      have h1 := (hp ⟨i.val - 2048, by omega⟩).2
      funext a
      refine Fin.ext ?_
      match a with
      | ⟨0, _⟩ => rfl
      | ⟨1, _⟩ =>
        show min (pairs (ix2 ⟨i.val - 2048, _⟩ 0)).toInt.toNat 31 = _
        rw [h0]; exact clamp_field _
      | ⟨2, _⟩ =>
        show min (pairs (ix2 ⟨i.val - 2048, _⟩ 1)).toInt.toNat 31 = _
        rw [h1]; exact clamp_field _

end Cert.ReferenceIdeal.RefValue

end
-- ==== Proof.RefPairs.lean ====
/-
  What the reference program's table of index pairs holds: row p is the p-th pair (i, j), i < j < 32, in row-major
  order. The program builds the table by a search: a mask of the strict upper triangle, flattened; its inclusive
  cumulative count c; a histogram of c into 496 bins (positions past the last set entry fall outside and are dropped);
  the inclusive cumulative sum of the histogram, which at p counts the positions with c ≤ p. Since c is monotone and
  steps by one at each set entry, that count is the position of the (p+1)-th set entry; its quotient and remainder
  by 32 are the pair.
-/
import proofs.«401391_j12421045420606_1_alg».proof.Proof.Spec
import proofs.«401391_j12421045420606_1_alg».proof.Proof.RefOps
import Idealize.ShloMosaic.Lib.StableHlo.Predicate
import Idealize.ShloMosaic.Lib.Pipeline.Value

noncomputable section

namespace Cert.ReferenceIdeal.RefValue

open Cert.Spec Idealize.ShloMosaic Idealize.ShloMosaic.ValueIdx
open Cert.ReferenceIdeal
open scoped BigOperators

/-! ## A rank-1 shape's row-major enumeration is its coordinate -/

theorem numel1 (n : Nat) : (⟨1, ![n]⟩ : Shape).numel = n := by simp [Shape.numel]

theorem rowMajor_symm1 (n : Nat) (m : Fin (⟨1, ![n]⟩ : Shape).numel) :
    (⟨1, ![n]⟩ : Shape).rowMajor.symm m = ix1 (m.cast (numel1 n)) := by
  rw [Equiv.symm_apply_eq]; apply Fin.ext; rw [Shape.rowMajor_val_one]; rfl

/-- A left fold of word additions of small numbers is the word of their sum. -/
theorem foldl_add_ofNat {κ : Type} (g : κ → Nat) (l : List κ) (a : Nat) :
    l.foldl (fun r k => IntOp.addi r (BitVec.ofNat 32 (g k))) (BitVec.ofNat 32 a) = BitVec.ofNat 32 (a + (l.map g).sum) := by
  induction l generalizing a with
  | nil => simp
  | cons k l ih =>
    simp only [List.foldl_cons, List.map_cons, List.sum_cons]
    rw [show IntOp.addi (BitVec.ofNat 32 a) (BitVec.ofNat 32 (g k)) = BitVec.ofNat 32 (a + g k) from (BitVec.ofNat_add _ _).symm, ih]
    congr 1; omega

/-- An inclusive cumulative sum written as a window of the whole length, padded below with zeros, read at a position:
    the sum of the entries up to that position. -/
theorem cumsum_apply (n : Nat) (x : IVec ⟨1, ![n]⟩ 32) (init : IVec ⟨0, ![]⟩ 32)
    (h : (⟨1, ![n]⟩ : Shape).ReduceWindows ![n] ![1] ![n - 1] ![0] ⟨1, ![n]⟩) (hu : 0 < (⟨0, ![]⟩ : Shape).numel)
    (xn : Nat → Nat) (hx : ∀ i : Fin n, x (ix1 i) = BitVec.ofNat 32 (xn i.val)) (hinit : ∀ i, init i = 0#32) (j : Fin n) :
    Host.reduceWindow IntOp.addi ![n] ![1] ![n - 1] ![0] x init h hu (ix1 j)
      = BitVec.ofNat 32 (∑ i ∈ Finset.range (j.val + 1), xn i) := by
  have hj := j.isLt
  unfold Host.reduceWindow
  dsimp only []
  rw [hinit]
  refine (List.foldl_ext _ (fun r m => IntOp.addi r (BitVec.ofNat 32
      (if n - 1 ≤ j.val + m.val then xn (j.val + m.val - (n - 1)) else 0))) _ ?_).trans ?_
  · intro r m _
    congr 1
    have hm : m.val < n := lt_of_lt_of_eq m.isLt (numel1 n)
    have hp : ∀ a : Fin 1, (ix1 j (Fin.cast h.1.symm a)).val * (![1] : Fin 1 → Nat) a
        + ((⟨1, ![n]⟩ : Shape).rowMajor.symm m a).val = j.val + m.val := by
      intro a
      match a with
      | ⟨0, _⟩ => rw [rowMajor_symm1]; show j.val * 1 + m.val = j.val + m.val; omega
    simp only [hp]
    by_cases hc : n - 1 ≤ j.val + m.val
    · rw [dif_pos (by intro a; match a with | ⟨0, _⟩ => exact ⟨hc, by show j.val + m.val - (n - 1) < n; omega⟩),
        if_pos hc, ← hx ⟨j.val + m.val - (n - 1), by omega⟩]
      congr 1; funext a; match a with | ⟨0, _⟩ => rfl
    · rw [dif_neg (fun hin => hc (hin 0).1), if_neg hc]
  · refine (foldl_add_ofNat (fun m : Fin (⟨1, ![n]⟩ : Shape).numel =>
        if n - 1 ≤ j.val + m.val then xn (j.val + m.val - (n - 1)) else 0) _ 0).trans ?_
    congr 1
    rw [Nat.zero_add, ← Fin.sum_univ_def,
      Fin.sum_univ_eq_sum_range (fun m => if n - 1 ≤ j.val + m then xn (j.val + m - (n - 1)) else 0), numel1,
      ← Finset.sum_filter]
    refine Finset.sum_nbij' (fun m => j.val + m - (n - 1)) (fun i => i + (n - 1) - j.val) ?_ ?_ ?_ ?_ ?_
    all_goals intro a ha; simp only [Finset.mem_filter, Finset.mem_range] at ha ⊢
    all_goals first | omega | (constructor <;> omega)

/-- A fold of the step "add one to the element the update lands on; drop the update when it lands nowhere", read at an
    element: what was there plus the number of updates that land on it. -/
theorem foldl_scatter_count {I K : Type} [DecidableEq I] (R : K → Option I)
    (step : (I → BitVec 32) → K → (I → BitVec 32))
    (hsome : ∀ r n i, R n = some i → step r n = fun i' => if i' = i then IntOp.addi (r i) 1#32 else r i')
    (hnone : ∀ r n, R n = none → step r n = r) (l : List K) (a : I → Nat) (i' : I) :
    (l.foldl step fun i => BitVec.ofNat 32 (a i)) i'
      = BitVec.ofNat 32 (a i' + l.countP fun n => decide (R n = some i')) := by
  induction l generalizing a with
  | nil => simp
  | cons n l ih =>
    rw [List.foldl_cons, List.countP_cons]
    cases hR : R n with
    | none =>
      rw [hnone _ _ hR, ih]
      simp
    | some i =>
      have hstep : step (fun i => BitVec.ofNat 32 (a i)) n
          = fun i'' => BitVec.ofNat 32 (if i'' = i then a i + 1 else a i'') := by
        rw [hsome _ _ _ hR]; funext i''
        by_cases hi : i'' = i
        · rw [if_pos hi, if_pos hi]; exact (BitVec.ofNat_add _ _).symm
        · rw [if_neg hi, if_neg hi]
      rw [hstep, ih]
      congr 1
      by_cases hi : i' = i
      · subst hi; simp; omega
      · have : ¬ (some i = some i') := fun h => hi (Option.some.inj h).symm
        simp [hi, this]

/-- The one scatter of the program: where update k lands. Its start is the k-th index word read signed. -/
theorem start_eq (idx : IVec S1024x1 32) (k : Fin 1024) (a : Fin 1) :
    scatter_S496_S1024x1_S1024_n_0_0_1.start (ix1 k : S1024.Idx) idx a = (idx (ix2 k 0)).toInt := by
  obtain rfl : a = (0 : Fin 1) := Subsingleton.elim _ _
  unfold ScatterDims.start
  rw [dif_pos (by decide)]
  congr 2
  funext b
  match b with
  | ⟨0, _⟩ => rfl
  | ⟨1, _⟩ => rfl

/-- It has no window axis. -/
theorem window_eq (k : Fin 1024) (a : Fin 1) :
    scatter_S496_S1024x1_S1024_n_0_0_1.window (ix1 k : S1024.Idx) a = 0 := by
  obtain rfl : a = (0 : Fin 1) := Subsingleton.elim _ _
  unfold ScatterDims.window
  rw [dif_neg (by decide)]

/-- Update k lands on bin c when its index word reads c < 496 signed, and nowhere when it reads 496 or more. -/
theorem resultIdx_eq (idx : IVec S1024x1 32) (k : Fin 1024) (c : Nat) (h : (idx (ix2 k 0)).toInt = (c : Int)) :
    scatter_S496_S1024x1_S1024_n_0_0_1.resultIdx? (ix1 k : S1024.Idx) idx
      = if hc : c < 496 then some (ix1 ⟨c, hc⟩ : S496.Idx) else none := by
  unfold ScatterDims.resultIdx?
  simp only [start_eq, window_eq, h, Nat.cast_zero, add_zero, Int.toNat_natCast]
  by_cases hc : c < 496
  · rw [dif_pos hc, dif_pos (by
      intro a; obtain rfl : a = (0 : Fin 1) := Subsingleton.elim _ _
      exact ⟨Int.natCast_nonneg c, by show (c : Int) < ((496 : Nat) : Int); exact_mod_cast hc⟩)]
    congr 1; funext a; match a with | ⟨0, _⟩ => rfl
  · rw [dif_neg hc, dif_neg (fun hh => hc (by
      have h2 : (c : Int) < ((496 : Nat) : Int) := (hh 0).2
      exact_mod_cast h2))]

theorem countP_eq_sum_map {κ : Type} (p : κ → Bool) (l : List κ) :
    l.countP p = (l.map fun k => if p k then 1 else 0).sum := by
  induction l with
  | nil => rfl
  | cons a l ih => rw [List.countP_cons, List.map_cons, List.sum_cons, ih]; omega

/-- The scatter-add of ones into zeros, read at bin q: the number of updates whose index word is q. -/
theorem scatter_count (x : IVec S496 32) (idx : IVec S1024x1 32) (upd : IVec S1024 32) (cn : Nat → Nat)
    (hx : ∀ i, x i = BitVec.ofNat 32 0) (hupd : ∀ i, upd i = 1#32)
    (hidx : ∀ k : Fin 1024, (idx (ix2 k 0)).toInt = (cn k.val : Int)) (q : Fin 496) :
    Host.scatter scatter_S496_S1024x1_S1024_n_0_0_1 IntOp.addi x idx upd (ix1 q)
      = BitVec.ofNat 32 (∑ k ∈ Finset.range 1024, if cn k = q.val then 1 else 0) := by
  obtain rfl : x = fun _ => BitVec.ofNat 32 0 := funext hx
  unfold Host.scatter
  refine (foldl_scatter_count
    (fun n => scatter_S496_S1024x1_S1024_n_0_0_1.resultIdx? (S1024.rowMajor.symm n) idx) _ ?_ ?_ _ _ _).trans ?_
  · intro r n i hR; simp only [hR, hupd]
  · intro r n hR; simp only [hR]
  · refine congrArg (BitVec.ofNat 32) ?_
    rw [Nat.zero_add, countP_eq_sum_map, ← Fin.sum_univ_def]
    have hterm : ∀ n : Fin S1024.numel,
        (if decide (scatter_S496_S1024x1_S1024_n_0_0_1.resultIdx? (S1024.rowMajor.symm n) idx = some (ix1 q)) = true
          then 1 else 0) = (fun k : Nat => if cn k = q.val then 1 else 0) n.val := by
      intro n
      rw [rowMajor_symm1 1024 n, resultIdx_eq idx (n.cast (numel1 1024)) (cn n.val) (hidx (n.cast (numel1 1024)))]
      by_cases hc : cn n.val < 496
      · rw [dif_pos hc]
        by_cases hq : cn n.val = q.val
        · have : (ix1 ⟨cn n.val, hc⟩ : S496.Idx) = ix1 q := by congr 1; exact Fin.ext hq
          simp [this, hq]
        · have : ¬ ((ix1 ⟨cn n.val, hc⟩ : S496.Idx) = ix1 q) := fun h => hq (congrArg (fun f => (f 0).val) h)
          simp [this, hq]
      · rw [dif_neg hc]
        have : cn n.val ≠ q.val := by have := q.isLt; omega
        simp [this]
    rw [Finset.sum_congr rfl (fun n _ => hterm n),
      Fin.sum_univ_eq_sum_range (fun k => if cn k = q.val then 1 else 0), numel1]

/-! ## Small non-negative words: the sign fixes of jnp's floor_divide and remainder do nothing -/

theorem toNat_ofNat_small (a : Nat) (ha : a < 2 ^ 32) : (BitVec.ofNat 32 a).toNat = a := by
  rw [BitVec.toNat_ofNat]; exact Nat.mod_eq_of_lt ha

theorem msb_ofNat_small (a : Nat) (ha : a < 2 ^ 31) : (BitVec.ofNat 32 a).msb = false :=
  BitVec.msb_eq_false_iff_two_mul_lt.mpr (by rw [toNat_ofNat_small a (by omega)]; omega)

theorem maxsi_zero_small (w : BitVec 32) (hw : w.toNat < 2 ^ 31) : IntOp.maxsi 0#32 w = w := by
  unfold IntOp.maxsi
  rw [if_neg]
  intro h
  exact Nat.not_lt_zero _ ((StableHlo.Predicate.slt_bool_iff_toNat (a := w) (b := 0#32) hw (by decide)).1 (by rw [h]; rfl))

theorem slt_zero_small (w : BitVec 32) (hw : w.toNat < 2 ^ 31) : IntOp.cmpi .slt w 0#32 = 0#1 :=
  eq_zero_of_ne_one fun h => Nat.not_lt_zero _ ((StableHlo.Predicate.slt_iff_toNat hw (by decide)).1 h)

/-- Adding the extent to a negative index: nothing to do on a non-negative word. -/
theorem wrap_small (w a : BitVec 32) (hw : w.toNat < 2 ^ 31) :
    Scalar.select (IntOp.cmpi .slt w 0#32) (IntOp.addi w a) w = w := by
  rw [slt_zero_small w hw, select_zero]

theorem not_corner_small (a b : Nat) (ha : a < 2 ^ 31) (hb : b < 2 ^ 31) (hb0 : 0 < b) :
    ¬ IntOp.SDivCorner (BitVec.ofNat 32 a) (BitVec.ofNat 32 b) := by
  rintro (hc | ⟨hc, _⟩)
  · have h2 := congrArg BitVec.toNat hc
    rw [toNat_ofNat_small b (by omega)] at h2
    have h3 : (0 : BitVec 32).toNat = 0 := rfl
    omega
  · have h2 := congrArg BitVec.toNat hc
    rw [toNat_ofNat_small a (by omega)] at h2
    have h3 : (BitVec.intMin 32).toNat = 2147483648 := by decide
    omega

theorem divsi_small (a b : Nat) (ha : a < 2 ^ 31) (hb : b < 2 ^ 31) (hb0 : 0 < b) :
    IntOp.divsi .host (BitVec.ofNat 32 a) (BitVec.ofNat 32 b) = BitVec.ofNat 32 (a / b) := by
  have hd : a / b < 2 ^ 31 := lt_of_le_of_lt (Nat.div_le_self a b) ha
  apply BitVec.eq_of_toNat_eq
  simp only [IntOp.divsi, if_neg (not_corner_small a b ha hb hb0), BitVec.sdiv_eq, msb_ofNat_small a ha,
    msb_ofNat_small b hb, BitVec.udiv_eq, BitVec.toNat_udiv]
  rw [toNat_ofNat_small a (by omega), toNat_ofNat_small b (by omega), toNat_ofNat_small (a / b) (by omega)]

theorem remsi_small (a b : Nat) (ha : a < 2 ^ 31) (hb : b < 2 ^ 31) (hb0 : 0 < b) :
    IntOp.remsi .host (BitVec.ofNat 32 a) (BitVec.ofNat 32 b) = BitVec.ofNat 32 (a % b) := by
  have hd : a % b < 2 ^ 31 := lt_of_le_of_lt (Nat.mod_le a b) ha
  apply BitVec.eq_of_toNat_eq
  simp only [IntOp.remsi, if_neg (not_corner_small a b ha hb hb0), BitVec.srem_eq, msb_ofNat_small a ha,
    msb_ofNat_small b hb, BitVec.umod_eq, BitVec.toNat_umod]
  rw [toNat_ofNat_small a (by omega), toNat_ofNat_small b (by omega), toNat_ofNat_small (a % b) (by omega)]

/-- The sign of a word: 0, 1 or -1. -/
def sgn (w : BitVec 32) : BitVec 32 := if w = 0 then 0 else if w.msb then -1 else 1

theorem sgn_pos (a : Nat) (ha : a < 2 ^ 31) (ha0 : 0 < a) : sgn (BitVec.ofNat 32 a) = 1 := by
  unfold sgn
  rw [if_neg, msb_ofNat_small a ha]
  · rfl
  · intro h
    have h2 := congrArg BitVec.toNat h
    rw [toNat_ofNat_small a (by omega)] at h2
    have h3 : (0 : BitVec 32).toNat = 0 := rfl
    omega

/-- jnp's floor_divide on words: the truncating quotient, one less when the signs differ and the division is inexact. -/
def fdiv (w d : BitVec 32) : BitVec 32 :=
  Scalar.select (IntOp.andi (IntOp.cmpi .ne (sgn w) (sgn d)) (IntOp.cmpi .ne (IntOp.remsi .host w d) 0#32))
    (IntOp.subi (IntOp.divsi .host w d) 1#32) (IntOp.divsi .host w d)

/-- jnp's remainder on words: the truncating remainder, plus the divisor when their signs differ and it is not zero. -/
def frem (w d : BitVec 32) : BitVec 32 :=
  Scalar.select (IntOp.andi (IntOp.cmpi .ne (IntOp.cmpi .slt (IntOp.remsi .host w d) 0#32) (IntOp.cmpi .slt d 0#32))
      (IntOp.cmpi .ne (IntOp.remsi .host w d) 0#32))
    (IntOp.addi (IntOp.remsi .host w d) d) (IntOp.remsi .host w d)

theorem fdiv_small (a b : Nat) (ha : a < 2 ^ 31) (hb : b < 2 ^ 31) (hb0 : 0 < b) :
    fdiv (BitVec.ofNat 32 a) (BitVec.ofNat 32 b) = BitVec.ofNat 32 (a / b) := by
  unfold fdiv
  rw [divsi_small a b ha hb hb0, remsi_small a b ha hb hb0]
  have hg : IntOp.andi (IntOp.cmpi .ne (sgn (BitVec.ofNat 32 a)) (sgn (BitVec.ofNat 32 b)))
      (IntOp.cmpi .ne (BitVec.ofNat 32 (a % b)) 0#32) = 0#1 := by
    by_cases h0 : a = 0
    · subst h0
      rw [Nat.zero_mod]
      exact BitVec.and_zero
    · rw [sgn_pos a ha (by omega), sgn_pos b hb hb0]
      exact BitVec.zero_and
  rw [hg, select_zero]

theorem frem_small (a b : Nat) (ha : a < 2 ^ 31) (hb : b < 2 ^ 31) (hb0 : 0 < b) :
    frem (BitVec.ofNat 32 a) (BitVec.ofNat 32 b) = BitVec.ofNat 32 (a % b) := by
  have hd : a % b < 2 ^ 31 := lt_of_le_of_lt (Nat.mod_le a b) ha
  unfold frem
  rw [remsi_small a b ha hb hb0, slt_zero_small _ (by rw [toNat_ofNat_small _ (by omega)]; exact hd),
    slt_zero_small _ (by rw [toNat_ofNat_small _ (by omega)]; exact hb)]
  have hg : ∀ c : BitVec 1, IntOp.andi (IntOp.cmpi .ne 0#1 0#1) c = 0#1 := fun c => BitVec.zero_and
  rw [hg, select_zero]

/-! ## The mask, its cumulative count, the bins, the flat positions: each stage at an index, as a number -/

/-- Entry k of the flattened strict-upper-triangle mask, as a number. -/
def mN (k : Nat) : Nat := if k / 32 < k % 32 then 1 else 0

/-- The number of set mask entries at positions up to and including k. -/
def cN (k : Nat) : Nat := ∑ i ∈ Finset.range (k + 1), mN i

/-- The number of positions whose cumulative count is q. -/
def bN (q : Nat) : Nat := ∑ k ∈ Finset.range 1024, if cN k = q then 1 else 0

/-- The number of positions whose cumulative count is at most p. -/
def fN (p : Nat) : Nat := ∑ q ∈ Finset.range (p + 1), bN q

theorem rMask_apply (i j : Fin 32) :
    RefRun.rMask (F := Ideal) (ix2 i j) = if i.val < j.val then 1#1 else 0#1 := by
  have h1 : Ideal.ofBits .f32 0x3F800000#32 = 1 := by simp [Ideal.ofBits, Ideal.ieee, -EReal.coe_mul]; norm_num
  have h0 : Ideal.ofBits .f32 0x00000000#32 = 0 := by simp [Ideal.ofBits, Ideal.ieee]
  have hi := i.isLt; have hj := j.isLt
  have ha : (IntOp.addi (BitVec.ofNat 32 i.val) 0#32).toNat = i.val := by
    show (BitVec.ofNat 32 i.val + 0#32).toNat = _
    rw [BitVec.add_zero, BitVec.toNat_ofNat]; omega
  have hb : (BitVec.ofNat 32 j.val).toNat = j.val := by rw [BitVec.toNat_ofNat]; omega
  have hc : IntOp.cmpi .sge (IntOp.addi (BitVec.ofNat 32 i.val) 0#32) (BitVec.ofNat 32 j.val) = 1#1 ↔ j.val ≤ i.val := by
    rw [StableHlo.Predicate.sge_iff_toNat (by omega) (by omega), ha, hb]
  show Ideal.cmp .une (Scalar.select (IntOp.cmpi .sge (IntOp.addi (BitVec.ofNat 32 i.val) 0#32) (BitVec.ofNat 32 j.val))
      (Ideal.ofBits .f32 0x00000000#32) (Ideal.ofBits .f32 0x3F800000#32)) (Ideal.ofBits .f32 0x00000000#32) = _
  rw [h1, h0]
  by_cases h : i.val < j.val
  · rw [if_pos h, eq_zero_of_ne_one (fun hh => absurd (hc.1 hh) (by omega)), select_zero]
    simp [Ideal.cmp]
  · rw [if_neg h, hc.2 (by omega), select_one]
    simp [Ideal.cmp]

theorem rCum_apply (k : Fin 1024) :
    RefRun.rCum (RefRun.rMask (F := Ideal)) (ix1 k) = BitVec.ofNat 32 (cN k.val) := by
  have hk := k.isLt
  unfold RefRun.rCum
  refine cumsum_apply 1024 _ _ _ _ mN (fun i => ?_) (fun _ => rfl) k
  have hi := i.isLt
  show ((shapeCast S1024 (RefRun.rMask (F := Ideal)) _ (ix1 i)).setWidth 32) = _
  rw [shapeCast_apply _ _ (ix1 i) (ix2 ⟨i.val / 32, by omega⟩ ⟨i.val % 32, by omega⟩) (by
      rw [Shape.rowMajor_val_two, Shape.rowMajor_val_one]; show (i.val / 32) * 32 + i.val % 32 = i.val; omega),
    rMask_apply]
  unfold mN
  by_cases h : i.val / 32 < i.val % 32
  · rw [if_pos h, if_pos h]; rfl
  · rw [if_neg h, if_neg h]; rfl

/-! ## The counting argument, over the natural numbers -/

theorem mN_le_one (i : Nat) : mN i ≤ 1 := by unfold mN; split <;> omega

theorem cN_le (k : Nat) : cN k ≤ k + 1 := by
  unfold cN
  calc ∑ i ∈ Finset.range (k + 1), mN i ≤ ∑ _i ∈ Finset.range (k + 1), 1 := Finset.sum_le_sum fun i _ => mN_le_one i
    _ = k + 1 := by simp

/-- Summing the bins up to p counts the positions whose cumulative count is at most p. -/
theorem fN_eq (p : Nat) : fN p = ∑ k ∈ Finset.range 1024, if cN k ≤ p then 1 else 0 := by
  unfold fN bN
  rw [Finset.sum_comm]
  refine Finset.sum_congr rfl fun k _ => ?_
  rw [Finset.sum_ite_eq]
  simp only [Finset.mem_range, Nat.lt_succ_iff]

/-- The number of set mask entries strictly before position K. -/
def aN : Nat → Nat
  | 0 => 0
  | K + 1 => aN K + mN K

theorem aN_eq (K : Nat) : aN K = ∑ i ∈ Finset.range K, mN i := by
  induction K with
  | zero => rfl
  | succ K ih => rw [aN, Finset.sum_range_succ, ih]

theorem aN_mono : Monotone aN := monotone_nat_of_le_succ fun n => Nat.le_add_right _ _

/-- The cumulative count is monotone, so it is at most p exactly before the position of the (p+1)-th set entry. -/
theorem cN_le_iff (K p : Nat) (hm : mN K = 1) (ha : aN K = p) (k : Nat) : cN k ≤ p ↔ k < K := by
  have e : aN (K + 1) = aN K + mN K := rfl
  have hc : cN k = aN (k + 1) := (aN_eq (k + 1)).symm
  rw [hc]
  constructor
  · intro h
    by_contra hk
    have := aN_mono (show K + 1 ≤ k + 1 by omega)
    omega
  · intro h
    have := aN_mono (show k + 1 ≤ K by omega)
    omega

/-- So the flat position computed for p is the position of the (p+1)-th set entry. -/
theorem fN_at (K p : Nat) (hK : K ≤ 1024) (hm : mN K = 1) (ha : aN K = p) : fN p = K := by
  rw [fN_eq]
  simp only [cN_le_iff K p hm ha]
  rw [← Finset.card_filter]
  have : (Finset.range 1024).filter (· < K) = Finset.range K := by
    ext k; simp only [Finset.mem_filter, Finset.mem_range]; omega
  rw [this, Finset.card_range]

/-- The set positions of the mask, in increasing order. -/
def posList : List Nat := (List.range 1024).filter fun k => k / 32 < k % 32

theorem posList_length : posList.length = 496 := by decide

/-- Each listed position is set, has exactly its list index many set positions before it, and is inside the mask. -/
theorem posList_facts : ∀ p : Fin 496,
    mN (posList[p.val]'(by rw [posList_length]; exact p.isLt)) = 1
    ∧ aN (posList[p.val]'(by rw [posList_length]; exact p.isLt)) = p.val
    ∧ posList[p.val]'(by rw [posList_length]; exact p.isLt) < 1024 := by decide +kernel

/-! ## The bins and the flat positions at an index -/

/-- A vector as an [n × 1] column reads, at (k, 0), the vector at k. -/
theorem bcast_col_apply {α : Type} {n : Nat} (h : (⟨1, ![n]⟩ : Shape).BroadcastsInDim ⟨2, ![n, 1]⟩ ![0])
    (v : (⟨1, ![n]⟩ : Shape).Idx → α) (k : Fin n) :
    broadcastInDim ⟨2, ![n, 1]⟩ ![0] h v (ix2 k 0) = v (ix1 k) := by
  simp only [broadcastInDim]
  congr 1
  funext a
  obtain rfl : a = (0 : Fin 1) := Subsingleton.elim _ _
  apply Fin.ext
  have hk := k.isLt
  split
  · next h1 => have h2 : n = 1 := h1; show (0 : Nat) = k.val; omega
  · rfl

theorem rBins_apply (q : Fin 496) :
    RefRun.rBins (F := Ideal) (RefRun.rCum (RefRun.rMask (F := Ideal))) (ix1 q) = BitVec.ofNat 32 (bN q.val) := by
  unfold RefRun.rBins RefRun.rBins_part1
  dsimp only []
  refine scatter_count _ _ _ cN (fun _ => rfl) (fun _ => rfl) (fun k => ?_) q
  have hle := cN_le k.val
  have hk := k.isLt
  refine (congrArg BitVec.toInt ((bcast_col_apply _ _ k).trans ?_)).trans
    (StableHlo.Predicate.toInt_ofNat_small (cN k.val) (by omega))
  show Scalar.select (IntOp.cmpi .slt (IntOp.maxsi 0#32 (RefRun.rCum (RefRun.rMask (F := Ideal)) (ix1 k))) 0#32)
      (IntOp.addi (IntOp.maxsi 0#32 (RefRun.rCum (RefRun.rMask (F := Ideal)) (ix1 k))) 496#32)
      (IntOp.maxsi 0#32 (RefRun.rCum (RefRun.rMask (F := Ideal)) (ix1 k))) = _
  have hs : (BitVec.ofNat 32 (cN k.val)).toNat < 2 ^ 31 := by rw [toNat_ofNat_small _ (by omega)]; omega
  rw [rCum_apply k, maxsi_zero_small _ hs, wrap_small _ _ hs]

theorem rFlat_apply (p : Fin 496) :
    RefRun.rFlat (RefRun.rBins (F := Ideal) (RefRun.rCum (RefRun.rMask (F := Ideal)))) (ix1 p)
      = BitVec.ofNat 32 (fN p.val) := by
  unfold RefRun.rFlat
  exact cumsum_apply 496 _ _ _ _ bN (fun i => rBins_apply i) (fun _ => rfl) p

/-! ## Row and column of a flat position -/

theorem rIdx_part7_apply0 (v35 v37 : IVec S496 32) (v39 : IVec S496 1) (v41 : IVec S496 32) (p : Fin 496) :
    RefRun.rIdx_part7 (F := Ideal) v35 v37 v39 v41 (ix2 p 0)
      = Scalar.select (v39 (ix1 p)) (v41 (ix1 p)) (v35 (ix1 p)) := by
  unfold RefRun.rIdx_part7
  refine (concatenate_pair_apply_left (t := S496x2) (s₁ := S496x1) (s₂ := S496x1) (1 : Fin 2) _ _ _ (ix2 p 0) rfl (ix2 p 0)
    (fun b => by match b with | ⟨0, _⟩ => rfl | ⟨1, _⟩ => rfl)).trans ?_
  exact bcast_col_apply _ _ p

theorem rIdx_part7_apply1 (v35 v37 : IVec S496 32) (v39 : IVec S496 1) (v41 : IVec S496 32) (p : Fin 496) :
    RefRun.rIdx_part7 (F := Ideal) v35 v37 v39 v41 (ix2 p 1)
      = Scalar.select (IntOp.cmpi .slt (v37 (ix1 p)) 0#32) (IntOp.addi (v37 (ix1 p)) 32#32) (v37 (ix1 p)) := by
  unfold RefRun.rIdx_part7
  refine (concatenate_pair_apply_right (t := S496x2) (s₁ := S496x1) (s₂ := S496x1) (1 : Fin 2) _ _ _ (ix2 p 1) rfl rfl (ix2 p 0) ?_ ?_).trans ?_
  · intro b hb
    match b with
    | ⟨0, _⟩ => rfl
    | ⟨1, _⟩ => exact absurd rfl hb
  · rfl
  · exact bcast_col_apply _ _ p

/-- The divisor jnp's remainder uses: 32, or 1 were it zero. -/
theorem d32_eq : Scalar.select (IntOp.cmpi .eq 32#32 0#32) 1#32 32#32 = 32#32 := by decide

theorem rIdx_apply (v : IVec S496 32) (p : Fin 496) (K : Nat) (hK : K < 1024) (hv : v (ix1 p) = BitVec.ofNat 32 K) :
    RefRun.rIdx (F := Ideal) v (ix2 p 0) = BitVec.ofNat 32 (K / 32 % 32)
    ∧ RefRun.rIdx (F := Ideal) v (ix2 p 1) = BitVec.ofNat 32 (K % 32) := by
  have hd : K / 32 < 2 ^ 31 := by omega
  have h35 : frem (fdiv (v (ix1 p)) 32#32) (Scalar.select (IntOp.cmpi .eq 32#32 0#32) 1#32 32#32)
      = BitVec.ofNat 32 (K / 32 % 32) := by
    rw [hv, d32_eq, fdiv_small K 32 (by omega) (by omega) (by omega),
      frem_small (K / 32) 32 hd (by omega) (by omega)]
  have h37 : frem (fdiv (v (ix1 p)) 1#32) (Scalar.select (IntOp.cmpi .eq 32#32 0#32) 1#32 32#32)
      = BitVec.ofNat 32 (K % 32) := by
    rw [hv, d32_eq, fdiv_small K 1 (by omega) (by omega) (by omega), Nat.div_one,
      frem_small K 32 (by omega) (by omega) (by omega)]
  have hs35 : (BitVec.ofNat 32 (K / 32 % 32)).toNat < 2 ^ 31 := by rw [toNat_ofNat_small _ (by omega)]; omega
  have hs37 : (BitVec.ofNat 32 (K % 32)).toNat < 2 ^ 31 := by rw [toNat_ofNat_small _ (by omega)]; omega
  constructor
  · show RefRun.rIdx_part7 (F := Ideal) _ _ _ _ (ix2 p 0) = _
    rw [rIdx_part7_apply0]
    show Scalar.select
      (IntOp.cmpi .slt (frem (fdiv (v (ix1 p)) 32#32) (Scalar.select (IntOp.cmpi .eq 32#32 0#32) 1#32 32#32)) 0#32)
      (IntOp.addi (frem (fdiv (v (ix1 p)) 32#32) (Scalar.select (IntOp.cmpi .eq 32#32 0#32) 1#32 32#32)) 32#32)
      (frem (fdiv (v (ix1 p)) 32#32) (Scalar.select (IntOp.cmpi .eq 32#32 0#32) 1#32 32#32)) = _
    rw [h35, wrap_small _ _ hs35]
  · show RefRun.rIdx_part7 (F := Ideal) _ _ _ _ (ix2 p 1) = _
    rw [rIdx_part7_apply1]
    show Scalar.select
      (IntOp.cmpi .slt (frem (fdiv (v (ix1 p)) 1#32) (Scalar.select (IntOp.cmpi .eq 32#32 0#32) 1#32 32#32)) 0#32)
      (IntOp.addi (frem (fdiv (v (ix1 p)) 1#32) (Scalar.select (IntOp.cmpi .eq 32#32 0#32) 1#32 32#32)) 32#32)
      (frem (fdiv (v (ix1 p)) 1#32) (Scalar.select (IntOp.cmpi .eq 32#32 0#32) 1#32 32#32)) = _
    rw [h37, wrap_small _ _ hs37]

/-! ## The table of pairs -/

theorem rPairs_apply (p : Fin 496) :
    Cert.ReferenceIdeal.RefRun.rPairs (F := Ideal) (ix2 p 0) = BitVec.ofNat 32 (Cert.Spec.pairI p).val
  ∧ Cert.ReferenceIdeal.RefRun.rPairs (F := Ideal) (ix2 p 1) = BitVec.ofNat 32 (Cert.Spec.pairJ p).val := by
  have hlen : p.val < posList.length := by rw [posList_length]; exact p.isLt
  obtain ⟨hm, ha, hK⟩ := posList_facts p
  have hf := rFlat_apply p
  rw [fN_at (posList[p.val]) p.val (le_of_lt hK) hm ha] at hf
  have hI : (Cert.Spec.pairI p).val = posList[p.val] / 32 % 32 := by
    show ((posList.map fun k => (k / 32, k % 32))[p.val]'(by rw [List.length_map]; exact hlen)).1 = _
    rw [List.getElem_map]
    exact (Nat.mod_eq_of_lt (by omega)).symm
  have hJ : (Cert.Spec.pairJ p).val = posList[p.val] % 32 := by
    show ((posList.map fun k => (k / 32, k % 32))[p.val]'(by rw [List.length_map]; exact hlen)).2 = _
    rw [List.getElem_map]
  rw [hI, hJ]
  exact rIdx_apply _ p _ hK hf

end Cert.ReferenceIdeal.RefValue

end
-- ==== Proof.RefMLP.lean ====
/-
  The reference's last stage, read at an index: three matrix products, each followed by a bias row added to every
  batch row, the first two by a maximum with zero, the last by 1 / (1 + exp (-x)), which is the logistic function.
-/
import proofs.«401391_j12421045420606_1_alg».proof.Proof.RefOps
import Idealize.ShloMosaic.Lib.StackMember
import Idealize.ShloMosaic.Lib.IdealHost

noncomputable section

namespace Cert.ReferenceIdeal.RefValue

open Idealize.ShloMosaic Idealize.ShloMosaic.ValueIdx Cert.ReferenceIdeal Cert.ReferenceIdeal.RefRun
open scoped BigOperators

/-- A bias vector made a one-row matrix and copied down `m` rows, read at (r, t), is the vector at t. -/
theorem bias_rows_apply {α : Type} {m n : Nat}
    (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2))
    (x : (⟨1, ![n]⟩ : Shape).Idx → α) (r : Fin m) (t : Fin n) :
    broadcastInDim ⟨2, ![m, n]⟩ ![0, 1] h2 (broadcastInDim ⟨2, ![1, n]⟩ ![1] h1 x) (ix2 r t) = x (ix1 t) := by
  rw [broadcastInDim_oneRow_apply]
  refine broadcastInDim_apply (![1] : Fin 1 → Fin 2) h1 x (ix2 (0 : Fin 1) t) (ix1 t) ?_
  intro a
  match a with
  | ⟨0, _⟩ =>
    show t.val = if n = 1 then 0 else t.val
    split_ifs with hn
    · have := t.isLt; omega
    · rfl

/-- A dense layer without its activation, read at (r, t): the row of `A` against the column of `W`, plus the bias. -/
theorem dense_apply {m k n : Nat}
    (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2))
    (A : FVec Ideal ⟨2, ![m, k]⟩ .f32) (W : FVec Ideal ⟨2, ![k, n]⟩ .f32) (c : FVec Ideal ⟨1, ![n]⟩ .f32)
    (r : Fin m) (t : Fin n) :
    addf (Host.dotGeneral (F := Ideal) (DotDims.plain m k n) none A W)
        (broadcastInDim ⟨2, ![m, n]⟩ ![0, 1] h2 (broadcastInDim ⟨2, ![1, n]⟩ ![1] h1 c)) (ix2 r t)
      = (∑ i : Fin k, A (ix2 r i) * W (ix2 i t)) + c (ix1 t) := by
  rw [addf_apply, StackMember.dotGeneral_plain_apply, bias_rows_apply]

/-- A maximum with a broadcast zero constant, read at an index. -/
theorem relu_apply {s : Shape} (hz : (⟨0, ![]⟩ : Shape).BroadcastsInDim s ![]) (x : FVec Ideal s .f32) (i : s.Idx) :
    maximumf x (broadcastInDim s ![] hz (constant (F := Ideal) ⟨0, ![]⟩ .f32 0x00000000#32)) i = max (x i) 0 := by
  rw [maximumf_apply, broadcastInDim_scalar_apply, constant_apply, Ideal.ofBits_zero_f32]

/-- A dense layer with its maximum with zero, read at (r, t). -/
theorem dense_relu_apply {m k n : Nat}
    (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2))
    (hz : (⟨0, ![]⟩ : Shape).BroadcastsInDim ⟨2, ![m, n]⟩ ![])
    (A : FVec Ideal ⟨2, ![m, k]⟩ .f32) (W : FVec Ideal ⟨2, ![k, n]⟩ .f32) (c : FVec Ideal ⟨1, ![n]⟩ .f32)
    (r : Fin m) (t : Fin n) :
    maximumf (addf (Host.dotGeneral (F := Ideal) (DotDims.plain m k n) none A W)
          (broadcastInDim ⟨2, ![m, n]⟩ ![0, 1] h2 (broadcastInDim ⟨2, ![1, n]⟩ ![1] h1 c)))
        (broadcastInDim ⟨2, ![m, n]⟩ ![] hz (constant (F := Ideal) ⟨0, ![]⟩ .f32 0x00000000#32)) (ix2 r t)
      = max ((∑ i : Fin k, A (ix2 r i) * W (ix2 i t)) + c (ix1 t)) 0 := by
  rw [relu_apply, dense_apply]

/-- One divided by one plus the exponential of the negation, the ones broadcast constants: the logistic function. -/
theorem logistic_tail_apply {s : Shape} (ho ho' : (⟨0, ![]⟩ : Shape).BroadcastsInDim s ![]) (x : FVec Ideal s .f32) (i : s.Idx) :
    Host.divf (broadcastInDim s ![] ho (constant (F := Ideal) ⟨0, ![]⟩ .f32 0x3F800000#32))
        (addf (broadcastInDim s ![] ho' (constant (F := Ideal) ⟨0, ![]⟩ .f32 0x3F800000#32)) (Host.exp (Host.negf x))) i
      = Ideal.logistic (x i) := by
  show Ideal.div (broadcastInDim s ![] ho (constant (F := Ideal) ⟨0, ![]⟩ .f32 0x3F800000#32) i)
      (broadcastInDim s ![] ho' (constant (F := Ideal) ⟨0, ![]⟩ .f32 0x3F800000#32) i + Ideal.exp (-(x i))) = _
  rw [broadcastInDim_scalar_apply, constant_apply, Ideal.ofBits_one_f32]
  rfl

theorem rMLP_apply (h : FVec Ideal S8192x2544 .f32) (W1 : FVec Ideal S2544x1024 .f32) (b1 : FVec Ideal S1024 .f32)
    (W2 : FVec Ideal S1024x512 .f32) (b2 : FVec Ideal S512 .f32) (W3 : FVec Ideal S512x1000 .f32) (b3 : FVec Ideal S1000 .f32)
    (b : Fin 8192) (o : Fin 1000) :
    rMLP (F := Ideal) h W1 b1 W2 b2 W3 b3 (ix2 b o)
      = Ideal.logistic ((∑ k : Fin 512, max ((∑ j : Fin 1024, max ((∑ i : Fin 2544, h (ix2 b i) * W1 (ix2 i j)) + b1 (ix1 j)) 0
          * W2 (ix2 j k)) + b2 (ix1 k)) 0 * W3 (ix2 k o)) + b3 (ix1 o)) := by
  unfold rMLP rMLP_part1 rMLP_part2
  dsimp only
  refine (logistic_tail_apply _ _ _ (ix2 b o)).trans ?_
  refine congrArg Ideal.logistic ?_
  refine (dense_apply (m := 8192) (k := 512) (n := 1000) _ _ _ W3 b3 b o).trans ?_
  refine congrArg (· + b3 (ix1 o)) (Finset.sum_congr rfl fun k _ => congrArg (· * W3 (ix2 k o)) ?_)
  refine (dense_relu_apply (m := 8192) (k := 1024) (n := 512) _ _ _ _ W2 b2 b k).trans ?_
  refine congrArg (fun z => max (z + b2 (ix1 k)) 0) (Finset.sum_congr rfl fun j _ => congrArg (· * W2 (ix2 j k)) ?_)
  exact dense_relu_apply (m := 8192) (k := 2544) (n := 1024) _ _ _ h W1 b1 b j

end Cert.ReferenceIdeal.RefValue

end
-- ==== Proof.RefValue.lean ====
/-
  The reference's result is the specification: the gathered rows are the selected table rows, the gram matrix read
  at the upper-triangle pairs gives the pairwise inner products, and the perceptron is read layer by layer.
-/
import proofs.«401391_j12421045420606_1_alg».proof.Proof.RefStages
import proofs.«401391_j12421045420606_1_alg».proof.Proof.RefPairs
import proofs.«401391_j12421045420606_1_alg».proof.Proof.RefMLP

noncomputable section

namespace Cert.ReferenceIdeal.RefValue

open Cert.ReferenceIdeal Cert.ReferenceIdeal.RefRun Idealize.ShloMosaic Idealize.ShloMosaic.ValueIdx Cert.Spec
open scoped BigOperators

/-- The perceptron's input as the reference builds it, entry by entry. -/
theorem rH_eq_hvec (x : IVec S8192x32 32) (T : FVec Ideal S32x1000x64 .f32) (hx : Cert.Spec.InRange x) (b : Fin 8192) (i : Fin 2544) :
    rH (F := Ideal) (rE x T) (rGram (rE x T)) (rPairs (F := Ideal)) (ix2 b i) = Cert.Spec.hvec x T b i := by
  rw [rH_apply _ _ _ rPairs_apply b i]
  unfold Cert.Spec.hvec
  split
  · rw [rE_apply x T hx]
  · rw [rGram_apply]
    refine Finset.sum_congr rfl fun d _ => ?_
    rw [rE_apply x T hx, rE_apply x T hx]

/-- The reference's result array is the specification's. -/
theorem refOut_eq_G (x : IVec S8192x32 32) (T : FVec Ideal S32x1000x64 .f32) (W1 : FVec Ideal S2544x1024 .f32)
    (b1 : FVec Ideal S1024 .f32) (W2 : FVec Ideal S1024x512 .f32) (b2 : FVec Ideal S512 .f32) (W3 : FVec Ideal S512x1000 .f32)
    (b3 : FVec Ideal S1000 .f32) (hx : Cert.Spec.InRange x) :
    refOut (F := Ideal) x T W1 b1 W2 b2 W3 b3 = Cert.Spec.G x T W1 b1 W2 b2 W3 b3 := by
  funext i
  obtain ⟨b, o, rfl⟩ : ∃ (b : Fin 8192) (o : Fin 1000), i = ix2 b o := ⟨i 0, i 1, eq_ix2 i⟩
  unfold refOut
  rw [rMLP_apply]
  show _ = Cert.Spec.out x T W1 b1 W2 b2 W3 b3 b o
  unfold Cert.Spec.out Cert.Spec.l2 Cert.Spec.l1
  simp only [rH_eq_hvec x T hx b]

end Cert.ReferenceIdeal.RefValue

end
-- ==== Proof.PreDecode.lean ====
/-
  What the precondition says of the index array: every index word, read signed, is at least 0 and below 1000;
  so read unsigned it is below 1000.
-/
import proofs.«401391_j12421045420606_1_alg».proof.Pre_finite_inputs
import proofs.«401391_j12421045420606_1_alg».proof.Proof.Spec
import Idealize.ShloMosaic.Lib.ReduceAll
import Idealize.ShloMosaic.Lib.Affine

noncomputable section

namespace Cert.PreDecode

open Idealize.ShloMosaic Idealize.ShloMosaic.ValueIdx Cert.Pre_finite_inputs

variable [Cert.Pre_finite_inputs.Facts]

instance : Subsingleton S_.Idx := ⟨fun a b => funext fun d => d.elim0⟩

/-- A 32-bit word that is non-negative and below 1000 read signed is below 1000 read unsigned. -/
theorem toNat_lt_of_signed (w : BitVec 32) (h0 : (0#32).toInt ≤ w.toInt) (h1 : w.toInt < (1000#32).toInt) : w.toNat < 1000 := by
  have e0 : (0#32 : BitVec 32).toInt = 0 := by decide
  have e1 : (1000#32 : BitVec 32).toInt = 1000 := by decide
  rw [e0] at h0; rw [e1] at h1
  rw [BitVec.toInt_eq_toNat_cond] at h0 h1
  split at h0 <;> omega

/-- The precondition's last conjunct, element by element. -/
theorem inRange_of_pre (x : IVec S8192x32 32) (a1 : FVec Ideal S32x1000x64 .f32) (a2 : FVec Ideal S2544x1024 .f32)
    (a3 : FVec Ideal S1024 .f32) (a4 : FVec Ideal S1024x512 .f32) (a5 : FVec Ideal S512 .f32) (a6 : FVec Ideal S512x1000 .f32)
    (a7 : FVec Ideal S1000 .f32) (h : fn (F := Ideal) x a1 a2 a3 a4 a5 a6 a7 = fun _ => 1#1) : Cert.Spec.InRange x := by
  have h0 := congrFun h ix0
  dsimp only [fn, fn_part1, fn_part2] at h0
  have h1 := (IntOp.andi_eq_one.mp h0).2
  intro i
  have h2 := Host.reduce_andi_all _ _ _ _ _ h1 i
  have h3 := IntOp.andi_eq_one.mp h2
  exact toNat_lt_of_signed (x i) (IntOp.cmpi_sge.mp h3.1) (IntOp.cmpi_slt.mp h3.2)

end Cert.PreDecode

end
-- ==== Proof.lean ====
/-
  The certificate. Both programs compute, on the extended reals, the logistic of a three-layer perceptron whose input,
  for each batch row, is the 32 embedding rows the index array selects laid side by side followed by their 496 pairwise
  inner products (pairs (i, j), i < j, in row-major order).

  The kernel looks each row up as a product of a one-hot matrix with the field's table, which is the selected row when
  the index word is in [0, 1000): the one nonzero factor is 1 and every other term is 0 times a table entry (0 on the
  extended reals). It forms the inner products from a stack of the 32 vectors, field by field. The reference gathers
  the rows, forms all 32 by 32 inner products at once and gathers the strict upper triangle through an index table it
  computes itself; that table is the pairs in the same order. The two perceptrons are the same sums (a matrix unit's
  product into a zero accumulator against a host contraction; a change of float format is the identity here), and the
  kernel's one logistic operation is by definition the reference's 1 / (1 + exp (-y)).

  The precondition adds to the finiteness of the float inputs that every index is in [0, 1000): outside it the
  reference's gather reads out of range (it clamps) while the kernel's comparison with the iota finds no column. No
  step of the argument uses finiteness: sums are only re-indexed and two factors commuted.
-/
import proofs.«401391_j12421045420606_1_alg».proof.Defs
import proofs.«401391_j12421045420606_1_alg».proof.Proof.Gen.Kernel
import proofs.«401391_j12421045420606_1_alg».proof.Proof.Gen.Kernel.Skeleton
import proofs.«401391_j12421045420606_1_alg».proof.Proof.Gen.Kernel.Launch
import proofs.«401391_j12421045420606_1_alg».proof.Proof.Gen.Kernel.Points
import proofs.«401391_j12421045420606_1_alg».proof.Proof.Gen.Kernel.Frame
import proofs.«401391_j12421045420606_1_alg».proof.Proof.Gen.KernelIdeal
import proofs.«401391_j12421045420606_1_alg».proof.Proof.Gen.KernelIdeal.Skeleton
import proofs.«401391_j12421045420606_1_alg».proof.Proof.Gen.KernelIdeal.Launch
import proofs.«401391_j12421045420606_1_alg».proof.Proof.Gen.KernelIdeal.Points
import proofs.«401391_j12421045420606_1_alg».proof.Proof.Gen.KernelIdeal.Frame
import proofs.«401391_j12421045420606_1_alg».proof.Proof.Gen.KernelIdeal.Value
import proofs.«401391_j12421045420606_1_alg».proof.Proof.Gen.ReferenceIdeal
import proofs.«401391_j12421045420606_1_alg».proof.Proof.Gen.Pre_finite_inputs
import proofs.«401391_j12421045420606_1_alg».proof.Proof.KerArray
import proofs.«401391_j12421045420606_1_alg».proof.Proof.RefRun
import proofs.«401391_j12421045420606_1_alg».proof.Proof.RefValue
import proofs.«401391_j12421045420606_1_alg».proof.Proof.PreDecode
import Idealize.ShloMosaic.Adequacy
import Idealize.ShloMosaic.Init

noncomputable section

namespace Cert.Proof

open Idealize.ShloMosaic Idealize.SL.Sem

/-- The word-level kernel runs and keeps its arguments: the generated frame. -/
theorem frame_k : @Cert.frame_Kernel Cert.Kernel.Gen.facts Cert.Pre_finite_inputs.Gen.facts :=
  fun m ρ _ => Cert.Kernel.Gen.frame m ρ

/-- The idealized kernel runs and keeps its arguments: the generated frame. -/
theorem frame_ki : @Cert.frame_KernelIdeal Cert.KernelIdeal.Gen.facts Cert.Pre_finite_inputs.Gen.facts :=
  fun m ρ _ => Cert.KernelIdeal.Gen.frame m ρ

/-- The reference runs and keeps its arguments: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.RefRun.run (F := Ideal) m ρ)

/-- From memories that agree on the arguments, with every index in [0, 1000), both runs end with the result array at
    the specification's function of the arguments. -/
theorem algebraic : @Cert.algebraic_KernelIdeal_ReferenceIdeal Cert.KernelIdeal.Gen.facts Cert.ReferenceIdeal.Gen.facts
    Cert.Pre_finite_inputs.Gen.facts := by
  intro m ρ m' ρ' hpre hagree
  have hx : ∀ c : Dev Cert.KernelIdeal.nD, Cert.Spec.InRange (m ((c.tc : Thread Cert.KernelIdeal.nD Cert.KernelIdeal.τ).loc Cert.KernelIdeal.main_arg0)) :=
    fun c => @Cert.PreDecode.inRange_of_pre Cert.Pre_finite_inputs.Gen.facts _ _ _ _ _ _ _ _ (hpre c)
  refine ⟨fun c => Cert.KernelIdeal.ArrayValue.Gm m c, Cert.KernelIdeal.ArrayValue.run m ρ hx, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact Cert.ReferenceIdeal.RefValue.refOut_eq_G _ _ _ _ _ _ _ _ (hx c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
